-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x16384 : Shape := ⟨2, ![1024, 16384]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel

variable [Facts]

def fn {F : FTy → Type} [FloatOps F] (main_arg0 : FVec F S1024x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  main_v3
-- ==== Kernel.lean ====
abbrev S1024x512 : Shape := ⟨2, ![1024, 512]⟩
abbrev S2x1024 : Shape := ⟨2, ![2, 1024]⟩
abbrev S7x2x1024 : Shape := ⟨3, ![7, 2, 1024]⟩
abbrev S7 : Shape := ⟨1, ![7]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S1 : Shape := ⟨1, ![1]⟩
abbrev S1x2x1024 : Shape := ⟨3, ![1, 2, 1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x1024, .f32⟩
  | .local _ .vmem, ⟨3, _⟩ => ⟨S7x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli v20 c4_i32_5
  let c1_i32_6 : BitVec 32 := 1#32
  let c0_i32_7 : BitVec 32 := 0#32
  let v22 : BitVec 1 := Scalar.cmpi .eq c1_i32_6 c0_i32_7
  let c1_i32_8 : BitVec 32 := 1#32
  let v23 : BitVec 32 := Scalar.select v22 c1_i32_8 c1_i32_6
  let v24 : BitVec 32 := Scalar.remsi v2 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let v32 : BitVec 32 := Scalar.addi v21 v31
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v2 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_19 : BitVec 32 := 0#32
  let v44 : BitVec 1 := Scalar.cmpi .sgt v42 c0_i32_19
  let v45 : BitVec 32 := Scalar.extui v44
  let c0_i32_20 : BitVec 32 := 0#32
  let v46 : BitVec 1 := Scalar.cmpi .slt v42 c0_i32_20
  let v47 : BitVec 32 := Scalar.extui v46
  let v48 : BitVec 32 := Scalar.subi v45 v47
  let c1_i32_18 : BitVec 32 := 1#32
  let c0_i32_21 : BitVec 32 := 0#32
  let v49 : BitVec 1 := Scalar.cmpi .sgt c1_i32_18 c0_i32_21
  let v50 : BitVec 32 := Scalar.extui v49
  let c0_i32_22 : BitVec 32 := 0#32
  let v51 : BitVec 1 := Scalar.cmpi .slt c1_i32_18 c0_i32_22
  let v52 : BitVec 32 := Scalar.extui v51
  let v53 : BitVec 32 := Scalar.subi v50 v52
  let v54 : BitVec 1 := Scalar.cmpi .ne v48 v53
  let v55 : BitVec 32 := Scalar.remsi v42 c1_i32_18
  let c0_i32_23 : BitVec 32 := 0#32
  let v56 : BitVec 1 := Scalar.cmpi .ne v55 c0_i32_23
  let v57 : BitVec 1 := Scalar.andi v54 v56
  let v43 : BitVec 32 := Scalar.divsi v42 c1_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c4_i32_26 : BitVec 32 := 4#32
  let c0_i32_27 : BitVec 32 := 0#32
  let v61 : BitVec 1 := Scalar.cmpi .eq c4_i32_26 c0_i32_27
  let c1_i32_28 : BitVec 32 := 1#32
  let v62 : BitVec 32 := Scalar.select v61 c1_i32_28 c4_i32_26
  let v63 : BitVec 32 := Scalar.remsi v60 v62
  let c0_i32_30 : BitVec 32 := 0#32
  let v65 : BitVec 1 := Scalar.cmpi .slt v63 c0_i32_30
  let c0_i32_31 : BitVec 32 := 0#32
  let v66 : BitVec 1 := Scalar.cmpi .slt v62 c0_i32_31
  let v67 : BitVec 1 := Scalar.xori v65 v66
  let c0_i32_29 : BitVec 32 := 0#32
  let v64 : BitVec 1 := Scalar.cmpi .ne v63 c0_i32_29
  let v68 : BitVec 1 := Scalar.andi v67 v64
  let v69 : BitVec 32 := Scalar.addi v63 v62
  let v70 : BitVec 32 := Scalar.select v68 v69 v63
  let c1_i32_32 : BitVec 32 := 1#32
  let v71 : BitVec 32 := Scalar.muli v70 c1_i32_32
  let v72 : BitVec 32 := Scalar.addi v32 v71
  let c1_i32_48 : BitVec 32 := 1#32
  let v99 : BitVec 32 := Scalar.muli v72 c1_i32_48
  let v100 : BitVec 32 := Scalar.addi c0_i32_49 v99
  v100.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli v20 c4_i32_5
  let c1_i32_6 : BitVec 32 := 1#32
  let c0_i32_7 : BitVec 32 := 0#32
  let v22 : BitVec 1 := Scalar.cmpi .eq c1_i32_6 c0_i32_7
  let c1_i32_8 : BitVec 32 := 1#32
  let v23 : BitVec 32 := Scalar.select v22 c1_i32_8 c1_i32_6
  let v24 : BitVec 32 := Scalar.remsi v2 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let v32 : BitVec 32 := Scalar.addi v21 v31
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v2 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_19 : BitVec 32 := 0#32
  let v44 : BitVec 1 := Scalar.cmpi .sgt v42 c0_i32_19
  let v45 : BitVec 32 := Scalar.extui v44
  let c0_i32_20 : BitVec 32 := 0#32
  let v46 : BitVec 1 := Scalar.cmpi .slt v42 c0_i32_20
  let v47 : BitVec 32 := Scalar.extui v46
  let v48 : BitVec 32 := Scalar.subi v45 v47
  let c1_i32_18 : BitVec 32 := 1#32
  let c0_i32_21 : BitVec 32 := 0#32
  let v49 : BitVec 1 := Scalar.cmpi .sgt c1_i32_18 c0_i32_21
  let v50 : BitVec 32 := Scalar.extui v49
  let c0_i32_22 : BitVec 32 := 0#32
  let v51 : BitVec 1 := Scalar.cmpi .slt c1_i32_18 c0_i32_22
  let v52 : BitVec 32 := Scalar.extui v51
  let v53 : BitVec 32 := Scalar.subi v50 v52
  let v54 : BitVec 1 := Scalar.cmpi .ne v48 v53
  let v55 : BitVec 32 := Scalar.remsi v42 c1_i32_18
  let c0_i32_23 : BitVec 32 := 0#32
  let v56 : BitVec 1 := Scalar.cmpi .ne v55 c0_i32_23
  let v57 : BitVec 1 := Scalar.andi v54 v56
  let v43 : BitVec 32 := Scalar.divsi v42 c1_i32_18
  let c1_i32_24 : BitVec 32 := 1#32
  let v58 : BitVec 32 := Scalar.subi v43 c1_i32_24
  let v59 : BitVec 32 := Scalar.select v57 v58 v43
  let c2_i32 : BitVec 32 := 2#32
  let v73 : BitVec 32 := Scalar.addi v59 c2_i32
  let c4_i32_33 : BitVec 32 := 4#32
  let c0_i32_34 : BitVec 32 := 0#32
  let v74 : BitVec 1 := Scalar.cmpi .eq c4_i32_33 c0_i32_34
  let c1_i32_35 : BitVec 32 := 1#32
  let v75 : BitVec 32 := Scalar.select v74 c1_i32_35 c4_i32_33
  let v76 : BitVec 32 := Scalar.remsi v73 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c1_i32_39 : BitVec 32 := 1#32
  let v84 : BitVec 32 := Scalar.muli v83 c1_i32_39
  let v85 : BitVec 32 := Scalar.addi v32 v84
  let c1_i32_51 : BitVec 32 := 1#32
  let v101 : BitVec 32 := Scalar.muli v85 c1_i32_51
  let v102 : BitVec 32 := Scalar.addi c0_i32_52 v101
  v102.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli v20 c4_i32_5
  let c1_i32_6 : BitVec 32 := 1#32
  let c0_i32_7 : BitVec 32 := 0#32
  let v22 : BitVec 1 := Scalar.cmpi .eq c1_i32_6 c0_i32_7
  let c1_i32_8 : BitVec 32 := 1#32
  let v23 : BitVec 32 := Scalar.select v22 c1_i32_8 c1_i32_6
  let v24 : BitVec 32 := Scalar.remsi v2 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let v32 : BitVec 32 := Scalar.addi v21 v31
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v2 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_19 : BitVec 32 := 0#32
  let v44 : BitVec 1 := Scalar.cmpi .sgt v42 c0_i32_19
  let v45 : BitVec 32 := Scalar.extui v44
  let c0_i32_20 : BitVec 32 := 0#32
  let v46 : BitVec 1 := Scalar.cmpi .slt v42 c0_i32_20
  let v47 : BitVec 32 := Scalar.extui v46
  let v48 : BitVec 32 := Scalar.subi v45 v47
  let c1_i32_18 : BitVec 32 := 1#32
  let c0_i32_21 : BitVec 32 := 0#32
  let v49 : BitVec 1 := Scalar.cmpi .sgt c1_i32_18 c0_i32_21
  let v50 : BitVec 32 := Scalar.extui v49
  let c0_i32_22 : BitVec 32 := 0#32
  let v51 : BitVec 1 := Scalar.cmpi .slt c1_i32_18 c0_i32_22
  let v52 : BitVec 32 := Scalar.extui v51
  let v53 : BitVec 32 := Scalar.subi v50 v52
  let v54 : BitVec 1 := Scalar.cmpi .ne v48 v53
  let v55 : BitVec 32 := Scalar.remsi v42 c1_i32_18
  let c0_i32_23 : BitVec 32 := 0#32
  let v56 : BitVec 1 := Scalar.cmpi .ne v55 c0_i32_23
  let v57 : BitVec 1 := Scalar.andi v54 v56
  let v43 : BitVec 32 := Scalar.divsi v42 c1_i32_18
  let c1_i32_24 : BitVec 32 := 1#32
  let v58 : BitVec 32 := Scalar.subi v43 c1_i32_24
  let v59 : BitVec 32 := Scalar.select v57 v58 v43
  let c3_i32 : BitVec 32 := 3#32
  let v86 : BitVec 32 := Scalar.addi v59 c3_i32
  let c4_i32_40 : BitVec 32 := 4#32
  let c0_i32_41 : BitVec 32 := 0#32
  let v87 : BitVec 1 := Scalar.cmpi .eq c4_i32_40 c0_i32_41
  let c1_i32_42 : BitVec 32 := 1#32
  let v88 : BitVec 32 := Scalar.select v87 c1_i32_42 c4_i32_40
  let v89 : BitVec 32 := Scalar.remsi v86 v88
  let c0_i32_44 : BitVec 32 := 0#32
  let v91 : BitVec 1 := Scalar.cmpi .slt v89 c0_i32_44
  let c0_i32_45 : BitVec 32 := 0#32
  let v92 : BitVec 1 := Scalar.cmpi .slt v88 c0_i32_45
  let v93 : BitVec 1 := Scalar.xori v91 v92
  let c0_i32_43 : BitVec 32 := 0#32
  let v90 : BitVec 1 := Scalar.cmpi .ne v89 c0_i32_43
  let v94 : BitVec 1 := Scalar.andi v93 v90
  let v95 : BitVec 32 := Scalar.addi v89 v88
  let v96 : BitVec 32 := Scalar.select v94 v95 v89
  let c1_i32_46 : BitVec 32 := 1#32
  let v97 : BitVec 32 := Scalar.muli v96 c1_i32_46
  let v98 : BitVec 32 := Scalar.addi v32 v97
  let c1_i32_54 : BitVec 32 := 1#32
  let v103 : BitVec 32 := Scalar.muli v98 c1_i32_54
  let v104 : BitVec 32 := Scalar.addi c0_i32_55 v103
  v104.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_56 : BitVec 32 := 0#32
  let v106 : BitVec 1 := Scalar.cmpi .sgt v2 c0_i32_56
  let v107 : BitVec 32 := Scalar.extui v106
  let c0_i32_57 : BitVec 32 := 0#32
  let v108 : BitVec 1 := Scalar.cmpi .slt v2 c0_i32_57
  let v109 : BitVec 32 := Scalar.extui v108
  let v110 : BitVec 32 := Scalar.subi v107 v109
  let c16_i32 : BitVec 32 := 16#32
  let c0_i32_58 : BitVec 32 := 0#32
  let v111 : BitVec 1 := Scalar.cmpi .sgt c16_i32 c0_i32_58
  let v112 : BitVec 32 := Scalar.extui v111
  let c0_i32_59 : BitVec 32 := 0#32
  let v113 : BitVec 1 := Scalar.cmpi .slt c16_i32 c0_i32_59
  let v114 : BitVec 32 := Scalar.extui v113
  let v115 : BitVec 32 := Scalar.subi v112 v114
  let v116 : BitVec 1 := Scalar.cmpi .ne v110 v115
  let v117 : BitVec 32 := Scalar.remsi v2 c16_i32
  let c0_i32_60 : BitVec 32 := 0#32
  let v118 : BitVec 1 := Scalar.cmpi .ne v117 c0_i32_60
  let v119 : BitVec 1 := Scalar.andi v116 v118
  let v105 : BitVec 32 := Scalar.divsi v2 c16_i32
  let c1_i32_61 : BitVec 32 := 1#32
  let v120 : BitVec 32 := Scalar.subi v105 c1_i32_61
  let v121 : BitVec 32 := Scalar.select v119 v120 v105
  let c16_i32_62 : BitVec 32 := 16#32
  let v122 : BitVec 32 := Scalar.muli v121 c16_i32_62
  let c4_i32_63 : BitVec 32 := 4#32
  let c0_i32_64 : BitVec 32 := 0#32
  let v123 : BitVec 1 := Scalar.cmpi .eq c4_i32_63 c0_i32_64
  let c1_i32_65 : BitVec 32 := 1#32
  let v124 : BitVec 32 := Scalar.select v123 c1_i32_65 c4_i32_63
  let v125 : BitVec 32 := Scalar.remsi v2 v124
  let c0_i32_67 : BitVec 32 := 0#32
  let v127 : BitVec 1 := Scalar.cmpi .slt v125 c0_i32_67
  let c0_i32_68 : BitVec 32 := 0#32
  let v128 : BitVec 1 := Scalar.cmpi .slt v124 c0_i32_68
  let v129 : BitVec 1 := Scalar.xori v127 v128
  let c0_i32_66 : BitVec 32 := 0#32
  let v126 : BitVec 1 := Scalar.cmpi .ne v125 c0_i32_66
  let v130 : BitVec 1 := Scalar.andi v129 v126
  let v131 : BitVec 32 := Scalar.addi v125 v124
  let v132 : BitVec 32 := Scalar.select v130 v131 v125
  let v133 : BitVec 32 := Scalar.addi v122 v132
  let c16_i32_69 : BitVec 32 := 16#32
  let c0_i32_70 : BitVec 32 := 0#32
  let v134 : BitVec 1 := Scalar.cmpi .eq c16_i32_69 c0_i32_70
  let c1_i32_71 : BitVec 32 := 1#32
  let v135 : BitVec 32 := Scalar.select v134 c1_i32_71 c16_i32_69
  let v136 : BitVec 32 := Scalar.remsi v2 v135
  let c0_i32_73 : BitVec 32 := 0#32
  let v138 : BitVec 1 := Scalar.cmpi .slt v136 c0_i32_73
  let c0_i32_74 : BitVec 32 := 0#32
  let v139 : BitVec 1 := Scalar.cmpi .slt v135 c0_i32_74
  let v140 : BitVec 1 := Scalar.xori v138 v139
  let c0_i32_72 : BitVec 32 := 0#32
  let v137 : BitVec 1 := Scalar.cmpi .ne v136 c0_i32_72
  let v141 : BitVec 1 := Scalar.andi v140 v137
  let v142 : BitVec 32 := Scalar.addi v136 v135
  let v143 : BitVec 32 := Scalar.select v141 v142 v136
  let c0_i32_76 : BitVec 32 := 0#32
  let v145 : BitVec 1 := Scalar.cmpi .sgt v143 c0_i32_76
  let v146 : BitVec 32 := Scalar.extui v145
  let c0_i32_77 : BitVec 32 := 0#32
  let v147 : BitVec 1 := Scalar.cmpi .slt v143 c0_i32_77
  let v148 : BitVec 32 := Scalar.extui v147
  let v149 : BitVec 32 := Scalar.subi v146 v148
  let c4_i32_75 : BitVec 32 := 4#32
  let c0_i32_78 : BitVec 32 := 0#32
  let v150 : BitVec 1 := Scalar.cmpi .sgt c4_i32_75 c0_i32_78
  let v151 : BitVec 32 := Scalar.extui v150
  let c0_i32_79 : BitVec 32 := 0#32
  let v152 : BitVec 1 := Scalar.cmpi .slt c4_i32_75 c0_i32_79
  let v153 : BitVec 32 := Scalar.extui v152
  let v154 : BitVec 32 := Scalar.subi v151 v153
  let v155 : BitVec 1 := Scalar.cmpi .ne v149 v154
  let v156 : BitVec 32 := Scalar.remsi v143 c4_i32_75
  let c0_i32_80 : BitVec 32 := 0#32
  let v157 : BitVec 1 := Scalar.cmpi .ne v156 c0_i32_80
  let v158 : BitVec 1 := Scalar.andi v155 v157
  let v144 : BitVec 32 := Scalar.divsi v143 c4_i32_75
  let c1_i32_81 : BitVec 32 := 1#32
  let v159 : BitVec 32 := Scalar.subi v144 c1_i32_81
  let v160 : BitVec 32 := Scalar.select v158 v159 v144
  let c1_i32_82 : BitVec 32 := 1#32
  let v161 : BitVec 32 := Scalar.addi v160 c1_i32_82
  let c4_i32_83 : BitVec 32 := 4#32
  let c0_i32_84 : BitVec 32 := 0#32
  let v162 : BitVec 1 := Scalar.cmpi .eq c4_i32_83 c0_i32_84
  let c1_i32_85 : BitVec 32 := 1#32
  let v163 : BitVec 32 := Scalar.select v162 c1_i32_85 c4_i32_83
  let v164 : BitVec 32 := Scalar.remsi v161 v163
  let c0_i32_87 : BitVec 32 := 0#32
  let v166 : BitVec 1 := Scalar.cmpi .slt v164 c0_i32_87
  let c0_i32_88 : BitVec 32 := 0#32
  let v167 : BitVec 1 := Scalar.cmpi .slt v163 c0_i32_88
  let v168 : BitVec 1 := Scalar.xori v166 v167
  let c0_i32_86 : BitVec 32 := 0#32
  let v165 : BitVec 1 := Scalar.cmpi .ne v164 c0_i32_86
  let v169 : BitVec 1 := Scalar.andi v168 v165
  let v170 : BitVec 32 := Scalar.addi v164 v163
  let v171 : BitVec 32 := Scalar.select v169 v170 v164
  let c4_i32_89 : BitVec 32 := 4#32
  let v172 : BitVec 32 := Scalar.muli v171 c4_i32_89
  let v173 : BitVec 32 := Scalar.addi v133 v172
  let c1_i32_107 : BitVec 32 := 1#32
  let v200 : BitVec 32 := Scalar.muli v173 c1_i32_107
  let v201 : BitVec 32 := Scalar.addi c0_i32_108 v200
  v201.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_56 : BitVec 32 := 0#32
  let v106 : BitVec 1 := Scalar.cmpi .sgt v2 c0_i32_56
  let v107 : BitVec 32 := Scalar.extui v106
  let c0_i32_57 : BitVec 32 := 0#32
  let v108 : BitVec 1 := Scalar.cmpi .slt v2 c0_i32_57
  let v109 : BitVec 32 := Scalar.extui v108
  let v110 : BitVec 32 := Scalar.subi v107 v109
  let c16_i32 : BitVec 32 := 16#32
  let c0_i32_58 : BitVec 32 := 0#32
  let v111 : BitVec 1 := Scalar.cmpi .sgt c16_i32 c0_i32_58
  let v112 : BitVec 32 := Scalar.extui v111
  let c0_i32_59 : BitVec 32 := 0#32
  let v113 : BitVec 1 := Scalar.cmpi .slt c16_i32 c0_i32_59
  let v114 : BitVec 32 := Scalar.extui v113
  let v115 : BitVec 32 := Scalar.subi v112 v114
  let v116 : BitVec 1 := Scalar.cmpi .ne v110 v115
  let v117 : BitVec 32 := Scalar.remsi v2 c16_i32
  let c0_i32_60 : BitVec 32 := 0#32
  let v118 : BitVec 1 := Scalar.cmpi .ne v117 c0_i32_60
  let v119 : BitVec 1 := Scalar.andi v116 v118
  let v105 : BitVec 32 := Scalar.divsi v2 c16_i32
  let c1_i32_61 : BitVec 32 := 1#32
  let v120 : BitVec 32 := Scalar.subi v105 c1_i32_61
  let v121 : BitVec 32 := Scalar.select v119 v120 v105
  let c16_i32_62 : BitVec 32 := 16#32
  let v122 : BitVec 32 := Scalar.muli v121 c16_i32_62
  let c4_i32_63 : BitVec 32 := 4#32
  let c0_i32_64 : BitVec 32 := 0#32
  let v123 : BitVec 1 := Scalar.cmpi .eq c4_i32_63 c0_i32_64
  let c1_i32_65 : BitVec 32 := 1#32
  let v124 : BitVec 32 := Scalar.select v123 c1_i32_65 c4_i32_63
  let v125 : BitVec 32 := Scalar.remsi v2 v124
  let c0_i32_67 : BitVec 32 := 0#32
  let v127 : BitVec 1 := Scalar.cmpi .slt v125 c0_i32_67
  let c0_i32_68 : BitVec 32 := 0#32
  let v128 : BitVec 1 := Scalar.cmpi .slt v124 c0_i32_68
  let v129 : BitVec 1 := Scalar.xori v127 v128
  let c0_i32_66 : BitVec 32 := 0#32
  let v126 : BitVec 1 := Scalar.cmpi .ne v125 c0_i32_66
  let v130 : BitVec 1 := Scalar.andi v129 v126
  let v131 : BitVec 32 := Scalar.addi v125 v124
  let v132 : BitVec 32 := Scalar.select v130 v131 v125
  let v133 : BitVec 32 := Scalar.addi v122 v132
  let c16_i32_69 : BitVec 32 := 16#32
  let c0_i32_70 : BitVec 32 := 0#32
  let v134 : BitVec 1 := Scalar.cmpi .eq c16_i32_69 c0_i32_70
  let c1_i32_71 : BitVec 32 := 1#32
  let v135 : BitVec 32 := Scalar.select v134 c1_i32_71 c16_i32_69
  let v136 : BitVec 32 := Scalar.remsi v2 v135
  let c0_i32_73 : BitVec 32 := 0#32
  let v138 : BitVec 1 := Scalar.cmpi .slt v136 c0_i32_73
  let c0_i32_74 : BitVec 32 := 0#32
  let v139 : BitVec 1 := Scalar.cmpi .slt v135 c0_i32_74
  let v140 : BitVec 1 := Scalar.xori v138 v139
  let c0_i32_72 : BitVec 32 := 0#32
  let v137 : BitVec 1 := Scalar.cmpi .ne v136 c0_i32_72
  let v141 : BitVec 1 := Scalar.andi v140 v137
  let v142 : BitVec 32 := Scalar.addi v136 v135
  let v143 : BitVec 32 := Scalar.select v141 v142 v136
  let c0_i32_76 : BitVec 32 := 0#32
  let v145 : BitVec 1 := Scalar.cmpi .sgt v143 c0_i32_76
  let v146 : BitVec 32 := Scalar.extui v145
  let c0_i32_77 : BitVec 32 := 0#32
  let v147 : BitVec 1 := Scalar.cmpi .slt v143 c0_i32_77
  let v148 : BitVec 32 := Scalar.extui v147
  let v149 : BitVec 32 := Scalar.subi v146 v148
  let c4_i32_75 : BitVec 32 := 4#32
  let c0_i32_78 : BitVec 32 := 0#32
  let v150 : BitVec 1 := Scalar.cmpi .sgt c4_i32_75 c0_i32_78
  let v151 : BitVec 32 := Scalar.extui v150
  let c0_i32_79 : BitVec 32 := 0#32
  let v152 : BitVec 1 := Scalar.cmpi .slt c4_i32_75 c0_i32_79
  let v153 : BitVec 32 := Scalar.extui v152
  let v154 : BitVec 32 := Scalar.subi v151 v153
  let v155 : BitVec 1 := Scalar.cmpi .ne v149 v154
  let v156 : BitVec 32 := Scalar.remsi v143 c4_i32_75
  let c0_i32_80 : BitVec 32 := 0#32
  let v157 : BitVec 1 := Scalar.cmpi .ne v156 c0_i32_80
  let v158 : BitVec 1 := Scalar.andi v155 v157
  let v144 : BitVec 32 := Scalar.divsi v143 c4_i32_75
  let c1_i32_81 : BitVec 32 := 1#32
  let v159 : BitVec 32 := Scalar.subi v144 c1_i32_81
  let v160 : BitVec 32 := Scalar.select v158 v159 v144
  let c2_i32_90 : BitVec 32 := 2#32
  let v174 : BitVec 32 := Scalar.addi v160 c2_i32_90
  let c4_i32_91 : BitVec 32 := 4#32
  let c0_i32_92 : BitVec 32 := 0#32
  let v175 : BitVec 1 := Scalar.cmpi .eq c4_i32_91 c0_i32_92
  let c1_i32_93 : BitVec 32 := 1#32
  let v176 : BitVec 32 := Scalar.select v175 c1_i32_93 c4_i32_91
  let v177 : BitVec 32 := Scalar.remsi v174 v176
  let c0_i32_95 : BitVec 32 := 0#32
  let v179 : BitVec 1 := Scalar.cmpi .slt v177 c0_i32_95
  let c0_i32_96 : BitVec 32 := 0#32
  let v180 : BitVec 1 := Scalar.cmpi .slt v176 c0_i32_96
  let v181 : BitVec 1 := Scalar.xori v179 v180
  let c0_i32_94 : BitVec 32 := 0#32
  let v178 : BitVec 1 := Scalar.cmpi .ne v177 c0_i32_94
  let v182 : BitVec 1 := Scalar.andi v181 v178
  let v183 : BitVec 32 := Scalar.addi v177 v176
  let v184 : BitVec 32 := Scalar.select v182 v183 v177
  let c4_i32_97 : BitVec 32 := 4#32
  let v185 : BitVec 32 := Scalar.muli v184 c4_i32_97
  let v186 : BitVec 32 := Scalar.addi v133 v185
  let c1_i32_110 : BitVec 32 := 1#32
  let v202 : BitVec 32 := Scalar.muli v186 c1_i32_110
  let v203 : BitVec 32 := Scalar.addi c0_i32_111 v202
  v203.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_56 : BitVec 32 := 0#32
  let v106 : BitVec 1 := Scalar.cmpi .sgt v2 c0_i32_56
  let v107 : BitVec 32 := Scalar.extui v106
  let c0_i32_57 : BitVec 32 := 0#32
  let v108 : BitVec 1 := Scalar.cmpi .slt v2 c0_i32_57
  let v109 : BitVec 32 := Scalar.extui v108
  let v110 : BitVec 32 := Scalar.subi v107 v109
  let c16_i32 : BitVec 32 := 16#32
  let c0_i32_58 : BitVec 32 := 0#32
  let v111 : BitVec 1 := Scalar.cmpi .sgt c16_i32 c0_i32_58
  let v112 : BitVec 32 := Scalar.extui v111
  let c0_i32_59 : BitVec 32 := 0#32
  let v113 : BitVec 1 := Scalar.cmpi .slt c16_i32 c0_i32_59
  let v114 : BitVec 32 := Scalar.extui v113
  let v115 : BitVec 32 := Scalar.subi v112 v114
  let v116 : BitVec 1 := Scalar.cmpi .ne v110 v115
  let v117 : BitVec 32 := Scalar.remsi v2 c16_i32
  let c0_i32_60 : BitVec 32 := 0#32
  let v118 : BitVec 1 := Scalar.cmpi .ne v117 c0_i32_60
  let v119 : BitVec 1 := Scalar.andi v116 v118
  let v105 : BitVec 32 := Scalar.divsi v2 c16_i32
  let c1_i32_61 : BitVec 32 := 1#32
  let v120 : BitVec 32 := Scalar.subi v105 c1_i32_61
  let v121 : BitVec 32 := Scalar.select v119 v120 v105
  let c16_i32_62 : BitVec 32 := 16#32
  let v122 : BitVec 32 := Scalar.muli v121 c16_i32_62
  let c4_i32_63 : BitVec 32 := 4#32
  let c0_i32_64 : BitVec 32 := 0#32
  let v123 : BitVec 1 := Scalar.cmpi .eq c4_i32_63 c0_i32_64
  let c1_i32_65 : BitVec 32 := 1#32
  let v124 : BitVec 32 := Scalar.select v123 c1_i32_65 c4_i32_63
  let v125 : BitVec 32 := Scalar.remsi v2 v124
  let c0_i32_67 : BitVec 32 := 0#32
  let v127 : BitVec 1 := Scalar.cmpi .slt v125 c0_i32_67
  let c0_i32_68 : BitVec 32 := 0#32
  let v128 : BitVec 1 := Scalar.cmpi .slt v124 c0_i32_68
  let v129 : BitVec 1 := Scalar.xori v127 v128
  let c0_i32_66 : BitVec 32 := 0#32
  let v126 : BitVec 1 := Scalar.cmpi .ne v125 c0_i32_66
  let v130 : BitVec 1 := Scalar.andi v129 v126
  let v131 : BitVec 32 := Scalar.addi v125 v124
  let v132 : BitVec 32 := Scalar.select v130 v131 v125
  let v133 : BitVec 32 := Scalar.addi v122 v132
  let c16_i32_69 : BitVec 32 := 16#32
  let c0_i32_70 : BitVec 32 := 0#32
  let v134 : BitVec 1 := Scalar.cmpi .eq c16_i32_69 c0_i32_70
  let c1_i32_71 : BitVec 32 := 1#32
  let v135 : BitVec 32 := Scalar.select v134 c1_i32_71 c16_i32_69
  let v136 : BitVec 32 := Scalar.remsi v2 v135
  let c0_i32_73 : BitVec 32 := 0#32
  let v138 : BitVec 1 := Scalar.cmpi .slt v136 c0_i32_73
  let c0_i32_74 : BitVec 32 := 0#32
  let v139 : BitVec 1 := Scalar.cmpi .slt v135 c0_i32_74
  let v140 : BitVec 1 := Scalar.xori v138 v139
  let c0_i32_72 : BitVec 32 := 0#32
  let v137 : BitVec 1 := Scalar.cmpi .ne v136 c0_i32_72
  let v141 : BitVec 1 := Scalar.andi v140 v137
  let v142 : BitVec 32 := Scalar.addi v136 v135
  let v143 : BitVec 32 := Scalar.select v141 v142 v136
  let c0_i32_76 : BitVec 32 := 0#32
  let v145 : BitVec 1 := Scalar.cmpi .sgt v143 c0_i32_76
  let v146 : BitVec 32 := Scalar.extui v145
  let c0_i32_77 : BitVec 32 := 0#32
  let v147 : BitVec 1 := Scalar.cmpi .slt v143 c0_i32_77
  let v148 : BitVec 32 := Scalar.extui v147
  let v149 : BitVec 32 := Scalar.subi v146 v148
  let c4_i32_75 : BitVec 32 := 4#32
  let c0_i32_78 : BitVec 32 := 0#32
  let v150 : BitVec 1 := Scalar.cmpi .sgt c4_i32_75 c0_i32_78
  let v151 : BitVec 32 := Scalar.extui v150
  let c0_i32_79 : BitVec 32 := 0#32
  let v152 : BitVec 1 := Scalar.cmpi .slt c4_i32_75 c0_i32_79
  let v153 : BitVec 32 := Scalar.extui v152
  let v154 : BitVec 32 := Scalar.subi v151 v153
  let v155 : BitVec 1 := Scalar.cmpi .ne v149 v154
  let v156 : BitVec 32 := Scalar.remsi v143 c4_i32_75
  let c0_i32_80 : BitVec 32 := 0#32
  let v157 : BitVec 1 := Scalar.cmpi .ne v156 c0_i32_80
  let v158 : BitVec 1 := Scalar.andi v155 v157
  let v144 : BitVec 32 := Scalar.divsi v143 c4_i32_75
  let c1_i32_81 : BitVec 32 := 1#32
  let v159 : BitVec 32 := Scalar.subi v144 c1_i32_81
  let v160 : BitVec 32 := Scalar.select v158 v159 v144
  let c3_i32_98 : BitVec 32 := 3#32
  let v187 : BitVec 32 := Scalar.addi v160 c3_i32_98
  let c4_i32_99 : BitVec 32 := 4#32
  let c0_i32_100 : BitVec 32 := 0#32
  let v188 : BitVec 1 := Scalar.cmpi .eq c4_i32_99 c0_i32_100
  let c1_i32_101 : BitVec 32 := 1#32
  let v189 : BitVec 32 := Scalar.select v188 c1_i32_101 c4_i32_99
  let v190 : BitVec 32 := Scalar.remsi v187 v189
  let c0_i32_103 : BitVec 32 := 0#32
  let v192 : BitVec 1 := Scalar.cmpi .slt v190 c0_i32_103
  let c0_i32_104 : BitVec 32 := 0#32
  let v193 : BitVec 1 := Scalar.cmpi .slt v189 c0_i32_104
  let v194 : BitVec 1 := Scalar.xori v192 v193
  let c0_i32_102 : BitVec 32 := 0#32
  let v191 : BitVec 1 := Scalar.cmpi .ne v190 c0_i32_102
  let v195 : BitVec 1 := Scalar.andi v194 v191
  let v196 : BitVec 32 := Scalar.addi v190 v189
  let v197 : BitVec 32 := Scalar.select v195 v196 v190
  let c4_i32_105 : BitVec 32 := 4#32
  let v198 : BitVec 32 := Scalar.muli v197 c4_i32_105
  let v199 : BitVec 32 := Scalar.addi v133 v198
  let c1_i32_113 : BitVec 32 := 1#32
  let v204 : BitVec 32 := Scalar.muli v199 c1_i32_113
  let v205 : BitVec 32 := Scalar.addi c0_i32_114 v204
  v205.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_116 : BitVec 32 := 0#32
  let v207 : BitVec 1 := Scalar.cmpi .sgt v2 c0_i32_116
  let v208 : BitVec 32 := Scalar.extui v207
  let c0_i32_117 : BitVec 32 := 0#32
  let v209 : BitVec 1 := Scalar.cmpi .slt v2 c0_i32_117
  let v210 : BitVec 32 := Scalar.extui v209
  let v211 : BitVec 32 := Scalar.subi v208 v210
  let c32_i32_115 : BitVec 32 := 32#32
  let c0_i32_118 : BitVec 32 := 0#32
  let v212 : BitVec 1 := Scalar.cmpi .sgt c32_i32_115 c0_i32_118
  let v213 : BitVec 32 := Scalar.extui v212
  let c0_i32_119 : BitVec 32 := 0#32
  let v214 : BitVec 1 := Scalar.cmpi .slt c32_i32_115 c0_i32_119
  let v215 : BitVec 32 := Scalar.extui v214
  let v216 : BitVec 32 := Scalar.subi v213 v215
  let v217 : BitVec 1 := Scalar.cmpi .ne v211 v216
  let v218 : BitVec 32 := Scalar.remsi v2 c32_i32_115
  let c0_i32_120 : BitVec 32 := 0#32
  let v219 : BitVec 1 := Scalar.cmpi .ne v218 c0_i32_120
  let v220 : BitVec 1 := Scalar.andi v217 v219
  let v206 : BitVec 32 := Scalar.divsi v2 c32_i32_115
  let c1_i32_121 : BitVec 32 := 1#32
  let v221 : BitVec 32 := Scalar.subi v206 c1_i32_121
  let v222 : BitVec 32 := Scalar.select v220 v221 v206
  let c32_i32_122 : BitVec 32 := 32#32
  let v223 : BitVec 32 := Scalar.muli v222 c32_i32_122
  let c16_i32_123 : BitVec 32 := 16#32
  let c0_i32_124 : BitVec 32 := 0#32
  let v224 : BitVec 1 := Scalar.cmpi .eq c16_i32_123 c0_i32_124
  let c1_i32_125 : BitVec 32 := 1#32
  let v225 : BitVec 32 := Scalar.select v224 c1_i32_125 c16_i32_123
  let v226 : BitVec 32 := Scalar.remsi v2 v225
  let c0_i32_127 : BitVec 32 := 0#32
  let v228 : BitVec 1 := Scalar.cmpi .slt v226 c0_i32_127
  let c0_i32_128 : BitVec 32 := 0#32
  let v229 : BitVec 1 := Scalar.cmpi .slt v225 c0_i32_128
  let v230 : BitVec 1 := Scalar.xori v228 v229
  let c0_i32_126 : BitVec 32 := 0#32
  let v227 : BitVec 1 := Scalar.cmpi .ne v226 c0_i32_126
  let v231 : BitVec 1 := Scalar.andi v230 v227
  let v232 : BitVec 32 := Scalar.addi v226 v225
  let v233 : BitVec 32 := Scalar.select v231 v232 v226
  let v234 : BitVec 32 := Scalar.addi v223 v233
  let c32_i32_129 : BitVec 32 := 32#32
  let c0_i32_130 : BitVec 32 := 0#32
  let v235 : BitVec 1 := Scalar.cmpi .eq c32_i32_129 c0_i32_130
  let c1_i32_131 : BitVec 32 := 1#32
  let v236 : BitVec 32 := Scalar.select v235 c1_i32_131 c32_i32_129
  let v237 : BitVec 32 := Scalar.remsi v2 v236
  let c0_i32_133 : BitVec 32 := 0#32
  let v239 : BitVec 1 := Scalar.cmpi .slt v237 c0_i32_133
  let c0_i32_134 : BitVec 32 := 0#32
  let v240 : BitVec 1 := Scalar.cmpi .slt v236 c0_i32_134
  let v241 : BitVec 1 := Scalar.xori v239 v240
  let c0_i32_132 : BitVec 32 := 0#32
  let v238 : BitVec 1 := Scalar.cmpi .ne v237 c0_i32_132
  let v242 : BitVec 1 := Scalar.andi v241 v238
  let v243 : BitVec 32 := Scalar.addi v237 v236
  let v244 : BitVec 32 := Scalar.select v242 v243 v237
  let c0_i32_136 : BitVec 32 := 0#32
  let v246 : BitVec 1 := Scalar.cmpi .sgt v244 c0_i32_136
  let v247 : BitVec 32 := Scalar.extui v246
  let c0_i32_137 : BitVec 32 := 0#32
  let v248 : BitVec 1 := Scalar.cmpi .slt v244 c0_i32_137
  let v249 : BitVec 32 := Scalar.extui v248
  let v250 : BitVec 32 := Scalar.subi v247 v249
  let c16_i32_135 : BitVec 32 := 16#32
  let c0_i32_138 : BitVec 32 := 0#32
  let v251 : BitVec 1 := Scalar.cmpi .sgt c16_i32_135 c0_i32_138
  let v252 : BitVec 32 := Scalar.extui v251
  let c0_i32_139 : BitVec 32 := 0#32
  let v253 : BitVec 1 := Scalar.cmpi .slt c16_i32_135 c0_i32_139
  let v254 : BitVec 32 := Scalar.extui v253
  let v255 : BitVec 32 := Scalar.subi v252 v254
  let v256 : BitVec 1 := Scalar.cmpi .ne v250 v255
  let v257 : BitVec 32 := Scalar.remsi v244 c16_i32_135
  let c0_i32_140 : BitVec 32 := 0#32
  let v258 : BitVec 1 := Scalar.cmpi .ne v257 c0_i32_140
  let v259 : BitVec 1 := Scalar.andi v256 v258
  let v245 : BitVec 32 := Scalar.divsi v244 c16_i32_135
  let c1_i32_141 : BitVec 32 := 1#32
  let v260 : BitVec 32 := Scalar.subi v245 c1_i32_141
  let v261 : BitVec 32 := Scalar.select v259 v260 v245
  let c1_i32_142 : BitVec 32 := 1#32
  let v262 : BitVec 32 := Scalar.addi v261 c1_i32_142
  let c2_i32_143 : BitVec 32 := 2#32
  let c0_i32_144 : BitVec 32 := 0#32
  let v263 : BitVec 1 := Scalar.cmpi .eq c2_i32_143 c0_i32_144
  let c1_i32_145 : BitVec 32 := 1#32
  let v264 : BitVec 32 := Scalar.select v263 c1_i32_145 c2_i32_143
  let v265 : BitVec 32 := Scalar.remsi v262 v264
  let c0_i32_147 : BitVec 32 := 0#32
  let v267 : BitVec 1 := Scalar.cmpi .slt v265 c0_i32_147
  let c0_i32_148 : BitVec 32 := 0#32
  let v268 : BitVec 1 := Scalar.cmpi .slt v264 c0_i32_148
  let v269 : BitVec 1 := Scalar.xori v267 v268
  let c0_i32_146 : BitVec 32 := 0#32
  let v266 : BitVec 1 := Scalar.cmpi .ne v265 c0_i32_146
  let v270 : BitVec 1 := Scalar.andi v269 v266
  let v271 : BitVec 32 := Scalar.addi v265 v264
  let v272 : BitVec 32 := Scalar.select v270 v271 v265
  let c16_i32_149 : BitVec 32 := 16#32
  let v273 : BitVec 32 := Scalar.muli v272 c16_i32_149
  let v274 : BitVec 32 := Scalar.addi v234 v273
  let c1_i32_151 : BitVec 32 := 1#32
  let v275 : BitVec 32 := Scalar.muli v274 c1_i32_151
  let v276 : BitVec 32 := Scalar.addi c0_i32_152 v275
  v276.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_158 : BitVec 32 := 0#32
  let v292 : BitVec 1 := Scalar.cmpi .sgt v2 c0_i32_158
  let v293 : BitVec 32 := Scalar.extui v292
  let c0_i32_159 : BitVec 32 := 0#32
  let v294 : BitVec 1 := Scalar.cmpi .slt v2 c0_i32_159
  let v295 : BitVec 32 := Scalar.extui v294
  let v296 : BitVec 32 := Scalar.subi v293 v295
  let c4_i32_157 : BitVec 32 := 4#32
  let c0_i32_160 : BitVec 32 := 0#32
  let v297 : BitVec 1 := Scalar.cmpi .sgt c4_i32_157 c0_i32_160
  let v298 : BitVec 32 := Scalar.extui v297
  let c0_i32_161 : BitVec 32 := 0#32
  let v299 : BitVec 1 := Scalar.cmpi .slt c4_i32_157 c0_i32_161
  let v300 : BitVec 32 := Scalar.extui v299
  let v301 : BitVec 32 := Scalar.subi v298 v300
  let v302 : BitVec 1 := Scalar.cmpi .ne v296 v301
  let v303 : BitVec 32 := Scalar.remsi v2 c4_i32_157
  let c0_i32_162 : BitVec 32 := 0#32
  let v304 : BitVec 1 := Scalar.cmpi .ne v303 c0_i32_162
  let v305 : BitVec 1 := Scalar.andi v302 v304
  let v291 : BitVec 32 := Scalar.divsi v2 c4_i32_157
  let c1_i32_163 : BitVec 32 := 1#32
  let v306 : BitVec 32 := Scalar.subi v291 c1_i32_163
  let v307 : BitVec 32 := Scalar.select v305 v306 v291
  let c4_i32_164 : BitVec 32 := 4#32
  let v308 : BitVec 32 := Scalar.muli v307 c4_i32_164
  let c1_i32_165 : BitVec 32 := 1#32
  let c0_i32_166 : BitVec 32 := 0#32
  let v309 : BitVec 1 := Scalar.cmpi .eq c1_i32_165 c0_i32_166
  let c1_i32_167 : BitVec 32 := 1#32
  let v310 : BitVec 32 := Scalar.select v309 c1_i32_167 c1_i32_165
  let v311 : BitVec 32 := Scalar.remsi v2 v310
  let c0_i32_169 : BitVec 32 := 0#32
  let v313 : BitVec 1 := Scalar.cmpi .slt v311 c0_i32_169
  let c0_i32_170 : BitVec 32 := 0#32
  let v314 : BitVec 1 := Scalar.cmpi .slt v310 c0_i32_170
  let v315 : BitVec 1 := Scalar.xori v313 v314
  let c0_i32_168 : BitVec 32 := 0#32
  let v312 : BitVec 1 := Scalar.cmpi .ne v311 c0_i32_168
  let v316 : BitVec 1 := Scalar.andi v315 v312
  let v317 : BitVec 32 := Scalar.addi v311 v310
  let v318 : BitVec 32 := Scalar.select v316 v317 v311
  let v319 : BitVec 32 := Scalar.addi v308 v318
  let c4_i32_171 : BitVec 32 := 4#32
  let c0_i32_172 : BitVec 32 := 0#32
  let v320 : BitVec 1 := Scalar.cmpi .eq c4_i32_171 c0_i32_172
  let c1_i32_173 : BitVec 32 := 1#32
  let v321 : BitVec 32 := Scalar.select v320 c1_i32_173 c4_i32_171
  let v322 : BitVec 32 := Scalar.remsi v2 v321
  let c0_i32_175 : BitVec 32 := 0#32
  let v324 : BitVec 1 := Scalar.cmpi .slt v322 c0_i32_175
  let c0_i32_176 : BitVec 32 := 0#32
  let v325 : BitVec 1 := Scalar.cmpi .slt v321 c0_i32_176
  let v326 : BitVec 1 := Scalar.xori v324 v325
  let c0_i32_174 : BitVec 32 := 0#32
  let v323 : BitVec 1 := Scalar.cmpi .ne v322 c0_i32_174
  let v327 : BitVec 1 := Scalar.andi v326 v323
  let v328 : BitVec 32 := Scalar.addi v322 v321
  let v329 : BitVec 32 := Scalar.select v327 v328 v322
  let c0_i32_178 : BitVec 32 := 0#32
  let v331 : BitVec 1 := Scalar.cmpi .sgt v329 c0_i32_178
  let v332 : BitVec 32 := Scalar.extui v331
  let c0_i32_179 : BitVec 32 := 0#32
  let v333 : BitVec 1 := Scalar.cmpi .slt v329 c0_i32_179
  let v334 : BitVec 32 := Scalar.extui v333
  let v335 : BitVec 32 := Scalar.subi v332 v334
  let c1_i32_177 : BitVec 32 := 1#32
  let c0_i32_180 : BitVec 32 := 0#32
  let v336 : BitVec 1 := Scalar.cmpi .sgt c1_i32_177 c0_i32_180
  let v337 : BitVec 32 := Scalar.extui v336
  let c0_i32_181 : BitVec 32 := 0#32
  let v338 : BitVec 1 := Scalar.cmpi .slt c1_i32_177 c0_i32_181
  let v339 : BitVec 32 := Scalar.extui v338
  let v340 : BitVec 32 := Scalar.subi v337 v339
  let v341 : BitVec 1 := Scalar.cmpi .ne v335 v340
  let v342 : BitVec 32 := Scalar.remsi v329 c1_i32_177
  let c0_i32_182 : BitVec 32 := 0#32
  let v343 : BitVec 1 := Scalar.cmpi .ne v342 c0_i32_182
  let v344 : BitVec 1 := Scalar.andi v341 v343
  let v330 : BitVec 32 := Scalar.divsi v329 c1_i32_177
  let c1_i32_183 : BitVec 32 := 1#32
  let v345 : BitVec 32 := Scalar.subi v330 c1_i32_183
  let v346 : BitVec 32 := Scalar.select v344 v345 v330
  let c1_i32_184 : BitVec 32 := 1#32
  let v347 : BitVec 32 := Scalar.addi v346 c1_i32_184
  let c4_i32_185 : BitVec 32 := 4#32
  let c0_i32_186 : BitVec 32 := 0#32
  let v348 : BitVec 1 := Scalar.cmpi .eq c4_i32_185 c0_i32_186
  let c1_i32_187 : BitVec 32 := 1#32
  let v349 : BitVec 32 := Scalar.select v348 c1_i32_187 c4_i32_185
  let v350 : BitVec 32 := Scalar.remsi v347 v349
  let c0_i32_189 : BitVec 32 := 0#32
  let v352 : BitVec 1 := Scalar.cmpi .slt v350 c0_i32_189
  let c0_i32_190 : BitVec 32 := 0#32
  let v353 : BitVec 1 := Scalar.cmpi .slt v349 c0_i32_190
  let v354 : BitVec 1 := Scalar.xori v352 v353
  let c0_i32_188 : BitVec 32 := 0#32
  let v351 : BitVec 1 := Scalar.cmpi .ne v350 c0_i32_188
  let v355 : BitVec 1 := Scalar.andi v354 v351
  let v356 : BitVec 32 := Scalar.addi v350 v349
  let v357 : BitVec 32 := Scalar.select v355 v356 v350
  let c1_i32_191 : BitVec 32 := 1#32
  let v358 : BitVec 32 := Scalar.muli v357 c1_i32_191
  let v359 : BitVec 32 := Scalar.addi v319 v358
  let c1_i32_211 : BitVec 32 := 1#32
  let v386 : BitVec 32 := Scalar.muli v359 c1_i32_211
  let v387 : BitVec 32 := Scalar.addi c0_i32_212 v386
  v387.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_158 : BitVec 32 := 0#32
  let v292 : BitVec 1 := Scalar.cmpi .sgt v2 c0_i32_158
  let v293 : BitVec 32 := Scalar.extui v292
  let c0_i32_159 : BitVec 32 := 0#32
  let v294 : BitVec 1 := Scalar.cmpi .slt v2 c0_i32_159
  let v295 : BitVec 32 := Scalar.extui v294
  let v296 : BitVec 32 := Scalar.subi v293 v295
  let c4_i32_157 : BitVec 32 := 4#32
  let c0_i32_160 : BitVec 32 := 0#32
  let v297 : BitVec 1 := Scalar.cmpi .sgt c4_i32_157 c0_i32_160
  let v298 : BitVec 32 := Scalar.extui v297
  let c0_i32_161 : BitVec 32 := 0#32
  let v299 : BitVec 1 := Scalar.cmpi .slt c4_i32_157 c0_i32_161
  let v300 : BitVec 32 := Scalar.extui v299
  let v301 : BitVec 32 := Scalar.subi v298 v300
  let v302 : BitVec 1 := Scalar.cmpi .ne v296 v301
  let v303 : BitVec 32 := Scalar.remsi v2 c4_i32_157
  let c0_i32_162 : BitVec 32 := 0#32
  let v304 : BitVec 1 := Scalar.cmpi .ne v303 c0_i32_162
  let v305 : BitVec 1 := Scalar.andi v302 v304
  let v291 : BitVec 32 := Scalar.divsi v2 c4_i32_157
  let c1_i32_163 : BitVec 32 := 1#32
  let v306 : BitVec 32 := Scalar.subi v291 c1_i32_163
  let v307 : BitVec 32 := Scalar.select v305 v306 v291
  let c4_i32_164 : BitVec 32 := 4#32
  let v308 : BitVec 32 := Scalar.muli v307 c4_i32_164
  let c1_i32_165 : BitVec 32 := 1#32
  let c0_i32_166 : BitVec 32 := 0#32
  let v309 : BitVec 1 := Scalar.cmpi .eq c1_i32_165 c0_i32_166
  let c1_i32_167 : BitVec 32 := 1#32
  let v310 : BitVec 32 := Scalar.select v309 c1_i32_167 c1_i32_165
  let v311 : BitVec 32 := Scalar.remsi v2 v310
  let c0_i32_169 : BitVec 32 := 0#32
  let v313 : BitVec 1 := Scalar.cmpi .slt v311 c0_i32_169
  let c0_i32_170 : BitVec 32 := 0#32
  let v314 : BitVec 1 := Scalar.cmpi .slt v310 c0_i32_170
  let v315 : BitVec 1 := Scalar.xori v313 v314
  let c0_i32_168 : BitVec 32 := 0#32
  let v312 : BitVec 1 := Scalar.cmpi .ne v311 c0_i32_168
  let v316 : BitVec 1 := Scalar.andi v315 v312
  let v317 : BitVec 32 := Scalar.addi v311 v310
  let v318 : BitVec 32 := Scalar.select v316 v317 v311
  let v319 : BitVec 32 := Scalar.addi v308 v318
  let c4_i32_171 : BitVec 32 := 4#32
  let c0_i32_172 : BitVec 32 := 0#32
  let v320 : BitVec 1 := Scalar.cmpi .eq c4_i32_171 c0_i32_172
  let c1_i32_173 : BitVec 32 := 1#32
  let v321 : BitVec 32 := Scalar.select v320 c1_i32_173 c4_i32_171
  let v322 : BitVec 32 := Scalar.remsi v2 v321
  let c0_i32_175 : BitVec 32 := 0#32
  let v324 : BitVec 1 := Scalar.cmpi .slt v322 c0_i32_175
  let c0_i32_176 : BitVec 32 := 0#32
  let v325 : BitVec 1 := Scalar.cmpi .slt v321 c0_i32_176
  let v326 : BitVec 1 := Scalar.xori v324 v325
  let c0_i32_174 : BitVec 32 := 0#32
  let v323 : BitVec 1 := Scalar.cmpi .ne v322 c0_i32_174
  let v327 : BitVec 1 := Scalar.andi v326 v323
  let v328 : BitVec 32 := Scalar.addi v322 v321
  let v329 : BitVec 32 := Scalar.select v327 v328 v322
  let c0_i32_178 : BitVec 32 := 0#32
  let v331 : BitVec 1 := Scalar.cmpi .sgt v329 c0_i32_178
  let v332 : BitVec 32 := Scalar.extui v331
  let c0_i32_179 : BitVec 32 := 0#32
  let v333 : BitVec 1 := Scalar.cmpi .slt v329 c0_i32_179
  let v334 : BitVec 32 := Scalar.extui v333
  let v335 : BitVec 32 := Scalar.subi v332 v334
  let c1_i32_177 : BitVec 32 := 1#32
  let c0_i32_180 : BitVec 32 := 0#32
  let v336 : BitVec 1 := Scalar.cmpi .sgt c1_i32_177 c0_i32_180
  let v337 : BitVec 32 := Scalar.extui v336
  let c0_i32_181 : BitVec 32 := 0#32
  let v338 : BitVec 1 := Scalar.cmpi .slt c1_i32_177 c0_i32_181
  let v339 : BitVec 32 := Scalar.extui v338
  let v340 : BitVec 32 := Scalar.subi v337 v339
  let v341 : BitVec 1 := Scalar.cmpi .ne v335 v340
  let v342 : BitVec 32 := Scalar.remsi v329 c1_i32_177
  let c0_i32_182 : BitVec 32 := 0#32
  let v343 : BitVec 1 := Scalar.cmpi .ne v342 c0_i32_182
  let v344 : BitVec 1 := Scalar.andi v341 v343
  let v330 : BitVec 32 := Scalar.divsi v329 c1_i32_177
  let c1_i32_183 : BitVec 32 := 1#32
  let v345 : BitVec 32 := Scalar.subi v330 c1_i32_183
  let v346 : BitVec 32 := Scalar.select v344 v345 v330
  let c2_i32_192 : BitVec 32 := 2#32
  let v360 : BitVec 32 := Scalar.addi v346 c2_i32_192
  let c4_i32_193 : BitVec 32 := 4#32
  let c0_i32_194 : BitVec 32 := 0#32
  let v361 : BitVec 1 := Scalar.cmpi .eq c4_i32_193 c0_i32_194
  let c1_i32_195 : BitVec 32 := 1#32
  let v362 : BitVec 32 := Scalar.select v361 c1_i32_195 c4_i32_193
  let v363 : BitVec 32 := Scalar.remsi v360 v362
  let c0_i32_197 : BitVec 32 := 0#32
  let v365 : BitVec 1 := Scalar.cmpi .slt v363 c0_i32_197
  let c0_i32_198 : BitVec 32 := 0#32
  let v366 : BitVec 1 := Scalar.cmpi .slt v362 c0_i32_198
  let v367 : BitVec 1 := Scalar.xori v365 v366
  let c0_i32_196 : BitVec 32 := 0#32
  let v364 : BitVec 1 := Scalar.cmpi .ne v363 c0_i32_196
  let v368 : BitVec 1 := Scalar.andi v367 v364
  let v369 : BitVec 32 := Scalar.addi v363 v362
  let v370 : BitVec 32 := Scalar.select v368 v369 v363
  let c1_i32_199 : BitVec 32 := 1#32
  let v371 : BitVec 32 := Scalar.muli v370 c1_i32_199
  let v372 : BitVec 32 := Scalar.addi v319 v371
  let c1_i32_218 : BitVec 32 := 1#32
  let v394 : BitVec 32 := Scalar.muli v372 c1_i32_218
  let v395 : BitVec 32 := Scalar.addi c0_i32_219 v394
  v395.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_158 : BitVec 32 := 0#32
  let v292 : BitVec 1 := Scalar.cmpi .sgt v2 c0_i32_158
  let v293 : BitVec 32 := Scalar.extui v292
  let c0_i32_159 : BitVec 32 := 0#32
  let v294 : BitVec 1 := Scalar.cmpi .slt v2 c0_i32_159
  let v295 : BitVec 32 := Scalar.extui v294
  let v296 : BitVec 32 := Scalar.subi v293 v295
  let c4_i32_157 : BitVec 32 := 4#32
  let c0_i32_160 : BitVec 32 := 0#32
  let v297 : BitVec 1 := Scalar.cmpi .sgt c4_i32_157 c0_i32_160
  let v298 : BitVec 32 := Scalar.extui v297
  let c0_i32_161 : BitVec 32 := 0#32
  let v299 : BitVec 1 := Scalar.cmpi .slt c4_i32_157 c0_i32_161
  let v300 : BitVec 32 := Scalar.extui v299
  let v301 : BitVec 32 := Scalar.subi v298 v300
  let v302 : BitVec 1 := Scalar.cmpi .ne v296 v301
  let v303 : BitVec 32 := Scalar.remsi v2 c4_i32_157
  let c0_i32_162 : BitVec 32 := 0#32
  let v304 : BitVec 1 := Scalar.cmpi .ne v303 c0_i32_162
  let v305 : BitVec 1 := Scalar.andi v302 v304
  let v291 : BitVec 32 := Scalar.divsi v2 c4_i32_157
  let c1_i32_163 : BitVec 32 := 1#32
  let v306 : BitVec 32 := Scalar.subi v291 c1_i32_163
  let v307 : BitVec 32 := Scalar.select v305 v306 v291
  let c4_i32_164 : BitVec 32 := 4#32
  let v308 : BitVec 32 := Scalar.muli v307 c4_i32_164
  let c1_i32_165 : BitVec 32 := 1#32
  let c0_i32_166 : BitVec 32 := 0#32
  let v309 : BitVec 1 := Scalar.cmpi .eq c1_i32_165 c0_i32_166
  let c1_i32_167 : BitVec 32 := 1#32
  let v310 : BitVec 32 := Scalar.select v309 c1_i32_167 c1_i32_165
  let v311 : BitVec 32 := Scalar.remsi v2 v310
  let c0_i32_169 : BitVec 32 := 0#32
  let v313 : BitVec 1 := Scalar.cmpi .slt v311 c0_i32_169
  let c0_i32_170 : BitVec 32 := 0#32
  let v314 : BitVec 1 := Scalar.cmpi .slt v310 c0_i32_170
  let v315 : BitVec 1 := Scalar.xori v313 v314
  let c0_i32_168 : BitVec 32 := 0#32
  let v312 : BitVec 1 := Scalar.cmpi .ne v311 c0_i32_168
  let v316 : BitVec 1 := Scalar.andi v315 v312
  let v317 : BitVec 32 := Scalar.addi v311 v310
  let v318 : BitVec 32 := Scalar.select v316 v317 v311
  let v319 : BitVec 32 := Scalar.addi v308 v318
  let c4_i32_171 : BitVec 32 := 4#32
  let c0_i32_172 : BitVec 32 := 0#32
  let v320 : BitVec 1 := Scalar.cmpi .eq c4_i32_171 c0_i32_172
  let c1_i32_173 : BitVec 32 := 1#32
  let v321 : BitVec 32 := Scalar.select v320 c1_i32_173 c4_i32_171
  let v322 : BitVec 32 := Scalar.remsi v2 v321
  let c0_i32_175 : BitVec 32 := 0#32
  let v324 : BitVec 1 := Scalar.cmpi .slt v322 c0_i32_175
  let c0_i32_176 : BitVec 32 := 0#32
  let v325 : BitVec 1 := Scalar.cmpi .slt v321 c0_i32_176
  let v326 : BitVec 1 := Scalar.xori v324 v325
  let c0_i32_174 : BitVec 32 := 0#32
  let v323 : BitVec 1 := Scalar.cmpi .ne v322 c0_i32_174
  let v327 : BitVec 1 := Scalar.andi v326 v323
  let v328 : BitVec 32 := Scalar.addi v322 v321
  let v329 : BitVec 32 := Scalar.select v327 v328 v322
  let c0_i32_178 : BitVec 32 := 0#32
  let v331 : BitVec 1 := Scalar.cmpi .sgt v329 c0_i32_178
  let v332 : BitVec 32 := Scalar.extui v331
  let c0_i32_179 : BitVec 32 := 0#32
  let v333 : BitVec 1 := Scalar.cmpi .slt v329 c0_i32_179
  let v334 : BitVec 32 := Scalar.extui v333
  let v335 : BitVec 32 := Scalar.subi v332 v334
  let c1_i32_177 : BitVec 32 := 1#32
  let c0_i32_180 : BitVec 32 := 0#32
  let v336 : BitVec 1 := Scalar.cmpi .sgt c1_i32_177 c0_i32_180
  let v337 : BitVec 32 := Scalar.extui v336
  let c0_i32_181 : BitVec 32 := 0#32
  let v338 : BitVec 1 := Scalar.cmpi .slt c1_i32_177 c0_i32_181
  let v339 : BitVec 32 := Scalar.extui v338
  let v340 : BitVec 32 := Scalar.subi v337 v339
  let v341 : BitVec 1 := Scalar.cmpi .ne v335 v340
  let v342 : BitVec 32 := Scalar.remsi v329 c1_i32_177
  let c0_i32_182 : BitVec 32 := 0#32
  let v343 : BitVec 1 := Scalar.cmpi .ne v342 c0_i32_182
  let v344 : BitVec 1 := Scalar.andi v341 v343
  let v330 : BitVec 32 := Scalar.divsi v329 c1_i32_177
  let c1_i32_183 : BitVec 32 := 1#32
  let v345 : BitVec 32 := Scalar.subi v330 c1_i32_183
  let v346 : BitVec 32 := Scalar.select v344 v345 v330
  let c3_i32_200 : BitVec 32 := 3#32
  let v373 : BitVec 32 := Scalar.addi v346 c3_i32_200
  let c4_i32_201 : BitVec 32 := 4#32
  let c0_i32_202 : BitVec 32 := 0#32
  let v374 : BitVec 1 := Scalar.cmpi .eq c4_i32_201 c0_i32_202
  let c1_i32_203 : BitVec 32 := 1#32
  let v375 : BitVec 32 := Scalar.select v374 c1_i32_203 c4_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c1_i32_207 : BitVec 32 := 1#32
  let v384 : BitVec 32 := Scalar.muli v383 c1_i32_207
  let v385 : BitVec 32 := Scalar.addi v319 v384
  let c1_i32_225 : BitVec 32 := 1#32
  let v402 : BitVec 32 := Scalar.muli v385 c1_i32_225
  let v403 : BitVec 32 := Scalar.addi c0_i32_226 v402
  v403.toNat
def k0_dev11 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_284 : BitVec 32 := 0#32
  let v481 : BitVec 1 := Scalar.cmpi .sgt v2 c0_i32_284
  let v482 : BitVec 32 := Scalar.extui v481
  let c0_i32_285 : BitVec 32 := 0#32
  let v483 : BitVec 1 := Scalar.cmpi .slt v2 c0_i32_285
  let v484 : BitVec 32 := Scalar.extui v483
  let v485 : BitVec 32 := Scalar.subi v482 v484
  let c16_i32_283 : BitVec 32 := 16#32
  let c0_i32_286 : BitVec 32 := 0#32
  let v486 : BitVec 1 := Scalar.cmpi .sgt c16_i32_283 c0_i32_286
  let v487 : BitVec 32 := Scalar.extui v486
  let c0_i32_287 : BitVec 32 := 0#32
  let v488 : BitVec 1 := Scalar.cmpi .slt c16_i32_283 c0_i32_287
  let v489 : BitVec 32 := Scalar.extui v488
  let v490 : BitVec 32 := Scalar.subi v487 v489
  let v491 : BitVec 1 := Scalar.cmpi .ne v485 v490
  let v492 : BitVec 32 := Scalar.remsi v2 c16_i32_283
  let c0_i32_288 : BitVec 32 := 0#32
  let v493 : BitVec 1 := Scalar.cmpi .ne v492 c0_i32_288
  let v494 : BitVec 1 := Scalar.andi v491 v493
  let v480 : BitVec 32 := Scalar.divsi v2 c16_i32_283
  let c1_i32_289 : BitVec 32 := 1#32
  let v495 : BitVec 32 := Scalar.subi v480 c1_i32_289
  let v496 : BitVec 32 := Scalar.select v494 v495 v480
  let c16_i32_290 : BitVec 32 := 16#32
  let v497 : BitVec 32 := Scalar.muli v496 c16_i32_290
  let c4_i32_291 : BitVec 32 := 4#32
  let c0_i32_292 : BitVec 32 := 0#32
  let v498 : BitVec 1 := Scalar.cmpi .eq c4_i32_291 c0_i32_292
  let c1_i32_293 : BitVec 32 := 1#32
  let v499 : BitVec 32 := Scalar.select v498 c1_i32_293 c4_i32_291
  let v500 : BitVec 32 := Scalar.remsi v2 v499
  let c0_i32_295 : BitVec 32 := 0#32
  let v502 : BitVec 1 := Scalar.cmpi .slt v500 c0_i32_295
  let c0_i32_296 : BitVec 32 := 0#32
  let v503 : BitVec 1 := Scalar.cmpi .slt v499 c0_i32_296
  let v504 : BitVec 1 := Scalar.xori v502 v503
  let c0_i32_294 : BitVec 32 := 0#32
  let v501 : BitVec 1 := Scalar.cmpi .ne v500 c0_i32_294
  let v505 : BitVec 1 := Scalar.andi v504 v501
  let v506 : BitVec 32 := Scalar.addi v500 v499
  let v507 : BitVec 32 := Scalar.select v505 v506 v500
  let v508 : BitVec 32 := Scalar.addi v497 v507
  let c16_i32_297 : BitVec 32 := 16#32
  let c0_i32_298 : BitVec 32 := 0#32
  let v509 : BitVec 1 := Scalar.cmpi .eq c16_i32_297 c0_i32_298
  let c1_i32_299 : BitVec 32 := 1#32
  let v510 : BitVec 32 := Scalar.select v509 c1_i32_299 c16_i32_297
  let v511 : BitVec 32 := Scalar.remsi v2 v510
  let c0_i32_301 : BitVec 32 := 0#32
  let v513 : BitVec 1 := Scalar.cmpi .slt v511 c0_i32_301
  let c0_i32_302 : BitVec 32 := 0#32
  let v514 : BitVec 1 := Scalar.cmpi .slt v510 c0_i32_302
  let v515 : BitVec 1 := Scalar.xori v513 v514
  let c0_i32_300 : BitVec 32 := 0#32
  let v512 : BitVec 1 := Scalar.cmpi .ne v511 c0_i32_300
  let v516 : BitVec 1 := Scalar.andi v515 v512
  let v517 : BitVec 32 := Scalar.addi v511 v510
  let v518 : BitVec 32 := Scalar.select v516 v517 v511
  let c0_i32_304 : BitVec 32 := 0#32
  let v520 : BitVec 1 := Scalar.cmpi .sgt v518 c0_i32_304
  let v521 : BitVec 32 := Scalar.extui v520
  let c0_i32_305 : BitVec 32 := 0#32
  let v522 : BitVec 1 := Scalar.cmpi .slt v518 c0_i32_305
  let v523 : BitVec 32 := Scalar.extui v522
  let v524 : BitVec 32 := Scalar.subi v521 v523
  let c4_i32_303 : BitVec 32 := 4#32
  let c0_i32_306 : BitVec 32 := 0#32
  let v525 : BitVec 1 := Scalar.cmpi .sgt c4_i32_303 c0_i32_306
  let v526 : BitVec 32 := Scalar.extui v525
  let c0_i32_307 : BitVec 32 := 0#32
  let v527 : BitVec 1 := Scalar.cmpi .slt c4_i32_303 c0_i32_307
  let v528 : BitVec 32 := Scalar.extui v527
  let v529 : BitVec 32 := Scalar.subi v526 v528
  let v530 : BitVec 1 := Scalar.cmpi .ne v524 v529
  let v531 : BitVec 32 := Scalar.remsi v518 c4_i32_303
  let c0_i32_308 : BitVec 32 := 0#32
  let v532 : BitVec 1 := Scalar.cmpi .ne v531 c0_i32_308
  let v533 : BitVec 1 := Scalar.andi v530 v532
  let v519 : BitVec 32 := Scalar.divsi v518 c4_i32_303
  let c1_i32_309 : BitVec 32 := 1#32
  let v534 : BitVec 32 := Scalar.subi v519 c1_i32_309
  let v535 : BitVec 32 := Scalar.select v533 v534 v519
  let c1_i32_310 : BitVec 32 := 1#32
  let v536 : BitVec 32 := Scalar.addi v535 c1_i32_310
  let c4_i32_311 : BitVec 32 := 4#32
  let c0_i32_312 : BitVec 32 := 0#32
  let v537 : BitVec 1 := Scalar.cmpi .eq c4_i32_311 c0_i32_312
  let c1_i32_313 : BitVec 32 := 1#32
  let v538 : BitVec 32 := Scalar.select v537 c1_i32_313 c4_i32_311
  let v539 : BitVec 32 := Scalar.remsi v536 v538
  let c0_i32_315 : BitVec 32 := 0#32
  let v541 : BitVec 1 := Scalar.cmpi .slt v539 c0_i32_315
  let c0_i32_316 : BitVec 32 := 0#32
  let v542 : BitVec 1 := Scalar.cmpi .slt v538 c0_i32_316
  let v543 : BitVec 1 := Scalar.xori v541 v542
  let c0_i32_314 : BitVec 32 := 0#32
  let v540 : BitVec 1 := Scalar.cmpi .ne v539 c0_i32_314
  let v544 : BitVec 1 := Scalar.andi v543 v540
  let v545 : BitVec 32 := Scalar.addi v539 v538
  let v546 : BitVec 32 := Scalar.select v544 v545 v539
  let c4_i32_317 : BitVec 32 := 4#32
  let v547 : BitVec 32 := Scalar.muli v546 c4_i32_317
  let v548 : BitVec 32 := Scalar.addi v508 v547
  let c1_i32_337 : BitVec 32 := 1#32
  let v575 : BitVec 32 := Scalar.muli v548 c1_i32_337
  let v576 : BitVec 32 := Scalar.addi c0_i32_338 v575
  v576.toNat
def k0_dev12 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_284 : BitVec 32 := 0#32
  let v481 : BitVec 1 := Scalar.cmpi .sgt v2 c0_i32_284
  let v482 : BitVec 32 := Scalar.extui v481
  let c0_i32_285 : BitVec 32 := 0#32
  let v483 : BitVec 1 := Scalar.cmpi .slt v2 c0_i32_285
  let v484 : BitVec 32 := Scalar.extui v483
  let v485 : BitVec 32 := Scalar.subi v482 v484
  let c16_i32_283 : BitVec 32 := 16#32
  let c0_i32_286 : BitVec 32 := 0#32
  let v486 : BitVec 1 := Scalar.cmpi .sgt c16_i32_283 c0_i32_286
  let v487 : BitVec 32 := Scalar.extui v486
  let c0_i32_287 : BitVec 32 := 0#32
  let v488 : BitVec 1 := Scalar.cmpi .slt c16_i32_283 c0_i32_287
  let v489 : BitVec 32 := Scalar.extui v488
  let v490 : BitVec 32 := Scalar.subi v487 v489
  let v491 : BitVec 1 := Scalar.cmpi .ne v485 v490
  let v492 : BitVec 32 := Scalar.remsi v2 c16_i32_283
  let c0_i32_288 : BitVec 32 := 0#32
  let v493 : BitVec 1 := Scalar.cmpi .ne v492 c0_i32_288
  let v494 : BitVec 1 := Scalar.andi v491 v493
  let v480 : BitVec 32 := Scalar.divsi v2 c16_i32_283
  let c1_i32_289 : BitVec 32 := 1#32
  let v495 : BitVec 32 := Scalar.subi v480 c1_i32_289
  let v496 : BitVec 32 := Scalar.select v494 v495 v480
  let c16_i32_290 : BitVec 32 := 16#32
  let v497 : BitVec 32 := Scalar.muli v496 c16_i32_290
  let c4_i32_291 : BitVec 32 := 4#32
  let c0_i32_292 : BitVec 32 := 0#32
  let v498 : BitVec 1 := Scalar.cmpi .eq c4_i32_291 c0_i32_292
  let c1_i32_293 : BitVec 32 := 1#32
  let v499 : BitVec 32 := Scalar.select v498 c1_i32_293 c4_i32_291
  let v500 : BitVec 32 := Scalar.remsi v2 v499
  let c0_i32_295 : BitVec 32 := 0#32
  let v502 : BitVec 1 := Scalar.cmpi .slt v500 c0_i32_295
  let c0_i32_296 : BitVec 32 := 0#32
  let v503 : BitVec 1 := Scalar.cmpi .slt v499 c0_i32_296
  let v504 : BitVec 1 := Scalar.xori v502 v503
  let c0_i32_294 : BitVec 32 := 0#32
  let v501 : BitVec 1 := Scalar.cmpi .ne v500 c0_i32_294
  let v505 : BitVec 1 := Scalar.andi v504 v501
  let v506 : BitVec 32 := Scalar.addi v500 v499
  let v507 : BitVec 32 := Scalar.select v505 v506 v500
  let v508 : BitVec 32 := Scalar.addi v497 v507
  let c16_i32_297 : BitVec 32 := 16#32
  let c0_i32_298 : BitVec 32 := 0#32
  let v509 : BitVec 1 := Scalar.cmpi .eq c16_i32_297 c0_i32_298
  let c1_i32_299 : BitVec 32 := 1#32
  let v510 : BitVec 32 := Scalar.select v509 c1_i32_299 c16_i32_297
  let v511 : BitVec 32 := Scalar.remsi v2 v510
  let c0_i32_301 : BitVec 32 := 0#32
  let v513 : BitVec 1 := Scalar.cmpi .slt v511 c0_i32_301
  let c0_i32_302 : BitVec 32 := 0#32
  let v514 : BitVec 1 := Scalar.cmpi .slt v510 c0_i32_302
  let v515 : BitVec 1 := Scalar.xori v513 v514
  let c0_i32_300 : BitVec 32 := 0#32
  let v512 : BitVec 1 := Scalar.cmpi .ne v511 c0_i32_300
  let v516 : BitVec 1 := Scalar.andi v515 v512
  let v517 : BitVec 32 := Scalar.addi v511 v510
  let v518 : BitVec 32 := Scalar.select v516 v517 v511
  let c0_i32_304 : BitVec 32 := 0#32
  let v520 : BitVec 1 := Scalar.cmpi .sgt v518 c0_i32_304
  let v521 : BitVec 32 := Scalar.extui v520
  let c0_i32_305 : BitVec 32 := 0#32
  let v522 : BitVec 1 := Scalar.cmpi .slt v518 c0_i32_305
  let v523 : BitVec 32 := Scalar.extui v522
  let v524 : BitVec 32 := Scalar.subi v521 v523
  let c4_i32_303 : BitVec 32 := 4#32
  let c0_i32_306 : BitVec 32 := 0#32
  let v525 : BitVec 1 := Scalar.cmpi .sgt c4_i32_303 c0_i32_306
  let v526 : BitVec 32 := Scalar.extui v525
  let c0_i32_307 : BitVec 32 := 0#32
  let v527 : BitVec 1 := Scalar.cmpi .slt c4_i32_303 c0_i32_307
  let v528 : BitVec 32 := Scalar.extui v527
  let v529 : BitVec 32 := Scalar.subi v526 v528
  let v530 : BitVec 1 := Scalar.cmpi .ne v524 v529
  let v531 : BitVec 32 := Scalar.remsi v518 c4_i32_303
  let c0_i32_308 : BitVec 32 := 0#32
  let v532 : BitVec 1 := Scalar.cmpi .ne v531 c0_i32_308
  let v533 : BitVec 1 := Scalar.andi v530 v532
  let v519 : BitVec 32 := Scalar.divsi v518 c4_i32_303
  let c1_i32_309 : BitVec 32 := 1#32
  let v534 : BitVec 32 := Scalar.subi v519 c1_i32_309
  let v535 : BitVec 32 := Scalar.select v533 v534 v519
  let c2_i32_318 : BitVec 32 := 2#32
  let v549 : BitVec 32 := Scalar.addi v535 c2_i32_318
  let c4_i32_319 : BitVec 32 := 4#32
  let c0_i32_320 : BitVec 32 := 0#32
  let v550 : BitVec 1 := Scalar.cmpi .eq c4_i32_319 c0_i32_320
  let c1_i32_321 : BitVec 32 := 1#32
  let v551 : BitVec 32 := Scalar.select v550 c1_i32_321 c4_i32_319
  let v552 : BitVec 32 := Scalar.remsi v549 v551
  let c0_i32_323 : BitVec 32 := 0#32
  let v554 : BitVec 1 := Scalar.cmpi .slt v552 c0_i32_323
  let c0_i32_324 : BitVec 32 := 0#32
  let v555 : BitVec 1 := Scalar.cmpi .slt v551 c0_i32_324
  let v556 : BitVec 1 := Scalar.xori v554 v555
  let c0_i32_322 : BitVec 32 := 0#32
  let v553 : BitVec 1 := Scalar.cmpi .ne v552 c0_i32_322
  let v557 : BitVec 1 := Scalar.andi v556 v553
  let v558 : BitVec 32 := Scalar.addi v552 v551
  let v559 : BitVec 32 := Scalar.select v557 v558 v552
  let c4_i32_325 : BitVec 32 := 4#32
  let v560 : BitVec 32 := Scalar.muli v559 c4_i32_325
  let v561 : BitVec 32 := Scalar.addi v508 v560
  let c1_i32_344 : BitVec 32 := 1#32
  let v583 : BitVec 32 := Scalar.muli v561 c1_i32_344
  let v584 : BitVec 32 := Scalar.addi c0_i32_345 v583
  v584.toNat
def k0_dev13 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_284 : BitVec 32 := 0#32
  let v481 : BitVec 1 := Scalar.cmpi .sgt v2 c0_i32_284
  let v482 : BitVec 32 := Scalar.extui v481
  let c0_i32_285 : BitVec 32 := 0#32
  let v483 : BitVec 1 := Scalar.cmpi .slt v2 c0_i32_285
  let v484 : BitVec 32 := Scalar.extui v483
  let v485 : BitVec 32 := Scalar.subi v482 v484
  let c16_i32_283 : BitVec 32 := 16#32
  let c0_i32_286 : BitVec 32 := 0#32
  let v486 : BitVec 1 := Scalar.cmpi .sgt c16_i32_283 c0_i32_286
  let v487 : BitVec 32 := Scalar.extui v486
  let c0_i32_287 : BitVec 32 := 0#32
  let v488 : BitVec 1 := Scalar.cmpi .slt c16_i32_283 c0_i32_287
  let v489 : BitVec 32 := Scalar.extui v488
  let v490 : BitVec 32 := Scalar.subi v487 v489
  let v491 : BitVec 1 := Scalar.cmpi .ne v485 v490
  let v492 : BitVec 32 := Scalar.remsi v2 c16_i32_283
  let c0_i32_288 : BitVec 32 := 0#32
  let v493 : BitVec 1 := Scalar.cmpi .ne v492 c0_i32_288
  let v494 : BitVec 1 := Scalar.andi v491 v493
  let v480 : BitVec 32 := Scalar.divsi v2 c16_i32_283
  let c1_i32_289 : BitVec 32 := 1#32
  let v495 : BitVec 32 := Scalar.subi v480 c1_i32_289
  let v496 : BitVec 32 := Scalar.select v494 v495 v480
  let c16_i32_290 : BitVec 32 := 16#32
  let v497 : BitVec 32 := Scalar.muli v496 c16_i32_290
  let c4_i32_291 : BitVec 32 := 4#32
  let c0_i32_292 : BitVec 32 := 0#32
  let v498 : BitVec 1 := Scalar.cmpi .eq c4_i32_291 c0_i32_292
  let c1_i32_293 : BitVec 32 := 1#32
  let v499 : BitVec 32 := Scalar.select v498 c1_i32_293 c4_i32_291
  let v500 : BitVec 32 := Scalar.remsi v2 v499
  let c0_i32_295 : BitVec 32 := 0#32
  let v502 : BitVec 1 := Scalar.cmpi .slt v500 c0_i32_295
  let c0_i32_296 : BitVec 32 := 0#32
  let v503 : BitVec 1 := Scalar.cmpi .slt v499 c0_i32_296
  let v504 : BitVec 1 := Scalar.xori v502 v503
  let c0_i32_294 : BitVec 32 := 0#32
  let v501 : BitVec 1 := Scalar.cmpi .ne v500 c0_i32_294
  let v505 : BitVec 1 := Scalar.andi v504 v501
  let v506 : BitVec 32 := Scalar.addi v500 v499
  let v507 : BitVec 32 := Scalar.select v505 v506 v500
  let v508 : BitVec 32 := Scalar.addi v497 v507
  let c16_i32_297 : BitVec 32 := 16#32
  let c0_i32_298 : BitVec 32 := 0#32
  let v509 : BitVec 1 := Scalar.cmpi .eq c16_i32_297 c0_i32_298
  let c1_i32_299 : BitVec 32 := 1#32
  let v510 : BitVec 32 := Scalar.select v509 c1_i32_299 c16_i32_297
  let v511 : BitVec 32 := Scalar.remsi v2 v510
  let c0_i32_301 : BitVec 32 := 0#32
  let v513 : BitVec 1 := Scalar.cmpi .slt v511 c0_i32_301
  let c0_i32_302 : BitVec 32 := 0#32
  let v514 : BitVec 1 := Scalar.cmpi .slt v510 c0_i32_302
  let v515 : BitVec 1 := Scalar.xori v513 v514
  let c0_i32_300 : BitVec 32 := 0#32
  let v512 : BitVec 1 := Scalar.cmpi .ne v511 c0_i32_300
  let v516 : BitVec 1 := Scalar.andi v515 v512
  let v517 : BitVec 32 := Scalar.addi v511 v510
  let v518 : BitVec 32 := Scalar.select v516 v517 v511
  let c0_i32_304 : BitVec 32 := 0#32
  let v520 : BitVec 1 := Scalar.cmpi .sgt v518 c0_i32_304
  let v521 : BitVec 32 := Scalar.extui v520
  let c0_i32_305 : BitVec 32 := 0#32
  let v522 : BitVec 1 := Scalar.cmpi .slt v518 c0_i32_305
  let v523 : BitVec 32 := Scalar.extui v522
  let v524 : BitVec 32 := Scalar.subi v521 v523
  let c4_i32_303 : BitVec 32 := 4#32
  let c0_i32_306 : BitVec 32 := 0#32
  let v525 : BitVec 1 := Scalar.cmpi .sgt c4_i32_303 c0_i32_306
  let v526 : BitVec 32 := Scalar.extui v525
  let c0_i32_307 : BitVec 32 := 0#32
  let v527 : BitVec 1 := Scalar.cmpi .slt c4_i32_303 c0_i32_307
  let v528 : BitVec 32 := Scalar.extui v527
  let v529 : BitVec 32 := Scalar.subi v526 v528
  let v530 : BitVec 1 := Scalar.cmpi .ne v524 v529
  let v531 : BitVec 32 := Scalar.remsi v518 c4_i32_303
  let c0_i32_308 : BitVec 32 := 0#32
  let v532 : BitVec 1 := Scalar.cmpi .ne v531 c0_i32_308
  let v533 : BitVec 1 := Scalar.andi v530 v532
  let v519 : BitVec 32 := Scalar.divsi v518 c4_i32_303
  let c1_i32_309 : BitVec 32 := 1#32
  let v534 : BitVec 32 := Scalar.subi v519 c1_i32_309
  let v535 : BitVec 32 := Scalar.select v533 v534 v519
  let c3_i32_326 : BitVec 32 := 3#32
  let v562 : BitVec 32 := Scalar.addi v535 c3_i32_326
  let c4_i32_327 : BitVec 32 := 4#32
  let c0_i32_328 : BitVec 32 := 0#32
  let v563 : BitVec 1 := Scalar.cmpi .eq c4_i32_327 c0_i32_328
  let c1_i32_329 : BitVec 32 := 1#32
  let v564 : BitVec 32 := Scalar.select v563 c1_i32_329 c4_i32_327
  let v565 : BitVec 32 := Scalar.remsi v562 v564
  let c0_i32_331 : BitVec 32 := 0#32
  let v567 : BitVec 1 := Scalar.cmpi .slt v565 c0_i32_331
  let c0_i32_332 : BitVec 32 := 0#32
  let v568 : BitVec 1 := Scalar.cmpi .slt v564 c0_i32_332
  let v569 : BitVec 1 := Scalar.xori v567 v568
  let c0_i32_330 : BitVec 32 := 0#32
  let v566 : BitVec 1 := Scalar.cmpi .ne v565 c0_i32_330
  let v570 : BitVec 1 := Scalar.andi v569 v566
  let v571 : BitVec 32 := Scalar.addi v565 v564
  let v572 : BitVec 32 := Scalar.select v570 v571 v565
  let c4_i32_333 : BitVec 32 := 4#32
  let v573 : BitVec 32 := Scalar.muli v572 c4_i32_333
  let v574 : BitVec 32 := Scalar.addi v508 v573
  let c1_i32_350 : BitVec 32 := 1#32
  let v591 : BitVec 32 := Scalar.muli v574 c1_i32_350
  let v592 : BitVec 32 := Scalar.addi c0_i32_351 v591
  v592.toNat
def k0_dev14 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_406 : BitVec 32 := 0#32
  let v669 : BitVec 1 := Scalar.cmpi .sgt v2 c0_i32_406
  let v670 : BitVec 32 := Scalar.extui v669
  let c0_i32_407 : BitVec 32 := 0#32
  let v671 : BitVec 1 := Scalar.cmpi .slt v2 c0_i32_407
  let v672 : BitVec 32 := Scalar.extui v671
  let v673 : BitVec 32 := Scalar.subi v670 v672
  let c32_i32_405 : BitVec 32 := 32#32
  let c0_i32_408 : BitVec 32 := 0#32
  let v674 : BitVec 1 := Scalar.cmpi .sgt c32_i32_405 c0_i32_408
  let v675 : BitVec 32 := Scalar.extui v674
  let c0_i32_409 : BitVec 32 := 0#32
  let v676 : BitVec 1 := Scalar.cmpi .slt c32_i32_405 c0_i32_409
  let v677 : BitVec 32 := Scalar.extui v676
  let v678 : BitVec 32 := Scalar.subi v675 v677
  let v679 : BitVec 1 := Scalar.cmpi .ne v673 v678
  let v680 : BitVec 32 := Scalar.remsi v2 c32_i32_405
  let c0_i32_410 : BitVec 32 := 0#32
  let v681 : BitVec 1 := Scalar.cmpi .ne v680 c0_i32_410
  let v682 : BitVec 1 := Scalar.andi v679 v681
  let v668 : BitVec 32 := Scalar.divsi v2 c32_i32_405
  let c1_i32_411 : BitVec 32 := 1#32
  let v683 : BitVec 32 := Scalar.subi v668 c1_i32_411
  let v684 : BitVec 32 := Scalar.select v682 v683 v668
  let c32_i32_412 : BitVec 32 := 32#32
  let v685 : BitVec 32 := Scalar.muli v684 c32_i32_412
  let c16_i32_413 : BitVec 32 := 16#32
  let c0_i32_414 : BitVec 32 := 0#32
  let v686 : BitVec 1 := Scalar.cmpi .eq c16_i32_413 c0_i32_414
  let c1_i32_415 : BitVec 32 := 1#32
  let v687 : BitVec 32 := Scalar.select v686 c1_i32_415 c16_i32_413
  let v688 : BitVec 32 := Scalar.remsi v2 v687
  let c0_i32_417 : BitVec 32 := 0#32
  let v690 : BitVec 1 := Scalar.cmpi .slt v688 c0_i32_417
  let c0_i32_418 : BitVec 32 := 0#32
  let v691 : BitVec 1 := Scalar.cmpi .slt v687 c0_i32_418
  let v692 : BitVec 1 := Scalar.xori v690 v691
  let c0_i32_416 : BitVec 32 := 0#32
  let v689 : BitVec 1 := Scalar.cmpi .ne v688 c0_i32_416
  let v693 : BitVec 1 := Scalar.andi v692 v689
  let v694 : BitVec 32 := Scalar.addi v688 v687
  let v695 : BitVec 32 := Scalar.select v693 v694 v688
  let v696 : BitVec 32 := Scalar.addi v685 v695
  let c32_i32_419 : BitVec 32 := 32#32
  let c0_i32_420 : BitVec 32 := 0#32
  let v697 : BitVec 1 := Scalar.cmpi .eq c32_i32_419 c0_i32_420
  let c1_i32_421 : BitVec 32 := 1#32
  let v698 : BitVec 32 := Scalar.select v697 c1_i32_421 c32_i32_419
  let v699 : BitVec 32 := Scalar.remsi v2 v698
  let c0_i32_423 : BitVec 32 := 0#32
  let v701 : BitVec 1 := Scalar.cmpi .slt v699 c0_i32_423
  let c0_i32_424 : BitVec 32 := 0#32
  let v702 : BitVec 1 := Scalar.cmpi .slt v698 c0_i32_424
  let v703 : BitVec 1 := Scalar.xori v701 v702
  let c0_i32_422 : BitVec 32 := 0#32
  let v700 : BitVec 1 := Scalar.cmpi .ne v699 c0_i32_422
  let v704 : BitVec 1 := Scalar.andi v703 v700
  let v705 : BitVec 32 := Scalar.addi v699 v698
  let v706 : BitVec 32 := Scalar.select v704 v705 v699
  let c0_i32_426 : BitVec 32 := 0#32
  let v708 : BitVec 1 := Scalar.cmpi .sgt v706 c0_i32_426
  let v709 : BitVec 32 := Scalar.extui v708
  let c0_i32_427 : BitVec 32 := 0#32
  let v710 : BitVec 1 := Scalar.cmpi .slt v706 c0_i32_427
  let v711 : BitVec 32 := Scalar.extui v710
  let v712 : BitVec 32 := Scalar.subi v709 v711
  let c16_i32_425 : BitVec 32 := 16#32
  let c0_i32_428 : BitVec 32 := 0#32
  let v713 : BitVec 1 := Scalar.cmpi .sgt c16_i32_425 c0_i32_428
  let v714 : BitVec 32 := Scalar.extui v713
  let c0_i32_429 : BitVec 32 := 0#32
  let v715 : BitVec 1 := Scalar.cmpi .slt c16_i32_425 c0_i32_429
  let v716 : BitVec 32 := Scalar.extui v715
  let v717 : BitVec 32 := Scalar.subi v714 v716
  let v718 : BitVec 1 := Scalar.cmpi .ne v712 v717
  let v719 : BitVec 32 := Scalar.remsi v706 c16_i32_425
  let c0_i32_430 : BitVec 32 := 0#32
  let v720 : BitVec 1 := Scalar.cmpi .ne v719 c0_i32_430
  let v721 : BitVec 1 := Scalar.andi v718 v720
  let v707 : BitVec 32 := Scalar.divsi v706 c16_i32_425
  let c1_i32_431 : BitVec 32 := 1#32
  let v722 : BitVec 32 := Scalar.subi v707 c1_i32_431
  let v723 : BitVec 32 := Scalar.select v721 v722 v707
  let c1_i32_432 : BitVec 32 := 1#32
  let v724 : BitVec 32 := Scalar.addi v723 c1_i32_432
  let c2_i32_433 : BitVec 32 := 2#32
  let c0_i32_434 : BitVec 32 := 0#32
  let v725 : BitVec 1 := Scalar.cmpi .eq c2_i32_433 c0_i32_434
  let c1_i32_435 : BitVec 32 := 1#32
  let v726 : BitVec 32 := Scalar.select v725 c1_i32_435 c2_i32_433
  let v727 : BitVec 32 := Scalar.remsi v724 v726
  let c0_i32_437 : BitVec 32 := 0#32
  let v729 : BitVec 1 := Scalar.cmpi .slt v727 c0_i32_437
  let c0_i32_438 : BitVec 32 := 0#32
  let v730 : BitVec 1 := Scalar.cmpi .slt v726 c0_i32_438
  let v731 : BitVec 1 := Scalar.xori v729 v730
  let c0_i32_436 : BitVec 32 := 0#32
  let v728 : BitVec 1 := Scalar.cmpi .ne v727 c0_i32_436
  let v732 : BitVec 1 := Scalar.andi v731 v728
  let v733 : BitVec 32 := Scalar.addi v727 v726
  let v734 : BitVec 32 := Scalar.select v732 v733 v727
  let c16_i32_439 : BitVec 32 := 16#32
  let v735 : BitVec 32 := Scalar.muli v734 c16_i32_439
  let v736 : BitVec 32 := Scalar.addi v696 v735
  let c1_i32_442 : BitVec 32 := 1#32
  let v737 : BitVec 32 := Scalar.muli v736 c1_i32_442
  let v738 : BitVec 32 := Scalar.addi c0_i32_443 v737
  v738.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  concatenates_S1024x1_S1024x1_S1024x2_d1 : Shape.Concatenates [S1024x1, S1024x1] S1024x2 1
  transposes_S1024x2_p1_0_S2x1024 : S1024x2.Transposes [1, 0] S2x1024
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  hamt_7 : (7#32 : BitVec 32).msb = false
  inb_S7_S1_0 : ∀ a, (![0] : Fin 1 → Nat) a + S1.size a ≤ S7.size a
  squeezes_S1_S_ : S1.Squeezes S_
  inb_S7x2x1024_S1x2x1024_0_0_0 : ∀ a, (![0, 0, 0] : Fin 3 → Nat) a + S1x2x1024.size a ≤ S7x2x1024.size a
  squeezes_S1x2x1024_S2x1024 : S1x2x1024.Squeezes S2x1024
  inb_S7_S1_1 : ∀ a, (![1] : Fin 1 → Nat) a + S1.size a ≤ S7.size a
  inb_S7x2x1024_S1x2x1024_1_0_0 : ∀ a, (![1, 0, 0] : Fin 3 → Nat) a + S1x2x1024.size a ≤ S7x2x1024.size a
  inb_S7_S1_2 : ∀ a, (![2] : Fin 1 → Nat) a + S1.size a ≤ S7.size a
  inb_S7x2x1024_S1x2x1024_2_0_0 : ∀ a, (![2, 0, 0] : Fin 3 → Nat) a + S1x2x1024.size a ≤ S7x2x1024.size a
  slices_S2x1024_o0_0_S1x1024 : S2x1024.Slices ![0, 0] S1x1024
  slices_S2x1024_o1_0_S1x1024 : S2x1024.Slices ![1, 0] S1x1024
  h_S1x2x1024 : 0 < S1x2x1024.numel
  shapeCasts_S1x2x1024_S2x1024 : S1x2x1024.ShapeCasts S2x1024
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  inb_S7_S1_3 : ∀ a, (![3] : Fin 1 → Nat) a + S1.size a ≤ S7.size a
  inb_S7x2x1024_S1x2x1024_3_0_0 : ∀ a, (![3, 0, 0] : Fin 3 → Nat) a + S1x2x1024.size a ≤ S7x2x1024.size a
  inb_S7_S1_4 : ∀ a, (![4] : Fin 1 → Nat) a + S1.size a ≤ S7.size a
  inb_S7x2x1024_S1x2x1024_4_0_0 : ∀ a, (![4, 0, 0] : Fin 3 → Nat) a + S1x2x1024.size a ≤ S7x2x1024.size a
  inb_S7_S1_5 : ∀ a, (![5] : Fin 1 → Nat) a + S1.size a ≤ S7.size a
  inb_S7x2x1024_S1x2x1024_5_0_0 : ∀ a, (![5, 0, 0] : Fin 3 → Nat) a + S1x2x1024.size a ≤ S7x2x1024.size a
  inb_S7_S1_6 : ∀ a, (![6] : Fin 1 → Nat) a + S1.size a ≤ S7.size a
  inb_S7x2x1024_S1x2x1024_6_0_0 : ∀ a, (![6, 0, 0] : Fin 3 → Nat) a + S1x2x1024.size a ≤ S7x2x1024.size a
  transposes_S2x1024_p1_0_S1024x2 : S2x1024.Transposes [1, 0] S1024x2
  slices_S1024x2_o0_0_S1024x1 : S1024x2.Slices ![0, 0] S1024x1
  slices_S1024x2_o0_1_S1024x1 : S1024x2.Slices ![0, 1] S1024x1
  hcc0_scratch2 : 2 + S7.numel ≤ 16
  hcc0_scratch3 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S7 := SemArray.consecutive 2 S7 hcc0_scratch2
abbrev cc0_scratch3 : DmaSems sig S7 := SemArray.consecutive 9 S7 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x16384, .f32⟩
  | .hbm, ⟨11, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S1024x1_S1024x16384_0_1 : S1024x1.BroadcastsInDim S1024x16384 (![0, 1] : Fin 2 → Fin S1024x16384.rank)

variable [Facts₀]

class Facts : Prop extends Facts₀ where

variable [Facts]
-- ==== Proof.Peers.lean ====
import proofs.«901058_g7700000000001059_dist_softmax_colshard_i_m1024_n512_v7x_i32_f32_1_alg».proof.Proof.Gen.KernelIdeal
import Idealize.ShloMosaic.Lib.Tactic

/-! The partners of a device in the three exchange rounds (radix 4 at stride 1, radix 4 at stride 4, radix 2 at
stride 16). Slot `s` (0..6) is partner number `j` of its round: the device whose digit of that round is the
own digit advanced by `j` (j = 1, 2, 3 in the two radix-4 rounds, 1 in the radix-2 round). Advancing by `j` and
then by `radix - j` is the identity, so each slot's partner map is a bijection of the 32 devices, with inverse the
partner map of the slot `inv s`. -/

namespace Cert.KernelIdealPf

open Cert.KernelIdeal Cert.KernelIdeal.Gen
open Idealize.ShloMosaic

/-- The partner of device number `c` in slot `s`. -/
def peerVal (c : Nat) : Nat → Nat
  | 0 => c / 4 * 4 + (c % 4 + 1) % 4
  | 1 => c / 4 * 4 + (c % 4 + 2) % 4
  | 2 => c / 4 * 4 + (c % 4 + 3) % 4
  | 3 => c / 16 * 16 + c % 4 + (c % 16 / 4 + 1) % 4 * 4
  | 4 => c / 16 * 16 + c % 4 + (c % 16 / 4 + 2) % 4 * 4
  | 5 => c / 16 * 16 + c % 4 + (c % 16 / 4 + 3) % 4 * 4
  | _ => c % 16 + (c / 16 + 1) % 2 * 16

theorem peerVal_lt (c s : Nat) (h : c < 32) : peerVal c s < 32 := by
  unfold peerVal; split <;> omega

/-- The partner of device `c` in slot `s`. -/
def peer (c : Dev nD) (s : Nat) : Dev nD := ⟨peerVal c.val s, peerVal_lt c.val s c.isLt⟩

/-- The slot in which a device's slot-`s` partner has that device as partner. -/
def inv : Nat → Nat
  | 0 => 2 | 1 => 1 | 2 => 0 | 3 => 5 | 4 => 4 | 5 => 3 | _ => 6

theorem inv_inv (s : Fin 7) : inv (inv s.val) = s.val := by revert s; decide
theorem inv_lt (s : Fin 7) : inv s.val < 7 := by revert s; decide

/-- The slot numbers as `Fin 7`. -/
def invF (s : Fin 7) : Fin 7 := ⟨inv s.val, inv_lt s⟩
theorem invF_invF (s : Fin 7) : invF (invF s) = s := by revert s; decide

theorem peer_peer (c : Dev nD) (s : Fin 7) : peer (peer c s.val) (inv s.val) = c := by revert c s; decide
theorem peer_peer' (c : Dev nD) (s : Fin 7) : peer (peer c (inv s.val)) s.val = c := by revert c s; decide
theorem peer_ne (c : Dev nD) (s : Fin 7) : peer c s.val ≠ c := by revert c s; decide
theorem peer_inj (s : Fin 7) {a b : Dev nD} (h : peer a s.val = peer b s.val) : a = b := by
  rw [← peer_peer a s, ← peer_peer b s, h]

/-- Slot `s`'s partner map as a bijection of the devices. -/
def peerEquiv (s : Fin 7) : Dev nD ≃ Dev nD :=
  ⟨fun c => peer c s.val, fun c => peer c (inv s.val), fun c => peer_peer c s, fun c => peer_peer' c s⟩

/-- The printed device chains are the partner maps: the seven barrier signals name the partners of slots 0..6 in order,
    and so do the seven transfers. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

end Cert.KernelIdealPf
-- ==== Proof.Proto.lean ====
import proofs.«901058_g7700000000001059_dist_softmax_colshard_i_m1024_n512_v7x_i32_f32_1_alg».proof.Proof.Peers
import proofs.«901058_g7700000000001059_dist_softmax_colshard_i_m1024_n512_v7x_i32_f32_1_alg».proof.Proof.Gen.KernelIdeal
import proofs.«901058_g7700000000001059_dist_softmax_colshard_i_m1024_n512_v7x_i32_f32_1_alg».proof.Proof.Gen.KernelIdeal.Skeleton
import proofs.«901058_g7700000000001059_dist_softmax_colshard_i_m1024_n512_v7x_i32_f32_1_alg».proof.Proof.Gen.KernelIdeal.Launch
import Idealize.ShloMosaic.Lib.Pipeline.Launch
import Idealize.ShloMosaic.Lib.Pipeline.Kit
import Idealize.ShloMosaic.Lib.Tactic

/-! The exchange protocol of the distributed softmax, stated once for every device.

Each device keeps a pair (row maxima, row sums of exponentials) in its accumulator, a 2 x 1024 buffer. In three
rounds it sends the accumulator to the 3, 3 and 1 partners of the round (slot `s` of the 7 receive slots and of the
7 send / 7 receive semaphores belongs to one partner of one round), waits for its own sends and for the partners'
accumulators to land in its receive slots, and merges what it received into the accumulator.  Before the first round
every device signals the barrier semaphore of each of its 7 partners and waits for 7 signals on its own.

Cells and duties (one round, round 0, per cell; duties are slot numbers):
* the barrier cell of `c` has the seven duties `e : Fin 7`, one unit each; duty `e` is paid by `peer c e`, the device
  `c` sends to in slot `e`, and hands `c` that device's receive slot `e`: what `c`'s transfer into it needs;
* the send cell `(c, s)` has the one duty `0`, the transfer's credit, paid by `c`'s own transfer in slot `s`; it hands
  back the share of the accumulator the transfer read;
* the receive cell `(c, s)` has the one duty `0`, the transfer's credit, paid by the transfer of `peer c (inv s)`; it hands
  `c` its receive slot `s` holding that device's accumulator of the slot's round. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The memrefs -/

abbrev xM : Memref sig .tc .vmem S1024x512 .f32 := Memref.whole cc0_stg0_0
abbrev oM : Memref sig .tc .vmem S1024x512 .f32 := Memref.whole cc0_stg1_0
abbrev aM : Memref sig .tc .vmem S2x1024 .f32 := Memref.whole cc0_scratch0
abbrev rM : Memref sig .tc .vmem S7x2x1024 .f32 := Memref.whole cc0_scratch1

/-- Receive slot `k` as a rectangle of the receive buffer (rows [k, k+1) of the 7 x 2 x 1024 buffer), -/
theorem inb_slot : ∀ k : Fin 7, ∀ a, (![k.val, 0, 0] : Fin 3 → Nat) a + S1x2x1024.size a ≤ S7x2x1024.size a := by decide
abbrev rSlot (k : Fin 7) : Rect S7x2x1024 := Rect.unit (s := S7x2x1024) ![k.val, 0, 0] S1x2x1024.size (inb_slot k)

/-- and as the 2 x 1024 memref a transfer writes (the slice squeezed, as the kernel forms it). -/
abbrev rS (k : Fin 7) : Memref sig .tc .vmem S2x1024 .f32 := (rM.slice (rSlot k) (fun _ => rfl)).squeeze S2x1024 squeezes_S1x2x1024_S2x1024

/-! ## The semaphores and cells -/

/-- The runtime's barrier semaphore of collective id 0 (unscoped). -/
abbrev barS : Sem sig := (SemArray.scalar (sig.barrier 0 rfl) : Sems sig S_).sem

/-- The send and receive DMA semaphores of slot `k`, as the kernel picks them out of its two scratch arrays. -/
abbrev sendSem : Fin 7 → DmaSem sig
  | 0 => ((cc0_scratch2.slice (Rect.unit (s := S7) ![0] S1.size inb_S7_S1_0)).squeeze S_ squeezes_S1_S_).sem
  | 1 => ((cc0_scratch2.slice (Rect.unit (s := S7) ![1] S1.size inb_S7_S1_1)).squeeze S_ squeezes_S1_S_).sem
  | 2 => ((cc0_scratch2.slice (Rect.unit (s := S7) ![2] S1.size inb_S7_S1_2)).squeeze S_ squeezes_S1_S_).sem
  | 3 => ((cc0_scratch2.slice (Rect.unit (s := S7) ![3] S1.size inb_S7_S1_3)).squeeze S_ squeezes_S1_S_).sem
  | 4 => ((cc0_scratch2.slice (Rect.unit (s := S7) ![4] S1.size inb_S7_S1_4)).squeeze S_ squeezes_S1_S_).sem
  | 5 => ((cc0_scratch2.slice (Rect.unit (s := S7) ![5] S1.size inb_S7_S1_5)).squeeze S_ squeezes_S1_S_).sem
  | 6 => ((cc0_scratch2.slice (Rect.unit (s := S7) ![6] S1.size inb_S7_S1_6)).squeeze S_ squeezes_S1_S_).sem
abbrev recvSem : Fin 7 → DmaSem sig
  | 0 => ((cc0_scratch3.slice (Rect.unit (s := S7) ![0] S1.size inb_S7_S1_0)).squeeze S_ squeezes_S1_S_).sem
  | 1 => ((cc0_scratch3.slice (Rect.unit (s := S7) ![1] S1.size inb_S7_S1_1)).squeeze S_ squeezes_S1_S_).sem
  | 2 => ((cc0_scratch3.slice (Rect.unit (s := S7) ![2] S1.size inb_S7_S1_2)).squeeze S_ squeezes_S1_S_).sem
  | 3 => ((cc0_scratch3.slice (Rect.unit (s := S7) ![3] S1.size inb_S7_S1_3)).squeeze S_ squeezes_S1_S_).sem
  | 4 => ((cc0_scratch3.slice (Rect.unit (s := S7) ![4] S1.size inb_S7_S1_4)).squeeze S_ squeezes_S1_S_).sem
  | 5 => ((cc0_scratch3.slice (Rect.unit (s := S7) ![5] S1.size inb_S7_S1_5)).squeeze S_ squeezes_S1_S_).sem
  | 6 => ((cc0_scratch3.slice (Rect.unit (s := S7) ![6] S1.size inb_S7_S1_6)).squeeze S_ squeezes_S1_S_).sem

theorem sendSem_val (s : Fin 7) : (sendSem s).val = 2 + s.val := by revert s; decide
theorem recvSem_val (s : Fin 7) : (recvSem s).val = 9 + s.val := by revert s; decide

abbrev barCell (c : Dev nD) : GSem nD τ sig := ((c : Thread nD τ), .reg barS)
abbrev sendCell (c : Dev nD) (s : Fin 7) : GSem nD τ sig := ((c : Thread nD τ), .dma (sendSem s))
abbrev recvCell (c : Dev nD) (s : Fin 7) : GSem nD τ sig := ((c : Thread nD τ), .dma (recvSem s))

/-- The units a transfer of the accumulator credits. -/
abbrev N : ℕ := (aM : Memref sig .tc .vmem S2x1024 .f32).view.dmaCredit
theorem N_pos : 0 < N := View.dmaCredit_pos _ (by decide)

/-! ## Contents

Everything a buffer holds during the run is a function of the devices' blocks of `x`, defined here once for every
float instance. `A0 c` is device `c`'s accumulator after the local pass (row maxima over row sums of exponentials),
`A1`, `A2`, `A3` after the merges of the three rounds; `Land c s` is what receive slot `s` of `c` holds once the
partner's accumulator of the slot's round has landed in it. -/

abbrev CX : Type := (cc0_stg0_0 : Ref sig .tc).ty.Contents (Elt F)
abbrev CA : Type := (cc0_scratch0 : Ref sig .tc).ty.Contents (Elt F)
abbrev CR : Type := (cc0_scratch1 : Ref sig .tc).ty.Contents (Elt F)

/-- Device `c`'s block of `x` as its input staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

abbrev rX : Rect S1024x512 := Rect.unit (s := S1024x512) ![0, 0] S1024x512.size inb_S1024x512_S1024x512_0_0
abbrev rA : Rect S2x1024 := Rect.unit (s := S2x1024) ![0, 0] S2x1024.size inb_S2x1024_S2x1024_0_0
abbrev rRow0 : Rect S2x1024 := Rect.unit (s := S2x1024) ![0, 0] S1x1024.size inb_S2x1024_S1x1024_0_0
abbrev rRow1 : Rect S2x1024 := Rect.unit (s := S2x1024) ![1, 0] S1x1024.size inb_S2x1024_S1x1024_1_0

/-- The accumulator with row 0, row 1 overwritten. -/
def stRow0 (f : (cc0_scratch0 : Ref sig .tc).ty.Contents (Elt F)) (w : FVec F S1x1024 .f32) : (cc0_scratch0 : Ref sig .tc).ty.Contents (Elt F) :=
  ((aM : Memref sig .tc .vmem S2x1024 .f32).access rRow0 : View sig .tc _ _ _).write (Elt F) f w Finset.univ
def stRow1 (f : (cc0_scratch0 : Ref sig .tc).ty.Contents (Elt F)) (w : FVec F S1x1024 .f32) : (cc0_scratch0 : Ref sig .tc).ty.Contents (Elt F) :=
  ((aM : Memref sig .tc .vmem S2x1024 .f32).access rRow1 : View sig .tc _ _ _).write (Elt F) f w Finset.univ

/-- What a transfer of the accumulator `a` leaves in receive slot `k` (over what the buffer held at launch, which the
    slot's elements no longer show). -/
def landIn (c : Dev nD) (k : Fin 7) (a : (cc0_scratch0 : Ref sig .tc).ty.Contents (Elt F)) : (cc0_scratch1 : Ref sig .tc).ty.Contents (Elt F) :=
  (rS k : Memref sig .tc .vmem S2x1024 .f32).view.write (Elt F) ((s₀ m ρ).mem ((c : Thread nD τ).loc cc0_scratch1))
    ((aM : Memref sig .tc .vmem S2x1024 .f32).view.read (Elt F) a) Finset.univ

/-- A load of receive slot `k`. -/
def ldS (k : Fin 7) (r : (cc0_scratch1 : Ref sig .tc).ty.Contents (Elt F)) : Vec F S1x2x1024 .f32 :=
  (rM : Memref sig .tc .vmem S7x2x1024 .f32).view.readAt (Elt F) (rSlot k).toLoadRect r

/-- After the local pass. -/
def A0 (c : Dev nD) : (cc0_scratch0 : Ref sig .tc).ty.Contents (Elt F) := k0_pay5 (xstg m ρ c)

/-- The merge of round 1: the own pair and the three received in slots 0, 1, 2. -/
def merge1 (a : (cc0_scratch0 : Ref sig .tc).ty.Contents (Elt F)) (b0 b1 b2 : Vec F S1x2x1024 .f32) : (cc0_scratch0 : Ref sig .tc).ty.Contents (Elt F) :=
  stRow1 (stRow0 a (k0_pay18 (k0_pay15 a b0 b1 b2)))
    (k0_pay19 (k0_pay11 b1) (k0_pay13 b2) (k0_pay14 b2) (k0_pay15 a b0 b1 b2) (k0_pay16 a b0 b1 b2) (k0_pay17 a b0 b1 b2))
/-- The merge of round 2: slots 3, 4, 5. -/
def merge2 (a : (cc0_scratch0 : Ref sig .tc).ty.Contents (Elt F)) (b3 b4 b5 : Vec F S1x2x1024 .f32) : (cc0_scratch0 : Ref sig .tc).ty.Contents (Elt F) :=
  stRow1 (stRow0 a (k0_pay30 (k0_pay20 a) (k0_pay23 b3) b4 b5))
    (k0_pay31 (k0_pay20 a) (k0_pay21 a) (k0_pay23 b3) (k0_pay24 b3) b4 b5)
/-- The merge of round 3: slot 6. -/
def merge3 (a : (cc0_scratch0 : Ref sig .tc).ty.Contents (Elt F)) (b6 : Vec F S1x2x1024 .f32) : (cc0_scratch0 : Ref sig .tc).ty.Contents (Elt F) :=
  stRow1 (stRow0 a (k0_pay36 a b6)) (k0_pay37 a b6)

def A1 (c : Dev nD) : (cc0_scratch0 : Ref sig .tc).ty.Contents (Elt F) :=
  merge1 (A0 m ρ c) (ldS 0 (landIn m ρ c 0 (A0 m ρ (peer c 2)))) (ldS 1 (landIn m ρ c 1 (A0 m ρ (peer c 1)))) (ldS 2 (landIn m ρ c 2 (A0 m ρ (peer c 0))))
def A2 (c : Dev nD) : (cc0_scratch0 : Ref sig .tc).ty.Contents (Elt F) :=
  merge2 (A1 m ρ c) (ldS 3 (landIn m ρ c 3 (A1 m ρ (peer c 5)))) (ldS 4 (landIn m ρ c 4 (A1 m ρ (peer c 4)))) (ldS 5 (landIn m ρ c 5 (A1 m ρ (peer c 3))))
def A3 (c : Dev nD) : (cc0_scratch0 : Ref sig .tc).ty.Contents (Elt F) :=
  merge3 (A2 m ρ c) (ldS 6 (landIn m ρ c 6 (A2 m ρ (peer c 6))))

/-- The accumulator a transfer in slot `s` reads: the one of the slot's round. -/
def Asrc (c : Dev nD) : Fin 7 → (cc0_scratch0 : Ref sig .tc).ty.Contents (Elt F)
  | 0 => A0 m ρ c | 1 => A0 m ρ c | 2 => A0 m ρ c | 3 => A1 m ρ c | 4 => A1 m ρ c | 5 => A1 m ρ c | 6 => A2 m ρ c

/-- What receive slot `s` of `c` holds once its transfer has landed: the accumulator of the sender `peer c (inv s)`. -/
def Land (c : Dev nD) (s : Fin 7) : (cc0_scratch1 : Ref sig .tc).ty.Contents (Elt F) :=
  landIn m ρ c s (Asrc m ρ (peer c (inv s.val)) s)

/-- The kernel's result on device `c`. -/
def outAt (c : Dev nD) : (cc0_stg1_0 : Ref sig .tc).ty.Contents (Elt F) :=
  k0_pay1 (k0_pay3 (xstg m ρ c)) (A3 m ρ c) (k0_pay4 (xstg m ρ c))

/-! ## Holdings -/

/-- The share of the accumulator the transfer of slot `s` reads: the three transfers of a round read three disjoint
    shares that make up the whole. -/
def sh : Fin 7 → PosShare TreeShare
  | 0 => fullShare.left | 1 => fullShare.right.left | 2 => fullShare.right.right
  | 3 => fullShare.left | 4 => fullShare.right.left | 5 => fullShare.right.right
  | 6 => fullShare

/-- Receive slot `k` of device `c`, held whole at contents `f`. -/
def slotPts (c : Dev nD) (k : Fin 7) (f : Buf (Elt F) ((rS k : Memref sig .tc .vmem S2x1024 .f32).view.loc (c : Thread nD τ))) : sProp 𝕄 :=
  (rS k : Memref sig .tc .vmem S2x1024 .f32).view.loc (c : Thread nD τ) ↦[(rS k : Memref sig .tc .vmem S2x1024 .f32).view.set]{fullShare} f
/-- The accumulator of device `c`, held at share `q` at contents `f`. -/
def accPts (c : Dev nD) (q : PosShare TreeShare) (f : Buf (Elt F) ((aM : Memref sig .tc .vmem S2x1024 .f32).view.loc (c : Thread nD τ))) : sProp 𝕄 :=
  (aM : Memref sig .tc .vmem S2x1024 .f32).view.loc (c : Thread nD τ) ↦[(aM : Memref sig .tc .vmem S2x1024 .f32).view.set]{q} f

omit [FloatOps F] in
instance slotPts_storable (c : Dev nD) (k : Fin 7) (f) : BI.Storable (upEmb : UEmb _ 𝕄) (slotPts (F := F) c k f) := by unfold slotPts; infer_instance
omit [FloatOps F] in
instance accPts_storable (c : Dev nD) (q) (f) : BI.Storable (upEmb : UEmb _ 𝕄) (accPts (F := F) c q f) := by unfold accPts; infer_instance

/-! ## The schedule -/

/-- Duty `e` of `c`'s barrier cell, paid by `peer c e`: that device's receive slot `e`, at some contents. -/
def barPay (c : Dev nD) (e : Fin 7) : sProp 𝕄 := iprop(∃ f, slotPts (peer c e.val) e f)
def sendPay (c : Dev nD) (s : Fin 7) : sProp 𝕄 := accPts c (sh s) (Asrc m ρ c s)
def recvPay (c : Dev nD) (s : Fin 7) : sProp 𝕄 := slotPts c s (Land m ρ c s)

abbrev IsBar (g : GSem nD τ sig) : Prop := g.1.2 = .tc ∧ g.2 = .reg barS
abbrev IsXfer (g : GSem nD τ sig) : Prop := g.1.2 = .tc ∧ ∃ s : Fin 7, g.2 = .dma (sendSem s) ∨ g.2 = .dma (recvSem s)

/-- Which slot a DMA semaphore of the protocol belongs to (slot 0 for any other cell: unread). -/
def slotOf (sm : SemLoc sig) : Fin 7 :=
  match sm with
  | .dma q => if h : 2 ≤ q.val ∧ q.val < 9 then ⟨q.val - 2, by omega⟩ else if h : 9 ≤ q.val ∧ q.val < 16 then ⟨q.val - 9, by omega⟩ else 0
  | .reg _ => 0
def isSend (sm : SemLoc sig) : Prop := match sm with | .dma q => 2 ≤ q.val ∧ q.val < 9 | .reg _ => False
def isRecv (sm : SemLoc sig) : Prop := match sm with | .dma q => 9 ≤ q.val | .reg _ => False
instance (sm : SemLoc sig) : Decidable (isSend sm) := by unfold isSend; split <;> infer_instance
instance (sm : SemLoc sig) : Decidable (isRecv sm) := by unfold isRecv; split <;> infer_instance

/-- One round, round 0: a barrier cell has the seven duties of one unit each; a send or receive cell the duty `0` of the
    transfer's credit. -/
def Rd : Rounds.Schedule (GSem nD τ sig) (Fin 7) 𝕄 where
  duties g r := if r = 0 ∧ g.1.2 = .tc ∧ g.2 = .reg barS then Finset.univ
    else if r = 0 ∧ g.1.2 = .tc ∧ (isSend g.2 ∨ isRecv g.2) then {0} else ∅
  unitless _ := False
  amount g _ _ := if g.2 = .reg barS then 1 else N
  payload g _ d :=
    if g.2 = .reg barS then barPay g.1.1 d
    else if isSend g.2 then sendPay m ρ g.1.1 (slotOf g.2)
    else if isRecv g.2 then recvPay m ρ g.1.1 (slotOf g.2)
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m ρ).payload g r d) := by
  show BI.Storable upEmb (if g.2 = .reg barS then barPay g.1.1 d
    else if isSend g.2 then sendPay m ρ g.1.1 (slotOf g.2)
    else if isRecv g.2 then recvPay m ρ g.1.1 (slotOf g.2) else iprop(emp))
  unfold barPay sendPay recvPay
  (repeat' split) <;> infer_instance

end Cert.KernelIdealPf

end
-- ==== Proof.Ghost.lean ====
import proofs.«901058_g7700000000001059_dist_softmax_colshard_i_m1024_n512_v7x_i32_f32_1_alg».proof.Proof.Proto

/-! What each device owes at launch, the levels of the cells, the ghost state a device's body starts from, and the
pipeline's proof data. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- The receive credit device `c` owes its slot-`s` partner, and the barrier unit. -/
def Tr (c : Dev nD) (s : Fin 7) : CellTallies nD τ sig Unit := tallyAt (recvCell (peer c s.val) s) () N
def Tb (c : Dev nD) (s : Fin 7) : CellTallies nD τ sig Unit := tallyAt (barCell (peer c s.val)) () 1

/-- What `c` still owes with `n` transfers to go (those of slots `7 - n, …, 6`), summed so that the next transfer's
    credit is the last summand; -/
def OSr (c : Dev nD) : ℕ → CellTallies nD τ sig Unit
  | 0 => 0
  | n + 1 => OSr c n + Tr c ⟨(6 - n) % 7, Nat.mod_lt _ (by decide)⟩
/-- and with `n` barrier signals to go before them. -/
def OBr (c : Dev nD) : ℕ → CellTallies nD τ sig Unit
  | 0 => OSr c 7
  | n + 1 => OBr c n + Tb c ⟨(6 - n) % 7, Nat.mod_lt _ (by decide)⟩
def O₀ (c : Dev nD) : CellTallies nD τ sig Unit := OBr c 7

/-- The round of a slot. -/
def rnd (s : Fin 7) : ℕ := if s.val < 3 then 0 else if s.val < 6 then 1 else 2

def L (g : GSem nD τ sig) : Finset Unit := if g.1.2 = .tc then {()} else ∅
/-- Barrier cells at 1, the receive cells of round `r` at `2 + r`, everything else (staging, send) at 0: a device waits on
    a receive cell of a round owing only receive credits of later rounds. -/
def lv (g : GSem nD τ sig) (_ : Unit) : ℕ := if g.2 = .reg barS then 1 else if isRecv g.2 then 2 + rnd (slotOf g.2) else 0

theorem L_of_ne (g : GSem nD τ sig) (h : g.1.2 ≠ .tc) : L g = ∅ := if_neg h
theorem L_tc (c : Dev nD) (sm : SemLoc sig) : L ((c : Thread nD τ), sm) = {()} := if_pos rfl

/-! ## The cells of a device, indexed: 0 the barrier cell, 1 + s the send cell, 8 + s the receive cell of slot s -/

abbrev csem : Fin 15 → SemLoc sig
  | 0 => .reg barS
  | 1 => .dma (sendSem 0) | 2 => .dma (sendSem 1) | 3 => .dma (sendSem 2) | 4 => .dma (sendSem 3) | 5 => .dma (sendSem 4) | 6 => .dma (sendSem 5) | 7 => .dma (sendSem 6)
  | 8 => .dma (recvSem 0) | 9 => .dma (recvSem 1) | 10 => .dma (recvSem 2) | 11 => .dma (recvSem 3) | 12 => .dma (recvSem 4) | 13 => .dma (recvSem 5) | 14 => .dma (recvSem 6)
abbrev kcell (ck : Dev nD × Fin 15) : GSem nD τ sig := ((ck.1 : Thread nD τ), csem ck.2)
/-- The kernel's OWN (scoped) semaphores, as the launch theorem indexes them: the 7 send and the 7 receive semaphores. -/
abbrev osem : Fin 14 → SemLoc sig := fun k => csem ⟨k.val + 1, by omega⟩

def sIdx (s : Fin 7) : Fin 15 := ⟨1 + s.val, by omega⟩
def rIdx (s : Fin 7) : Fin 15 := ⟨8 + s.val, by omega⟩
theorem kcell_bar (c : Dev nD) : kcell (c, 0) = barCell c := rfl
theorem kcell_send (c : Dev nD) (s : Fin 7) : kcell (c, sIdx s) = sendCell c s := by fin_cases s <;> rfl
theorem kcell_recv (c : Dev nD) (s : Fin 7) : kcell (c, rIdx s) = recvCell c s := by fin_cases s <;> rfl

/-! ## The ghost state -/

/-- Every cell's invariant (at the names `K` the launch allocated them at) and that every cell is at round 0: persistent,
    the same for every device. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

/-- The tokens of the duties device `c` PAYS: duty `inv s` of its slot-`s` partner's barrier cell (its `s`-th signal), that
    partner's receive duty of slot `s` (its transfer's arrival), its own send duty of slot `s` (the transfer's departure). -/
def payToks (c : Dev nD) : sProp 𝕄 :=
  iprop((bigSep Finset.univ fun s : Fin 7 => dutyTok ER (barCell (peer c s.val)) 0 (invF s))
    ∗ (bigSep Finset.univ fun s : Fin 7 => dutyTok ER (recvCell (peer c s.val) s) 0 (0 : Fin 7))
    ∗ (bigSep Finset.univ fun s : Fin 7 => dutyTok ER (sendCell c s) 0 (0 : Fin 7)))

/-- What stays with device `c`: its positions at round 0 of its fifteen cells, and the tokens of the duties it pays. -/
def linear (c : Dev nD) : sProp 𝕄 :=
  iprop((bigSep Finset.univ fun k : Fin 15 => atPos ER (kcell (c, k)) 0 ∅ 0) ∗ payToks c)

def ghost (K : Dev nD × Fin 15 → ℕ) (c : Dev nD) : sProp 𝕄 := iprop(records m ρ K ∗ linear c)

/-- The credit tokens the launch deals `c`: its barrier's seven units and each receive cell's credit. -/
def startCred (c : Dev nD) : sProp 𝕄 :=
  iprop(cred (tallyAt (barCell c) () 7) ∗ bigSep Finset.univ fun s : Fin 7 => cred (tallyAt (recvCell c s) () N))

/-- What device `c`'s body starts from. -/
def start (c : Dev nD) : sProp 𝕄 := iprop((∃ K, ghost m ρ K c) ∗ startCred c ∗ levAts L lv)

/-- The two scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers back whole, the fourteen OWN cells at zero, closed. -/
def Φ₁ (c : Dev nD) : sProp 𝕄 :=
  iprop(scratch c ∗ bigSep Finset.univ fun k : Fin 14 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device `c`, the ghost names fixed. -/
def bodyPre (K : Dev nD × Fin 15 → ℕ) (c : Dev nD) : sProp 𝕄 :=
  iprop((ghost m ρ K c ∗ startCred c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealPf

end
-- ==== Proof.Levels.lean ====
import proofs.«901058_g7700000000001059_dist_softmax_colshard_i_m1024_n512_v7x_i32_f32_1_alg».proof.Proof.Ghost

/-! The level evidence of every wait of a device, and the credit the launch deals it.

A device waits on its two staging cells (level 0) owing everything or nothing, on its barrier cell (level 1) owing the
seven receive credits, on a send cell (level 0) owing some of the receive credits, and on the receive cell of a slot of
round r (level 2 + r) owing only receive credits of later rounds: each wait sits strictly below everything the device
then owes.  Summed over the devices, what is owed to device c's cells is seven barrier units (one from each partner) and
one transfer's credit on each of its seven receive cells (slot s from the partner that has c in slot s): the launch
deals c exactly these credit tokens. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a device's dues are positive -/

/-- With n transfers to go a device owes only receive cells of its partners in the slots 7 - n, …, 6. -/
theorem OSr_pos {c : Dev nD} {n : ℕ} {g : GSem nD τ sig} {u : Unit} (h : 0 < OSr c n g u) :
    ∃ s : Fin 7, 7 - n ≤ s.val ∧ g = recvCell (peer c s.val) s := by
  induction n with
  | zero =>
    have h0 : 0 < (0 : CellTallies nD τ sig Unit) g u := h
    rw [Pi.zero_apply, Finsupp.zero_apply] at h0
    exact absurd h0 (Nat.lt_irrefl 0)
  | succ n ih =>
    have h' : 0 < (OSr c n + Tr c ⟨(6 - n) % 7, Nat.mod_lt _ (by decide)⟩) g u := h
    rcases Pipeline.add_pos_cases h' with h1 | h1
    · obtain ⟨s, hs, hg⟩ := ih h1
      exact ⟨s, by omega, hg⟩
    · have h2 : 0 < tallyAt (recvCell (peer c ((6 - n) % 7)) ⟨(6 - n) % 7, Nat.mod_lt _ (by decide)⟩) () N g u := h1
      exact ⟨⟨(6 - n) % 7, Nat.mod_lt _ (by decide)⟩, by show 7 - (n + 1) ≤ (6 - n) % 7; omega, (Pipeline.tallyAt_pos h2).1⟩

/-- With barrier signals still to go it owes, besides, barrier cells of its partners. -/
theorem OBr_pos {c : Dev nD} {n : ℕ} {g : GSem nD τ sig} {u : Unit} (h : 0 < OBr c n g u) :
    (∃ s : Fin 7, g = recvCell (peer c s.val) s) ∨ (∃ s : Fin 7, g = barCell (peer c s.val)) := by
  induction n with
  | zero =>
    have h0 : 0 < OSr c 7 g u := h
    obtain ⟨s, _, hg⟩ := OSr_pos h0
    exact Or.inl ⟨s, hg⟩
  | succ n ih =>
    have h' : 0 < (OBr c n + Tb c ⟨(6 - n) % 7, Nat.mod_lt _ (by decide)⟩) g u := h
    rcases Pipeline.add_pos_cases h' with h1 | h1
    · exact ih h1
    · have h2 : 0 < tallyAt (barCell (peer c ((6 - n) % 7))) () 1 g u := h1
      exact Or.inr ⟨⟨(6 - n) % 7, Nat.mod_lt _ (by decide)⟩, (Pipeline.tallyAt_pos h2).1⟩

theorem O₀_pos {c : Dev nD} {g : GSem nD τ sig} {u : Unit} (h : 0 < O₀ c g u) :
    (∃ s : Fin 7, g = recvCell (peer c s.val) s) ∨ (∃ s : Fin 7, g = barCell (peer c s.val)) :=
  OBr_pos (n := 7) h

/-! ## The levels of a device's cells -/

private theorem isRecv_recvSem (s : Fin 7) : isRecv (SemLoc.dma (recvSem s) : SemLoc sig) := by
  show 9 ≤ (recvSem s).val
  rw [recvSem_val]; omega

private theorem slotOf_recvSem (s : Fin 7) : slotOf (SemLoc.dma (recvSem s) : SemLoc sig) = s := by
  have hv := recvSem_val s
  have h1 : ¬ (2 ≤ (recvSem s).val ∧ (recvSem s).val < 9) := by omega
  have h2 : 9 ≤ (recvSem s).val ∧ (recvSem s).val < 16 := by omega
  show (if h : 2 ≤ (recvSem s).val ∧ (recvSem s).val < 9 then (⟨(recvSem s).val - 2, by omega⟩ : Fin 7)
    else if h : 9 ≤ (recvSem s).val ∧ (recvSem s).val < 16 then (⟨(recvSem s).val - 9, by omega⟩ : Fin 7) else 0) = s
  rw [dif_neg h1, dif_pos h2]
  exact Fin.ext (by show (recvSem s).val - 9 = s.val; omega)

private theorem mem_L (d : Dev nD) (sm : SemLoc sig) (u : Unit) : u ∈ L ((d : Thread nD τ), sm) := by
  rw [L_tc]; exact Finset.mem_singleton_self _

/-- A barrier cell sits at level 1, -/
private theorem lv_bar (d : Dev nD) (u : Unit) : lv (barCell d) u = 1 := if_pos rfl

/-- the receive cell of slot s at level 2 + (the slot's round), -/
private theorem lv_recv (d : Dev nD) (s : Fin 7) (u : Unit) : lv (recvCell d s) u = 2 + rnd s := by
  show (if (SemLoc.dma (recvSem s) : SemLoc sig) = .reg barS then 1
    else if isRecv (SemLoc.dma (recvSem s) : SemLoc sig) then 2 + rnd (slotOf (SemLoc.dma (recvSem s) : SemLoc sig)) else 0) = 2 + rnd s
  rw [if_neg (fun h => by cases h), if_pos (isRecv_recvSem s), slotOf_recvSem]

/-- and every DMA cell below the receive semaphores (the staging cells, the send cells) at level 0. -/
private theorem lv_low (d : Dev nD) (q : DmaSem sig) (hq : q.val < 9) (u : Unit) : lv ((d : Thread nD τ), SemLoc.dma q) u = 0 := by
  show (if (SemLoc.dma q : SemLoc sig) = .reg barS then 1
    else if isRecv (SemLoc.dma q : SemLoc sig) then 2 + rnd (slotOf (SemLoc.dma q : SemLoc sig)) else 0) = 0
  rw [if_neg (fun h => by cases h), if_neg (fun h => by have h' : 9 ≤ q.val := h; omega)]

private theorem lv_send (d : Dev nD) (s : Fin 7) (u : Unit) : lv (sendCell d s) u = 0 :=
  lv_low d (sendSem s) (by rw [sendSem_val]; omega) u

/-! ## The level evidence -/

omit [FloatOps F] in
/-- The cut: a wait on a cell of c whose level is at most b, while c owes only receive credits of slots 7 - n, …, 6,
    all at levels above b. -/
theorem mayWait_cut (c : Dev nD) (sm : SemLoc sig) (n b : ℕ) (hb : lv ((c : Thread nD τ), sm) () ≤ b)
    (h : ∀ s' : Fin 7, 7 - n ≤ s'.val → b < 2 + rnd s') :
    (levAts L lv : sProp 𝕄) ⊢ MayWait (c : Thread nD τ) sm () (OSr c n) :=
  MayOwe.of_cut (L := L) (lev := lv) b
    (fun p hp => by rw [Finset.mem_singleton.mp hp]; exact mem_L c sm ())
    (fun g u hg => by obtain ⟨s', _, rfl⟩ := OSr_pos hg; exact mem_L _ _ u)
    (fun p hp => by rw [Finset.mem_singleton.mp hp]; exact hb)
    (fun g u hg => by obtain ⟨s', hs', rfl⟩ := OSr_pos hg; rw [lv_recv]; exact h s' hs')

omit [FloatOps F] in
/-- The staging cells (the two DMA semaphores below the kernel's own): waited owing everything, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp]; exact mem_L c (.dma q) ())
      (fun g u hg => by rcases O₀_pos hg with ⟨s, rfl⟩ | ⟨s, rfl⟩ <;> exact mem_L _ _ u)
      (fun p hp => by rw [Finset.mem_singleton.mp hp]; exact (lv_low c q (by omega) ()).le)
      (fun g u hg => by
        rcases O₀_pos hg with ⟨s, rfl⟩ | ⟨s, rfl⟩
        · rw [lv_recv]; omega
        · rw [lv_bar]; omega)
  · rw [MayWait_zero]; iintro -; iempintro

omit [FloatOps F] in
/-- At its barrier wait a device owes the seven receive credits: receive cells, above its barrier cell. -/
theorem mayWait_bar (c : Dev nD) :
    (levAts L lv : sProp 𝕄) ⊢ MayWait (c : Thread nD τ) (.reg barS) () (OSr c 7) :=
  mayWait_cut c (.reg barS) 7 1 (lv_bar c ()).le (fun s' _ => by omega)

omit [FloatOps F] in
/-- A send cell is at level 0, below every receive cell. -/
theorem mayWait_send (c : Dev nD) (s : Fin 7) (n : ℕ) :
    (levAts L lv : sProp 𝕄) ⊢ MayWait (c : Thread nD τ) (.dma (sendSem s)) () (OSr c n) :=
  mayWait_cut c (.dma (sendSem s)) n 0 (lv_send c s ()).le (fun s' _ => by omega)

omit [FloatOps F] in
/-- The receive cell of slot s may be waited on while only transfers of later rounds are still to go. -/
theorem mayWait_recv (c : Dev nD) (s : Fin 7) (n : ℕ) (h : ∀ s' : Fin 7, 7 - n ≤ s'.val → rnd s < rnd s') :
    (levAts L lv : sProp 𝕄) ⊢ MayWait (c : Thread nD τ) (.dma (recvSem s)) () (OSr c n) :=
  mayWait_cut c (.dma (recvSem s)) n (2 + rnd s) (lv_recv c s ()).le (fun s' hs' => by have := h s' hs'; omega)

omit [FloatOps F] in
theorem mayWait_recv0 (c : Dev nD) : (levAts L lv : sProp 𝕄) ⊢ MayWait (c : Thread nD τ) (.dma (recvSem 0)) () (OSr c 4) :=
  mayWait_recv c 0 4 (by decide)
omit [FloatOps F] in
theorem mayWait_recv1 (c : Dev nD) : (levAts L lv : sProp 𝕄) ⊢ MayWait (c : Thread nD τ) (.dma (recvSem 1)) () (OSr c 4) :=
  mayWait_recv c 1 4 (by decide)
omit [FloatOps F] in
theorem mayWait_recv2 (c : Dev nD) : (levAts L lv : sProp 𝕄) ⊢ MayWait (c : Thread nD τ) (.dma (recvSem 2)) () (OSr c 4) :=
  mayWait_recv c 2 4 (by decide)
omit [FloatOps F] in
theorem mayWait_recv3 (c : Dev nD) : (levAts L lv : sProp 𝕄) ⊢ MayWait (c : Thread nD τ) (.dma (recvSem 3)) () (OSr c 1) :=
  mayWait_recv c 3 1 (by decide)
omit [FloatOps F] in
theorem mayWait_recv4 (c : Dev nD) : (levAts L lv : sProp 𝕄) ⊢ MayWait (c : Thread nD τ) (.dma (recvSem 4)) () (OSr c 1) :=
  mayWait_recv c 4 1 (by decide)
omit [FloatOps F] in
theorem mayWait_recv5 (c : Dev nD) : (levAts L lv : sProp 𝕄) ⊢ MayWait (c : Thread nD τ) (.dma (recvSem 5)) () (OSr c 1) :=
  mayWait_recv c 5 1 (by decide)
omit [FloatOps F] in
theorem mayWait_recv6 (c : Dev nD) : (levAts L lv : sProp 𝕄) ⊢ MayWait (c : Thread nD τ) (.dma (recvSem 6)) () (OSr c 0) :=
  mayWait_recv c 6 0 (by decide)

/-- The pipeline's own waits, on the two staging cells: before the point the device owes everything, after it nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The launch credit -/

/-- Every device owing its slot-s partner one transfer's credit on that partner's slot-s receive cell, device c is dealt
    that credit on its own: the partner map of a slot is a bijection of the devices. -/
private theorem cred_recv (c : Dev nD) (s : Fin 7) :
    (Pipeline.launchCred (fun d => Tr d s) c : sProp 𝕄) ⊢ cred (tallyAt (recvCell c s) () N) :=
  Pipeline.launchCred_tallyAt (.dma (recvSem s)) (fun d => peer d s.val) (fun d => peer d (inv s.val))
    (fun d => peer_peer' d s) (fun d => peer_peer d s) () N c

/-- Likewise one unit on its barrier cell for each slot. -/
private theorem cred_bar (c : Dev nD) (s : Fin 7) :
    (Pipeline.launchCred (fun d => Tb d s) c : sProp 𝕄) ⊢ cred (tallyAt (barCell c) () 1) :=
  Pipeline.launchCred_tallyAt (.reg barS) (fun d => peer d s.val) (fun d => peer d (inv s.val))
    (fun d => peer_peer' d s) (fun d => peer_peer d s) () 1 c

private theorem cred_join (g : GSem nD τ sig) (a b : ℕ) :
    (iprop(cred (tallyAt g () a) ∗ cred (tallyAt g () b)) : sProp 𝕄) ⊢ cred (tallyAt g () (a + b)) := by
  rw [← tallyAt_add]
  exact (cred_add _ _).2

/-- Seven units on one cell are one token of seven. -/
private theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄)
      ⊢ cred (tallyAt g () 7) := by
  refine (sep_mono_right ?_).trans (cred_join g 1 6)
  refine (sep_mono_right ?_).trans (cred_join g 1 5)
  refine (sep_mono_right ?_).trans (cred_join g 1 4)
  refine (sep_mono_right ?_).trans (cred_join g 1 3)
  refine (sep_mono_right ?_).trans (cred_join g 1 2)
  exact cred_join g 1 1

private theorem sep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the devices owe at launch, summand by summand. -/
private theorem O₀_eq : (O₀ : Dev nD → CellTallies nD τ sig Unit) = fun d =>
    0 + Tr d 6 + Tr d 5 + Tr d 4 + Tr d 3 + Tr d 2 + Tr d 1 + Tr d 0
      + Tb d 6 + Tb d 5 + Tb d 4 + Tb d 3 + Tb d 2 + Tb d 1 + Tb d 0 :=
  funext fun d => rfl

/-- The launch deals device c seven units on its barrier cell (one owed by each partner) and one transfer's credit on
    each receive cell (owed by the partner that sends into that slot). -/
theorem creds (c : Dev nD) : (Pipeline.launchCred O₀ c : sProp 𝕄) ⊢ startCred c := by
  rw [O₀_eq]
  iterate 14 rw [Pipeline.launchCred_add]
  rw [Pipeline.launchCred_zero]
  unfold startCred
  rw [sep_fin7]
  iintro ⟨⟨⟨⟨⟨⟨⟨⟨⟨⟨⟨⟨⟨⟨-, R6⟩, R5⟩, R4⟩, R3⟩, R2⟩, R1⟩, R0⟩, B6⟩, B5⟩, B4⟩, B3⟩, B2⟩, B1⟩, B0⟩
  isplitl [B0 B1 B2 B3 B4 B5 B6]
  · iapply (cred_seven (F := F) (barCell c))
    isplitl [B0]; · iapply (cred_bar (F := F) c 0); iexact B0
    isplitl [B1]; · iapply (cred_bar (F := F) c 1); iexact B1
    isplitl [B2]; · iapply (cred_bar (F := F) c 2); iexact B2
    isplitl [B3]; · iapply (cred_bar (F := F) c 3); iexact B3
    isplitl [B4]; · iapply (cred_bar (F := F) c 4); iexact B4
    isplitl [B5]; · iapply (cred_bar (F := F) c 5); iexact B5
    iapply (cred_bar (F := F) c 6); iexact B6
  · isplitl [R0]; · iapply (cred_recv (F := F) c 0); iexact R0
    isplitl [R1]; · iapply (cred_recv (F := F) c 1); iexact R1
    isplitl [R2]; · iapply (cred_recv (F := F) c 2); iexact R2
    isplitl [R3]; · iapply (cred_recv (F := F) c 3); iexact R3
    isplitl [R4]; · iapply (cred_recv (F := F) c 4); iexact R4
    isplitl [R5]; · iapply (cred_recv (F := F) c 5); iexact R5
    iapply (cred_recv (F := F) c 6); iexact R6

/-- info: 'Cert.KernelIdealPf.creds' depends on axioms: [propext, Classical.choice, Quot.sound] -/
#guard_msgs in #print axioms creds

/-- info: 'Cert.KernelIdealPf.waits' depends on axioms: [propext, Classical.choice, Quot.sound] -/
#guard_msgs in #print axioms waits

end Cert.KernelIdealPf

end
-- ==== Proof.Glob.lean ====
import proofs.«901058_g7700000000001059_dist_softmax_colshard_i_m1024_n512_v7x_i32_f32_1_alg».proof.Proof.Ghost

/-! The launch's ghost-state steps: the cells and the duty tokens of the protocol's launch element, what the launch deals
each device, and the one update that allocates every cell's invariant for all devices at once and hands each device the
tokens of the duties it pays.

A device's own cells mint their own duty tokens, but the protocol has each duty paid by ANOTHER device: duty e of the
barrier cell of c by peer c e, the receive duty of slot s of c by peer c (inv s). So the global step deals the tokens
around: the devices are reindexed slot by slot along the slot's partner bijection, and the barrier duties along the
involution of the slots. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option maxRecDepth 8000 in
theorem ownSemFacts : Pipeline.OwnSemFacts cfg0.spec osem := by decide

/-! ## The launch element: its cells and its tokens -/

set_option maxRecDepth 8000 in
/-- The fifteen cells of a device are fifteen different semaphores. -/
theorem csem_injective : Function.Injective (csem : Fin 15 → SemLoc sig) := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

private theorem sendSem_injective : Function.Injective (sendSem : Fin 7 → DmaSem sig) := fun s s' h => by
  have h1 := sendSem_val s; have h2 := sendSem_val s'; rw [h] at h1; exact Fin.ext (by omega)
private theorem recvSem_injective : Function.Injective (recvSem : Fin 7 → DmaSem sig) := fun s s' h => by
  have h1 := recvSem_val s; have h2 := recvSem_val s'; rw [h] at h1; exact Fin.ext (by omega)
private theorem recvSem_ne_sendSem (s s' : Fin 7) : recvSem s ≠ sendSem s' := fun h => by
  have h1 := recvSem_val s; have h2 := sendSem_val s'; have h3 := s'.isLt; rw [h] at h1; omega

/-- The duty tokens of a device's OWN cells as minted, indexed by (device, which): the seven duties of its barrier cell, the
    one duty of each of its seven receive cells, the one duty of each of its seven send cells. -/
abbrev tokOf (cj : Dev nD × (Fin 7 ⊕ Fin 7 ⊕ Fin 7)) : GSem nD τ sig × ℕ × Fin 7 := match cj.2 with
  | .inl e => (barCell cj.1, 0, e)
  | .inr (.inl s) => (recvCell cj.1 s, 0, 0)
  | .inr (.inr s) => (sendCell cj.1 s, 0, 0)

theorem tokOf_injective : Function.Injective (tokOf : Dev nD × (Fin 7 ⊕ Fin 7 ⊕ Fin 7) → GSem nD τ sig × ℕ × Fin 7) := by
  rintro ⟨c, j⟩ ⟨c', j'⟩ h
  have h1 : c = c' := by
    have := congrArg (fun x : GSem nD τ sig × ℕ × Fin 7 => x.1.1.1) h
    rcases j with e | s | s <;> rcases j' with e' | s' | s' <;> exact this
  subst h1
  have hs : (tokOf (c, j)).1.2 = (tokOf (c, j')).1.2 := congrArg (fun x : GSem nD τ sig × ℕ × Fin 7 => x.1.2) h
  have hd : (tokOf (c, j)).2.2 = (tokOf (c, j')).2.2 := congrArg (fun x : GSem nD τ sig × ℕ × Fin 7 => x.2.2) h
  have h2 : j = j' := by
    rcases j with e | s | s <;> rcases j' with e' | s' | s'
    · exact congrArg Sum.inl (show e = e' from hd)
    · exact absurd (show (SemLoc.reg barS : SemLoc sig) = .dma (recvSem s') from hs) (fun h' => by cases h')
    · exact absurd (show (SemLoc.reg barS : SemLoc sig) = .dma (sendSem s') from hs) (fun h' => by cases h')
    · exact absurd (show (SemLoc.dma (recvSem s) : SemLoc sig) = .reg barS from hs) (fun h' => by cases h')
    · have hq : recvSem s = recvSem s' := SemLoc.dma.inj (show (SemLoc.dma (recvSem s) : SemLoc sig) = .dma (recvSem s') from hs)
      rw [recvSem_injective hq]
    · exact absurd (SemLoc.dma.inj (show (SemLoc.dma (recvSem s) : SemLoc sig) = .dma (sendSem s') from hs)) (recvSem_ne_sendSem s s')
    · exact absurd (show (SemLoc.dma (sendSem s) : SemLoc sig) = .reg barS from hs) (fun h' => by cases h')
    · exact absurd (SemLoc.dma.inj (show (SemLoc.dma (sendSem s) : SemLoc sig) = .dma (recvSem s') from hs)).symm (recvSem_ne_sendSem s' s)
    · have hq : sendSem s = sendSem s' := SemLoc.dma.inj (show (SemLoc.dma (sendSem s) : SemLoc sig) = .dma (sendSem s') from hs)
      rw [sendSem_injective hq]
  rw [h2]
def ringToks : Finset (GSem nD τ sig × ℕ × Fin 7) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun e : Fin 7 => dutyTok ER (barCell c) 0 e)
    ∗ (bigSep Finset.univ fun s : Fin 7 => dutyTok ER (recvCell c s) 0 (0 : Fin 7))
    ∗ (bigSep Finset.univ fun s : Fin 7 => dutyTok ER (sendCell c s) 0 (0 : Fin 7)))

/-- What the launch element deals device c: each of its fifteen cells' round state at counter zero, its position at round 0
    of each and that round 0 of each is reached, and its own cells' duty tokens. -/
def G (c : Dev nD) : sProp 𝕄 :=
  iprop((bigSep Finset.univ fun k : Fin 15 => roundState ER (Rd m ρ) (kcell (c, k)) 0)
    ∗ (bigSep Finset.univ fun k : Fin 15 => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-! ## Funding: the launch element is every device's share -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

private theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
private theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
/-- Fifteen summands: the first, and the other fourteen. -/
private theorem bigSep_fin15_succ (Φ : Fin 15 → sProp 𝕄) :
    bigSep Finset.univ Φ = iprop(Φ 0 ∗ bigSep Finset.univ fun k : Fin 14 => Φ ⟨k.val + 1, by omega⟩) := by
  rw [bigSep_fin15, bigSep_fin14]; rfl

/-- The kernel's own semaphores at zero are its seven send and seven receive semaphores at zero. -/
theorem ownSems0_eq (c : Dev nD) : (Pipeline.ownSems0 (Ix := Unit) (Name := ℕ) (U := UU) (Lvl := ℕ) (Val := Elt F) (τ := τ) osem c : sProp 𝕄)
    = bigSep Finset.univ fun k : Fin 14 => semVal ((c : Thread nD τ), osem k) 0 := rfl
set_option maxRecDepth 8000 in
/-- The launch's one unscoped semaphore is the barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15_succ]
  iintro ⟨HS, HB⟩
  isplitl [HB]; · iexact HB
  iexact HS

/-! ## One device: its fifteen cells' invariants allocated -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 15 => iprop(∃ κ : ℕ, cellInv ER (Rd m ρ) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m ρ) (kcell (c, k)) 0)
      ⊢ (|={Set.univ}=> bigSep Finset.univ fun k : Fin 15 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The persistent records, cell by cell -/

private theorem inv_at (K : Dev nD × Fin 15 → ℕ) (ck : Dev nD × Fin 15) :
    (bigSep Finset.univ fun ck : Dev nD × Fin 15 => (cellInv ER (Rd m ρ) (K ck) (kcell ck) : sProp 𝕄)) ⊢ cellInv ER (Rd m ρ) (K ck) (kcell ck) :=
  bigSep_elim (Finset.mem_univ ck)
private theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- The records hold every cell's invariant. -/
theorem records_inv (K : Dev nD × Fin 15 → ℕ) (ck : Dev nD × Fin 15) : records m ρ K ⊢ cellInv ER (Rd m ρ) (K ck) (kcell ck) := by
  unfold records
  iintro ⟨HI, -⟩
  iapply (inv_at m ρ K ck); iexact HI
/-- The records hold that every cell has reached round 0. -/
theorem records_reached (K : Dev nD × Fin 15 → ℕ) (ck : Dev nD × Fin 15) : records m ρ K ⊢ reached ER (kcell ck) 0 := by
  unfold records
  iintro ⟨-, HR⟩
  iapply (reached_at (F := F) ck); iexact HR

theorem records_inv_bar (K : Dev nD × Fin 15 → ℕ) (c : Dev nD) : records m ρ K ⊢ cellInv ER (Rd m ρ) (K (c, 0)) (barCell c) :=
  records_inv m ρ K (c, 0)
theorem records_inv_send (K : Dev nD × Fin 15 → ℕ) (c : Dev nD) (s : Fin 7) : records m ρ K ⊢ cellInv ER (Rd m ρ) (K (c, sIdx s)) (sendCell c s) := by
  rw [← kcell_send c s]; exact records_inv m ρ K (c, sIdx s)
theorem records_inv_recv (K : Dev nD × Fin 15 → ℕ) (c : Dev nD) (s : Fin 7) : records m ρ K ⊢ cellInv ER (Rd m ρ) (K (c, rIdx s)) (recvCell c s) := by
  rw [← kcell_recv c s]; exact records_inv m ρ K (c, rIdx s)
theorem records_reached_bar (K : Dev nD × Fin 15 → ℕ) (c : Dev nD) : records m ρ K ⊢ reached ER (barCell c) 0 :=
  records_reached m ρ K (c, 0)
theorem records_reached_send (K : Dev nD × Fin 15 → ℕ) (c : Dev nD) (s : Fin 7) : records m ρ K ⊢ reached ER (sendCell c s) 0 := by
  rw [← kcell_send c s]; exact records_reached m ρ K (c, sIdx s)
theorem records_reached_recv (K : Dev nD × Fin 15 → ℕ) (c : Dev nD) (s : Fin 7) : records m ρ K ⊢ reached ER (recvCell c s) 0 := by
  rw [← kcell_recv c s]; exact records_reached m ρ K (c, rIdx s)

theorem ghost_intro (K : Dev nD × Fin 15 → ℕ) (c : Dev nD) : iprop(records m ρ K ∗ linear c) ⊢ G' m ρ c := by
  unfold G' ghost
  iintro H
  iexists K
  iexact H

/-! ## The tokens dealt around -/

/-- A product over devices and slots, the other way round. -/
private theorem bigSep_swap (Φ : Dev nD → Fin 7 → sProp 𝕄) :
    (bigSep Finset.univ fun c : Dev nD => bigSep Finset.univ fun s : Fin 7 => Φ c s)
      = bigSep Finset.univ fun s : Fin 7 => bigSep Finset.univ fun c : Dev nD => Φ c s := by
  have h1 := bigSep_univ_prod (fun cs : Dev nD × Fin 7 => Φ cs.1 cs.2)
  have h2 := bigSep_univ_prod (fun sc : Fin 7 × Dev nD => Φ sc.2 sc.1)
  have h3 := bigSep_univ_equiv (Equiv.prodComm (Fin 7) (Dev nD)) (fun cs : Dev nD × Fin 7 => Φ cs.1 cs.2)
  exact h1.symm.trans (h3.trans h2)

/-- Slot by slot the partner map is a bijection of the devices: a product over (device, slot) is the product over
    (the device's partner in the slot, slot). -/
private theorem bigSep_around (Φ : Dev nD → Fin 7 → sProp 𝕄) :
    (bigSep Finset.univ fun c : Dev nD => bigSep Finset.univ fun s : Fin 7 => Φ c s)
      = bigSep Finset.univ fun c : Dev nD => bigSep Finset.univ fun s : Fin 7 => Φ (peer c s.val) s := by
  have h1 := bigSep_swap Φ
  have h2 := bigSep_swap (fun c s => Φ (peer c s.val) s)
  have h3 : (bigSep Finset.univ fun s : Fin 7 => bigSep Finset.univ fun c : Dev nD => Φ c s)
      = bigSep Finset.univ fun s : Fin 7 => bigSep Finset.univ fun c : Dev nD => Φ (peer c s.val) s :=
    bigSep_congr fun s _ => bigSep_univ_equiv (peerEquiv s) (fun c : Dev nD => Φ c s)
  exact h1.trans (h3.trans h2.symm)

/-- The involution of the slots as a bijection. -/
private def invEquiv : Fin 7 ≃ Fin 7 := ⟨invF, invF, invF_invF, invF_invF⟩

/-- Duty e of c's barrier cell goes to peer c e, whose slot-(inv e) partner is c: the barrier tokens by payer. -/
private theorem bar_around :
    (bigSep Finset.univ fun c : Dev nD => bigSep Finset.univ fun e : Fin 7 => (dutyTok ER (barCell c) 0 e : sProp 𝕄))
      = bigSep Finset.univ fun c : Dev nD => bigSep Finset.univ fun s : Fin 7 => (dutyTok ER (barCell (peer c s.val)) 0 (invF s) : sProp 𝕄) := by
  have h1 : (bigSep Finset.univ fun c : Dev nD => bigSep Finset.univ fun e : Fin 7 => (dutyTok ER (barCell c) 0 e : sProp 𝕄))
      = bigSep Finset.univ fun c : Dev nD => bigSep Finset.univ fun s : Fin 7 => (dutyTok ER (barCell c) 0 (invF s) : sProp 𝕄) :=
    bigSep_congr fun c _ => bigSep_univ_equiv invEquiv (fun e : Fin 7 => (dutyTok ER (barCell c) 0 e : sProp 𝕄))
  have h2 := bigSep_around (fun (c : Dev nD) (s : Fin 7) => (dutyTok ER (barCell c) 0 (invF s) : sProp 𝕄))
  exact h1.trans h2

/-- The receive duty of slot s of c goes to the device that sends into it: the receive tokens by payer. -/
private theorem recv_around :
    (bigSep Finset.univ fun c : Dev nD => bigSep Finset.univ fun s : Fin 7 => (dutyTok ER (recvCell c s) 0 (0 : Fin 7) : sProp 𝕄))
      = bigSep Finset.univ fun c : Dev nD => bigSep Finset.univ fun s : Fin 7 => (dutyTok ER (recvCell (peer c s.val) s) 0 (0 : Fin 7) : sProp 𝕄) :=
  bigSep_around (fun (c : Dev nD) (s : Fin 7) => (dutyTok ER (recvCell c s) 0 (0 : Fin 7) : sProp 𝕄))

/-- Every device's own cells' tokens are every device's tokens of the duties it pays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  ihave H1' := (Entails.of_eq (bar_around (F := F))) $$ H1
  ihave H2' := (Entails.of_eq (recv_around (F := F))) $$ H2
  isplitl [H1']; · iexact H1'
  isplitl [H2']; · iexact H2'
  iexact H3

/-! ## All devices: the global step -/

theorem regroup :
    (bigSep Finset.univ fun c : Dev nD => iprop((bigSep Finset.univ fun k : Fin 15 => iprop(∃ κ : ℕ, cellInv ER (Rd m ρ) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealPf.glob' depends on axioms: [propext, Classical.choice, Quot.sound] -/
#guard_msgs in #print axioms glob

end Cert.KernelIdealPf

end
-- ==== Proof.Tables.lean ====
import proofs.«901058_g7700000000001059_dist_softmax_colshard_i_m1024_n512_v7x_i32_f32_1_alg».proof.Proof.Proto

/-! The schedule's tables, cell by cell.

The schedule has one round. A device's barrier cell has the seven duties of one unit each, duty `e` handing over the
receive slot `e` of the device's slot-`e` partner; its send cell and its receive cell of slot `s` have the one duty `0`
of the transfer's credit, handing back the share of the accumulator the transfer read, and the slot holding what
landed. The equations below read these facts off the schedule for the three kinds of cell, after the arithmetic
of the semaphore numbers that tells the kinds apart: the send semaphores are numbers 2..8, the receive semaphores
numbers 9..15 of the device's DMA semaphores, slot `s` at offset `s`. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores

A send semaphore's number is `2 + s`, a receive semaphore's `9 + s`, with `s < 7`: so a send semaphore is in the send
range and not in the receive range, a receive semaphore the other way round, each gives back its slot, the two
families are injective and disjoint, and neither is the barrier semaphore (a regular one). -/

theorem slotOf_send (s : Fin 7) : slotOf (.dma (sendSem s)) = s := by
  have hv := sendSem_val s
  have hs := s.isLt
  unfold slotOf
  dsimp only
  split
  · exact Fin.ext (show (sendSem s).val - 2 = s.val by omega)
  · exfalso; omega

theorem isSend_send (s : Fin 7) : isSend (.dma (sendSem s)) := by
  have hv := sendSem_val s
  have hs := s.isLt
  show 2 ≤ (sendSem s).val ∧ (sendSem s).val < 9
  omega

theorem not_isRecv_send (s : Fin 7) : ¬ isRecv (.dma (sendSem s)) := by
  have hv := sendSem_val s
  have hs := s.isLt
  show ¬ 9 ≤ (sendSem s).val
  omega

theorem slotOf_recv (s : Fin 7) : slotOf (.dma (recvSem s)) = s := by
  have hv := recvSem_val s
  have hs := s.isLt
  unfold slotOf
  dsimp only
  split
  · exfalso; omega
  · split
    · exact Fin.ext (show (recvSem s).val - 9 = s.val by omega)
    · exfalso; omega

theorem isRecv_recv (s : Fin 7) : isRecv (.dma (recvSem s)) := by
  have hv := recvSem_val s
  show 9 ≤ (recvSem s).val
  omega

theorem not_isSend_recv (s : Fin 7) : ¬ isSend (.dma (recvSem s)) := by
  have hv := recvSem_val s
  show ¬ (2 ≤ (recvSem s).val ∧ (recvSem s).val < 9)
  omega

theorem sendSem_injective : Function.Injective sendSem := fun a b h => by
  have ha := sendSem_val a
  have hb := sendSem_val b
  rw [h] at ha
  exact Fin.ext (by omega)

theorem recvSem_injective : Function.Injective recvSem := fun a b h => by
  have ha := recvSem_val a
  have hb := recvSem_val b
  rw [h] at ha
  exact Fin.ext (by omega)

theorem send_ne_recv (s s' : Fin 7) : (SemLoc.dma (sendSem s) : SemLoc sig) ≠ .dma (recvSem s') := fun h => by
  have hs := sendSem_val s
  have hr := recvSem_val s'
  have hlt := s.isLt
  rw [SemLoc.dma.inj h] at hs
  omega

theorem recv_ne_send (s s' : Fin 7) : (SemLoc.dma (recvSem s) : SemLoc sig) ≠ .dma (sendSem s') :=
  fun h => send_ne_recv s' s h.symm

theorem send_ne_bar (s : Fin 7) : (SemLoc.dma (sendSem s) : SemLoc sig) ≠ .reg barS := fun h => by cases h
theorem recv_ne_bar (s : Fin 7) : (SemLoc.dma (recvSem s) : SemLoc sig) ≠ .reg barS := fun h => by cases h

/-! ## The duties: round 0 only -/

theorem duties_bar (c : Dev nD) : (Rd m ρ).duties (barCell c) 0 = Finset.univ := by
  dsimp only [Rd]; exact if_pos ⟨rfl, rfl, rfl⟩

theorem duties_send (c : Dev nD) (s : Fin 7) : (Rd m ρ).duties (sendCell c s) 0 = {0} := by
  dsimp only [Rd]; rw [if_neg (fun h => send_ne_bar s h.2.2)]; exact if_pos ⟨rfl, rfl, .inl (isSend_send s)⟩

theorem duties_recv (c : Dev nD) (s : Fin 7) : (Rd m ρ).duties (recvCell c s) 0 = {0} := by
  dsimp only [Rd]; rw [if_neg (fun h => recv_ne_bar s h.2.2)]; exact if_pos ⟨rfl, rfl, .inr (isRecv_recv s)⟩

theorem duties_later (g : GSem nD τ sig) : ∀ r, 1 ≤ r → (Rd m ρ).duties g r = ∅ :=
  fun r hr => by
    dsimp only [Rd]
    rw [if_neg fun h => by have := h.1; omega, if_neg fun h => by have := h.1; omega]

/-! ## The amounts: one unit a barrier signal, the accumulator's credit a transfer -/

theorem amount_bar (c : Dev nD) (d : Fin 7) : (Rd m ρ).amount (barCell c) 0 d = 1 := by
  dsimp only [Rd]; exact if_pos rfl

theorem amount_send (c : Dev nD) (s : Fin 7) (d : Fin 7) : (Rd m ρ).amount (sendCell c s) 0 d = N := by
  dsimp only [Rd]; exact if_neg (send_ne_bar s)

theorem amount_recv (c : Dev nD) (s : Fin 7) (d : Fin 7) : (Rd m ρ).amount (recvCell c s) 0 d = N := by
  dsimp only [Rd]; exact if_neg (recv_ne_bar s)

/-! ## What a round expects: seven units on the barrier cell, one transfer's credit on a send or receive cell -/

theorem expect_bar (c : Dev nD) : (Rd m ρ).expect (barCell c) 0 = 7 := by
  unfold Schedule.expect Schedule.amountOf
  rw [duties_bar, Finset.sum_congr rfl fun d _ => amount_bar m ρ c d, Finset.sum_const, Finset.card_univ, Fintype.card_fin,
    smul_eq_mul]

theorem expect_send (c : Dev nD) (s : Fin 7) : (Rd m ρ).expect (sendCell c s) 0 = N := by
  unfold Schedule.expect Schedule.amountOf; rw [duties_send, Finset.sum_singleton, amount_send]

theorem expect_recv (c : Dev nD) (s : Fin 7) : (Rd m ρ).expect (recvCell c s) 0 = N := by
  unfold Schedule.expect Schedule.amountOf; rw [duties_recv, Finset.sum_singleton, amount_recv]

/-! ## The payloads -/

theorem payload_bar (c : Dev nD) (e : Fin 7) : (Rd m ρ).payload (barCell c) 0 e = barPay c e := by
  dsimp only [Rd]; exact if_pos rfl

theorem payload_send (c : Dev nD) (s : Fin 7) (d : Fin 7) : (Rd m ρ).payload (sendCell c s) 0 d = sendPay m ρ c s := by
  dsimp only [Rd]; rw [if_neg (send_ne_bar s), if_pos (isSend_send s), slotOf_send]

theorem payload_recv (c : Dev nD) (s : Fin 7) (d : Fin 7) : (Rd m ρ).payload (recvCell c s) 0 d = recvPay m ρ c s := by
  dsimp only [Rd]; rw [if_neg (recv_ne_bar s), if_neg (not_isSend_recv s), if_pos (isRecv_recv s), slotOf_recv]

/-- Seen from the payer: device `c` pays duty `inv k` of the barrier cell of its slot-`k` partner (whose slot-`inv k`
    partner it is), and what that duty hands over is `c`'s own receive slot `inv k`. -/
theorem payload_bar_peer (c : Dev nD) (k : Fin 7) :
    (Rd m ρ).payload (barCell (peer c k.val)) 0 (invF k) = iprop(∃ f, slotPts c (invF k) f) := by
  rw [payload_bar]
  show iprop(∃ f, slotPts (F := F) (peer (peer c k.val) (inv k.val)) (invF k) f) = _
  rw [peer_peer c k]

/-! ## A whole round's payloads, none taken yet -/

theorem rest_bar (c : Dev nD) :
    bigSep ((Rd m ρ).duties (barCell c) 0 \ ∅) (fun d => (Rd m ρ).payload (barCell c) 0 d)
      = bigSep Finset.univ (fun e : Fin 7 => barPay (F := F) c e) := by
  rw [Finset.sdiff_empty, duties_bar]
  exact bigSep_congr fun e _ => payload_bar m ρ c e

theorem rest_send (c : Dev nD) (s : Fin 7) :
    bigSep ((Rd m ρ).duties (sendCell c s) 0 \ ∅) (fun d => (Rd m ρ).payload (sendCell c s) 0 d) = sendPay m ρ c s := by
  rw [Finset.sdiff_empty, duties_send, bigSep_singleton, payload_send]

theorem rest_recv (c : Dev nD) (s : Fin 7) :
    bigSep ((Rd m ρ).duties (recvCell c s) 0 \ ∅) (fun d => (Rd m ρ).payload (recvCell c s) 0 d) = recvPay m ρ c s := by
  rw [Finset.sdiff_empty, duties_recv, bigSep_singleton, payload_recv]

/-- Every contribution to every cell is of at least one unit. -/
theorem not_unitless (g : GSem nD τ sig) : ¬ (Rd m ρ).unitless g := fun h => h

/-- info: 'Cert.KernelIdealPf.payload_bar_peer' depends on axioms: [propext, Classical.choice, Quot.sound] -/
#guard_msgs in #print axioms payload_bar_peer

/-- info: 'Cert.KernelIdealPf.rest_bar' depends on axioms: [propext, Classical.choice, Quot.sound] -/
#guard_msgs in #print axioms rest_bar

/-- info: 'Cert.KernelIdealPf.rest_send' depends on axioms: [propext, Classical.choice, Quot.sound] -/
#guard_msgs in #print axioms rest_send

/-- info: 'Cert.KernelIdealPf.rest_recv' depends on axioms: [propext, Classical.choice, Quot.sound] -/
#guard_msgs in #print axioms rest_recv

end Cert.KernelIdealPf

end
-- ==== Proof.Regions.lean ====
import proofs.«901058_g7700000000001059_dist_softmax_colshard_i_m1024_n512_v7x_i32_f32_1_alg».proof.Proof.Proto

/-! How the two scratch buffers are cut and rejoined.

The receive buffer (7 x 2 x 1024) is held whole at the start and at the end of a device's body; in between, each of its
seven slots is held on its own: lent to the partner whose transfer writes it, and handed back holding that partner's
accumulator. The slots are the rectangles `[k, k+1) x [0, 2) x [0, 1024)`: pairwise disjoint (they differ in the first
coordinate) and covering the buffer, so the whole buffer is the separating conjunction of the seven slots, and seven
slots at seven contents join to the whole buffer at the contents pieced together. A transfer writes a slot through
all of the slot's indices, so what the slot held before does not show in what it holds after; a load of a slot reads
exactly the slot's elements. The accumulator (2 x 1024) is read by the three transfers of a round at three shares that
make up the full share. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven pairwise disjoint element sets that cover a buffer

Stated once for any buffer and any seven sets: the whole buffer is the separating conjunction of the seven parts at one
contents, and seven parts held at seven contents join to the whole buffer at the contents pieced together from them. -/

section Seven

variable {ℓ : Loc nD τ sig} {q : PosShare TreeShare}

omit [FloatOps F] in
/-- Seven sets that cover the buffer have the whole buffer as their union. -/
theorem union7 (S : Fin 7 → Finset (Idx ℓ)) (hc : ∀ i, ∃ k, i ∈ S k) :
    S 0 ∪ (S 1 ∪ (S 2 ∪ (S 3 ∪ (S 4 ∪ (S 5 ∪ S 6))))) = Finset.univ := by
  ext i
  simp only [Finset.mem_union, Finset.mem_univ, iff_true]
  obtain ⟨k, hk⟩ := hc i
  match k, hk with
  | 0, h => exact .inl h
  | 1, h => exact .inr (.inl h)
  | 2, h => exact .inr (.inr (.inl h))
  | 3, h => exact .inr (.inr (.inr (.inl h)))
  | 4, h => exact .inr (.inr (.inr (.inr (.inl h))))
  | 5, h => exact .inr (.inr (.inr (.inr (.inr (.inl h)))))
  | 6, h => exact .inr (.inr (.inr (.inr (.inr (.inr h)))))

omit [FloatOps F] in
/-- Each of the seven is disjoint from the union of the later ones. -/
theorem disj7 (S : Fin 7 → Finset (Idx ℓ)) (hd : ∀ k k', k ≠ k' → Disjoint (S k) (S k')) :
    Disjoint (S 0) (S 1 ∪ (S 2 ∪ (S 3 ∪ (S 4 ∪ (S 5 ∪ S 6)))))
      ∧ Disjoint (S 1) (S 2 ∪ (S 3 ∪ (S 4 ∪ (S 5 ∪ S 6))))
      ∧ Disjoint (S 2) (S 3 ∪ (S 4 ∪ (S 5 ∪ S 6)))
      ∧ Disjoint (S 3) (S 4 ∪ (S 5 ∪ S 6))
      ∧ Disjoint (S 4) (S 5 ∪ S 6)
      ∧ Disjoint (S 5) (S 6) := by
  simp only [Finset.disjoint_union_right]
  exact ⟨⟨hd 0 1 (by decide), hd 0 2 (by decide), hd 0 3 (by decide), hd 0 4 (by decide), hd 0 5 (by decide), hd 0 6 (by decide)⟩,
    ⟨hd 1 2 (by decide), hd 1 3 (by decide), hd 1 4 (by decide), hd 1 5 (by decide), hd 1 6 (by decide)⟩,
    ⟨hd 2 3 (by decide), hd 2 4 (by decide), hd 2 5 (by decide), hd 2 6 (by decide)⟩,
    ⟨hd 3 4 (by decide), hd 3 5 (by decide), hd 3 6 (by decide)⟩,
    ⟨hd 4 5 (by decide), hd 4 6 (by decide)⟩,
    hd 5 6 (by decide)⟩

/-- The whole buffer, cut into the seven parts. -/
theorem split7 (S : Fin 7 → Finset (Idx ℓ)) (hd : ∀ k k', k ≠ k' → Disjoint (S k) (S k')) (hc : ∀ i, ∃ k, i ∈ S k)
    (f : Buf (Elt F) ℓ) :
    (ℓ ↦{q} f : sProp 𝕄)
      ⊢ iprop((ℓ ↦[S 0]{q} f) ∗ (ℓ ↦[S 1]{q} f) ∗ (ℓ ↦[S 2]{q} f) ∗ (ℓ ↦[S 3]{q} f) ∗ (ℓ ↦[S 4]{q} f) ∗ (ℓ ↦[S 5]{q} f)
          ∗ (ℓ ↦[S 6]{q} f)) := by
  obtain ⟨d0, d1, d2, d3, d4, d5⟩ := disj7 S hd
  rw [← union7 S hc]
  refine (pointsTo_union d0).1.trans (sep_mono_right ?_)
  refine (pointsTo_union d1).1.trans (sep_mono_right ?_)
  refine (pointsTo_union d2).1.trans (sep_mono_right ?_)
  refine (pointsTo_union d3).1.trans (sep_mono_right ?_)
  refine (pointsTo_union d4).1.trans (sep_mono_right ?_)
  exact (pointsTo_union d5).1

/-- One more part joined to parts already joined at some contents. -/
theorem join_ex {I J : Finset (Idx ℓ)} (h : Disjoint I J) (f : Buf (Elt F) ℓ) :
    iprop((ℓ ↦[I]{q} f) ∗ ∃ g : Buf (Elt F) ℓ, ℓ ↦[J]{q} g) ⊢ (iprop(∃ g : Buf (Elt F) ℓ, ℓ ↦[I ∪ J]{q} g) : sProp 𝕄) := by
  iintro ⟨H, %g, Hg⟩
  iexists (J.piecewise g f)
  iapply (pointsTo_join h)
  isplitl [H]
  · iexact H
  · iexact Hg

/-- Seven parts, each at its own contents, joined to the whole buffer. -/
theorem join7 (S : Fin 7 → Finset (Idx ℓ)) (hd : ∀ k k', k ≠ k' → Disjoint (S k) (S k')) (hc : ∀ i, ∃ k, i ∈ S k)
    (f0 f1 f2 f3 f4 f5 f6 : Buf (Elt F) ℓ) :
    iprop((ℓ ↦[S 0]{q} f0) ∗ (ℓ ↦[S 1]{q} f1) ∗ (ℓ ↦[S 2]{q} f2) ∗ (ℓ ↦[S 3]{q} f3) ∗ (ℓ ↦[S 4]{q} f4) ∗ (ℓ ↦[S 5]{q} f5)
        ∗ (ℓ ↦[S 6]{q} f6))
      ⊢ (iprop(∃ g : Buf (Elt F) ℓ, ℓ ↦{q} g) : sProp 𝕄) := by
  obtain ⟨d0, d1, d2, d3, d4, d5⟩ := disj7 S hd
  rw [← union7 S hc]
  have e6 : (ℓ ↦[S 6]{q} f6 : sProp 𝕄) ⊢ iprop(∃ g : Buf (Elt F) ℓ, ℓ ↦[S 6]{q} g) := by
    iintro H; iexists f6; iexact H
  have e5 := (sep_mono_right e6).trans (join_ex d5 f5)
  have e4 := (sep_mono_right e5).trans (join_ex d4 f4)
  have e3 := (sep_mono_right e4).trans (join_ex d3 f3)
  have e2 := (sep_mono_right e3).trans (join_ex d2 f2)
  have e1 := (sep_mono_right e2).trans (join_ex d1 f1)
  exact (sep_mono_right e1).trans (join_ex d0 f0)

end Seven

/-! ## The receive buffer: seven slots

Slot `k` is the rectangle `[k, k+1) x [0, 2) x [0, 1024)` of the 7 x 2 x 1024 buffer; the 2 x 1024 memref a transfer
writes is that rectangle re-indexed, so it has the rectangle's elements. -/

/-- The elements under the memref of slot `k` are the rectangle's. -/
theorem rS_set (k : Fin 7) :
    (rS k : Memref sig .tc .vmem S2x1024 .f32).view.set = (rSlot k).set :=
  (View.set_reshape ((View.whole cc0_scratch1 : View sig .tc _ _ _).slice (rSlot k))
      (s' := S2x1024) squeezes_S1x2x1024_S2x1024.numel_eq).trans
    (View.set_slice_whole cc0_scratch1 (rSlot k))

/-- Two slots differ in the first coordinate of every element. -/
theorem rSlot_disjoint {k k' : Fin 7} (h : k ≠ k') : Disjoint (rSlot k).set (rSlot k').set := by
  have hk : k.val ≠ k'.val := fun e => h (Fin.ext e)
  refine Rect.unit_disjoint (s := S7x2x1024) (0 : Fin 3) ?_
  show k.val + 1 ≤ k'.val ∨ k'.val + 1 ≤ k.val
  omega

/-- Every element lies in the slot its first coordinate names. -/
theorem rSlot_cover (i : S7x2x1024.Idx) : ∃ k : Fin 7, i ∈ (rSlot k).set := by
  have h0 : (i (0 : Fin 3)).val < 7 := (i (0 : Fin 3)).isLt
  have h1 : (i (1 : Fin 3)).val < 2 := (i (1 : Fin 3)).isLt
  have h2 : (i (2 : Fin 3)).val < 1024 := (i (2 : Fin 3)).isLt
  refine ⟨⟨(i (0 : Fin 3)).val, h0⟩, Rect.mem_set_unit.mpr ?_⟩
  intro (a : Fin 3)
  fin_cases a
  · exact ⟨Nat.le_refl _, Nat.lt_succ_self _⟩
  · exact ⟨Nat.zero_le _, (by omega : (i (1 : Fin 3)).val < 0 + 2)⟩
  · exact ⟨Nat.zero_le _, (by omega : (i (2 : Fin 3)).val < 0 + 1024)⟩

theorem rS_disjoint (k k' : Fin 7) (h : k ≠ k') :
    Disjoint (rS k : Memref sig .tc .vmem S2x1024 .f32).view.set (rS k' : Memref sig .tc .vmem S2x1024 .f32).view.set := by
  rw [rS_set, rS_set]; exact rSlot_disjoint h

theorem rS_cover (i : S7x2x1024.Idx) : ∃ k : Fin 7, i ∈ (rS k : Memref sig .tc .vmem S2x1024 .f32).view.set := by
  obtain ⟨k, hk⟩ := rSlot_cover i
  exact ⟨k, by rw [rS_set]; exact hk⟩

/-- Slot `k` held whole, stated on the receive buffer's own location and the rectangle's elements. -/
theorem slotPts_eq (c : Dev nD) (k : Fin 7) (f : Buf (Elt F) ((c : Thread nD τ).loc cc0_scratch1)) :
    slotPts c k f = (((c : Thread nD τ).loc cc0_scratch1) ↦[(rSlot k).set]{fullShare} f : sProp 𝕄) := by
  unfold slotPts
  exact congrArg (fun S => (pointsTo ((c : Thread nD τ).loc cc0_scratch1) S fullShare f : sProp 𝕄)) (rS_set k)

/-- The receive buffer held whole is its seven slots held whole, at the same contents. -/
theorem slots_split (c : Dev nD) (f : Buf (Elt F) ((c : Thread nD τ).loc cc0_scratch1)) :
    (((c : Thread nD τ).loc cc0_scratch1) ↦{fullShare} f : sProp 𝕄)
      ⊢ iprop(slotPts c 0 f ∗ slotPts c 1 f ∗ slotPts c 2 f ∗ slotPts c 3 f ∗ slotPts c 4 f ∗ slotPts c 5 f ∗ slotPts c 6 f) := by
  unfold slotPts
  exact split7 (ℓ := (c : Thread nD τ).loc cc0_scratch1) (q := fullShare)
    (fun k => (rS k : Memref sig .tc .vmem S2x1024 .f32).view.set) rS_disjoint rS_cover f

/-- The seven slots, each held whole at its own contents, are the receive buffer held whole at some contents. -/
theorem slots_join (c : Dev nD) (f0 f1 f2 f3 f4 f5 f6 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5 ∗ slotPts c 6 f6)
      ⊢ (iprop(∃ f : Buf (Elt F) ((c : Thread nD τ).loc cc0_scratch1), ((c : Thread nD τ).loc cc0_scratch1) ↦{fullShare} f) : sProp 𝕄) := by
  unfold slotPts
  exact join7 (ℓ := (c : Thread nD τ).loc cc0_scratch1) (q := fullShare)
    (fun k => (rS k : Memref sig .tc .vmem S2x1024 .f32).view.set) rS_disjoint rS_cover f0 f1 f2 f3 f4 f5 f6

/-- A transfer's write through slot `k` covers the slot, so what the slot held before does not show: the slot holds
    what the same write over the launch contents leaves. -/
theorem land_congr (c : Dev nD) (k : Fin 7)
    (fd : Buf (Elt F) ((rS k : Memref sig .tc .vmem S2x1024 .f32).view.loc (c : Thread nD τ)))
    (a : (cc0_scratch0 : Ref sig .tc).ty.Contents (Elt F)) :
    slotPts c k ((rS k : Memref sig .tc .vmem S2x1024 .f32).view.write (Elt F) fd
        ((aM : Memref sig .tc .vmem S2x1024 .f32).view.read (Elt F) a) Finset.univ)
      = slotPts c k (landIn m ρ c k a) := by
  unfold slotPts landIn
  exact pointsTo_congr fun i hi => View.write_congr (fun _ _ _ => rfl) fun h => absurd hi h

/-- The elements a load of slot `k` reads are the slot's, -/
theorem slot_load_set (k : Fin 7) :
    (rM : Memref sig .tc .vmem S7x2x1024 .f32).view.setOn (rSlot k).toLoadRect.set
      = (rS k : Memref sig .tc .vmem S2x1024 .f32).view.set :=
  (Finset.map_refl (s := (rSlot k).set)).trans (rS_set k).symm

/-- so the load is within a holding of the slot alone (the footprint a load asks for); -/
theorem slot_load_subset (k : Fin 7) :
    (rM : Memref sig .tc .vmem S7x2x1024 .f32).view.setOn (rSlot k).toLoadRect.set
      ⊆ (rS k : Memref sig .tc .vmem S2x1024 .f32).view.set := by
  rw [slot_load_set]

/-- the same by the view the load goes through. -/
theorem slot_access_set (k : Fin 7) :
    ((rM : Memref sig .tc .vmem S7x2x1024 .f32).access (rSlot k) : View sig .tc _ _ _).set
      = (rS k : Memref sig .tc .vmem S2x1024 .f32).view.set :=
  (View.set_slice_whole cc0_scratch1 (rSlot k)).trans (rS_set k).symm

theorem slot_access_subset (k : Fin 7) :
    ((rM : Memref sig .tc .vmem S7x2x1024 .f32).access (rSlot k) : View sig .tc _ _ _).set
      ⊆ (rS k : Memref sig .tc .vmem S2x1024 .f32).view.set := by
  rw [slot_access_set]

/-! ## The accumulator: three shares -/

/-- The accumulator's memref is its whole buffer. -/
theorem accPts_whole (c : Dev nD) (f : Buf (Elt F) ((c : Thread nD τ).loc cc0_scratch0)) :
    accPts c fullShare f = (((c : Thread nD τ).loc cc0_scratch0) ↦{fullShare} f : sProp 𝕄) := by
  unfold accPts
  exact congrArg (fun S => (pointsTo ((c : Thread nD τ).loc cc0_scratch0) S fullShare f : sProp 𝕄))
    (View.set_whole cc0_scratch0)

theorem accPts_whole_q (c : Dev nD) (q : PosShare TreeShare) (f : Buf (Elt F) ((c : Thread nD τ).loc cc0_scratch0)) :
    accPts c q f = (((c : Thread nD τ).loc cc0_scratch0) ↦{q} f : sProp 𝕄) := by
  unfold accPts
  exact congrArg (fun S => (pointsTo ((c : Thread nD τ).loc cc0_scratch0) S q f : sProp 𝕄))
    (View.set_whole cc0_scratch0)

/-- The full share is its left half and the two halves of its right half: the shares the three transfers of a round read. -/
theorem acc_split3 (c : Dev nD) (f : Buf (Elt F) ((aM : Memref sig .tc .vmem S2x1024 .f32).view.loc (c : Thread nD τ))) :
    accPts c fullShare f ⊣⊢ iprop(accPts c (sh 0) f ∗ accPts c (sh 1) f ∗ accPts c (sh 2) f) := by
  unfold accPts
  have h1 : ((aM : Memref sig .tc .vmem S2x1024 .f32).view.loc (c : Thread nD τ) ↦[(aM : Memref sig .tc .vmem S2x1024 .f32).view.set]{fullShare} f : sProp 𝕄)
      ⊣⊢ iprop(((aM : Memref sig .tc .vmem S2x1024 .f32).view.loc (c : Thread nD τ) ↦[(aM : Memref sig .tc .vmem S2x1024 .f32).view.set]{fullShare.left} f)
        ∗ (aM : Memref sig .tc .vmem S2x1024 .f32).view.loc (c : Thread nD τ) ↦[(aM : Memref sig .tc .vmem S2x1024 .f32).view.set]{fullShare.right} f) :=
    pointsTo_share (PosShare.mem_left_op_right fullShare)
  have h2 : ((aM : Memref sig .tc .vmem S2x1024 .f32).view.loc (c : Thread nD τ) ↦[(aM : Memref sig .tc .vmem S2x1024 .f32).view.set]{fullShare.right} f : sProp 𝕄)
      ⊣⊢ iprop(((aM : Memref sig .tc .vmem S2x1024 .f32).view.loc (c : Thread nD τ) ↦[(aM : Memref sig .tc .vmem S2x1024 .f32).view.set]{fullShare.right.left} f)
        ∗ (aM : Memref sig .tc .vmem S2x1024 .f32).view.loc (c : Thread nD τ) ↦[(aM : Memref sig .tc .vmem S2x1024 .f32).view.set]{fullShare.right.right} f) :=
    pointsTo_share (PosShare.mem_left_op_right fullShare.right)
  exact ⟨h1.1.trans (sep_mono_right h2.1), (sep_mono_right h2.2).trans h1.2⟩

/-- The same for the second round's slots, which read the same three shares. -/
theorem acc_split3' (c : Dev nD) (f : Buf (Elt F) ((aM : Memref sig .tc .vmem S2x1024 .f32).view.loc (c : Thread nD τ))) :
    accPts c fullShare f ⊣⊢ iprop(accPts c (sh 3) f ∗ accPts c (sh 4) f ∗ accPts c (sh 5) f) :=
  acc_split3 c f

/-- The last round's one transfer reads the accumulator at the full share. -/
theorem sh_six : sh 6 = fullShare := rfl

end Cert.KernelIdealPf

end
-- ==== Proof.Steps.lean ====
import proofs.«901058_g7700000000001059_dist_softmax_colshard_i_m1024_n512_v7x_i32_f32_1_alg».proof.Proof.Ghost
import proofs.«901058_g7700000000001059_dist_softmax_colshard_i_m1024_n512_v7x_i32_f32_1_alg».proof.Proof.Tables
import proofs.«901058_g7700000000001059_dist_softmax_colshard_i_m1024_n512_v7x_i32_f32_1_alg».proof.Proof.Regions

/-! The protocol's steps on one device, each the rounds library's rule at this schedule's cells: a barrier signal, the
barrier wait, a transfer, and the waits on a send and on a receive cell. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A receive slot's view credits as many units as the accumulator's. -/
theorem slot_credit (k : Fin 7) : (rS k : Memref sig .tc .vmem S2x1024 .f32).view.dmaCredit = N := by
  revert k; decide

/-- The `k`-th barrier signal of device `c`, addressed to `n = peer c k`: it pays duty `inv k` of that device's barrier cell
    and hands over `c`'s own receive slot `inv k`, the one that device's transfer will write. -/
theorem wp_sig (κ : ℕ) (c : Dev nD) (k : Fin 7) (n : Dev nD) (hn : n = peer c k.val)
    {α : Type} {Q : α → sProp 𝕄} {kont : PUnit → Prog (TpuEff nD τ sig (Elt F) Λ₀ .tc) α}
    (O : CellTallies nD τ sig Unit) (W : Waits sig Unit) :
    iprop(cellInv ER (Rd m ρ) κ (barCell (peer c k.val)) ∗ owes (c : Thread nD τ) (O + Tb c k) W
        ∗ dutyTok ER (barCell (peer c k.val)) 0 (invF k) ∗ (∃ f, slotPts c (invF k) f) ∗ reached ER (barCell (peer c k.val)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  rw [← payload_bar_peer m ρ c k]
  exact Rounds.wp_signal 𝒱₀ ER (Rd m ρ) (c : Thread nD τ) none (dst := (peer c k.val : Thread nD τ)) (κ := κ)
    (d := invF k) (by rw [duties_bar]; exact Finset.mem_univ _) (amount_bar m ρ (peer c k.val) (invF k)) () O rfl

/-- The wait for 7 on the own barrier cell, owing the seven receive credits: it brings the seven partners' receive slots. -/
theorem wp_barwait (κ : ℕ) (c : Dev nD)
    {α : Type} {Q : α → sProp 𝕄} {kont : PUnit → Prog (TpuEff nD τ sig (Elt F) Λ₀ .tc) α} (W : Waits sig Unit) :
    iprop(cellInv ER (Rd m ρ) κ (barCell c) ∗ cred (tallyAt (barCell c) () 7) ∗ owes (c : Thread nD τ) (OSr c 7) W
        ∗ MayWait (c : Thread nD τ) (.reg barS) () (OSr c 7) ∗ atPos ER (barCell c) 0 ∅ 0)
      ⊢ iprop(((owes (c : Thread nD τ) (OSr c 7) (insert (SemLoc.reg barS, ()) W) ∗ atPos ER (barCell c) 1 ∅ 0 ∗ reached ER (barCell c) 1
              ∗ bigSep Finset.univ (fun e : Fin 7 => barPay (F := F) c e))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 7) kont) Q) := by
  rw [← rest_bar m ρ c]
  exact Rounds.wp_wait_rest_token 𝒱₀ ER (Rd m ρ) (c : Thread nD τ) none (κ := κ)
      (wpE_semWait_eq 𝒱₀ (c : Thread nD τ) none Set.univ) (Set.mem_univ _) () (O := OSr c 7) (W := W) (R := 0) (m := 0) (T := ∅)
      (by rw [expect_bar])

/-- The transfer of slot `s`, addressed to `n = peer c s`: the accumulator of the slot's round, read at the slot's share,
    into that device's receive slot `s`. -/
theorem wp_snd (κ₁ κ₂ : ℕ) (c : Dev nD) (s : Fin 7) (n : Dev nD) (hn : n = peer c s.val)
    {hsc : (rS s : Memref sig (Dev.tc n : Thread nD τ).2.kind .vmem S2x1024 .f32).view.ref.isScScratch = false}
    {hsrc : (aM : Memref sig .tc .vmem S2x1024 .f32).view.WordExact} {hdst : (rS s : Memref sig .tc .vmem S2x1024 .f32).view.WordExact}
    {hsem : DmaTarget.Typed .vmem (.dma (recvSem s)) (.remote (Dev.tc n : Thread nD τ) (rS s : Memref sig .tc .vmem S2x1024 .f32) (.dma (sendSem s)) hsc)}
    {α : Type} {Q : α → sProp 𝕄} {kont : PUnit → Prog (TpuEff nD τ sig (Elt F) Λ₀ .tc) α}
    (fn : Buf (Elt F) ((rS s : Memref sig .tc .vmem S2x1024 .f32).view.loc (peer c s.val : Thread nD τ)))
    (O : CellTallies nD τ sig Unit) (W : Waits sig Unit) :
    iprop(cellInv ER (Rd m ρ) κ₁ (sendCell c s) ∗ cellInv ER (Rd m ρ) κ₂ (recvCell (peer c s.val) s)
        ∗ accPts c (sh s) (Asrc m ρ c s) ∗ slotPts (peer c s.val) s fn
        ∗ owes (c : Thread nD τ) (O + Tr c s) W
        ∗ dutyTok ER (sendCell c s) 0 (0 : Fin 7) ∗ reached ER (sendCell c s) 0
        ∗ dutyTok ER (recvCell (peer c s.val) s) 0 (0 : Fin 7) ∗ reached ER (recvCell (peer c s.val) s) 0)
      ⊢ iprop(((cred (tallyAt (sendCell c s) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) (rS s) (.dma (sendSem s)) hsc) (.dma (recvSem s)) hsrc hdst hsem) kont) Q) := by
  subst hn
  unfold accPts slotPts
  exact Rounds.wp_send_pointsTo 𝒱₀ ER (Rd m ρ) (c : Thread nD τ) none (κ₁ := κ₁) (κ₂ := κ₂)
    (sS := .dma (sendSem s)) (sem := .dma (recvSem s))
    (r₁ := 0) (r₂ := 0) (d₁ := (0 : Fin 7)) (d₂ := (0 : Fin 7)) (fd := fn)
    (by rw [duties_send]; exact Finset.mem_singleton_self _) (by rw [duties_recv]; exact Finset.mem_singleton_self _)
    () () N (slot_credit s) (amount_send m ρ c s 0) (amount_recv m ρ (peer c s.val) s 0) O rfl (W := W)
    (by rw [payload_send]; exact BI.Entails.refl _)
    (by
      rw [payload_recv]; unfold recvPay Land
      rw [peer_peer c s]
      exact Entails.of_eq (land_congr m ρ (peer c s.val) s fn (Asrc m ρ c s)))

/-- The wait on the send cell of slot `s`: the share of the accumulator the transfer read comes back. -/
theorem wp_sendwait (κ : ℕ) (c : Dev nD) (s : Fin 7)
    {sp' : Space} {s' : Shape} {e' : EltTy} {src : Memref sig .tc sp' s' e'} {hsrc : src.view.WordExact}
    {hdst : (aM : Memref sig .tc .vmem S2x1024 .f32).view.WordExact}
    {α : Type} {Q : α → sProp 𝕄} {kont : PUnit → Prog (TpuEff nD τ sig (Elt F) Λ₀ .tc) α}
    (O : CellTallies nD τ sig Unit) (W : Waits sig Unit) :
    iprop(cellInv ER (Rd m ρ) κ (sendCell c s) ∗ cred (tallyAt (sendCell c s) () N) ∗ owes (c : Thread nD τ) O W
        ∗ MayWait (c : Thread nD τ) (.dma (sendSem s)) () O ∗ atPos ER (sendCell c s) 0 ∅ 0)
      ⊢ iprop(((owes (c : Thread nD τ) O (insert (SemLoc.dma (sendSem s), ()) W) ∗ atPos ER (sendCell c s) 1 ∅ 0 ∗ reached ER (sendCell c s) 1
              ∗ sendPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendSem s) src aM hsrc hdst) kont) Q) := by
  rw [← rest_send m ρ c s]
  exact Rounds.wp_wait_rest_token 𝒱₀ ER (Rd m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_send])

/-- The wait on the receive cell of slot `s`: the slot comes back holding the sender's accumulator. -/
theorem wp_recvwait (κ : ℕ) (c : Dev nD) (s : Fin 7)
    {sp' : Space} {s' : Shape} {e' : EltTy} {src : Memref sig .tc sp' s' e'} {hsrc : src.view.WordExact}
    {hdst : (rS s : Memref sig .tc .vmem S2x1024 .f32).view.WordExact}
    {α : Type} {Q : α → sProp 𝕄} {kont : PUnit → Prog (TpuEff nD τ sig (Elt F) Λ₀ .tc) α}
    (O : CellTallies nD τ sig Unit) (W : Waits sig Unit) :
    iprop(cellInv ER (Rd m ρ) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ recvPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvSem s) src (rS s) hsrc hdst) kont) Q) := by
  rw [← rest_recv m ρ c s]
  exact Rounds.wp_wait_rest_token 𝒱₀ ER (Rd m ρ) (c : Thread nD τ) none (κ := κ) (k' := N)
      (fun K' => (wpE_waitDma2_eq 𝒱₀ (c : Thread nD τ) none Set.univ K').trans (by rw [slot_credit s]))
      (Set.mem_univ _) () (O := O) (W := W) (R := 0) (m := 0) (T := ∅) (by rw [Nat.zero_add, expect_recv])

/-- A cell whose one round is over closes: its counter, at zero, is the core's again. -/
theorem close_send (κ : ℕ) (c : Dev nD) (s : Fin 7) :
    iprop(cellInv ER (Rd m ρ) κ (sendCell c s) ∗ atPos ER (sendCell c s) 1 ∅ 0) ⊢ (|={Set.univ}=> semVal (sendCell c s) 0 : sProp 𝕄) :=
  Rounds.cell_close ER (Rd m ρ) (Set.mem_univ κ) (not_unitless m ρ _) (R := 0 + 1) (duties_later m ρ (sendCell c s))
theorem close_recv (κ : ℕ) (c : Dev nD) (s : Fin 7) :
    iprop(cellInv ER (Rd m ρ) κ (recvCell c s) ∗ atPos ER (recvCell c s) 1 ∅ 0) ⊢ (|={Set.univ}=> semVal (recvCell c s) 0 : sProp 𝕄) :=
  Rounds.cell_close ER (Rd m ρ) (Set.mem_univ κ) (not_unitless m ρ _) (R := 0 + 1) (duties_later m ρ (recvCell c s))

end Cert.KernelIdealPf

end
-- ==== Proof.OutEq.lean ====
import proofs.«901058_g7700000000001059_dist_softmax_colshard_i_m1024_n512_v7x_i32_f32_1_alg».proof.Proof.Steps

/-! What a load reads after stores that cover it.

The accumulator (2 x 1024) is rewritten by two stores, one through each of its rows; the two rows cover it, so a load
of the whole accumulator afterwards reads what the two stores left and nothing of what the buffer held before. The
result's staging buffer (1024 x 512) is written whole by one store, and a load of the whole of it reads that store's
payload. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The constant-zero offsets of a whole-buffer access at rank two, as a vector literal. -/
theorem zero_off2 : (![0, 0] : Fin 2 → Nat) = fun _ => 0 := by
  funext a; fin_cases a <;> rfl

/-- Every index of the accumulator lies in one of its two rows: in row 0 if its first coordinate is 0, in row 1 otherwise. -/
theorem rows_cover (w1 w0 : FVec F S1x1024 .f32) (j : rA.toLoadRect.shape.Idx) :
    ∃ p ∈ ([⟨rRow1, w1⟩, ⟨rRow0, w0⟩] : List (View.Piece (Elt F) S2x1024 .f32)), rA.toLoadRect.idx j ∈ p.1.set := by
  have h0 : (j (0 : Fin 2)).val < 2 := (j (0 : Fin 2)).isLt
  have h1 : (j (1 : Fin 2)).val < 1024 := (j (1 : Fin 2)).isLt
  have e0 : ((rA.toLoadRect.idx j (0 : Fin 2) : Fin _) : ℕ) = 0 + 1 * (j (0 : Fin 2)).val := rfl
  have e1 : ((rA.toLoadRect.idx j (1 : Fin 2) : Fin _) : ℕ) = 0 + 1 * (j (1 : Fin 2)).val := rfl
  by_cases hj : (j (0 : Fin 2)).val = 0
  · suffices hm : rA.toLoadRect.idx j ∈ rRow0.set from ⟨⟨rRow0, w0⟩, List.mem_cons_of_mem _ List.mem_cons_self, hm⟩
    refine Rect.mem_set_unit.mpr ?_
    refine Fin.forall_fin_two.mpr ⟨?_, ?_⟩
    · show 0 ≤ ((rA.toLoadRect.idx j (0 : Fin 2) : Fin _) : ℕ) ∧ ((rA.toLoadRect.idx j (0 : Fin 2) : Fin _) : ℕ) < 0 + 1
      omega
    · show 0 ≤ ((rA.toLoadRect.idx j (1 : Fin 2) : Fin _) : ℕ) ∧ ((rA.toLoadRect.idx j (1 : Fin 2) : Fin _) : ℕ) < 0 + 1024
      omega
  · suffices hm : rA.toLoadRect.idx j ∈ rRow1.set from ⟨⟨rRow1, w1⟩, List.mem_cons_self, hm⟩
    refine Rect.mem_set_unit.mpr ?_
    refine Fin.forall_fin_two.mpr ⟨?_, ?_⟩
    · show 1 ≤ ((rA.toLoadRect.idx j (0 : Fin 2) : Fin _) : ℕ) ∧ ((rA.toLoadRect.idx j (0 : Fin 2) : Fin _) : ℕ) < 1 + 1
      omega
    · show 0 ≤ ((rA.toLoadRect.idx j (1 : Fin 2) : Fin _) : ℕ) ∧ ((rA.toLoadRect.idx j (1 : Fin 2) : Fin _) : ℕ) < 0 + 1024
      omega

/-- A load of the whole accumulator after the two row stores reads what they left, whatever it held before. -/
theorem rows_readCov (f : (cc0_scratch0 : Ref sig .tc).ty.Contents (Elt F)) (w1 w0 : FVec F S1x1024 .f32) :
    (aM : Memref sig .tc .vmem S2x1024 .f32).view.readCov [⟨rRow1, w1⟩, ⟨rRow0, w0⟩] rA.toLoadRect
      = (aM : Memref sig .tc .vmem S2x1024 .f32).view.writes (Elt F) f [⟨rRow1, w1⟩, ⟨rRow0, w0⟩] :=
  (View.readAt_writes_of_cover (aM : Memref sig .tc .vmem S2x1024 .f32).view f [⟨rRow1, w1⟩, ⟨rRow0, w0⟩] rA.toLoadRect
      (rows_cover w1 w0)).symm.trans
    (Memref.readAt_unit_zero (Elt F) cc0_scratch0 zero_off2 inb_S2x1024_S2x1024_0_0 _)

/-- A load of the whole result buffer after one store of the whole of it reads the store's payload. -/
theorem whole_readCov (w : FVec F S1024x512 .f32) :
    (oM : Memref sig .tc .vmem S1024x512 .f32).view.readCov (Val := Elt F) [⟨rX, w⟩] rX.toLoadRect = w := by
  show (oM : Memref sig .tc .vmem S1024x512 .f32).view.readAt (Elt F) rX.toLoadRect
      (((oM : Memref sig .tc .vmem S1024x512 .f32).access rX : View sig .tc _ _ _).write (Elt F)
        (oM : Memref sig .tc .vmem S1024x512 .f32).view.junk w Finset.univ) = w
  have e := Memref.write_access_unit_zero_univ (Elt F) cc0_stg1_0 zero_off2 inb_S1024x512_S1024x512_0_0
    (oM : Memref sig .tc .vmem S1024x512 .f32).view.junk w
  exact (congrArg (fun g => (oM : Memref sig .tc .vmem S1024x512 .f32).view.readAt (Elt F) rX.toLoadRect g) e).trans
    (Memref.readAt_unit_zero (Elt F) cc0_stg1_0 zero_off2 inb_S1024x512_S1024x512_0_0 w)

end Cert.KernelIdealPf

end
-- ==== Proof.Body.lean ====
import proofs.«901058_g7700000000001059_dist_softmax_colshard_i_m1024_n512_v7x_i32_f32_1_alg».proof.Proof.Steps
import proofs.«901058_g7700000000001059_dist_softmax_colshard_i_m1024_n512_v7x_i32_f32_1_alg».proof.Proof.Levels
import proofs.«901058_g7700000000001059_dist_softmax_colshard_i_m1024_n512_v7x_i32_f32_1_alg».proof.Proof.Glob
import proofs.«901058_g7700000000001059_dist_softmax_colshard_i_m1024_n512_v7x_i32_f32_1_alg».proof.Proof.OutEq

/-! The body of the kernel on one device, stepped in program order from the ghost state the launch deals it:
the seven barrier signals (each hands one own receive slot to the partner that will write it), the local pass, the
barrier wait (the partners' slots arrive), then per round the transfers, their waits, and the merge. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem inv_at (K : Dev nD × Fin 15 → ℕ) (ck : Dev nD × Fin 15) :
    (bigSep Finset.univ fun ck : Dev nD × Fin 15 => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-! Whole-buffer loads and stores read and write the contents themselves. -/

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz2 _ f
omit [FloatOps F] in
theorem read_o (f : (cc0_stg1_0 : Ref sig .tc).ty.Contents (Elt F)) : (oM : Memref sig .tc .vmem S1024x512 .f32).view.readAt (Elt F) rX.toLoadRect f = f :=
  Memref.readAt_unit_zero (Elt F) cc0_stg1_0 hz2 _ f
omit [FloatOps F] in
theorem read_a (f : (cc0_scratch0 : Ref sig .tc).ty.Contents (Elt F)) : (aM : Memref sig .tc .vmem S2x1024 .f32).view.readAt (Elt F) rA.toLoadRect f = f :=
  Memref.readAt_unit_zero (Elt F) cc0_scratch0 hz2 _ f
omit [FloatOps F] in
theorem write_o (f w : (cc0_stg1_0 : Ref sig .tc).ty.Contents (Elt F)) :
    ((oM : Memref sig .tc .vmem S1024x512 .f32).access rX : View sig .tc _ _ _).write (Elt F) f w Finset.univ = w :=
  Memref.write_access_unit_zero_univ (Elt F) cc0_stg1_0 hz2 _ f w
omit [FloatOps F] in
theorem write_a (f w : (cc0_scratch0 : Ref sig .tc).ty.Contents (Elt F)) :
    ((aM : Memref sig .tc .vmem S2x1024 .f32).access rA : View sig .tc _ _ _).write (Elt F) f w Finset.univ = w :=
  Memref.write_access_unit_zero_univ (Elt F) cc0_scratch0 hz2 _ f w

omit [FloatOps F] in
/-- A whole buffer held through its whole-buffer memref. -/
theorem pts_whole (c : Dev nD) (b : Ref sig .tc) (f : Buf (Elt F) ((c : Thread nD τ).loc b)) :
    (((Memref.whole b : Memref sig .tc b.space b.ty.shape b.ty.elt).view.loc (c : Thread nD τ)
        ↦[(Memref.whole b : Memref sig .tc b.space b.ty.shape b.ty.elt).view.set]{fullShare} f : sProp 𝕄))
      = (((c : Thread nD τ).loc b) ↦{fullShare} f) := by
  rw [View.set_whole]

omit [FloatOps F] in
/-- Equal contents, the same holding. -/
theorem pts_congr {ℓ : Loc nD τ sig} {S : Finset (Idx ℓ)} {q : PosShare TreeShare} {f g : Buf (Elt F) ℓ} (h : f = g) :
    (ℓ ↦[S]{q} f : sProp 𝕄) ⊢ (ℓ ↦[S]{q} g) := by subst h; exact BI.Entails.refl _

omit [FloatOps F] in
/-- The accumulator held whole through its memref, at contents equal to `g`. -/
theorem acc_of (c : Dev nD) {f g : Buf (Elt F) ((aM : Memref sig .tc .vmem S2x1024 .f32).view.loc (c : Thread nD τ))} (h : f = g) :
    ((aM : Memref sig .tc .vmem S2x1024 .f32).view.loc (c : Thread nD τ) ↦[(aM : Memref sig .tc .vmem S2x1024 .f32).view.set]{fullShare} f : sProp 𝕄)
      ⊢ accPts c fullShare g := by subst h; unfold accPts; exact BI.Entails.refl _
omit [FloatOps F] in
theorem acc_to (c : Dev nD) (f : Buf (Elt F) ((aM : Memref sig .tc .vmem S2x1024 .f32).view.loc (c : Thread nD τ))) :
    accPts c fullShare f
      ⊢ ((aM : Memref sig .tc .vmem S2x1024 .f32).view.loc (c : Thread nD τ) ↦[(aM : Memref sig .tc .vmem S2x1024 .f32).view.set]{fullShare} f : sProp 𝕄) := by
  unfold accPts; exact BI.Entails.refl _

/-! The accumulator after the two row stores of a round, over the pair it held and the partners' pairs read from the
receive slots, is the round's merge: the `A1`, `A2`, `A3` of the protocol. -/

theorem ld_land0 (c : Dev nD) : ((rM : Memref sig .tc .vmem S7x2x1024 .f32).view.readAt (Elt F) (Rect.unit (s := S7x2x1024) ![0, 0, 0] S1x2x1024.size inb_S7x2x1024_S1x2x1024_0_0_0).toLoadRect (Land m ρ c 0)) = ldS 0 (landIn m ρ c 0 (A0 m ρ (peer c 2))) := rfl
theorem ld_land1 (c : Dev nD) : ((rM : Memref sig .tc .vmem S7x2x1024 .f32).view.readAt (Elt F) (Rect.unit (s := S7x2x1024) ![1, 0, 0] S1x2x1024.size inb_S7x2x1024_S1x2x1024_1_0_0).toLoadRect (Land m ρ c 1)) = ldS 1 (landIn m ρ c 1 (A0 m ρ (peer c 1))) := rfl
theorem ld_land2 (c : Dev nD) : ((rM : Memref sig .tc .vmem S7x2x1024 .f32).view.readAt (Elt F) (Rect.unit (s := S7x2x1024) ![2, 0, 0] S1x2x1024.size inb_S7x2x1024_S1x2x1024_2_0_0).toLoadRect (Land m ρ c 2)) = ldS 2 (landIn m ρ c 2 (A0 m ρ (peer c 0))) := rfl
theorem ld_land3 (c : Dev nD) : ((rM : Memref sig .tc .vmem S7x2x1024 .f32).view.readAt (Elt F) (Rect.unit (s := S7x2x1024) ![3, 0, 0] S1x2x1024.size inb_S7x2x1024_S1x2x1024_3_0_0).toLoadRect (Land m ρ c 3)) = ldS 3 (landIn m ρ c 3 (A1 m ρ (peer c 5))) := rfl
theorem ld_land4 (c : Dev nD) : ((rM : Memref sig .tc .vmem S7x2x1024 .f32).view.readAt (Elt F) (Rect.unit (s := S7x2x1024) ![4, 0, 0] S1x2x1024.size inb_S7x2x1024_S1x2x1024_4_0_0).toLoadRect (Land m ρ c 4)) = ldS 4 (landIn m ρ c 4 (A1 m ρ (peer c 4))) := rfl
theorem ld_land5 (c : Dev nD) : ((rM : Memref sig .tc .vmem S7x2x1024 .f32).view.readAt (Elt F) (Rect.unit (s := S7x2x1024) ![5, 0, 0] S1x2x1024.size inb_S7x2x1024_S1x2x1024_5_0_0).toLoadRect (Land m ρ c 5)) = ldS 5 (landIn m ρ c 5 (A1 m ρ (peer c 3))) := rfl
theorem ld_land6 (c : Dev nD) : ((rM : Memref sig .tc .vmem S7x2x1024 .f32).view.readAt (Elt F) (Rect.unit (s := S7x2x1024) ![6, 0, 0] S1x2x1024.size inb_S7x2x1024_S1x2x1024_6_0_0).toLoadRect (Land m ρ c 6)) = ldS 6 (landIn m ρ c 6 (A2 m ρ (peer c 6))) := rfl

theorem A1_eq (c : Dev nD) :
    (aM : Memref sig .tc .vmem S2x1024 .f32).view.writes (Elt F) (A0 m ρ c)
      [⟨Rect.unit (s := S2x1024) ![1, 0] S1x1024.size inb_S2x1024_S1x1024_1_0,
          k0_pay19 (k0_pay11 ((rM : Memref sig .tc .vmem S7x2x1024 .f32).view.readAt (Elt F) (Rect.unit (s := S7x2x1024) ![1, 0, 0] S1x2x1024.size inb_S7x2x1024_S1x2x1024_1_0_0).toLoadRect (Land m ρ c 1))) (k0_pay13 ((rM : Memref sig .tc .vmem S7x2x1024 .f32).view.readAt (Elt F) (Rect.unit (s := S7x2x1024) ![2, 0, 0] S1x2x1024.size inb_S7x2x1024_S1x2x1024_2_0_0).toLoadRect (Land m ρ c 2))) (k0_pay14 ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay15 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay16 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay17 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩,
        ⟨Rect.unit (s := S2x1024) ![0, 0] S1x1024.size inb_S2x1024_S1x1024_0_0,
          k0_pay18 (k0_pay15 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩]
      = A1 m ρ c := by
  rw [ld_land0, ld_land1, ld_land2]
  rfl

theorem A2_eq (c : Dev nD) :
    (aM : Memref sig .tc .vmem S2x1024 .f32).view.writes (Elt F) (A1 m ρ c)
      [⟨Rect.unit (s := S2x1024) ![1, 0] S1x1024.size inb_S2x1024_S1x1024_1_0,
          k0_pay31 (k0_pay20 (A1 m ρ c)) (k0_pay21 (A1 m ρ c)) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) (k0_pay24 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩,
        ⟨Rect.unit (s := S2x1024) ![0, 0] S1x1024.size inb_S2x1024_S1x1024_0_0,
          k0_pay30 (k0_pay20 (A1 m ρ c)) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩]
      = A2 m ρ c := by
  rw [ld_land3, ld_land4, ld_land5]
  rfl

theorem A3_eq (c : Dev nD) :
    (aM : Memref sig .tc .vmem S2x1024 .f32).view.writes (Elt F) (A2 m ρ c)
      [⟨Rect.unit (s := S2x1024) ![1, 0] S1x1024.size inb_S2x1024_S1x1024_1_0, k0_pay37 (A2 m ρ c) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
        ⟨Rect.unit (s := S2x1024) ![0, 0] S1x1024.size inb_S2x1024_S1x1024_0_0, k0_pay36 (A2 m ρ c) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
      = A3 m ρ c := by
  rw [ld_land6]
  rfl

theorem A1_eq_sl (c : Dev nD) :
    (aM : Memref sig .tc .vmem S2x1024 .f32).view.writes (Elt F) (A0 m ρ c)
      [⟨Rect.unit (s := S2x1024) ![1, 0] S1x1024.size inb_S2x1024_S1x1024_1_0,
          k0_pay19 (k0_pay11 ((rM : Memref sig .tc .vmem S7x2x1024 .f32).view.readAt (Elt F) (Rect.unit (s := S7x2x1024) ![1, 0, 0] S1x2x1024.size inb_S7x2x1024_S1x2x1024_1_0_0).toLoadRect (Land m ρ c 1))) (k0_pay13 ((rM : Memref sig .tc .vmem S7x2x1024 .f32).view.readAt (Elt F) (Rect.unit (s := S7x2x1024) ![2, 0, 0] S1x2x1024.size inb_S7x2x1024_S1x2x1024_2_0_0).toLoadRect (Land m ρ c 2))) (k0_pay14 ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay15 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay16 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay17 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩,
        ⟨Rect.unit (s := S2x1024) ![0, 0] S1x1024.size inb_S2x1024_S1x1024_0_0,
          k0_pay18 (k0_pay15 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩]
      = A1 m ρ c := by
  rw [read_a]
  exact A1_eq m ρ c

theorem A2_eq_sl (c : Dev nD) :
    (aM : Memref sig .tc .vmem S2x1024 .f32).view.writes (Elt F) (A1 m ρ c)
      [⟨Rect.unit (s := S2x1024) ![1, 0] S1x1024.size inb_S2x1024_S1x1024_1_0,
          k0_pay31 (k0_pay20 ((aM : Memref sig .tc .vmem S2x1024 .f32).view.readAt (Elt F) (Rect.unit (s := S2x1024) ![0, 0] S2x1024.size inb_S2x1024_S2x1024_0_0).toLoadRect (A1 m ρ c))) (k0_pay21 ((aM : Memref sig .tc .vmem S2x1024 .f32).view.readAt (Elt F) (Rect.unit (s := S2x1024) ![0, 0] S2x1024.size inb_S2x1024_S2x1024_0_0).toLoadRect (A1 m ρ c))) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) (k0_pay24 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩,
        ⟨Rect.unit (s := S2x1024) ![0, 0] S1x1024.size inb_S2x1024_S1x1024_0_0,
          k0_pay30 (k0_pay20 ((aM : Memref sig .tc .vmem S2x1024 .f32).view.readAt (Elt F) (Rect.unit (s := S2x1024) ![0, 0] S2x1024.size inb_S2x1024_S2x1024_0_0).toLoadRect (A1 m ρ c))) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩]
      = A2 m ρ c := by
  rw [read_a]
  exact A2_eq m ρ c

theorem A3_eq_sl (c : Dev nD) :
    (aM : Memref sig .tc .vmem S2x1024 .f32).view.writes (Elt F) (A2 m ρ c)
      [⟨Rect.unit (s := S2x1024) ![1, 0] S1x1024.size inb_S2x1024_S1x1024_1_0, k0_pay37 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
        ⟨Rect.unit (s := S2x1024) ![0, 0] S1x1024.size inb_S2x1024_S1x1024_0_0, k0_pay36 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
      = A3 m ρ c := by
  rw [read_a]
  exact A3_eq m ρ c

omit [FloatOps F] in
/-- A receive slot's payload, held through the slot's memref. -/
theorem slot_to (c : Dev nD) (k : Fin 7) (f : Buf (Elt F) ((rS k : Memref sig .tc .vmem S2x1024 .f32).view.loc (c : Thread nD τ))) :
    slotPts c k f ⊢ ((rS k : Memref sig .tc .vmem S2x1024 .f32).view.loc (c : Thread nD τ) ↦[(rS k : Memref sig .tc .vmem S2x1024 .f32).view.set]{fullShare} f : sProp 𝕄) := by
  unfold slotPts; exact BI.Entails.refl _
omit [FloatOps F] in
theorem slot_of (c : Dev nD) (k : Fin 7) (f : Buf (Elt F) ((rS k : Memref sig .tc .vmem S2x1024 .f32).view.loc (c : Thread nD τ))) :
    ((rS k : Memref sig .tc .vmem S2x1024 .f32).view.loc (c : Thread nD τ) ↦[(rS k : Memref sig .tc .vmem S2x1024 .f32).view.set]{fullShare} f : sProp 𝕄) ⊢ slotPts c k f := by
  unfold slotPts; exact BI.Entails.refl _

theorem pay_send (c : Dev nD) (s : Fin 7) :
    bigSep ((Rd m ρ).duties (sendCell c s) 0) (fun d => (Rd m ρ).payload (sendCell c s) 0 d) = sendPay m ρ c s := by
  have h := rest_send m ρ c s; rwa [Finset.sdiff_empty] at h
theorem pay_recv (c : Dev nD) (s : Fin 7) :
    bigSep ((Rd m ρ).duties (recvCell c s) 0) (fun d => (Rd m ρ).payload (recvCell c s) 0 d) = recvPay m ρ c s := by
  have h := rest_recv m ρ c s; rwa [Finset.sdiff_empty] at h

omit [FloatOps F] in
/-- The invariant after the point from its pieces. -/
theorem Φ₁_intro (c : Dev nD) :
    iprop(scratch c ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) ⊢ (Φ₁ c : sProp 𝕄) := by
  unfold Φ₁; rw [bigSep_fin14]

/-- The body's postcondition from its pieces. -/
theorem bodyPost_intro (c : Dev nD) (W : Waits sig Unit) :
    iprop(Φ₁ c ∗ owes (c : Thread nD τ) 0 W
        ∗ (((c : Thread nD τ).loc cc0_stg0_0) ↦{fullShare} xstg m ρ c)
        ∗ (((c : Thread nD τ).loc cc0_stg1_0) ↦{fullShare} outAt m ρ c))
      ⊢ bodyPost m ρ c := by
  unfold bodyPost Dat.owesAt Pipeline.owesWithin
  rw [show (dats m ρ 0 c).owed t₀.succ = 0 from rfl]
  iintro ⟨HΦ, HO, Hx, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- What the output staging buffer holds at the end is the kernel's result `outAt`. -/
theorem out_eq_sl (c : Dev nD) (g1 : (cc0_stg1_0 : Ref sig .tc).ty.Contents (Elt F)) :
    (oM : Memref sig .tc .vmem S1024x512 .f32).view.writes (Elt F) g1
      [⟨Rect.unit (s := S1024x512) ![0, 0] S1024x512.size inb_S1024x512_S1024x512_0_0,
          k0_pay1 (k0_pay3 ((xM : Memref sig .tc .vmem S1024x512 .f32).view.readAt (Elt F) (Rect.unit (s := S1024x512) ![0, 0] S1024x512.size inb_S1024x512_S1024x512_0_0).toLoadRect (xstg m ρ c)))
            ((aM : Memref sig .tc .vmem S2x1024 .f32).view.readCov (Val := Elt F)
              [⟨Rect.unit (s := S2x1024) ![1, 0] S1x1024.size inb_S2x1024_S1x1024_1_0, k0_pay37 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
                ⟨Rect.unit (s := S2x1024) ![0, 0] S1x1024.size inb_S2x1024_S1x1024_0_0, k0_pay36 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
              (Rect.unit (s := S2x1024) ![0, 0] S2x1024.size inb_S2x1024_S2x1024_0_0).toLoadRect)
            ((oM : Memref sig .tc .vmem S1024x512 .f32).view.readCov (Val := Elt F) [⟨Rect.unit (s := S1024x512) ![0, 0] S1024x512.size inb_S1024x512_S1024x512_0_0, k0_pay4 ((xM : Memref sig .tc .vmem S1024x512 .f32).view.readAt (Elt F) (Rect.unit (s := S1024x512) ![0, 0] S1024x512.size inb_S1024x512_S1024x512_0_0).toLoadRect (xstg m ρ c))⟩] (Rect.unit (s := S1024x512) ![0, 0] S1024x512.size inb_S1024x512_S1024x512_0_0).toLoadRect)⟩,
        ⟨Rect.unit (s := S1024x512) ![0, 0] S1024x512.size inb_S1024x512_S1024x512_0_0, k0_pay4 ((xM : Memref sig .tc .vmem S1024x512 .f32).view.readAt (Elt F) (Rect.unit (s := S1024x512) ![0, 0] S1024x512.size inb_S1024x512_S1024x512_0_0).toLoadRect (xstg m ρ c))⟩]
      = outAt m ρ c := by
  rw [View.writes_cons, write_o, rows_readCov (A2 m ρ c), whole_readCov, A3_eq_sl, read_x]
  rfl

section Body

variable (K : Dev nD × Fin 15 → ℕ)

set_option maxHeartbeats 4000000 in
set_option maxRecDepth 65536 in
/-- The body, from `bodyPre`, in program order, to `bodyPost`: seven signals (each hands one own receive slot to the partner
    that will write it), the local pass, the barrier wait (the partners' slots arrive), then per round the transfers of
    the accumulator's shares, their waits, and the merge; at the end the fourteen own cells close. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost linear payToks startCred scratch
  iintro ⟨⟨⟨⟨#Hrec, Hat, HtB, HtR, HtS⟩, ⟨HcB, HcR⟩, #Hlev, ⟨%fa, Hacc⟩, ⟨%fr, Hrcv⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  -- the positions, the tokens, the credits and the receive slots, one by one
  ihave Hat' := (Entails.of_eq (bigSep_fin15 _)) $$ Hat
  icases Hat' with ⟨HatB, HaS0, HaS1, HaS2, HaS3, HaS4, HaS5, HaS6, HaR0, HaR1, HaR2, HaR3, HaR4, HaR5, HaR6⟩
  ihave HtB' := (Entails.of_eq (bigSep_fin7 _)) $$ HtB
  icases HtB' with ⟨HtB0, HtB1, HtB2, HtB3, HtB4, HtB5, HtB6⟩
  ihave HtR' := (Entails.of_eq (bigSep_fin7 _)) $$ HtR
  icases HtR' with ⟨HtR0, HtR1, HtR2, HtR3, HtR4, HtR5, HtR6⟩
  ihave HtS' := (Entails.of_eq (bigSep_fin7 _)) $$ HtS
  icases HtS' with ⟨HtS0, HtS1, HtS2, HtS3, HtS4, HtS5, HtS6⟩
  ihave HcR' := (Entails.of_eq (bigSep_fin7 _)) $$ HcR
  icases HcR' with ⟨HcR0, HcR1, HcR2, HcR3, HcR4, HcR5, HcR6⟩
  ihave Hx' := (Entails.of_eq (pts_whole c cc0_stg0_0 _).symm) $$ Hx
  ihave Hout' := (Entails.of_eq (pts_whole c cc0_stg1_0 _).symm) $$ Hout
  ihave Hacc' := (Entails.of_eq (pts_whole c cc0_scratch0 _).symm) $$ Hacc
  ihave Hsl := (slots_split c fr) $$ Hrcv
  icases Hsl with ⟨Hs0, Hs1, Hs2, Hs3, Hs4, Hs5, Hs6⟩
  ihave #HIb0 := (records_inv_bar m ρ K (peer c 0)) $$ Hrec
  ihave #HRb0 := (records_reached_bar m ρ K (peer c 0)) $$ Hrec
  ihave #HIs0 := (records_inv_send m ρ K c 0) $$ Hrec
  ihave #HRs0 := (records_reached_send m ρ K c 0) $$ Hrec
  ihave #HIr0 := (records_inv_recv m ρ K c 0) $$ Hrec
  ihave #HIp0 := (records_inv_recv m ρ K (peer c 0) 0) $$ Hrec
  ihave #HRp0 := (records_reached_recv m ρ K (peer c 0) 0) $$ Hrec
  ihave #HIb1 := (records_inv_bar m ρ K (peer c 1)) $$ Hrec
  ihave #HRb1 := (records_reached_bar m ρ K (peer c 1)) $$ Hrec
  ihave #HIs1 := (records_inv_send m ρ K c 1) $$ Hrec
  ihave #HRs1 := (records_reached_send m ρ K c 1) $$ Hrec
  ihave #HIr1 := (records_inv_recv m ρ K c 1) $$ Hrec
  ihave #HIp1 := (records_inv_recv m ρ K (peer c 1) 1) $$ Hrec
  ihave #HRp1 := (records_reached_recv m ρ K (peer c 1) 1) $$ Hrec
  ihave #HIb2 := (records_inv_bar m ρ K (peer c 2)) $$ Hrec
  ihave #HRb2 := (records_reached_bar m ρ K (peer c 2)) $$ Hrec
  ihave #HIs2 := (records_inv_send m ρ K c 2) $$ Hrec
  ihave #HRs2 := (records_reached_send m ρ K c 2) $$ Hrec
  ihave #HIr2 := (records_inv_recv m ρ K c 2) $$ Hrec
  ihave #HIp2 := (records_inv_recv m ρ K (peer c 2) 2) $$ Hrec
  ihave #HRp2 := (records_reached_recv m ρ K (peer c 2) 2) $$ Hrec
  ihave #HIb3 := (records_inv_bar m ρ K (peer c 3)) $$ Hrec
  ihave #HRb3 := (records_reached_bar m ρ K (peer c 3)) $$ Hrec
  ihave #HIs3 := (records_inv_send m ρ K c 3) $$ Hrec
  ihave #HRs3 := (records_reached_send m ρ K c 3) $$ Hrec
  ihave #HIr3 := (records_inv_recv m ρ K c 3) $$ Hrec
  ihave #HIp3 := (records_inv_recv m ρ K (peer c 3) 3) $$ Hrec
  ihave #HRp3 := (records_reached_recv m ρ K (peer c 3) 3) $$ Hrec
  ihave #HIb4 := (records_inv_bar m ρ K (peer c 4)) $$ Hrec
  ihave #HRb4 := (records_reached_bar m ρ K (peer c 4)) $$ Hrec
  ihave #HIs4 := (records_inv_send m ρ K c 4) $$ Hrec
  ihave #HRs4 := (records_reached_send m ρ K c 4) $$ Hrec
  ihave #HIr4 := (records_inv_recv m ρ K c 4) $$ Hrec
  ihave #HIp4 := (records_inv_recv m ρ K (peer c 4) 4) $$ Hrec
  ihave #HRp4 := (records_reached_recv m ρ K (peer c 4) 4) $$ Hrec
  ihave #HIb5 := (records_inv_bar m ρ K (peer c 5)) $$ Hrec
  ihave #HRb5 := (records_reached_bar m ρ K (peer c 5)) $$ Hrec
  ihave #HIs5 := (records_inv_send m ρ K c 5) $$ Hrec
  ihave #HRs5 := (records_reached_send m ρ K c 5) $$ Hrec
  ihave #HIr5 := (records_inv_recv m ρ K c 5) $$ Hrec
  ihave #HIp5 := (records_inv_recv m ρ K (peer c 5) 5) $$ Hrec
  ihave #HRp5 := (records_reached_recv m ρ K (peer c 5) 5) $$ Hrec
  ihave #HIb6 := (records_inv_bar m ρ K (peer c 6)) $$ Hrec
  ihave #HRb6 := (records_reached_bar m ρ K (peer c 6)) $$ Hrec
  ihave #HIs6 := (records_inv_send m ρ K c 6) $$ Hrec
  ihave #HRs6 := (records_reached_send m ρ K c 6) $$ Hrec
  ihave #HIr6 := (records_inv_recv m ρ K c 6) $$ Hrec
  ihave #HIp6 := (records_inv_recv m ρ K (peer c 6) 6) $$ Hrec
  ihave #HRp6 := (records_reached_recv m ρ K (peer c 6) 6) $$ Hrec
  ihave #HIbar := (records_inv_bar m ρ K c) $$ Hrec
  sl_exec_parts
  -- barrier signal 0, to `peer c 0`: own receive slot 2 goes with it
  iapply (wp_sig m ρ (K (peer c 0, 0)) c 0 _ (dev1_eq c) (OBr c 6) W) $$ [HO HtB0 Hs2]
  · isplitr; · iexact HIb0
    isplitl [HO]; · iexact HO
    isplitl [HtB0]; · iexact HtB0
    isplitl [Hs2]; · iexists _; iexact Hs2
    iexact HRb0
  iintro HO
  sl_exec_parts
  -- barrier signal 1, to `peer c 1`: own receive slot 1 goes with it
  iapply (wp_sig m ρ (K (peer c 1, 0)) c 1 _ (dev2_eq c) (OBr c 5) W) $$ [HO HtB1 Hs1]
  · isplitr; · iexact HIb1
    isplitl [HO]; · iexact HO
    isplitl [HtB1]; · iexact HtB1
    isplitl [Hs1]; · iexists _; iexact Hs1
    iexact HRb1
  iintro HO
  sl_exec_parts
  -- barrier signal 2, to `peer c 2`: own receive slot 0 goes with it
  iapply (wp_sig m ρ (K (peer c 2, 0)) c 2 _ (dev3_eq c) (OBr c 4) W) $$ [HO HtB2 Hs0]
  · isplitr; · iexact HIb2
    isplitl [HO]; · iexact HO
    isplitl [HtB2]; · iexact HtB2
    isplitl [Hs0]; · iexists _; iexact Hs0
    iexact HRb2
  iintro HO
  sl_exec_parts
  -- barrier signal 3, to `peer c 3`: own receive slot 5 goes with it
  iapply (wp_sig m ρ (K (peer c 3, 0)) c 3 _ (dev4_eq c) (OBr c 3) W) $$ [HO HtB3 Hs5]
  · isplitr; · iexact HIb3
    isplitl [HO]; · iexact HO
    isplitl [HtB3]; · iexact HtB3
    isplitl [Hs5]; · iexists _; iexact Hs5
    iexact HRb3
  iintro HO
  sl_exec_parts
  -- barrier signal 4, to `peer c 4`: own receive slot 4 goes with it
  iapply (wp_sig m ρ (K (peer c 4, 0)) c 4 _ (dev5_eq c) (OBr c 2) W) $$ [HO HtB4 Hs4]
  · isplitr; · iexact HIb4
    isplitl [HO]; · iexact HO
    isplitl [HtB4]; · iexact HtB4
    isplitl [Hs4]; · iexists _; iexact Hs4
    iexact HRb4
  iintro HO
  sl_exec_parts
  -- barrier signal 5, to `peer c 5`: own receive slot 3 goes with it
  iapply (wp_sig m ρ (K (peer c 5, 0)) c 5 _ (dev6_eq c) (OBr c 1) W) $$ [HO HtB5 Hs3]
  · isplitr; · iexact HIb5
    isplitl [HO]; · iexact HO
    isplitl [HtB5]; · iexact HtB5
    isplitl [Hs3]; · iexists _; iexact Hs3
    iexact HRb5
  iintro HO
  sl_exec_parts
  -- barrier signal 6, to `peer c 6`: own receive slot 6 goes with it
  iapply (wp_sig m ρ (K (peer c 6, 0)) c 6 _ (dev7_eq c) (OBr c 0) W) $$ [HO HtB6 Hs6]
  · isplitr; · iexact HIb6
    isplitl [HO]; · iexact HO
    isplitl [HtB6]; · iexact HtB6
    isplitl [Hs6]; · iexists _; iexact Hs6
    iexact HRb6
  iintro HO
  sl_exec_parts
  -- the barrier wait: the seven partners' receive slots
  iapply (wp_barwait m ρ (K (c, 0)) c W) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hpay' := (Entails.of_eq (bigSep_fin7 _)) $$ Hpay
  unfold barPay
  icases Hpay' with ⟨⟨%fn0, Hp0⟩, ⟨%fn1, Hp1⟩, ⟨%fn2, Hp2⟩, ⟨%fn3, Hp3⟩, ⟨%fn4, Hp4⟩, ⟨%fn5, Hp5⟩, ⟨%fn6, Hp6⟩⟩
  sl_exec_parts
  -- the accumulator holds (row maxima, row sums); three shares of it, one per transfer of the round
  ihave Hacc0 := (acc_of c (g := A0 m ρ c) (by rw [View.writes_singleton, read_x]; exact write_a _ _)) $$ Hacc'
  ihave Hsh := (acc_split3 c (A0 m ρ c)).1 $$ Hacc0
  icases Hsh with ⟨Ha0, Ha1, Ha2⟩
  -- the transfer of slot 0
  iapply (wp_snd m ρ (K (c, sIdx 0)) (K (peer c 0, rIdx 0)) c 0 _ (dev8_eq c) fn0 (OSr c 6) (insert (SemLoc.reg barS, ()) W)) $$ [Ha0 Hp0 HO HtS0 HtR0]
  · isplitr; · iexact HIs0
    isplitr; · iexact HIp0
    isplitl [Ha0]; · iexact Ha0
    isplitl [Hp0]; · iexact Hp0
    isplitl [HO]; · iexact HO
    isplitl [HtS0]; · iexact HtS0
    isplitr; · iexact HRs0
    isplitl [HtR0]; · iexact HtR0
    iexact HRp0
  iintro ⟨HcS0, HO⟩
  sl_exec_parts
  -- the transfer of slot 1
  iapply (wp_snd m ρ (K (c, sIdx 1)) (K (peer c 1, rIdx 1)) c 1 _ (dev9_eq c) fn1 (OSr c 5) (insert (SemLoc.reg barS, ()) W)) $$ [Ha1 Hp1 HO HtS1 HtR1]
  · isplitr; · iexact HIs1
    isplitr; · iexact HIp1
    isplitl [Ha1]; · iexact Ha1
    isplitl [Hp1]; · iexact Hp1
    isplitl [HO]; · iexact HO
    isplitl [HtS1]; · iexact HtS1
    isplitr; · iexact HRs1
    isplitl [HtR1]; · iexact HtR1
    iexact HRp1
  iintro ⟨HcS1, HO⟩
  sl_exec_parts
  -- the transfer of slot 2
  iapply (wp_snd m ρ (K (c, sIdx 2)) (K (peer c 2, rIdx 2)) c 2 _ (dev10_eq c) fn2 (OSr c 4) (insert (SemLoc.reg barS, ()) W)) $$ [Ha2 Hp2 HO HtS2 HtR2]
  · isplitr; · iexact HIs2
    isplitr; · iexact HIp2
    isplitl [Ha2]; · iexact Ha2
    isplitl [Hp2]; · iexact Hp2
    isplitl [HO]; · iexact HO
    isplitl [HtS2]; · iexact HtS2
    isplitr; · iexact HRs2
    isplitl [HtR2]; · iexact HtR2
    iexact HRp2
  iintro ⟨HcS2, HO⟩
  sl_exec_parts
  -- the waits of slot 0: the accumulator's share back, then the slot with the partner's pair
  iapply (wp_sendwait m ρ (K (c, sIdx 0)) c 0 (OSr c 4) (insert (SemLoc.reg barS, ()) W)) $$ [HcS0 HO HaS0]
  · isplitr; · iexact HIs0
    isplitl [HcS0]; · iexact HcS0
    isplitl [HO]; · iexact HO
    isplitr; · iapply (mayWait_send c 0 4); iexact Hlev
    iexact HaS0
  iintro ⟨HO, HaS0, -, Hb0⟩
  sl_exec_parts
  iapply (wp_recvwait m ρ (K (c, rIdx 0)) c 0 (OSr c 4) (insert (SemLoc.dma (sendSem 0), ()) (insert (SemLoc.reg barS, ()) W))) $$ [HcR0 HO HaR0]
  · isplitr; · iexact HIr0
    isplitl [HcR0]; · iexact HcR0
    isplitl [HO]; · iexact HO
    isplitr; · iapply (mayWait_recv0 c); iexact Hlev
    iexact HaR0
  iintro ⟨HO, HaR0, -, Hr0⟩
  ihave Hr0' := (Entails.of_eq (show recvPay m ρ c 0 = slotPts c 0 (Land m ρ c 0) from rfl)) $$ Hr0
  ihave Hl0 := (slot_to c 0 _) $$ Hr0'
  sl_exec_parts
  -- the waits of slot 1: the accumulator's share back, then the slot with the partner's pair
  iapply (wp_sendwait m ρ (K (c, sIdx 1)) c 1 (OSr c 4) (insert (SemLoc.dma (recvSem 0), ()) (insert (SemLoc.dma (sendSem 0), ()) (insert (SemLoc.reg barS, ()) W)))) $$ [HcS1 HO HaS1]
  · isplitr; · iexact HIs1
    isplitl [HcS1]; · iexact HcS1
    isplitl [HO]; · iexact HO
    isplitr; · iapply (mayWait_send c 1 4); iexact Hlev
    iexact HaS1
  iintro ⟨HO, HaS1, -, Hb1⟩
  sl_exec_parts
  iapply (wp_recvwait m ρ (K (c, rIdx 1)) c 1 (OSr c 4) (insert (SemLoc.dma (sendSem 1), ()) (insert (SemLoc.dma (recvSem 0), ()) (insert (SemLoc.dma (sendSem 0), ()) (insert (SemLoc.reg barS, ()) W))))) $$ [HcR1 HO HaR1]
  · isplitr; · iexact HIr1
    isplitl [HcR1]; · iexact HcR1
    isplitl [HO]; · iexact HO
    isplitr; · iapply (mayWait_recv1 c); iexact Hlev
    iexact HaR1
  iintro ⟨HO, HaR1, -, Hr1⟩
  ihave Hr1' := (Entails.of_eq (show recvPay m ρ c 1 = slotPts c 1 (Land m ρ c 1) from rfl)) $$ Hr1
  ihave Hl1 := (slot_to c 1 _) $$ Hr1'
  sl_exec_parts
  -- the waits of slot 2: the accumulator's share back, then the slot with the partner's pair
  iapply (wp_sendwait m ρ (K (c, sIdx 2)) c 2 (OSr c 4) (insert (SemLoc.dma (recvSem 1), ()) (insert (SemLoc.dma (sendSem 1), ()) (insert (SemLoc.dma (recvSem 0), ()) (insert (SemLoc.dma (sendSem 0), ()) (insert (SemLoc.reg barS, ()) W)))))) $$ [HcS2 HO HaS2]
  · isplitr; · iexact HIs2
    isplitl [HcS2]; · iexact HcS2
    isplitl [HO]; · iexact HO
    isplitr; · iapply (mayWait_send c 2 4); iexact Hlev
    iexact HaS2
  iintro ⟨HO, HaS2, -, Hb2⟩
  sl_exec_parts
  iapply (wp_recvwait m ρ (K (c, rIdx 2)) c 2 (OSr c 4) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))) $$ [HcR2 HO HaR2]
  · isplitr; · iexact HIr2
    isplitl [HcR2]; · iexact HcR2
    isplitl [HO]; · iexact HO
    isplitr; · iapply (mayWait_recv2 c); iexact Hlev
    iexact HaR2
  iintro ⟨HO, HaR2, -, Hr2⟩
  ihave Hr2' := (Entails.of_eq (show recvPay m ρ c 2 = slotPts c 2 (Land m ρ c 2) from rfl)) $$ Hr2
  ihave Hl2 := (slot_to c 2 _) $$ Hr2'
  -- the three shares of the accumulator rejoined
  ihave Hb0' := (Entails.of_eq (show sendPay m ρ c 0 = accPts c (sh 0) (A0 m ρ c) from rfl)) $$ Hb0
  ihave Hb1' := (Entails.of_eq (show sendPay m ρ c 1 = accPts c (sh 1) (A0 m ρ c) from rfl)) $$ Hb1
  ihave Hb2' := (Entails.of_eq (show sendPay m ρ c 2 = accPts c (sh 2) (A0 m ρ c) from rfl)) $$ Hb2
  ihave Hjn := (acc_split3 c (A0 m ρ c)).2 $$ [Hb0' Hb1' Hb2']
  · isplitl [Hb0']; · iexact Hb0'
    isplitl [Hb1']; · iexact Hb1'
    iexact Hb2'
  ihave Hacc' := (acc_to c _) $$ Hjn
  sl_exec_parts
  -- the accumulator holds the merge of round 1
  ihave Hacc1 := (acc_of c (g := A1 m ρ c) (by exact A1_eq_sl m ρ c)) $$ Hacc'
  ihave Hsh1 := (acc_split3' c (A1 m ρ c)).1 $$ Hacc1
  icases Hsh1 with ⟨Ha3, Ha4, Ha5⟩
  -- the transfer of slot 3
  iapply (wp_snd m ρ (K (c, sIdx 3)) (K (peer c 3, rIdx 3)) c 3 _ (dev11_eq c) fn3 (OSr c 3) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha3 Hp3 HO HtS3 HtR3]
  · isplitr; · iexact HIs3
    isplitr; · iexact HIp3
    isplitl [Ha3]; · iexact Ha3
    isplitl [Hp3]; · iexact Hp3
    isplitl [HO]; · iexact HO
    isplitl [HtS3]; · iexact HtS3
    isplitr; · iexact HRs3
    isplitl [HtR3]; · iexact HtR3
    iexact HRp3
  iintro ⟨HcS3, HO⟩
  sl_exec_parts
  -- the transfer of slot 4
  iapply (wp_snd m ρ (K (c, sIdx 4)) (K (peer c 4, rIdx 4)) c 4 _ (dev12_eq c) fn4 (OSr c 2) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha4 Hp4 HO HtS4 HtR4]
  · isplitr; · iexact HIs4
    isplitr; · iexact HIp4
    isplitl [Ha4]; · iexact Ha4
    isplitl [Hp4]; · iexact Hp4
    isplitl [HO]; · iexact HO
    isplitl [HtS4]; · iexact HtS4
    isplitr; · iexact HRs4
    isplitl [HtR4]; · iexact HtR4
    iexact HRp4
  iintro ⟨HcS4, HO⟩
  sl_exec_parts
  -- the transfer of slot 5
  iapply (wp_snd m ρ (K (c, sIdx 5)) (K (peer c 5, rIdx 5)) c 5 _ (dev13_eq c) fn5 (OSr c 1) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha5 Hp5 HO HtS5 HtR5]
  · isplitr; · iexact HIs5
    isplitr; · iexact HIp5
    isplitl [Ha5]; · iexact Ha5
    isplitl [Hp5]; · iexact Hp5
    isplitl [HO]; · iexact HO
    isplitl [HtS5]; · iexact HtS5
    isplitr; · iexact HRs5
    isplitl [HtR5]; · iexact HtR5
    iexact HRp5
  iintro ⟨HcS5, HO⟩
  sl_exec_parts
  -- the waits of slot 3: the accumulator's share back, then the slot with the partner's pair
  iapply (wp_sendwait m ρ (K (c, sIdx 3)) c 3 (OSr c 1) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [HcS3 HO HaS3]
  · isplitr; · iexact HIs3
    isplitl [HcS3]; · iexact HcS3
    isplitl [HO]; · iexact HO
    isplitr; · iapply (mayWait_send c 3 1); iexact Hlev
    iexact HaS3
  iintro ⟨HO, HaS3, -, Hb3⟩
  sl_exec_parts
  iapply (wp_recvwait m ρ (K (c, rIdx 3)) c 3 (OSr c 1) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))) $$ [HcR3 HO HaR3]
  · isplitr; · iexact HIr3
    isplitl [HcR3]; · iexact HcR3
    isplitl [HO]; · iexact HO
    isplitr; · iapply (mayWait_recv3 c); iexact Hlev
    iexact HaR3
  iintro ⟨HO, HaR3, -, Hr3⟩
  ihave Hr3' := (Entails.of_eq (show recvPay m ρ c 3 = slotPts c 3 (Land m ρ c 3) from rfl)) $$ Hr3
  ihave Hl3 := (slot_to c 3 _) $$ Hr3'
  sl_exec_parts
  -- the waits of slot 4: the accumulator's share back, then the slot with the partner's pair
  iapply (wp_sendwait m ρ (K (c, sIdx 4)) c 4 (OSr c 1) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))) $$ [HcS4 HO HaS4]
  · isplitr; · iexact HIs4
    isplitl [HcS4]; · iexact HcS4
    isplitl [HO]; · iexact HO
    isplitr; · iapply (mayWait_send c 4 1); iexact Hlev
    iexact HaS4
  iintro ⟨HO, HaS4, -, Hb4⟩
  sl_exec_parts
  iapply (wp_recvwait m ρ (K (c, rIdx 4)) c 4 (OSr c 1) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))))) $$ [HcR4 HO HaR4]
  · isplitr; · iexact HIr4
    isplitl [HcR4]; · iexact HcR4
    isplitl [HO]; · iexact HO
    isplitr; · iapply (mayWait_recv4 c); iexact Hlev
    iexact HaR4
  iintro ⟨HO, HaR4, -, Hr4⟩
  ihave Hr4' := (Entails.of_eq (show recvPay m ρ c 4 = slotPts c 4 (Land m ρ c 4) from rfl)) $$ Hr4
  ihave Hl4 := (slot_to c 4 _) $$ Hr4'
  sl_exec_parts
  -- the waits of slot 5: the accumulator's share back, then the slot with the partner's pair
  iapply (wp_sendwait m ρ (K (c, sIdx 5)) c 5 (OSr c 1) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))))) $$ [HcS5 HO HaS5]
  · isplitr; · iexact HIs5
    isplitl [HcS5]; · iexact HcS5
    isplitl [HO]; · iexact HO
    isplitr; · iapply (mayWait_send c 5 1); iexact Hlev
    iexact HaS5
  iintro ⟨HO, HaS5, -, Hb5⟩
  sl_exec_parts
  iapply (wp_recvwait m ρ (K (c, rIdx 5)) c 5 (OSr c 1) (insert (SemLoc.dma (sendSem 5), ()) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))))))) $$ [HcR5 HO HaR5]
  · isplitr; · iexact HIr5
    isplitl [HcR5]; · iexact HcR5
    isplitl [HO]; · iexact HO
    isplitr; · iapply (mayWait_recv5 c); iexact Hlev
    iexact HaR5
  iintro ⟨HO, HaR5, -, Hr5⟩
  ihave Hr5' := (Entails.of_eq (show recvPay m ρ c 5 = slotPts c 5 (Land m ρ c 5) from rfl)) $$ Hr5
  ihave Hl5 := (slot_to c 5 _) $$ Hr5'
  -- the three shares of the accumulator rejoined
  ihave Hb3' := (Entails.of_eq (show sendPay m ρ c 3 = accPts c (sh 3) (A1 m ρ c) from rfl)) $$ Hb3
  ihave Hb4' := (Entails.of_eq (show sendPay m ρ c 4 = accPts c (sh 4) (A1 m ρ c) from rfl)) $$ Hb4
  ihave Hb5' := (Entails.of_eq (show sendPay m ρ c 5 = accPts c (sh 5) (A1 m ρ c) from rfl)) $$ Hb5
  ihave Hjn := (acc_split3' c (A1 m ρ c)).2 $$ [Hb3' Hb4' Hb5']
  · isplitl [Hb3']; · iexact Hb3'
    isplitl [Hb4']; · iexact Hb4'
    iexact Hb5'
  ihave Hacc' := (acc_to c _) $$ Hjn
  sl_exec_parts
  -- the accumulator holds the merge of round 2
  ihave Hacc2 := (acc_of c (g := A2 m ρ c) (by exact A2_eq_sl m ρ c)) $$ Hacc'
  ihave Ha6 := (Entails.of_eq (show accPts c fullShare (A2 m ρ c) = accPts c (sh 6) (A2 m ρ c) from rfl)) $$ Hacc2
  -- the transfer of slot 6
  iapply (wp_snd m ρ (K (c, sIdx 6)) (K (peer c 6, rIdx 6)) c 6 _ (dev14_eq c) fn6 (OSr c 0) (insert (SemLoc.dma (recvSem 5), ()) (insert (SemLoc.dma (sendSem 5), ()) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))))))) $$ [Ha6 Hp6 HO HtS6 HtR6]
  · isplitr; · iexact HIs6
    isplitr; · iexact HIp6
    isplitl [Ha6]; · iexact Ha6
    isplitl [Hp6]; · iexact Hp6
    isplitl [HO]; · iexact HO
    isplitl [HtS6]; · iexact HtS6
    isplitr; · iexact HRs6
    isplitl [HtR6]; · iexact HtR6
    iexact HRp6
  iintro ⟨HcS6, HO⟩
  sl_exec_parts
  -- owing nothing more, the two waits of slot 6 need no level evidence; their payloads
  ihave Hb6 := (Entails.of_eq (pay_send m ρ c 6)) $$ HaS6_pay1
  ihave Hr6 := (Entails.of_eq (pay_recv m ρ c 6)) $$ HaR6_pay1
  ihave Hr6' := (Entails.of_eq (show recvPay m ρ c 6 = slotPts c 6 (Land m ρ c 6) from rfl)) $$ Hr6
  ihave Hl6 := (slot_to c 6 _) $$ Hr6'
  ihave HaS6' := (Entails.of_eq (show (atPos ER (kcell (c, 7)) 1 ∅ 0 : sProp 𝕄) = atPos ER (sendCell c 6) 1 ∅ 0 from rfl)) $$ HaS6
  ihave HaR6' := (Entails.of_eq (show (atPos ER (kcell (c, 14)) 1 ∅ 0 : sProp 𝕄) = atPos ER (recvCell c 6) 1 ∅ 0 from rfl)) $$ HaR6
  -- the fourteen own cells close: their counters at zero are the core's again
  imod (close_send m ρ (K (c, sIdx 0)) c 0) $$ [HaS0] with HzS0
  · isplitr; · iexact HIs0
    iexact HaS0
  imod (close_recv m ρ (K (c, rIdx 0)) c 0) $$ [HaR0] with HzR0
  · isplitr; · iexact HIr0
    iexact HaR0
  imod (close_send m ρ (K (c, sIdx 1)) c 1) $$ [HaS1] with HzS1
  · isplitr; · iexact HIs1
    iexact HaS1
  imod (close_recv m ρ (K (c, rIdx 1)) c 1) $$ [HaR1] with HzR1
  · isplitr; · iexact HIr1
    iexact HaR1
  imod (close_send m ρ (K (c, sIdx 2)) c 2) $$ [HaS2] with HzS2
  · isplitr; · iexact HIs2
    iexact HaS2
  imod (close_recv m ρ (K (c, rIdx 2)) c 2) $$ [HaR2] with HzR2
  · isplitr; · iexact HIr2
    iexact HaR2
  imod (close_send m ρ (K (c, sIdx 3)) c 3) $$ [HaS3] with HzS3
  · isplitr; · iexact HIs3
    iexact HaS3
  imod (close_recv m ρ (K (c, rIdx 3)) c 3) $$ [HaR3] with HzR3
  · isplitr; · iexact HIr3
    iexact HaR3
  imod (close_send m ρ (K (c, sIdx 4)) c 4) $$ [HaS4] with HzS4
  · isplitr; · iexact HIs4
    iexact HaS4
  imod (close_recv m ρ (K (c, rIdx 4)) c 4) $$ [HaR4] with HzR4
  · isplitr; · iexact HIr4
    iexact HaR4
  imod (close_send m ρ (K (c, sIdx 5)) c 5) $$ [HaS5] with HzS5
  · isplitr; · iexact HIs5
    iexact HaS5
  imod (close_recv m ρ (K (c, rIdx 5)) c 5) $$ [HaR5] with HzR5
  · isplitr; · iexact HIr5
    iexact HaR5
  imod (close_send m ρ (K (c, sIdx 6)) c 6) $$ [HaS6'] with HzS6
  · isplitr; · iexact HIs6
    iexact HaS6'
  imod (close_recv m ρ (K (c, rIdx 6)) c 6) $$ [HaR6'] with HzR6
  · isplitr; · iexact HIr6
    iexact HaR6'
  ihave Hb6' := (Entails.of_eq (show sendPay m ρ c 6 = accPts c fullShare (A2 m ρ c) from rfl)) $$ Hb6
  ihave Hacc' := (acc_to c _) $$ Hb6'
  sl_exec_parts
  sl_step
  -- the postcondition: the scratch buffers whole again, the fourteen counters, nothing owed, the two staging buffers
  ihave HO' := (Entails.of_eq (show owes (c : Thread nD τ) (OSr c 0) _ = owes (c : Thread nD τ) 0 _ from rfl)) $$ HO
  ihave Hout2 := (pts_congr (g := outAt m ρ c) (by exact out_eq_sl m ρ c _)) $$ Hout'
  iapply Hk
  iapply (bodyPost_intro m ρ c _)
  isplitl [Hacc' Hl0 Hl1 Hl2 Hl3 Hl4 Hl5 Hl6 HzS0 HzS1 HzS2 HzS3 HzS4 HzS5 HzS6 HzR0 HzR1 HzR2 HzR3 HzR4 HzR5 HzR6]
  · iapply (Φ₁_intro c)
    isplitl [Hacc' Hl0 Hl1 Hl2 Hl3 Hl4 Hl5 Hl6]
    · unfold scratch
      isplitl [Hacc']
      · iexists _; iapply (Entails.of_eq (pts_whole c cc0_scratch0 _)); iexact Hacc'
      ihave Hj0 := (slot_of c 0 _) $$ Hl0
      ihave Hj1 := (slot_of c 1 _) $$ Hl1
      ihave Hj2 := (slot_of c 2 _) $$ Hl2
      ihave Hj3 := (slot_of c 3 _) $$ Hl3
      ihave Hj4 := (slot_of c 4 _) $$ Hl4
      ihave Hj5 := (slot_of c 5 _) $$ Hl5
      ihave Hj6 := (slot_of c 6 _) $$ Hl6
      iapply (slots_join c _ _ _ _ _ _ _)
      isplitl [Hj0]; · iexact Hj0
      isplitl [Hj1]; · iexact Hj1
      isplitl [Hj2]; · iexact Hj2
      isplitl [Hj3]; · iexact Hj3
      isplitl [Hj4]; · iexact Hj4
      isplitl [Hj5]; · iexact Hj5
      iexact Hj6
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO']; · iexact HO'
  isplitl [Hx']
  · iapply (Entails.of_eq (pts_whole c cc0_stg0_0 _)); iexact Hx'
  iapply (Entails.of_eq (pts_whole c cc0_stg1_0 _)); iexact Hout2

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Body

end Cert.KernelIdealPf

end
-- ==== Proof.Launch.lean ====
import proofs.«901058_g7700000000001059_dist_softmax_colshard_i_m1024_n512_v7x_i32_f32_1_alg».proof.Proof.Ghost
import proofs.«901058_g7700000000001059_dist_softmax_colshard_i_m1024_n512_v7x_i32_f32_1_alg».proof.Proof.Levels
import proofs.«901058_g7700000000001059_dist_softmax_colshard_i_m1024_n512_v7x_i32_f32_1_alg».proof.Proof.Glob
import proofs.«901058_g7700000000001059_dist_softmax_colshard_i_m1024_n512_v7x_i32_f32_1_alg».proof.Proof.Body

/-! The launch: from every device's body obligation to the run of the whole program on the 32 devices. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main — the kernels handshaking on the barrier semaphore, then exchanging their accumulators in three
    rounds — terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealPf.run_main' depends on axioms: [propext, Classical.choice, Quot.sound] -/
#guard_msgs in #print axioms run_main

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealPf

end
-- ==== Proof.ArrOut.lean ====
import proofs.«901058_g7700000000001059_dist_softmax_colshard_i_m1024_n512_v7x_i32_f32_1_alg».proof.Proof.Ghost
import proofs.«901058_g7700000000001059_dist_softmax_colshard_i_m1024_n512_v7x_i32_f32_1_alg».proof.Proof.Gen.KernelIdeal.Points

/-! What the two arrays hold after the pipeline's one grid point.

The kernel has no grid: the pipeline runs its body once. The input `x` is an input window, never written back, so
its array holds at the end what it held at launch. The result is an output window whose block is the whole array at
block index 0 and which is written back at the one point: the array then holds what the body left in the result's
staging buffer, the rescaled block `outAt`. -/

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input array after the run: as at launch. -/
theorem arrAt_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run. One point, so one step of the array's history: the write-back at that point writes
    all of the staging buffer's contents (the window is not cut) through the block's view, and the block is the array
    itself, its offsets `0 * size`: an unmasked write of the whole array, which leaves what was written. -/
theorem arrAt_out (c : Dev nD) : (dats m ρ 0 c).arrAt (1 : Fin 2) cfg0.N = outAt m ρ c := by
  rw [cfg0_N]
  refine ((dats (F := F) m ρ 0 c).arrAt_succ (1 : Fin 2) t₀).trans ?_
  rw [if_pos (flush0_1 t₀)]
  exact Memref.write_access_unit_zero_univ (Elt F) main_v1 (by funext a; exact Nat.zero_mul _) _ _ _

/-- info: 'Cert.KernelIdealPf.arrAt_x' depends on axioms: [propext, Classical.choice, Quot.sound] -/
#guard_msgs in #print axioms arrAt_x

/-- info: 'Cert.KernelIdealPf.arrAt_out' depends on axioms: [propext, Classical.choice, Quot.sound] -/
#guard_msgs in #print axioms arrAt_out

end Cert.KernelIdealPf

end
-- ==== Proof.Final.lean ====
import proofs.«901058_g7700000000001059_dist_softmax_colshard_i_m1024_n512_v7x_i32_f32_1_alg».proof.Proof.Launch
import proofs.«901058_g7700000000001059_dist_softmax_colshard_i_m1024_n512_v7x_i32_f32_1_alg».proof.Proof.ArrOut

/-! The run of the kernel on the 32 devices with its result named, and the frame it gives. -/

noncomputable section

namespace Cert.KernelIdealPf

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run: the one grid point's write-back of the output staging buffer, the whole array. -/
theorem finalA_out (c : Dev nD) : finalA m ρ c (1 : Fin 2) = outAt m ρ c := arrAt_out m ρ c

/-- Every weakly fair execution of the kernel on the 32 devices terminates without a fault; each device's result array
    ends holding `outAt`, its argument array what it held. -/
theorem kernel_run :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

end Cert.KernelIdealPf

end
-- ==== Proof.Bits.Peers.lean ====
import proofs.«901058_g7700000000001059_dist_softmax_colshard_i_m1024_n512_v7x_i32_f32_1_alg».proof.Proof.Gen.Kernel
import Idealize.ShloMosaic.Lib.Tactic

/-! The partners of a device in the three exchange rounds (radix 4 at stride 1, radix 4 at stride 4, radix 2 at
stride 16). Slot `s` (0..6) is partner number `j` of its round: the device whose digit of that round is the
own digit advanced by `j` (j = 1, 2, 3 in the two radix-4 rounds, 1 in the radix-2 round). Advancing by `j` and
then by `radix - j` is the identity, so each slot's partner map is a bijection of the 32 devices, with inverse the
partner map of the slot `inv s`. -/

namespace Cert.KernelPf

open Cert.Kernel Cert.Kernel.Gen
open Idealize.ShloMosaic

/-- The partner of device number `c` in slot `s`. -/
def peerVal (c : Nat) : Nat → Nat
  | 0 => c / 4 * 4 + (c % 4 + 1) % 4
  | 1 => c / 4 * 4 + (c % 4 + 2) % 4
  | 2 => c / 4 * 4 + (c % 4 + 3) % 4
  | 3 => c / 16 * 16 + c % 4 + (c % 16 / 4 + 1) % 4 * 4
  | 4 => c / 16 * 16 + c % 4 + (c % 16 / 4 + 2) % 4 * 4
  | 5 => c / 16 * 16 + c % 4 + (c % 16 / 4 + 3) % 4 * 4
  | _ => c % 16 + (c / 16 + 1) % 2 * 16

theorem peerVal_lt (c s : Nat) (h : c < 32) : peerVal c s < 32 := by
  unfold peerVal; split <;> omega

/-- The partner of device `c` in slot `s`. -/
def peer (c : Dev nD) (s : Nat) : Dev nD := ⟨peerVal c.val s, peerVal_lt c.val s c.isLt⟩

/-- The slot in which a device's slot-`s` partner has that device as partner. -/
def inv : Nat → Nat
  | 0 => 2 | 1 => 1 | 2 => 0 | 3 => 5 | 4 => 4 | 5 => 3 | _ => 6

theorem inv_inv (s : Fin 7) : inv (inv s.val) = s.val := by revert s; decide
theorem inv_lt (s : Fin 7) : inv s.val < 7 := by revert s; decide

/-- The slot numbers as `Fin 7`. -/
def invF (s : Fin 7) : Fin 7 := ⟨inv s.val, inv_lt s⟩
theorem invF_invF (s : Fin 7) : invF (invF s) = s := by revert s; decide

theorem peer_peer (c : Dev nD) (s : Fin 7) : peer (peer c s.val) (inv s.val) = c := by revert c s; decide
theorem peer_peer' (c : Dev nD) (s : Fin 7) : peer (peer c (inv s.val)) s.val = c := by revert c s; decide
theorem peer_ne (c : Dev nD) (s : Fin 7) : peer c s.val ≠ c := by revert c s; decide
theorem peer_inj (s : Fin 7) {a b : Dev nD} (h : peer a s.val = peer b s.val) : a = b := by
  rw [← peer_peer a s, ← peer_peer b s, h]

/-- Slot `s`'s partner map as a bijection of the devices. -/
def peerEquiv (s : Fin 7) : Dev nD ≃ Dev nD :=
  ⟨fun c => peer c s.val, fun c => peer c (inv s.val), fun c => peer_peer c s, fun c => peer_peer' c s⟩

/-- The printed device chains are the partner maps: the seven barrier signals name the partners of slots 0..6 in order,
    and so do the seven transfers. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

end Cert.KernelPf
-- ==== Proof.Bits.Proto.lean ====
import proofs.«901058_g7700000000001059_dist_softmax_colshard_i_m1024_n512_v7x_i32_f32_1_alg».proof.Proof.Bits.Peers
import proofs.«901058_g7700000000001059_dist_softmax_colshard_i_m1024_n512_v7x_i32_f32_1_alg».proof.Proof.Gen.Kernel
import proofs.«901058_g7700000000001059_dist_softmax_colshard_i_m1024_n512_v7x_i32_f32_1_alg».proof.Proof.Gen.Kernel.Skeleton
import proofs.«901058_g7700000000001059_dist_softmax_colshard_i_m1024_n512_v7x_i32_f32_1_alg».proof.Proof.Gen.Kernel.Launch
import Idealize.ShloMosaic.Lib.Pipeline.Launch
import Idealize.ShloMosaic.Lib.Pipeline.Kit
import Idealize.ShloMosaic.Lib.Tactic

/-! The exchange protocol of the distributed softmax, stated once for every device.

Each device keeps a pair (row maxima, row sums of exponentials) in its accumulator, a 2 x 1024 buffer. In three
rounds it sends the accumulator to the 3, 3 and 1 partners of the round (slot `s` of the 7 receive slots and of the
7 send / 7 receive semaphores belongs to one partner of one round), waits for its own sends and for the partners'
accumulators to land in its receive slots, and merges what it received into the accumulator.  Before the first round
every device signals the barrier semaphore of each of its 7 partners and waits for 7 signals on its own.

Cells and duties (one round, round 0, per cell; duties are slot numbers):
* the barrier cell of `c` has the seven duties `e : Fin 7`, one unit each; duty `e` is paid by `peer c e`, the device
  `c` sends to in slot `e`, and hands `c` that device's receive slot `e`: what `c`'s transfer into it needs;
* the send cell `(c, s)` has the one duty `0`, the transfer's credit, paid by `c`'s own transfer in slot `s`; it hands
  back the share of the accumulator the transfer read;
* the receive cell `(c, s)` has the one duty `0`, the transfer's credit, paid by the transfer of `peer c (inv s)`; it hands
  `c` its receive slot `s` holding that device's accumulator of the slot's round. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The memrefs -/

abbrev xM : Memref sig .tc .vmem S1024x512 .f32 := Memref.whole cc0_stg0_0
abbrev oM : Memref sig .tc .vmem S1024x512 .f32 := Memref.whole cc0_stg1_0
abbrev aM : Memref sig .tc .vmem S2x1024 .f32 := Memref.whole cc0_scratch0
abbrev rM : Memref sig .tc .vmem S7x2x1024 .f32 := Memref.whole cc0_scratch1

/-- Receive slot `k` as a rectangle of the receive buffer (rows [k, k+1) of the 7 x 2 x 1024 buffer), -/
theorem inb_slot : ∀ k : Fin 7, ∀ a, (![k.val, 0, 0] : Fin 3 → Nat) a + S1x2x1024.size a ≤ S7x2x1024.size a := by decide
abbrev rSlot (k : Fin 7) : Rect S7x2x1024 := Rect.unit (s := S7x2x1024) ![k.val, 0, 0] S1x2x1024.size (inb_slot k)

/-- and as the 2 x 1024 memref a transfer writes (the slice squeezed, as the kernel forms it). -/
abbrev rS (k : Fin 7) : Memref sig .tc .vmem S2x1024 .f32 := (rM.slice (rSlot k) (fun _ => rfl)).squeeze S2x1024 squeezes_S1x2x1024_S2x1024

/-! ## The semaphores and cells -/

/-- The runtime's barrier semaphore of collective id 0 (unscoped). -/
abbrev barS : Sem sig := (SemArray.scalar (sig.barrier 0 rfl) : Sems sig S_).sem

/-- The send and receive DMA semaphores of slot `k`, as the kernel picks them out of its two scratch arrays. -/
abbrev sendSem : Fin 7 → DmaSem sig
  | 0 => ((cc0_scratch2.slice (Rect.unit (s := S7) ![0] S1.size inb_S7_S1_0)).squeeze S_ squeezes_S1_S_).sem
  | 1 => ((cc0_scratch2.slice (Rect.unit (s := S7) ![1] S1.size inb_S7_S1_1)).squeeze S_ squeezes_S1_S_).sem
  | 2 => ((cc0_scratch2.slice (Rect.unit (s := S7) ![2] S1.size inb_S7_S1_2)).squeeze S_ squeezes_S1_S_).sem
  | 3 => ((cc0_scratch2.slice (Rect.unit (s := S7) ![3] S1.size inb_S7_S1_3)).squeeze S_ squeezes_S1_S_).sem
  | 4 => ((cc0_scratch2.slice (Rect.unit (s := S7) ![4] S1.size inb_S7_S1_4)).squeeze S_ squeezes_S1_S_).sem
  | 5 => ((cc0_scratch2.slice (Rect.unit (s := S7) ![5] S1.size inb_S7_S1_5)).squeeze S_ squeezes_S1_S_).sem
  | 6 => ((cc0_scratch2.slice (Rect.unit (s := S7) ![6] S1.size inb_S7_S1_6)).squeeze S_ squeezes_S1_S_).sem
abbrev recvSem : Fin 7 → DmaSem sig
  | 0 => ((cc0_scratch3.slice (Rect.unit (s := S7) ![0] S1.size inb_S7_S1_0)).squeeze S_ squeezes_S1_S_).sem
  | 1 => ((cc0_scratch3.slice (Rect.unit (s := S7) ![1] S1.size inb_S7_S1_1)).squeeze S_ squeezes_S1_S_).sem
  | 2 => ((cc0_scratch3.slice (Rect.unit (s := S7) ![2] S1.size inb_S7_S1_2)).squeeze S_ squeezes_S1_S_).sem
  | 3 => ((cc0_scratch3.slice (Rect.unit (s := S7) ![3] S1.size inb_S7_S1_3)).squeeze S_ squeezes_S1_S_).sem
  | 4 => ((cc0_scratch3.slice (Rect.unit (s := S7) ![4] S1.size inb_S7_S1_4)).squeeze S_ squeezes_S1_S_).sem
  | 5 => ((cc0_scratch3.slice (Rect.unit (s := S7) ![5] S1.size inb_S7_S1_5)).squeeze S_ squeezes_S1_S_).sem
  | 6 => ((cc0_scratch3.slice (Rect.unit (s := S7) ![6] S1.size inb_S7_S1_6)).squeeze S_ squeezes_S1_S_).sem

theorem sendSem_val (s : Fin 7) : (sendSem s).val = 2 + s.val := by revert s; decide
theorem recvSem_val (s : Fin 7) : (recvSem s).val = 9 + s.val := by revert s; decide

abbrev barCell (c : Dev nD) : GSem nD τ sig := ((c : Thread nD τ), .reg barS)
abbrev sendCell (c : Dev nD) (s : Fin 7) : GSem nD τ sig := ((c : Thread nD τ), .dma (sendSem s))
abbrev recvCell (c : Dev nD) (s : Fin 7) : GSem nD τ sig := ((c : Thread nD τ), .dma (recvSem s))

/-- The units a transfer of the accumulator credits. -/
abbrev N : ℕ := (aM : Memref sig .tc .vmem S2x1024 .f32).view.dmaCredit
theorem N_pos : 0 < N := View.dmaCredit_pos _ (by decide)

/-! ## Contents

Everything a buffer holds during the run is a function of the devices' blocks of `x`, defined here once for every
float instance. `A0 c` is device `c`'s accumulator after the local pass (row maxima over row sums of exponentials),
`A1`, `A2`, `A3` after the merges of the three rounds; `Land c s` is what receive slot `s` of `c` holds once the
partner's accumulator of the slot's round has landed in it. -/

abbrev CX : Type := (cc0_stg0_0 : Ref sig .tc).ty.Contents (Elt F)
abbrev CA : Type := (cc0_scratch0 : Ref sig .tc).ty.Contents (Elt F)
abbrev CR : Type := (cc0_scratch1 : Ref sig .tc).ty.Contents (Elt F)

/-- Device `c`'s block of `x` as its input staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

abbrev rX : Rect S1024x512 := Rect.unit (s := S1024x512) ![0, 0] S1024x512.size inb_S1024x512_S1024x512_0_0
abbrev rA : Rect S2x1024 := Rect.unit (s := S2x1024) ![0, 0] S2x1024.size inb_S2x1024_S2x1024_0_0
abbrev rRow0 : Rect S2x1024 := Rect.unit (s := S2x1024) ![0, 0] S1x1024.size inb_S2x1024_S1x1024_0_0
abbrev rRow1 : Rect S2x1024 := Rect.unit (s := S2x1024) ![1, 0] S1x1024.size inb_S2x1024_S1x1024_1_0

/-- The accumulator with row 0, row 1 overwritten. -/
def stRow0 (f : (cc0_scratch0 : Ref sig .tc).ty.Contents (Elt F)) (w : FVec F S1x1024 .f32) : (cc0_scratch0 : Ref sig .tc).ty.Contents (Elt F) :=
  ((aM : Memref sig .tc .vmem S2x1024 .f32).access rRow0 : View sig .tc _ _ _).write (Elt F) f w Finset.univ
def stRow1 (f : (cc0_scratch0 : Ref sig .tc).ty.Contents (Elt F)) (w : FVec F S1x1024 .f32) : (cc0_scratch0 : Ref sig .tc).ty.Contents (Elt F) :=
  ((aM : Memref sig .tc .vmem S2x1024 .f32).access rRow1 : View sig .tc _ _ _).write (Elt F) f w Finset.univ

/-- What a transfer of the accumulator `a` leaves in receive slot `k` (over what the buffer held at launch, which the
    slot's elements no longer show). -/
def landIn (c : Dev nD) (k : Fin 7) (a : (cc0_scratch0 : Ref sig .tc).ty.Contents (Elt F)) : (cc0_scratch1 : Ref sig .tc).ty.Contents (Elt F) :=
  (rS k : Memref sig .tc .vmem S2x1024 .f32).view.write (Elt F) ((s₀ m ρ).mem ((c : Thread nD τ).loc cc0_scratch1))
    ((aM : Memref sig .tc .vmem S2x1024 .f32).view.read (Elt F) a) Finset.univ

/-- A load of receive slot `k`. -/
def ldS (k : Fin 7) (r : (cc0_scratch1 : Ref sig .tc).ty.Contents (Elt F)) : Vec F S1x2x1024 .f32 :=
  (rM : Memref sig .tc .vmem S7x2x1024 .f32).view.readAt (Elt F) (rSlot k).toLoadRect r

/-- After the local pass. -/
def A0 (c : Dev nD) : (cc0_scratch0 : Ref sig .tc).ty.Contents (Elt F) := k0_pay5 (xstg m ρ c)

/-- The merge of round 1: the own pair and the three received in slots 0, 1, 2. -/
def merge1 (a : (cc0_scratch0 : Ref sig .tc).ty.Contents (Elt F)) (b0 b1 b2 : Vec F S1x2x1024 .f32) : (cc0_scratch0 : Ref sig .tc).ty.Contents (Elt F) :=
  stRow1 (stRow0 a (k0_pay18 (k0_pay15 a b0 b1 b2)))
    (k0_pay19 (k0_pay11 b1) (k0_pay13 b2) (k0_pay14 b2) (k0_pay15 a b0 b1 b2) (k0_pay16 a b0 b1 b2) (k0_pay17 a b0 b1 b2))
/-- The merge of round 2: slots 3, 4, 5. -/
def merge2 (a : (cc0_scratch0 : Ref sig .tc).ty.Contents (Elt F)) (b3 b4 b5 : Vec F S1x2x1024 .f32) : (cc0_scratch0 : Ref sig .tc).ty.Contents (Elt F) :=
  stRow1 (stRow0 a (k0_pay30 (k0_pay20 a) (k0_pay23 b3) b4 b5))
    (k0_pay31 (k0_pay20 a) (k0_pay21 a) (k0_pay23 b3) (k0_pay24 b3) b4 b5)
/-- The merge of round 3: slot 6. -/
def merge3 (a : (cc0_scratch0 : Ref sig .tc).ty.Contents (Elt F)) (b6 : Vec F S1x2x1024 .f32) : (cc0_scratch0 : Ref sig .tc).ty.Contents (Elt F) :=
  stRow1 (stRow0 a (k0_pay36 a b6)) (k0_pay37 a b6)

def A1 (c : Dev nD) : (cc0_scratch0 : Ref sig .tc).ty.Contents (Elt F) :=
  merge1 (A0 m ρ c) (ldS 0 (landIn m ρ c 0 (A0 m ρ (peer c 2)))) (ldS 1 (landIn m ρ c 1 (A0 m ρ (peer c 1)))) (ldS 2 (landIn m ρ c 2 (A0 m ρ (peer c 0))))
def A2 (c : Dev nD) : (cc0_scratch0 : Ref sig .tc).ty.Contents (Elt F) :=
  merge2 (A1 m ρ c) (ldS 3 (landIn m ρ c 3 (A1 m ρ (peer c 5)))) (ldS 4 (landIn m ρ c 4 (A1 m ρ (peer c 4)))) (ldS 5 (landIn m ρ c 5 (A1 m ρ (peer c 3))))
def A3 (c : Dev nD) : (cc0_scratch0 : Ref sig .tc).ty.Contents (Elt F) :=
  merge3 (A2 m ρ c) (ldS 6 (landIn m ρ c 6 (A2 m ρ (peer c 6))))

/-- The accumulator a transfer in slot `s` reads: the one of the slot's round. -/
def Asrc (c : Dev nD) : Fin 7 → (cc0_scratch0 : Ref sig .tc).ty.Contents (Elt F)
  | 0 => A0 m ρ c | 1 => A0 m ρ c | 2 => A0 m ρ c | 3 => A1 m ρ c | 4 => A1 m ρ c | 5 => A1 m ρ c | 6 => A2 m ρ c

/-- What receive slot `s` of `c` holds once its transfer has landed: the accumulator of the sender `peer c (inv s)`. -/
def Land (c : Dev nD) (s : Fin 7) : (cc0_scratch1 : Ref sig .tc).ty.Contents (Elt F) :=
  landIn m ρ c s (Asrc m ρ (peer c (inv s.val)) s)

/-- The kernel's result on device `c`. -/
def outAt (c : Dev nD) : (cc0_stg1_0 : Ref sig .tc).ty.Contents (Elt F) :=
  k0_pay1 (k0_pay3 (xstg m ρ c)) (A3 m ρ c) (k0_pay4 (xstg m ρ c))

/-! ## Holdings -/

/-- The share of the accumulator the transfer of slot `s` reads: the three transfers of a round read three disjoint
    shares that make up the whole. -/
def sh : Fin 7 → PosShare TreeShare
  | 0 => fullShare.left | 1 => fullShare.right.left | 2 => fullShare.right.right
  | 3 => fullShare.left | 4 => fullShare.right.left | 5 => fullShare.right.right
  | 6 => fullShare

/-- Receive slot `k` of device `c`, held whole at contents `f`. -/
def slotPts (c : Dev nD) (k : Fin 7) (f : Buf (Elt F) ((rS k : Memref sig .tc .vmem S2x1024 .f32).view.loc (c : Thread nD τ))) : sProp 𝕄 :=
  (rS k : Memref sig .tc .vmem S2x1024 .f32).view.loc (c : Thread nD τ) ↦[(rS k : Memref sig .tc .vmem S2x1024 .f32).view.set]{fullShare} f
/-- The accumulator of device `c`, held at share `q` at contents `f`. -/
def accPts (c : Dev nD) (q : PosShare TreeShare) (f : Buf (Elt F) ((aM : Memref sig .tc .vmem S2x1024 .f32).view.loc (c : Thread nD τ))) : sProp 𝕄 :=
  (aM : Memref sig .tc .vmem S2x1024 .f32).view.loc (c : Thread nD τ) ↦[(aM : Memref sig .tc .vmem S2x1024 .f32).view.set]{q} f

omit [FloatOps F] in
instance slotPts_storable (c : Dev nD) (k : Fin 7) (f) : BI.Storable (upEmb : UEmb _ 𝕄) (slotPts (F := F) c k f) := by unfold slotPts; infer_instance
omit [FloatOps F] in
instance accPts_storable (c : Dev nD) (q) (f) : BI.Storable (upEmb : UEmb _ 𝕄) (accPts (F := F) c q f) := by unfold accPts; infer_instance

/-! ## The schedule -/

/-- Duty `e` of `c`'s barrier cell, paid by `peer c e`: that device's receive slot `e`, at some contents. -/
def barPay (c : Dev nD) (e : Fin 7) : sProp 𝕄 := iprop(∃ f, slotPts (peer c e.val) e f)
def sendPay (c : Dev nD) (s : Fin 7) : sProp 𝕄 := accPts c (sh s) (Asrc m ρ c s)
def recvPay (c : Dev nD) (s : Fin 7) : sProp 𝕄 := slotPts c s (Land m ρ c s)

abbrev IsBar (g : GSem nD τ sig) : Prop := g.1.2 = .tc ∧ g.2 = .reg barS
abbrev IsXfer (g : GSem nD τ sig) : Prop := g.1.2 = .tc ∧ ∃ s : Fin 7, g.2 = .dma (sendSem s) ∨ g.2 = .dma (recvSem s)

/-- Which slot a DMA semaphore of the protocol belongs to (slot 0 for any other cell: unread). -/
def slotOf (sm : SemLoc sig) : Fin 7 :=
  match sm with
  | .dma q => if h : 2 ≤ q.val ∧ q.val < 9 then ⟨q.val - 2, by omega⟩ else if h : 9 ≤ q.val ∧ q.val < 16 then ⟨q.val - 9, by omega⟩ else 0
  | .reg _ => 0
def isSend (sm : SemLoc sig) : Prop := match sm with | .dma q => 2 ≤ q.val ∧ q.val < 9 | .reg _ => False
def isRecv (sm : SemLoc sig) : Prop := match sm with | .dma q => 9 ≤ q.val | .reg _ => False
instance (sm : SemLoc sig) : Decidable (isSend sm) := by unfold isSend; split <;> infer_instance
instance (sm : SemLoc sig) : Decidable (isRecv sm) := by unfold isRecv; split <;> infer_instance

/-- One round, round 0: a barrier cell has the seven duties of one unit each; a send or receive cell the duty `0` of the
    transfer's credit. -/
def Rd : Rounds.Schedule (GSem nD τ sig) (Fin 7) 𝕄 where
  duties g r := if r = 0 ∧ g.1.2 = .tc ∧ g.2 = .reg barS then Finset.univ
    else if r = 0 ∧ g.1.2 = .tc ∧ (isSend g.2 ∨ isRecv g.2) then {0} else ∅
  unitless _ := False
  amount g _ _ := if g.2 = .reg barS then 1 else N
  payload g _ d :=
    if g.2 = .reg barS then barPay g.1.1 d
    else if isSend g.2 then sendPay m ρ g.1.1 (slotOf g.2)
    else if isRecv g.2 then recvPay m ρ g.1.1 (slotOf g.2)
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m ρ).payload g r d) := by
  show BI.Storable upEmb (if g.2 = .reg barS then barPay g.1.1 d
    else if isSend g.2 then sendPay m ρ g.1.1 (slotOf g.2)
    else if isRecv g.2 then recvPay m ρ g.1.1 (slotOf g.2) else iprop(emp))
  unfold barPay sendPay recvPay
  (repeat' split) <;> infer_instance

end Cert.KernelPf

end
-- ==== Proof.Bits.Ghost.lean ====
import proofs.«901058_g7700000000001059_dist_softmax_colshard_i_m1024_n512_v7x_i32_f32_1_alg».proof.Proof.Bits.Proto

/-! What each device owes at launch, the levels of the cells, the ghost state a device's body starts from, and the
pipeline's proof data. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- The receive credit device `c` owes its slot-`s` partner, and the barrier unit. -/
def Tr (c : Dev nD) (s : Fin 7) : CellTallies nD τ sig Unit := tallyAt (recvCell (peer c s.val) s) () N
def Tb (c : Dev nD) (s : Fin 7) : CellTallies nD τ sig Unit := tallyAt (barCell (peer c s.val)) () 1

/-- What `c` still owes with `n` transfers to go (those of slots `7 - n, …, 6`), summed so that the next transfer's
    credit is the last summand; -/
def OSr (c : Dev nD) : ℕ → CellTallies nD τ sig Unit
  | 0 => 0
  | n + 1 => OSr c n + Tr c ⟨(6 - n) % 7, Nat.mod_lt _ (by decide)⟩
/-- and with `n` barrier signals to go before them. -/
def OBr (c : Dev nD) : ℕ → CellTallies nD τ sig Unit
  | 0 => OSr c 7
  | n + 1 => OBr c n + Tb c ⟨(6 - n) % 7, Nat.mod_lt _ (by decide)⟩
def O₀ (c : Dev nD) : CellTallies nD τ sig Unit := OBr c 7

/-- The round of a slot. -/
def rnd (s : Fin 7) : ℕ := if s.val < 3 then 0 else if s.val < 6 then 1 else 2

def L (g : GSem nD τ sig) : Finset Unit := if g.1.2 = .tc then {()} else ∅
/-- Barrier cells at 1, the receive cells of round `r` at `2 + r`, everything else (staging, send) at 0: a device waits on
    a receive cell of a round owing only receive credits of later rounds. -/
def lv (g : GSem nD τ sig) (_ : Unit) : ℕ := if g.2 = .reg barS then 1 else if isRecv g.2 then 2 + rnd (slotOf g.2) else 0

theorem L_of_ne (g : GSem nD τ sig) (h : g.1.2 ≠ .tc) : L g = ∅ := if_neg h
theorem L_tc (c : Dev nD) (sm : SemLoc sig) : L ((c : Thread nD τ), sm) = {()} := if_pos rfl

/-! ## The cells of a device, indexed: 0 the barrier cell, 1 + s the send cell, 8 + s the receive cell of slot s -/

abbrev csem : Fin 15 → SemLoc sig
  | 0 => .reg barS
  | 1 => .dma (sendSem 0) | 2 => .dma (sendSem 1) | 3 => .dma (sendSem 2) | 4 => .dma (sendSem 3) | 5 => .dma (sendSem 4) | 6 => .dma (sendSem 5) | 7 => .dma (sendSem 6)
  | 8 => .dma (recvSem 0) | 9 => .dma (recvSem 1) | 10 => .dma (recvSem 2) | 11 => .dma (recvSem 3) | 12 => .dma (recvSem 4) | 13 => .dma (recvSem 5) | 14 => .dma (recvSem 6)
abbrev kcell (ck : Dev nD × Fin 15) : GSem nD τ sig := ((ck.1 : Thread nD τ), csem ck.2)
/-- The kernel's OWN (scoped) semaphores, as the launch theorem indexes them: the 7 send and the 7 receive semaphores. -/
abbrev osem : Fin 14 → SemLoc sig := fun k => csem ⟨k.val + 1, by omega⟩

def sIdx (s : Fin 7) : Fin 15 := ⟨1 + s.val, by omega⟩
def rIdx (s : Fin 7) : Fin 15 := ⟨8 + s.val, by omega⟩
theorem kcell_bar (c : Dev nD) : kcell (c, 0) = barCell c := rfl
theorem kcell_send (c : Dev nD) (s : Fin 7) : kcell (c, sIdx s) = sendCell c s := by fin_cases s <;> rfl
theorem kcell_recv (c : Dev nD) (s : Fin 7) : kcell (c, rIdx s) = recvCell c s := by fin_cases s <;> rfl

/-! ## The ghost state -/

/-- Every cell's invariant (at the names `K` the launch allocated them at) and that every cell is at round 0: persistent,
    the same for every device. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

/-- The tokens of the duties device `c` PAYS: duty `inv s` of its slot-`s` partner's barrier cell (its `s`-th signal), that
    partner's receive duty of slot `s` (its transfer's arrival), its own send duty of slot `s` (the transfer's departure). -/
def payToks (c : Dev nD) : sProp 𝕄 :=
  iprop((bigSep Finset.univ fun s : Fin 7 => dutyTok ER (barCell (peer c s.val)) 0 (invF s))
    ∗ (bigSep Finset.univ fun s : Fin 7 => dutyTok ER (recvCell (peer c s.val) s) 0 (0 : Fin 7))
    ∗ (bigSep Finset.univ fun s : Fin 7 => dutyTok ER (sendCell c s) 0 (0 : Fin 7)))

/-- What stays with device `c`: its positions at round 0 of its fifteen cells, and the tokens of the duties it pays. -/
def linear (c : Dev nD) : sProp 𝕄 :=
  iprop((bigSep Finset.univ fun k : Fin 15 => atPos ER (kcell (c, k)) 0 ∅ 0) ∗ payToks c)

def ghost (K : Dev nD × Fin 15 → ℕ) (c : Dev nD) : sProp 𝕄 := iprop(records m ρ K ∗ linear c)

/-- The credit tokens the launch deals `c`: its barrier's seven units and each receive cell's credit. -/
def startCred (c : Dev nD) : sProp 𝕄 :=
  iprop(cred (tallyAt (barCell c) () 7) ∗ bigSep Finset.univ fun s : Fin 7 => cred (tallyAt (recvCell c s) () N))

/-- What device `c`'s body starts from. -/
def start (c : Dev nD) : sProp 𝕄 := iprop((∃ K, ghost m ρ K c) ∗ startCred c ∗ levAts L lv)

/-- The two scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers back whole, the fourteen OWN cells at zero, closed. -/
def Φ₁ (c : Dev nD) : sProp 𝕄 :=
  iprop(scratch c ∗ bigSep Finset.univ fun k : Fin 14 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device `c`, the ghost names fixed. -/
def bodyPre (K : Dev nD × Fin 15 → ℕ) (c : Dev nD) : sProp 𝕄 :=
  iprop((ghost m ρ K c ∗ startCred c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelPf

end
-- ==== Proof.Bits.Levels.lean ====
import proofs.«901058_g7700000000001059_dist_softmax_colshard_i_m1024_n512_v7x_i32_f32_1_alg».proof.Proof.Bits.Ghost

/-! The level evidence of every wait of a device, and the credit the launch deals it.

A device waits on its two staging cells (level 0) owing everything or nothing, on its barrier cell (level 1) owing the
seven receive credits, on a send cell (level 0) owing some of the receive credits, and on the receive cell of a slot of
round r (level 2 + r) owing only receive credits of later rounds: each wait sits strictly below everything the device
then owes.  Summed over the devices, what is owed to device c's cells is seven barrier units (one from each partner) and
one transfer's credit on each of its seven receive cells (slot s from the partner that has c in slot s): the launch
deals c exactly these credit tokens. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a device's dues are positive -/

/-- With n transfers to go a device owes only receive cells of its partners in the slots 7 - n, …, 6. -/
theorem OSr_pos {c : Dev nD} {n : ℕ} {g : GSem nD τ sig} {u : Unit} (h : 0 < OSr c n g u) :
    ∃ s : Fin 7, 7 - n ≤ s.val ∧ g = recvCell (peer c s.val) s := by
  induction n with
  | zero =>
    have h0 : 0 < (0 : CellTallies nD τ sig Unit) g u := h
    rw [Pi.zero_apply, Finsupp.zero_apply] at h0
    exact absurd h0 (Nat.lt_irrefl 0)
  | succ n ih =>
    have h' : 0 < (OSr c n + Tr c ⟨(6 - n) % 7, Nat.mod_lt _ (by decide)⟩) g u := h
    rcases Pipeline.add_pos_cases h' with h1 | h1
    · obtain ⟨s, hs, hg⟩ := ih h1
      exact ⟨s, by omega, hg⟩
    · have h2 : 0 < tallyAt (recvCell (peer c ((6 - n) % 7)) ⟨(6 - n) % 7, Nat.mod_lt _ (by decide)⟩) () N g u := h1
      exact ⟨⟨(6 - n) % 7, Nat.mod_lt _ (by decide)⟩, by show 7 - (n + 1) ≤ (6 - n) % 7; omega, (Pipeline.tallyAt_pos h2).1⟩

/-- With barrier signals still to go it owes, besides, barrier cells of its partners. -/
theorem OBr_pos {c : Dev nD} {n : ℕ} {g : GSem nD τ sig} {u : Unit} (h : 0 < OBr c n g u) :
    (∃ s : Fin 7, g = recvCell (peer c s.val) s) ∨ (∃ s : Fin 7, g = barCell (peer c s.val)) := by
  induction n with
  | zero =>
    have h0 : 0 < OSr c 7 g u := h
    obtain ⟨s, _, hg⟩ := OSr_pos h0
    exact Or.inl ⟨s, hg⟩
  | succ n ih =>
    have h' : 0 < (OBr c n + Tb c ⟨(6 - n) % 7, Nat.mod_lt _ (by decide)⟩) g u := h
    rcases Pipeline.add_pos_cases h' with h1 | h1
    · exact ih h1
    · have h2 : 0 < tallyAt (barCell (peer c ((6 - n) % 7))) () 1 g u := h1
      exact Or.inr ⟨⟨(6 - n) % 7, Nat.mod_lt _ (by decide)⟩, (Pipeline.tallyAt_pos h2).1⟩

theorem O₀_pos {c : Dev nD} {g : GSem nD τ sig} {u : Unit} (h : 0 < O₀ c g u) :
    (∃ s : Fin 7, g = recvCell (peer c s.val) s) ∨ (∃ s : Fin 7, g = barCell (peer c s.val)) :=
  OBr_pos (n := 7) h

/-! ## The levels of a device's cells -/

private theorem isRecv_recvSem (s : Fin 7) : isRecv (SemLoc.dma (recvSem s) : SemLoc sig) := by
  show 9 ≤ (recvSem s).val
  rw [recvSem_val]; omega

private theorem slotOf_recvSem (s : Fin 7) : slotOf (SemLoc.dma (recvSem s) : SemLoc sig) = s := by
  have hv := recvSem_val s
  have h1 : ¬ (2 ≤ (recvSem s).val ∧ (recvSem s).val < 9) := by omega
  have h2 : 9 ≤ (recvSem s).val ∧ (recvSem s).val < 16 := by omega
  show (if h : 2 ≤ (recvSem s).val ∧ (recvSem s).val < 9 then (⟨(recvSem s).val - 2, by omega⟩ : Fin 7)
    else if h : 9 ≤ (recvSem s).val ∧ (recvSem s).val < 16 then (⟨(recvSem s).val - 9, by omega⟩ : Fin 7) else 0) = s
  rw [dif_neg h1, dif_pos h2]
  exact Fin.ext (by show (recvSem s).val - 9 = s.val; omega)

private theorem mem_L (d : Dev nD) (sm : SemLoc sig) (u : Unit) : u ∈ L ((d : Thread nD τ), sm) := by
  rw [L_tc]; exact Finset.mem_singleton_self _

/-- A barrier cell sits at level 1, -/
private theorem lv_bar (d : Dev nD) (u : Unit) : lv (barCell d) u = 1 := if_pos rfl

/-- the receive cell of slot s at level 2 + (the slot's round), -/
private theorem lv_recv (d : Dev nD) (s : Fin 7) (u : Unit) : lv (recvCell d s) u = 2 + rnd s := by
  show (if (SemLoc.dma (recvSem s) : SemLoc sig) = .reg barS then 1
    else if isRecv (SemLoc.dma (recvSem s) : SemLoc sig) then 2 + rnd (slotOf (SemLoc.dma (recvSem s) : SemLoc sig)) else 0) = 2 + rnd s
  rw [if_neg (fun h => by cases h), if_pos (isRecv_recvSem s), slotOf_recvSem]

/-- and every DMA cell below the receive semaphores (the staging cells, the send cells) at level 0. -/
private theorem lv_low (d : Dev nD) (q : DmaSem sig) (hq : q.val < 9) (u : Unit) : lv ((d : Thread nD τ), SemLoc.dma q) u = 0 := by
  show (if (SemLoc.dma q : SemLoc sig) = .reg barS then 1
    else if isRecv (SemLoc.dma q : SemLoc sig) then 2 + rnd (slotOf (SemLoc.dma q : SemLoc sig)) else 0) = 0
  rw [if_neg (fun h => by cases h), if_neg (fun h => by have h' : 9 ≤ q.val := h; omega)]

private theorem lv_send (d : Dev nD) (s : Fin 7) (u : Unit) : lv (sendCell d s) u = 0 :=
  lv_low d (sendSem s) (by rw [sendSem_val]; omega) u

/-! ## The level evidence -/

omit [FloatOps F] in
/-- The cut: a wait on a cell of c whose level is at most b, while c owes only receive credits of slots 7 - n, …, 6,
    all at levels above b. -/
theorem mayWait_cut (c : Dev nD) (sm : SemLoc sig) (n b : ℕ) (hb : lv ((c : Thread nD τ), sm) () ≤ b)
    (h : ∀ s' : Fin 7, 7 - n ≤ s'.val → b < 2 + rnd s') :
    (levAts L lv : sProp 𝕄) ⊢ MayWait (c : Thread nD τ) sm () (OSr c n) :=
  MayOwe.of_cut (L := L) (lev := lv) b
    (fun p hp => by rw [Finset.mem_singleton.mp hp]; exact mem_L c sm ())
    (fun g u hg => by obtain ⟨s', _, rfl⟩ := OSr_pos hg; exact mem_L _ _ u)
    (fun p hp => by rw [Finset.mem_singleton.mp hp]; exact hb)
    (fun g u hg => by obtain ⟨s', hs', rfl⟩ := OSr_pos hg; rw [lv_recv]; exact h s' hs')

omit [FloatOps F] in
/-- The staging cells (the two DMA semaphores below the kernel's own): waited owing everything, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp]; exact mem_L c (.dma q) ())
      (fun g u hg => by rcases O₀_pos hg with ⟨s, rfl⟩ | ⟨s, rfl⟩ <;> exact mem_L _ _ u)
      (fun p hp => by rw [Finset.mem_singleton.mp hp]; exact (lv_low c q (by omega) ()).le)
      (fun g u hg => by
        rcases O₀_pos hg with ⟨s, rfl⟩ | ⟨s, rfl⟩
        · rw [lv_recv]; omega
        · rw [lv_bar]; omega)
  · rw [MayWait_zero]; iintro -; iempintro

omit [FloatOps F] in
/-- At its barrier wait a device owes the seven receive credits: receive cells, above its barrier cell. -/
theorem mayWait_bar (c : Dev nD) :
    (levAts L lv : sProp 𝕄) ⊢ MayWait (c : Thread nD τ) (.reg barS) () (OSr c 7) :=
  mayWait_cut c (.reg barS) 7 1 (lv_bar c ()).le (fun s' _ => by omega)

omit [FloatOps F] in
/-- A send cell is at level 0, below every receive cell. -/
theorem mayWait_send (c : Dev nD) (s : Fin 7) (n : ℕ) :
    (levAts L lv : sProp 𝕄) ⊢ MayWait (c : Thread nD τ) (.dma (sendSem s)) () (OSr c n) :=
  mayWait_cut c (.dma (sendSem s)) n 0 (lv_send c s ()).le (fun s' _ => by omega)

omit [FloatOps F] in
/-- The receive cell of slot s may be waited on while only transfers of later rounds are still to go. -/
theorem mayWait_recv (c : Dev nD) (s : Fin 7) (n : ℕ) (h : ∀ s' : Fin 7, 7 - n ≤ s'.val → rnd s < rnd s') :
    (levAts L lv : sProp 𝕄) ⊢ MayWait (c : Thread nD τ) (.dma (recvSem s)) () (OSr c n) :=
  mayWait_cut c (.dma (recvSem s)) n (2 + rnd s) (lv_recv c s ()).le (fun s' hs' => by have := h s' hs'; omega)

omit [FloatOps F] in
theorem mayWait_recv0 (c : Dev nD) : (levAts L lv : sProp 𝕄) ⊢ MayWait (c : Thread nD τ) (.dma (recvSem 0)) () (OSr c 4) :=
  mayWait_recv c 0 4 (by decide)
omit [FloatOps F] in
theorem mayWait_recv1 (c : Dev nD) : (levAts L lv : sProp 𝕄) ⊢ MayWait (c : Thread nD τ) (.dma (recvSem 1)) () (OSr c 4) :=
  mayWait_recv c 1 4 (by decide)
omit [FloatOps F] in
theorem mayWait_recv2 (c : Dev nD) : (levAts L lv : sProp 𝕄) ⊢ MayWait (c : Thread nD τ) (.dma (recvSem 2)) () (OSr c 4) :=
  mayWait_recv c 2 4 (by decide)
omit [FloatOps F] in
theorem mayWait_recv3 (c : Dev nD) : (levAts L lv : sProp 𝕄) ⊢ MayWait (c : Thread nD τ) (.dma (recvSem 3)) () (OSr c 1) :=
  mayWait_recv c 3 1 (by decide)
omit [FloatOps F] in
theorem mayWait_recv4 (c : Dev nD) : (levAts L lv : sProp 𝕄) ⊢ MayWait (c : Thread nD τ) (.dma (recvSem 4)) () (OSr c 1) :=
  mayWait_recv c 4 1 (by decide)
omit [FloatOps F] in
theorem mayWait_recv5 (c : Dev nD) : (levAts L lv : sProp 𝕄) ⊢ MayWait (c : Thread nD τ) (.dma (recvSem 5)) () (OSr c 1) :=
  mayWait_recv c 5 1 (by decide)
omit [FloatOps F] in
theorem mayWait_recv6 (c : Dev nD) : (levAts L lv : sProp 𝕄) ⊢ MayWait (c : Thread nD τ) (.dma (recvSem 6)) () (OSr c 0) :=
  mayWait_recv c 6 0 (by decide)

/-- The pipeline's own waits, on the two staging cells: before the point the device owes everything, after it nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The launch credit -/

/-- Every device owing its slot-s partner one transfer's credit on that partner's slot-s receive cell, device c is dealt
    that credit on its own: the partner map of a slot is a bijection of the devices. -/
private theorem cred_recv (c : Dev nD) (s : Fin 7) :
    (Pipeline.launchCred (fun d => Tr d s) c : sProp 𝕄) ⊢ cred (tallyAt (recvCell c s) () N) :=
  Pipeline.launchCred_tallyAt (.dma (recvSem s)) (fun d => peer d s.val) (fun d => peer d (inv s.val))
    (fun d => peer_peer' d s) (fun d => peer_peer d s) () N c

/-- Likewise one unit on its barrier cell for each slot. -/
private theorem cred_bar (c : Dev nD) (s : Fin 7) :
    (Pipeline.launchCred (fun d => Tb d s) c : sProp 𝕄) ⊢ cred (tallyAt (barCell c) () 1) :=
  Pipeline.launchCred_tallyAt (.reg barS) (fun d => peer d s.val) (fun d => peer d (inv s.val))
    (fun d => peer_peer' d s) (fun d => peer_peer d s) () 1 c

private theorem cred_join (g : GSem nD τ sig) (a b : ℕ) :
    (iprop(cred (tallyAt g () a) ∗ cred (tallyAt g () b)) : sProp 𝕄) ⊢ cred (tallyAt g () (a + b)) := by
  rw [← tallyAt_add]
  exact (cred_add _ _).2

/-- Seven units on one cell are one token of seven. -/
private theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄)
      ⊢ cred (tallyAt g () 7) := by
  refine (sep_mono_right ?_).trans (cred_join g 1 6)
  refine (sep_mono_right ?_).trans (cred_join g 1 5)
  refine (sep_mono_right ?_).trans (cred_join g 1 4)
  refine (sep_mono_right ?_).trans (cred_join g 1 3)
  refine (sep_mono_right ?_).trans (cred_join g 1 2)
  exact cred_join g 1 1

private theorem sep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the devices owe at launch, summand by summand. -/
private theorem O₀_eq : (O₀ : Dev nD → CellTallies nD τ sig Unit) = fun d =>
    0 + Tr d 6 + Tr d 5 + Tr d 4 + Tr d 3 + Tr d 2 + Tr d 1 + Tr d 0
      + Tb d 6 + Tb d 5 + Tb d 4 + Tb d 3 + Tb d 2 + Tb d 1 + Tb d 0 :=
  funext fun d => rfl

/-- The launch deals device c seven units on its barrier cell (one owed by each partner) and one transfer's credit on
    each receive cell (owed by the partner that sends into that slot). -/
theorem creds (c : Dev nD) : (Pipeline.launchCred O₀ c : sProp 𝕄) ⊢ startCred c := by
  rw [O₀_eq]
  iterate 14 rw [Pipeline.launchCred_add]
  rw [Pipeline.launchCred_zero]
  unfold startCred
  rw [sep_fin7]
  iintro ⟨⟨⟨⟨⟨⟨⟨⟨⟨⟨⟨⟨⟨⟨-, R6⟩, R5⟩, R4⟩, R3⟩, R2⟩, R1⟩, R0⟩, B6⟩, B5⟩, B4⟩, B3⟩, B2⟩, B1⟩, B0⟩
  isplitl [B0 B1 B2 B3 B4 B5 B6]
  · iapply (cred_seven (F := F) (barCell c))
    isplitl [B0]; · iapply (cred_bar (F := F) c 0); iexact B0
    isplitl [B1]; · iapply (cred_bar (F := F) c 1); iexact B1
    isplitl [B2]; · iapply (cred_bar (F := F) c 2); iexact B2
    isplitl [B3]; · iapply (cred_bar (F := F) c 3); iexact B3
    isplitl [B4]; · iapply (cred_bar (F := F) c 4); iexact B4
    isplitl [B5]; · iapply (cred_bar (F := F) c 5); iexact B5
    iapply (cred_bar (F := F) c 6); iexact B6
  · isplitl [R0]; · iapply (cred_recv (F := F) c 0); iexact R0
    isplitl [R1]; · iapply (cred_recv (F := F) c 1); iexact R1
    isplitl [R2]; · iapply (cred_recv (F := F) c 2); iexact R2
    isplitl [R3]; · iapply (cred_recv (F := F) c 3); iexact R3
    isplitl [R4]; · iapply (cred_recv (F := F) c 4); iexact R4
    isplitl [R5]; · iapply (cred_recv (F := F) c 5); iexact R5
    iapply (cred_recv (F := F) c 6); iexact R6

/-- info: 'Cert.KernelPf.creds' depends on axioms: [propext, Classical.choice, Quot.sound] -/
#guard_msgs in #print axioms creds

/-- info: 'Cert.KernelPf.waits' depends on axioms: [propext, Classical.choice, Quot.sound] -/
#guard_msgs in #print axioms waits

end Cert.KernelPf

end
-- ==== Proof.Bits.Glob.lean ====
import proofs.«901058_g7700000000001059_dist_softmax_colshard_i_m1024_n512_v7x_i32_f32_1_alg».proof.Proof.Bits.Ghost

/-! The launch's ghost-state steps: the cells and the duty tokens of the protocol's launch element, what the launch deals
each device, and the one update that allocates every cell's invariant for all devices at once and hands each device the
tokens of the duties it pays.

A device's own cells mint their own duty tokens, but the protocol has each duty paid by ANOTHER device: duty e of the
barrier cell of c by peer c e, the receive duty of slot s of c by peer c (inv s). So the global step deals the tokens
around: the devices are reindexed slot by slot along the slot's partner bijection, and the barrier duties along the
involution of the slots. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option maxRecDepth 8000 in
theorem ownSemFacts : Pipeline.OwnSemFacts cfg0.spec osem := by decide

/-! ## The launch element: its cells and its tokens -/

set_option maxRecDepth 8000 in
/-- The fifteen cells of a device are fifteen different semaphores. -/
theorem csem_injective : Function.Injective (csem : Fin 15 → SemLoc sig) := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

private theorem sendSem_injective : Function.Injective (sendSem : Fin 7 → DmaSem sig) := fun s s' h => by
  have h1 := sendSem_val s; have h2 := sendSem_val s'; rw [h] at h1; exact Fin.ext (by omega)
private theorem recvSem_injective : Function.Injective (recvSem : Fin 7 → DmaSem sig) := fun s s' h => by
  have h1 := recvSem_val s; have h2 := recvSem_val s'; rw [h] at h1; exact Fin.ext (by omega)
private theorem recvSem_ne_sendSem (s s' : Fin 7) : recvSem s ≠ sendSem s' := fun h => by
  have h1 := recvSem_val s; have h2 := sendSem_val s'; have h3 := s'.isLt; rw [h] at h1; omega

/-- The duty tokens of a device's OWN cells as minted, indexed by (device, which): the seven duties of its barrier cell, the
    one duty of each of its seven receive cells, the one duty of each of its seven send cells. -/
abbrev tokOf (cj : Dev nD × (Fin 7 ⊕ Fin 7 ⊕ Fin 7)) : GSem nD τ sig × ℕ × Fin 7 := match cj.2 with
  | .inl e => (barCell cj.1, 0, e)
  | .inr (.inl s) => (recvCell cj.1 s, 0, 0)
  | .inr (.inr s) => (sendCell cj.1 s, 0, 0)

theorem tokOf_injective : Function.Injective (tokOf : Dev nD × (Fin 7 ⊕ Fin 7 ⊕ Fin 7) → GSem nD τ sig × ℕ × Fin 7) := by
  rintro ⟨c, j⟩ ⟨c', j'⟩ h
  have h1 : c = c' := by
    have := congrArg (fun x : GSem nD τ sig × ℕ × Fin 7 => x.1.1.1) h
    rcases j with e | s | s <;> rcases j' with e' | s' | s' <;> exact this
  subst h1
  have hs : (tokOf (c, j)).1.2 = (tokOf (c, j')).1.2 := congrArg (fun x : GSem nD τ sig × ℕ × Fin 7 => x.1.2) h
  have hd : (tokOf (c, j)).2.2 = (tokOf (c, j')).2.2 := congrArg (fun x : GSem nD τ sig × ℕ × Fin 7 => x.2.2) h
  have h2 : j = j' := by
    rcases j with e | s | s <;> rcases j' with e' | s' | s'
    · exact congrArg Sum.inl (show e = e' from hd)
    · exact absurd (show (SemLoc.reg barS : SemLoc sig) = .dma (recvSem s') from hs) (fun h' => by cases h')
    · exact absurd (show (SemLoc.reg barS : SemLoc sig) = .dma (sendSem s') from hs) (fun h' => by cases h')
    · exact absurd (show (SemLoc.dma (recvSem s) : SemLoc sig) = .reg barS from hs) (fun h' => by cases h')
    · have hq : recvSem s = recvSem s' := SemLoc.dma.inj (show (SemLoc.dma (recvSem s) : SemLoc sig) = .dma (recvSem s') from hs)
      rw [recvSem_injective hq]
    · exact absurd (SemLoc.dma.inj (show (SemLoc.dma (recvSem s) : SemLoc sig) = .dma (sendSem s') from hs)) (recvSem_ne_sendSem s s')
    · exact absurd (show (SemLoc.dma (sendSem s) : SemLoc sig) = .reg barS from hs) (fun h' => by cases h')
    · exact absurd (SemLoc.dma.inj (show (SemLoc.dma (sendSem s) : SemLoc sig) = .dma (recvSem s') from hs)).symm (recvSem_ne_sendSem s' s)
    · have hq : sendSem s = sendSem s' := SemLoc.dma.inj (show (SemLoc.dma (sendSem s) : SemLoc sig) = .dma (sendSem s') from hs)
      rw [sendSem_injective hq]
  rw [h2]
def ringToks : Finset (GSem nD τ sig × ℕ × Fin 7) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun e : Fin 7 => dutyTok ER (barCell c) 0 e)
    ∗ (bigSep Finset.univ fun s : Fin 7 => dutyTok ER (recvCell c s) 0 (0 : Fin 7))
    ∗ (bigSep Finset.univ fun s : Fin 7 => dutyTok ER (sendCell c s) 0 (0 : Fin 7)))

/-- What the launch element deals device c: each of its fifteen cells' round state at counter zero, its position at round 0
    of each and that round 0 of each is reached, and its own cells' duty tokens. -/
def G (c : Dev nD) : sProp 𝕄 :=
  iprop((bigSep Finset.univ fun k : Fin 15 => roundState ER (Rd m ρ) (kcell (c, k)) 0)
    ∗ (bigSep Finset.univ fun k : Fin 15 => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-! ## Funding: the launch element is every device's share -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

private theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
private theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
/-- Fifteen summands: the first, and the other fourteen. -/
private theorem bigSep_fin15_succ (Φ : Fin 15 → sProp 𝕄) :
    bigSep Finset.univ Φ = iprop(Φ 0 ∗ bigSep Finset.univ fun k : Fin 14 => Φ ⟨k.val + 1, by omega⟩) := by
  rw [bigSep_fin15, bigSep_fin14]; rfl

/-- The kernel's own semaphores at zero are its seven send and seven receive semaphores at zero. -/
theorem ownSems0_eq (c : Dev nD) : (Pipeline.ownSems0 (Ix := Unit) (Name := ℕ) (U := UU) (Lvl := ℕ) (Val := Elt F) (τ := τ) osem c : sProp 𝕄)
    = bigSep Finset.univ fun k : Fin 14 => semVal ((c : Thread nD τ), osem k) 0 := rfl
set_option maxRecDepth 8000 in
/-- The launch's one unscoped semaphore is the barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15_succ]
  iintro ⟨HS, HB⟩
  isplitl [HB]; · iexact HB
  iexact HS

/-! ## One device: its fifteen cells' invariants allocated -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 15 => iprop(∃ κ : ℕ, cellInv ER (Rd m ρ) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m ρ) (kcell (c, k)) 0)
      ⊢ (|={Set.univ}=> bigSep Finset.univ fun k : Fin 15 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The persistent records, cell by cell -/

private theorem inv_at (K : Dev nD × Fin 15 → ℕ) (ck : Dev nD × Fin 15) :
    (bigSep Finset.univ fun ck : Dev nD × Fin 15 => (cellInv ER (Rd m ρ) (K ck) (kcell ck) : sProp 𝕄)) ⊢ cellInv ER (Rd m ρ) (K ck) (kcell ck) :=
  bigSep_elim (Finset.mem_univ ck)
private theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- The records hold every cell's invariant. -/
theorem records_inv (K : Dev nD × Fin 15 → ℕ) (ck : Dev nD × Fin 15) : records m ρ K ⊢ cellInv ER (Rd m ρ) (K ck) (kcell ck) := by
  unfold records
  iintro ⟨HI, -⟩
  iapply (inv_at m ρ K ck); iexact HI
/-- The records hold that every cell has reached round 0. -/
theorem records_reached (K : Dev nD × Fin 15 → ℕ) (ck : Dev nD × Fin 15) : records m ρ K ⊢ reached ER (kcell ck) 0 := by
  unfold records
  iintro ⟨-, HR⟩
  iapply (reached_at (F := F) ck); iexact HR

theorem records_inv_bar (K : Dev nD × Fin 15 → ℕ) (c : Dev nD) : records m ρ K ⊢ cellInv ER (Rd m ρ) (K (c, 0)) (barCell c) :=
  records_inv m ρ K (c, 0)
theorem records_inv_send (K : Dev nD × Fin 15 → ℕ) (c : Dev nD) (s : Fin 7) : records m ρ K ⊢ cellInv ER (Rd m ρ) (K (c, sIdx s)) (sendCell c s) := by
  rw [← kcell_send c s]; exact records_inv m ρ K (c, sIdx s)
theorem records_inv_recv (K : Dev nD × Fin 15 → ℕ) (c : Dev nD) (s : Fin 7) : records m ρ K ⊢ cellInv ER (Rd m ρ) (K (c, rIdx s)) (recvCell c s) := by
  rw [← kcell_recv c s]; exact records_inv m ρ K (c, rIdx s)
theorem records_reached_bar (K : Dev nD × Fin 15 → ℕ) (c : Dev nD) : records m ρ K ⊢ reached ER (barCell c) 0 :=
  records_reached m ρ K (c, 0)
theorem records_reached_send (K : Dev nD × Fin 15 → ℕ) (c : Dev nD) (s : Fin 7) : records m ρ K ⊢ reached ER (sendCell c s) 0 := by
  rw [← kcell_send c s]; exact records_reached m ρ K (c, sIdx s)
theorem records_reached_recv (K : Dev nD × Fin 15 → ℕ) (c : Dev nD) (s : Fin 7) : records m ρ K ⊢ reached ER (recvCell c s) 0 := by
  rw [← kcell_recv c s]; exact records_reached m ρ K (c, rIdx s)

theorem ghost_intro (K : Dev nD × Fin 15 → ℕ) (c : Dev nD) : iprop(records m ρ K ∗ linear c) ⊢ G' m ρ c := by
  unfold G' ghost
  iintro H
  iexists K
  iexact H

/-! ## The tokens dealt around -/

/-- A product over devices and slots, the other way round. -/
private theorem bigSep_swap (Φ : Dev nD → Fin 7 → sProp 𝕄) :
    (bigSep Finset.univ fun c : Dev nD => bigSep Finset.univ fun s : Fin 7 => Φ c s)
      = bigSep Finset.univ fun s : Fin 7 => bigSep Finset.univ fun c : Dev nD => Φ c s := by
  have h1 := bigSep_univ_prod (fun cs : Dev nD × Fin 7 => Φ cs.1 cs.2)
  have h2 := bigSep_univ_prod (fun sc : Fin 7 × Dev nD => Φ sc.2 sc.1)
  have h3 := bigSep_univ_equiv (Equiv.prodComm (Fin 7) (Dev nD)) (fun cs : Dev nD × Fin 7 => Φ cs.1 cs.2)
  exact h1.symm.trans (h3.trans h2)

/-- Slot by slot the partner map is a bijection of the devices: a product over (device, slot) is the product over
    (the device's partner in the slot, slot). -/
private theorem bigSep_around (Φ : Dev nD → Fin 7 → sProp 𝕄) :
    (bigSep Finset.univ fun c : Dev nD => bigSep Finset.univ fun s : Fin 7 => Φ c s)
      = bigSep Finset.univ fun c : Dev nD => bigSep Finset.univ fun s : Fin 7 => Φ (peer c s.val) s := by
  have h1 := bigSep_swap Φ
  have h2 := bigSep_swap (fun c s => Φ (peer c s.val) s)
  have h3 : (bigSep Finset.univ fun s : Fin 7 => bigSep Finset.univ fun c : Dev nD => Φ c s)
      = bigSep Finset.univ fun s : Fin 7 => bigSep Finset.univ fun c : Dev nD => Φ (peer c s.val) s :=
    bigSep_congr fun s _ => bigSep_univ_equiv (peerEquiv s) (fun c : Dev nD => Φ c s)
  exact h1.trans (h3.trans h2.symm)

/-- The involution of the slots as a bijection. -/
private def invEquiv : Fin 7 ≃ Fin 7 := ⟨invF, invF, invF_invF, invF_invF⟩

/-- Duty e of c's barrier cell goes to peer c e, whose slot-(inv e) partner is c: the barrier tokens by payer. -/
private theorem bar_around :
    (bigSep Finset.univ fun c : Dev nD => bigSep Finset.univ fun e : Fin 7 => (dutyTok ER (barCell c) 0 e : sProp 𝕄))
      = bigSep Finset.univ fun c : Dev nD => bigSep Finset.univ fun s : Fin 7 => (dutyTok ER (barCell (peer c s.val)) 0 (invF s) : sProp 𝕄) := by
  have h1 : (bigSep Finset.univ fun c : Dev nD => bigSep Finset.univ fun e : Fin 7 => (dutyTok ER (barCell c) 0 e : sProp 𝕄))
      = bigSep Finset.univ fun c : Dev nD => bigSep Finset.univ fun s : Fin 7 => (dutyTok ER (barCell c) 0 (invF s) : sProp 𝕄) :=
    bigSep_congr fun c _ => bigSep_univ_equiv invEquiv (fun e : Fin 7 => (dutyTok ER (barCell c) 0 e : sProp 𝕄))
  have h2 := bigSep_around (fun (c : Dev nD) (s : Fin 7) => (dutyTok ER (barCell c) 0 (invF s) : sProp 𝕄))
  exact h1.trans h2

/-- The receive duty of slot s of c goes to the device that sends into it: the receive tokens by payer. -/
private theorem recv_around :
    (bigSep Finset.univ fun c : Dev nD => bigSep Finset.univ fun s : Fin 7 => (dutyTok ER (recvCell c s) 0 (0 : Fin 7) : sProp 𝕄))
      = bigSep Finset.univ fun c : Dev nD => bigSep Finset.univ fun s : Fin 7 => (dutyTok ER (recvCell (peer c s.val) s) 0 (0 : Fin 7) : sProp 𝕄) :=
  bigSep_around (fun (c : Dev nD) (s : Fin 7) => (dutyTok ER (recvCell c s) 0 (0 : Fin 7) : sProp 𝕄))

/-- Every device's own cells' tokens are every device's tokens of the duties it pays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  ihave H1' := (Entails.of_eq (bar_around (F := F))) $$ H1
  ihave H2' := (Entails.of_eq (recv_around (F := F))) $$ H2
  isplitl [H1']; · iexact H1'
  isplitl [H2']; · iexact H2'
  iexact H3

/-! ## All devices: the global step -/

theorem regroup :
    (bigSep Finset.univ fun c : Dev nD => iprop((bigSep Finset.univ fun k : Fin 15 => iprop(∃ κ : ℕ, cellInv ER (Rd m ρ) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelPf.glob' depends on axioms: [propext, Classical.choice, Quot.sound] -/
#guard_msgs in #print axioms glob

end Cert.KernelPf

end
-- ==== Proof.Bits.Tables.lean ====
import proofs.«901058_g7700000000001059_dist_softmax_colshard_i_m1024_n512_v7x_i32_f32_1_alg».proof.Proof.Bits.Proto

/-! The schedule's tables, cell by cell.

The schedule has one round. A device's barrier cell has the seven duties of one unit each, duty `e` handing over the
receive slot `e` of the device's slot-`e` partner; its send cell and its receive cell of slot `s` have the one duty `0`
of the transfer's credit, handing back the share of the accumulator the transfer read, and the slot holding what
landed. The equations below read these facts off the schedule for the three kinds of cell, after the arithmetic
of the semaphore numbers that tells the kinds apart: the send semaphores are numbers 2..8, the receive semaphores
numbers 9..15 of the device's DMA semaphores, slot `s` at offset `s`. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores

A send semaphore's number is `2 + s`, a receive semaphore's `9 + s`, with `s < 7`: so a send semaphore is in the send
range and not in the receive range, a receive semaphore the other way round, each gives back its slot, the two
families are injective and disjoint, and neither is the barrier semaphore (a regular one). -/

theorem slotOf_send (s : Fin 7) : slotOf (.dma (sendSem s)) = s := by
  have hv := sendSem_val s
  have hs := s.isLt
  unfold slotOf
  dsimp only
  split
  · exact Fin.ext (show (sendSem s).val - 2 = s.val by omega)
  · exfalso; omega

theorem isSend_send (s : Fin 7) : isSend (.dma (sendSem s)) := by
  have hv := sendSem_val s
  have hs := s.isLt
  show 2 ≤ (sendSem s).val ∧ (sendSem s).val < 9
  omega

theorem not_isRecv_send (s : Fin 7) : ¬ isRecv (.dma (sendSem s)) := by
  have hv := sendSem_val s
  have hs := s.isLt
  show ¬ 9 ≤ (sendSem s).val
  omega

theorem slotOf_recv (s : Fin 7) : slotOf (.dma (recvSem s)) = s := by
  have hv := recvSem_val s
  have hs := s.isLt
  unfold slotOf
  dsimp only
  split
  · exfalso; omega
  · split
    · exact Fin.ext (show (recvSem s).val - 9 = s.val by omega)
    · exfalso; omega

theorem isRecv_recv (s : Fin 7) : isRecv (.dma (recvSem s)) := by
  have hv := recvSem_val s
  show 9 ≤ (recvSem s).val
  omega

theorem not_isSend_recv (s : Fin 7) : ¬ isSend (.dma (recvSem s)) := by
  have hv := recvSem_val s
  show ¬ (2 ≤ (recvSem s).val ∧ (recvSem s).val < 9)
  omega

theorem sendSem_injective : Function.Injective sendSem := fun a b h => by
  have ha := sendSem_val a
  have hb := sendSem_val b
  rw [h] at ha
  exact Fin.ext (by omega)

theorem recvSem_injective : Function.Injective recvSem := fun a b h => by
  have ha := recvSem_val a
  have hb := recvSem_val b
  rw [h] at ha
  exact Fin.ext (by omega)

theorem send_ne_recv (s s' : Fin 7) : (SemLoc.dma (sendSem s) : SemLoc sig) ≠ .dma (recvSem s') := fun h => by
  have hs := sendSem_val s
  have hr := recvSem_val s'
  have hlt := s.isLt
  rw [SemLoc.dma.inj h] at hs
  omega

theorem recv_ne_send (s s' : Fin 7) : (SemLoc.dma (recvSem s) : SemLoc sig) ≠ .dma (sendSem s') :=
  fun h => send_ne_recv s' s h.symm

theorem send_ne_bar (s : Fin 7) : (SemLoc.dma (sendSem s) : SemLoc sig) ≠ .reg barS := fun h => by cases h
theorem recv_ne_bar (s : Fin 7) : (SemLoc.dma (recvSem s) : SemLoc sig) ≠ .reg barS := fun h => by cases h

/-! ## The duties: round 0 only -/

theorem duties_bar (c : Dev nD) : (Rd m ρ).duties (barCell c) 0 = Finset.univ := by
  dsimp only [Rd]; exact if_pos ⟨rfl, rfl, rfl⟩

theorem duties_send (c : Dev nD) (s : Fin 7) : (Rd m ρ).duties (sendCell c s) 0 = {0} := by
  dsimp only [Rd]; rw [if_neg (fun h => send_ne_bar s h.2.2)]; exact if_pos ⟨rfl, rfl, .inl (isSend_send s)⟩

theorem duties_recv (c : Dev nD) (s : Fin 7) : (Rd m ρ).duties (recvCell c s) 0 = {0} := by
  dsimp only [Rd]; rw [if_neg (fun h => recv_ne_bar s h.2.2)]; exact if_pos ⟨rfl, rfl, .inr (isRecv_recv s)⟩

theorem duties_later (g : GSem nD τ sig) : ∀ r, 1 ≤ r → (Rd m ρ).duties g r = ∅ :=
  fun r hr => by
    dsimp only [Rd]
    rw [if_neg fun h => by have := h.1; omega, if_neg fun h => by have := h.1; omega]

/-! ## The amounts: one unit a barrier signal, the accumulator's credit a transfer -/

theorem amount_bar (c : Dev nD) (d : Fin 7) : (Rd m ρ).amount (barCell c) 0 d = 1 := by
  dsimp only [Rd]; exact if_pos rfl

theorem amount_send (c : Dev nD) (s : Fin 7) (d : Fin 7) : (Rd m ρ).amount (sendCell c s) 0 d = N := by
  dsimp only [Rd]; exact if_neg (send_ne_bar s)

theorem amount_recv (c : Dev nD) (s : Fin 7) (d : Fin 7) : (Rd m ρ).amount (recvCell c s) 0 d = N := by
  dsimp only [Rd]; exact if_neg (recv_ne_bar s)

/-! ## What a round expects: seven units on the barrier cell, one transfer's credit on a send or receive cell -/

theorem expect_bar (c : Dev nD) : (Rd m ρ).expect (barCell c) 0 = 7 := by
  unfold Schedule.expect Schedule.amountOf
  rw [duties_bar, Finset.sum_congr rfl fun d _ => amount_bar m ρ c d, Finset.sum_const, Finset.card_univ, Fintype.card_fin,
    smul_eq_mul]

theorem expect_send (c : Dev nD) (s : Fin 7) : (Rd m ρ).expect (sendCell c s) 0 = N := by
  unfold Schedule.expect Schedule.amountOf; rw [duties_send, Finset.sum_singleton, amount_send]

theorem expect_recv (c : Dev nD) (s : Fin 7) : (Rd m ρ).expect (recvCell c s) 0 = N := by
  unfold Schedule.expect Schedule.amountOf; rw [duties_recv, Finset.sum_singleton, amount_recv]

/-! ## The payloads -/

theorem payload_bar (c : Dev nD) (e : Fin 7) : (Rd m ρ).payload (barCell c) 0 e = barPay c e := by
  dsimp only [Rd]; exact if_pos rfl

theorem payload_send (c : Dev nD) (s : Fin 7) (d : Fin 7) : (Rd m ρ).payload (sendCell c s) 0 d = sendPay m ρ c s := by
  dsimp only [Rd]; rw [if_neg (send_ne_bar s), if_pos (isSend_send s), slotOf_send]

theorem payload_recv (c : Dev nD) (s : Fin 7) (d : Fin 7) : (Rd m ρ).payload (recvCell c s) 0 d = recvPay m ρ c s := by
  dsimp only [Rd]; rw [if_neg (recv_ne_bar s), if_neg (not_isSend_recv s), if_pos (isRecv_recv s), slotOf_recv]

/-- Seen from the payer: device `c` pays duty `inv k` of the barrier cell of its slot-`k` partner (whose slot-`inv k`
    partner it is), and what that duty hands over is `c`'s own receive slot `inv k`. -/
theorem payload_bar_peer (c : Dev nD) (k : Fin 7) :
    (Rd m ρ).payload (barCell (peer c k.val)) 0 (invF k) = iprop(∃ f, slotPts c (invF k) f) := by
  rw [payload_bar]
  show iprop(∃ f, slotPts (F := F) (peer (peer c k.val) (inv k.val)) (invF k) f) = _
  rw [peer_peer c k]

/-! ## A whole round's payloads, none taken yet -/

theorem rest_bar (c : Dev nD) :
    bigSep ((Rd m ρ).duties (barCell c) 0 \ ∅) (fun d => (Rd m ρ).payload (barCell c) 0 d)
      = bigSep Finset.univ (fun e : Fin 7 => barPay (F := F) c e) := by
  rw [Finset.sdiff_empty, duties_bar]
  exact bigSep_congr fun e _ => payload_bar m ρ c e

theorem rest_send (c : Dev nD) (s : Fin 7) :
    bigSep ((Rd m ρ).duties (sendCell c s) 0 \ ∅) (fun d => (Rd m ρ).payload (sendCell c s) 0 d) = sendPay m ρ c s := by
  rw [Finset.sdiff_empty, duties_send, bigSep_singleton, payload_send]

theorem rest_recv (c : Dev nD) (s : Fin 7) :
    bigSep ((Rd m ρ).duties (recvCell c s) 0 \ ∅) (fun d => (Rd m ρ).payload (recvCell c s) 0 d) = recvPay m ρ c s := by
  rw [Finset.sdiff_empty, duties_recv, bigSep_singleton, payload_recv]

/-- Every contribution to every cell is of at least one unit. -/
theorem not_unitless (g : GSem nD τ sig) : ¬ (Rd m ρ).unitless g := fun h => h

/-- info: 'Cert.KernelPf.payload_bar_peer' depends on axioms: [propext, Classical.choice, Quot.sound] -/
#guard_msgs in #print axioms payload_bar_peer

/-- info: 'Cert.KernelPf.rest_bar' depends on axioms: [propext, Classical.choice, Quot.sound] -/
#guard_msgs in #print axioms rest_bar

/-- info: 'Cert.KernelPf.rest_send' depends on axioms: [propext, Classical.choice, Quot.sound] -/
#guard_msgs in #print axioms rest_send

/-- info: 'Cert.KernelPf.rest_recv' depends on axioms: [propext, Classical.choice, Quot.sound] -/
#guard_msgs in #print axioms rest_recv

end Cert.KernelPf

end
-- ==== Proof.Bits.Regions.lean ====
import proofs.«901058_g7700000000001059_dist_softmax_colshard_i_m1024_n512_v7x_i32_f32_1_alg».proof.Proof.Bits.Proto

/-! How the two scratch buffers are cut and rejoined.

The receive buffer (7 x 2 x 1024) is held whole at the start and at the end of a device's body; in between, each of its
seven slots is held on its own: lent to the partner whose transfer writes it, and handed back holding that partner's
accumulator. The slots are the rectangles `[k, k+1) x [0, 2) x [0, 1024)`: pairwise disjoint (they differ in the first
coordinate) and covering the buffer, so the whole buffer is the separating conjunction of the seven slots, and seven
slots at seven contents join to the whole buffer at the contents pieced together. A transfer writes a slot through
all of the slot's indices, so what the slot held before does not show in what it holds after; a load of a slot reads
exactly the slot's elements. The accumulator (2 x 1024) is read by the three transfers of a round at three shares that
make up the full share. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven pairwise disjoint element sets that cover a buffer

Stated once for any buffer and any seven sets: the whole buffer is the separating conjunction of the seven parts at one
contents, and seven parts held at seven contents join to the whole buffer at the contents pieced together from them. -/

section Seven

variable {ℓ : Loc nD τ sig} {q : PosShare TreeShare}

omit [FloatOps F] in
/-- Seven sets that cover the buffer have the whole buffer as their union. -/
theorem union7 (S : Fin 7 → Finset (Idx ℓ)) (hc : ∀ i, ∃ k, i ∈ S k) :
    S 0 ∪ (S 1 ∪ (S 2 ∪ (S 3 ∪ (S 4 ∪ (S 5 ∪ S 6))))) = Finset.univ := by
  ext i
  simp only [Finset.mem_union, Finset.mem_univ, iff_true]
  obtain ⟨k, hk⟩ := hc i
  match k, hk with
  | 0, h => exact .inl h
  | 1, h => exact .inr (.inl h)
  | 2, h => exact .inr (.inr (.inl h))
  | 3, h => exact .inr (.inr (.inr (.inl h)))
  | 4, h => exact .inr (.inr (.inr (.inr (.inl h))))
  | 5, h => exact .inr (.inr (.inr (.inr (.inr (.inl h)))))
  | 6, h => exact .inr (.inr (.inr (.inr (.inr (.inr h)))))

omit [FloatOps F] in
/-- Each of the seven is disjoint from the union of the later ones. -/
theorem disj7 (S : Fin 7 → Finset (Idx ℓ)) (hd : ∀ k k', k ≠ k' → Disjoint (S k) (S k')) :
    Disjoint (S 0) (S 1 ∪ (S 2 ∪ (S 3 ∪ (S 4 ∪ (S 5 ∪ S 6)))))
      ∧ Disjoint (S 1) (S 2 ∪ (S 3 ∪ (S 4 ∪ (S 5 ∪ S 6))))
      ∧ Disjoint (S 2) (S 3 ∪ (S 4 ∪ (S 5 ∪ S 6)))
      ∧ Disjoint (S 3) (S 4 ∪ (S 5 ∪ S 6))
      ∧ Disjoint (S 4) (S 5 ∪ S 6)
      ∧ Disjoint (S 5) (S 6) := by
  simp only [Finset.disjoint_union_right]
  exact ⟨⟨hd 0 1 (by decide), hd 0 2 (by decide), hd 0 3 (by decide), hd 0 4 (by decide), hd 0 5 (by decide), hd 0 6 (by decide)⟩,
    ⟨hd 1 2 (by decide), hd 1 3 (by decide), hd 1 4 (by decide), hd 1 5 (by decide), hd 1 6 (by decide)⟩,
    ⟨hd 2 3 (by decide), hd 2 4 (by decide), hd 2 5 (by decide), hd 2 6 (by decide)⟩,
    ⟨hd 3 4 (by decide), hd 3 5 (by decide), hd 3 6 (by decide)⟩,
    ⟨hd 4 5 (by decide), hd 4 6 (by decide)⟩,
    hd 5 6 (by decide)⟩

/-- The whole buffer, cut into the seven parts. -/
theorem split7 (S : Fin 7 → Finset (Idx ℓ)) (hd : ∀ k k', k ≠ k' → Disjoint (S k) (S k')) (hc : ∀ i, ∃ k, i ∈ S k)
    (f : Buf (Elt F) ℓ) :
    (ℓ ↦{q} f : sProp 𝕄)
      ⊢ iprop((ℓ ↦[S 0]{q} f) ∗ (ℓ ↦[S 1]{q} f) ∗ (ℓ ↦[S 2]{q} f) ∗ (ℓ ↦[S 3]{q} f) ∗ (ℓ ↦[S 4]{q} f) ∗ (ℓ ↦[S 5]{q} f)
          ∗ (ℓ ↦[S 6]{q} f)) := by
  obtain ⟨d0, d1, d2, d3, d4, d5⟩ := disj7 S hd
  rw [← union7 S hc]
  refine (pointsTo_union d0).1.trans (sep_mono_right ?_)
  refine (pointsTo_union d1).1.trans (sep_mono_right ?_)
  refine (pointsTo_union d2).1.trans (sep_mono_right ?_)
  refine (pointsTo_union d3).1.trans (sep_mono_right ?_)
  refine (pointsTo_union d4).1.trans (sep_mono_right ?_)
  exact (pointsTo_union d5).1

/-- One more part joined to parts already joined at some contents. -/
theorem join_ex {I J : Finset (Idx ℓ)} (h : Disjoint I J) (f : Buf (Elt F) ℓ) :
    iprop((ℓ ↦[I]{q} f) ∗ ∃ g : Buf (Elt F) ℓ, ℓ ↦[J]{q} g) ⊢ (iprop(∃ g : Buf (Elt F) ℓ, ℓ ↦[I ∪ J]{q} g) : sProp 𝕄) := by
  iintro ⟨H, %g, Hg⟩
  iexists (J.piecewise g f)
  iapply (pointsTo_join h)
  isplitl [H]
  · iexact H
  · iexact Hg

/-- Seven parts, each at its own contents, joined to the whole buffer. -/
theorem join7 (S : Fin 7 → Finset (Idx ℓ)) (hd : ∀ k k', k ≠ k' → Disjoint (S k) (S k')) (hc : ∀ i, ∃ k, i ∈ S k)
    (f0 f1 f2 f3 f4 f5 f6 : Buf (Elt F) ℓ) :
    iprop((ℓ ↦[S 0]{q} f0) ∗ (ℓ ↦[S 1]{q} f1) ∗ (ℓ ↦[S 2]{q} f2) ∗ (ℓ ↦[S 3]{q} f3) ∗ (ℓ ↦[S 4]{q} f4) ∗ (ℓ ↦[S 5]{q} f5)
        ∗ (ℓ ↦[S 6]{q} f6))
      ⊢ (iprop(∃ g : Buf (Elt F) ℓ, ℓ ↦{q} g) : sProp 𝕄) := by
  obtain ⟨d0, d1, d2, d3, d4, d5⟩ := disj7 S hd
  rw [← union7 S hc]
  have e6 : (ℓ ↦[S 6]{q} f6 : sProp 𝕄) ⊢ iprop(∃ g : Buf (Elt F) ℓ, ℓ ↦[S 6]{q} g) := by
    iintro H; iexists f6; iexact H
  have e5 := (sep_mono_right e6).trans (join_ex d5 f5)
  have e4 := (sep_mono_right e5).trans (join_ex d4 f4)
  have e3 := (sep_mono_right e4).trans (join_ex d3 f3)
  have e2 := (sep_mono_right e3).trans (join_ex d2 f2)
  have e1 := (sep_mono_right e2).trans (join_ex d1 f1)
  exact (sep_mono_right e1).trans (join_ex d0 f0)

end Seven

/-! ## The receive buffer: seven slots

Slot `k` is the rectangle `[k, k+1) x [0, 2) x [0, 1024)` of the 7 x 2 x 1024 buffer; the 2 x 1024 memref a transfer
writes is that rectangle re-indexed, so it has the rectangle's elements. -/

/-- The elements under the memref of slot `k` are the rectangle's. -/
theorem rS_set (k : Fin 7) :
    (rS k : Memref sig .tc .vmem S2x1024 .f32).view.set = (rSlot k).set :=
  (View.set_reshape ((View.whole cc0_scratch1 : View sig .tc _ _ _).slice (rSlot k))
      (s' := S2x1024) squeezes_S1x2x1024_S2x1024.numel_eq).trans
    (View.set_slice_whole cc0_scratch1 (rSlot k))

/-- Two slots differ in the first coordinate of every element. -/
theorem rSlot_disjoint {k k' : Fin 7} (h : k ≠ k') : Disjoint (rSlot k).set (rSlot k').set := by
  have hk : k.val ≠ k'.val := fun e => h (Fin.ext e)
  refine Rect.unit_disjoint (s := S7x2x1024) (0 : Fin 3) ?_
  show k.val + 1 ≤ k'.val ∨ k'.val + 1 ≤ k.val
  omega

/-- Every element lies in the slot its first coordinate names. -/
theorem rSlot_cover (i : S7x2x1024.Idx) : ∃ k : Fin 7, i ∈ (rSlot k).set := by
  have h0 : (i (0 : Fin 3)).val < 7 := (i (0 : Fin 3)).isLt
  have h1 : (i (1 : Fin 3)).val < 2 := (i (1 : Fin 3)).isLt
  have h2 : (i (2 : Fin 3)).val < 1024 := (i (2 : Fin 3)).isLt
  refine ⟨⟨(i (0 : Fin 3)).val, h0⟩, Rect.mem_set_unit.mpr ?_⟩
  intro (a : Fin 3)
  fin_cases a
  · exact ⟨Nat.le_refl _, Nat.lt_succ_self _⟩
  · exact ⟨Nat.zero_le _, (by omega : (i (1 : Fin 3)).val < 0 + 2)⟩
  · exact ⟨Nat.zero_le _, (by omega : (i (2 : Fin 3)).val < 0 + 1024)⟩

theorem rS_disjoint (k k' : Fin 7) (h : k ≠ k') :
    Disjoint (rS k : Memref sig .tc .vmem S2x1024 .f32).view.set (rS k' : Memref sig .tc .vmem S2x1024 .f32).view.set := by
  rw [rS_set, rS_set]; exact rSlot_disjoint h

theorem rS_cover (i : S7x2x1024.Idx) : ∃ k : Fin 7, i ∈ (rS k : Memref sig .tc .vmem S2x1024 .f32).view.set := by
  obtain ⟨k, hk⟩ := rSlot_cover i
  exact ⟨k, by rw [rS_set]; exact hk⟩

/-- Slot `k` held whole, stated on the receive buffer's own location and the rectangle's elements. -/
theorem slotPts_eq (c : Dev nD) (k : Fin 7) (f : Buf (Elt F) ((c : Thread nD τ).loc cc0_scratch1)) :
    slotPts c k f = (((c : Thread nD τ).loc cc0_scratch1) ↦[(rSlot k).set]{fullShare} f : sProp 𝕄) := by
  unfold slotPts
  exact congrArg (fun S => (pointsTo ((c : Thread nD τ).loc cc0_scratch1) S fullShare f : sProp 𝕄)) (rS_set k)

/-- The receive buffer held whole is its seven slots held whole, at the same contents. -/
theorem slots_split (c : Dev nD) (f : Buf (Elt F) ((c : Thread nD τ).loc cc0_scratch1)) :
    (((c : Thread nD τ).loc cc0_scratch1) ↦{fullShare} f : sProp 𝕄)
      ⊢ iprop(slotPts c 0 f ∗ slotPts c 1 f ∗ slotPts c 2 f ∗ slotPts c 3 f ∗ slotPts c 4 f ∗ slotPts c 5 f ∗ slotPts c 6 f) := by
  unfold slotPts
  exact split7 (ℓ := (c : Thread nD τ).loc cc0_scratch1) (q := fullShare)
    (fun k => (rS k : Memref sig .tc .vmem S2x1024 .f32).view.set) rS_disjoint rS_cover f

/-- The seven slots, each held whole at its own contents, are the receive buffer held whole at some contents. -/
theorem slots_join (c : Dev nD) (f0 f1 f2 f3 f4 f5 f6 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5 ∗ slotPts c 6 f6)
      ⊢ (iprop(∃ f : Buf (Elt F) ((c : Thread nD τ).loc cc0_scratch1), ((c : Thread nD τ).loc cc0_scratch1) ↦{fullShare} f) : sProp 𝕄) := by
  unfold slotPts
  exact join7 (ℓ := (c : Thread nD τ).loc cc0_scratch1) (q := fullShare)
    (fun k => (rS k : Memref sig .tc .vmem S2x1024 .f32).view.set) rS_disjoint rS_cover f0 f1 f2 f3 f4 f5 f6

/-- A transfer's write through slot `k` covers the slot, so what the slot held before does not show: the slot holds
    what the same write over the launch contents leaves. -/
theorem land_congr (c : Dev nD) (k : Fin 7)
    (fd : Buf (Elt F) ((rS k : Memref sig .tc .vmem S2x1024 .f32).view.loc (c : Thread nD τ)))
    (a : (cc0_scratch0 : Ref sig .tc).ty.Contents (Elt F)) :
    slotPts c k ((rS k : Memref sig .tc .vmem S2x1024 .f32).view.write (Elt F) fd
        ((aM : Memref sig .tc .vmem S2x1024 .f32).view.read (Elt F) a) Finset.univ)
      = slotPts c k (landIn m ρ c k a) := by
  unfold slotPts landIn
  exact pointsTo_congr fun i hi => View.write_congr (fun _ _ _ => rfl) fun h => absurd hi h

/-- The elements a load of slot `k` reads are the slot's, -/
theorem slot_load_set (k : Fin 7) :
    (rM : Memref sig .tc .vmem S7x2x1024 .f32).view.setOn (rSlot k).toLoadRect.set
      = (rS k : Memref sig .tc .vmem S2x1024 .f32).view.set :=
  (Finset.map_refl (s := (rSlot k).set)).trans (rS_set k).symm

/-- so the load is within a holding of the slot alone (the footprint a load asks for); -/
theorem slot_load_subset (k : Fin 7) :
    (rM : Memref sig .tc .vmem S7x2x1024 .f32).view.setOn (rSlot k).toLoadRect.set
      ⊆ (rS k : Memref sig .tc .vmem S2x1024 .f32).view.set := by
  rw [slot_load_set]

/-- the same by the view the load goes through. -/
theorem slot_access_set (k : Fin 7) :
    ((rM : Memref sig .tc .vmem S7x2x1024 .f32).access (rSlot k) : View sig .tc _ _ _).set
      = (rS k : Memref sig .tc .vmem S2x1024 .f32).view.set :=
  (View.set_slice_whole cc0_scratch1 (rSlot k)).trans (rS_set k).symm

theorem slot_access_subset (k : Fin 7) :
    ((rM : Memref sig .tc .vmem S7x2x1024 .f32).access (rSlot k) : View sig .tc _ _ _).set
      ⊆ (rS k : Memref sig .tc .vmem S2x1024 .f32).view.set := by
  rw [slot_access_set]

/-! ## The accumulator: three shares -/

/-- The accumulator's memref is its whole buffer. -/
theorem accPts_whole (c : Dev nD) (f : Buf (Elt F) ((c : Thread nD τ).loc cc0_scratch0)) :
    accPts c fullShare f = (((c : Thread nD τ).loc cc0_scratch0) ↦{fullShare} f : sProp 𝕄) := by
  unfold accPts
  exact congrArg (fun S => (pointsTo ((c : Thread nD τ).loc cc0_scratch0) S fullShare f : sProp 𝕄))
    (View.set_whole cc0_scratch0)

theorem accPts_whole_q (c : Dev nD) (q : PosShare TreeShare) (f : Buf (Elt F) ((c : Thread nD τ).loc cc0_scratch0)) :
    accPts c q f = (((c : Thread nD τ).loc cc0_scratch0) ↦{q} f : sProp 𝕄) := by
  unfold accPts
  exact congrArg (fun S => (pointsTo ((c : Thread nD τ).loc cc0_scratch0) S q f : sProp 𝕄))
    (View.set_whole cc0_scratch0)

/-- The full share is its left half and the two halves of its right half: the shares the three transfers of a round read. -/
theorem acc_split3 (c : Dev nD) (f : Buf (Elt F) ((aM : Memref sig .tc .vmem S2x1024 .f32).view.loc (c : Thread nD τ))) :
    accPts c fullShare f ⊣⊢ iprop(accPts c (sh 0) f ∗ accPts c (sh 1) f ∗ accPts c (sh 2) f) := by
  unfold accPts
  have h1 : ((aM : Memref sig .tc .vmem S2x1024 .f32).view.loc (c : Thread nD τ) ↦[(aM : Memref sig .tc .vmem S2x1024 .f32).view.set]{fullShare} f : sProp 𝕄)
      ⊣⊢ iprop(((aM : Memref sig .tc .vmem S2x1024 .f32).view.loc (c : Thread nD τ) ↦[(aM : Memref sig .tc .vmem S2x1024 .f32).view.set]{fullShare.left} f)
        ∗ (aM : Memref sig .tc .vmem S2x1024 .f32).view.loc (c : Thread nD τ) ↦[(aM : Memref sig .tc .vmem S2x1024 .f32).view.set]{fullShare.right} f) :=
    pointsTo_share (PosShare.mem_left_op_right fullShare)
  have h2 : ((aM : Memref sig .tc .vmem S2x1024 .f32).view.loc (c : Thread nD τ) ↦[(aM : Memref sig .tc .vmem S2x1024 .f32).view.set]{fullShare.right} f : sProp 𝕄)
      ⊣⊢ iprop(((aM : Memref sig .tc .vmem S2x1024 .f32).view.loc (c : Thread nD τ) ↦[(aM : Memref sig .tc .vmem S2x1024 .f32).view.set]{fullShare.right.left} f)
        ∗ (aM : Memref sig .tc .vmem S2x1024 .f32).view.loc (c : Thread nD τ) ↦[(aM : Memref sig .tc .vmem S2x1024 .f32).view.set]{fullShare.right.right} f) :=
    pointsTo_share (PosShare.mem_left_op_right fullShare.right)
  exact ⟨h1.1.trans (sep_mono_right h2.1), (sep_mono_right h2.2).trans h1.2⟩

/-- The same for the second round's slots, which read the same three shares. -/
theorem acc_split3' (c : Dev nD) (f : Buf (Elt F) ((aM : Memref sig .tc .vmem S2x1024 .f32).view.loc (c : Thread nD τ))) :
    accPts c fullShare f ⊣⊢ iprop(accPts c (sh 3) f ∗ accPts c (sh 4) f ∗ accPts c (sh 5) f) :=
  acc_split3 c f

/-- The last round's one transfer reads the accumulator at the full share. -/
theorem sh_six : sh 6 = fullShare := rfl

end Cert.KernelPf

end
-- ==== Proof.Bits.Steps.lean ====
import proofs.«901058_g7700000000001059_dist_softmax_colshard_i_m1024_n512_v7x_i32_f32_1_alg».proof.Proof.Bits.Ghost
import proofs.«901058_g7700000000001059_dist_softmax_colshard_i_m1024_n512_v7x_i32_f32_1_alg».proof.Proof.Bits.Tables
import proofs.«901058_g7700000000001059_dist_softmax_colshard_i_m1024_n512_v7x_i32_f32_1_alg».proof.Proof.Bits.Regions

/-! The protocol's steps on one device, each the rounds library's rule at this schedule's cells: a barrier signal, the
barrier wait, a transfer, and the waits on a send and on a receive cell. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A receive slot's view credits as many units as the accumulator's. -/
theorem slot_credit (k : Fin 7) : (rS k : Memref sig .tc .vmem S2x1024 .f32).view.dmaCredit = N := by
  revert k; decide

/-- The `k`-th barrier signal of device `c`, addressed to `n = peer c k`: it pays duty `inv k` of that device's barrier cell
    and hands over `c`'s own receive slot `inv k`, the one that device's transfer will write. -/
theorem wp_sig (κ : ℕ) (c : Dev nD) (k : Fin 7) (n : Dev nD) (hn : n = peer c k.val)
    {α : Type} {Q : α → sProp 𝕄} {kont : PUnit → Prog (TpuEff nD τ sig (Elt F) Λ₀ .tc) α}
    (O : CellTallies nD τ sig Unit) (W : Waits sig Unit) :
    iprop(cellInv ER (Rd m ρ) κ (barCell (peer c k.val)) ∗ owes (c : Thread nD τ) (O + Tb c k) W
        ∗ dutyTok ER (barCell (peer c k.val)) 0 (invF k) ∗ (∃ f, slotPts c (invF k) f) ∗ reached ER (barCell (peer c k.val)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  rw [← payload_bar_peer m ρ c k]
  exact Rounds.wp_signal 𝒱₀ ER (Rd m ρ) (c : Thread nD τ) none (dst := (peer c k.val : Thread nD τ)) (κ := κ)
    (d := invF k) (by rw [duties_bar]; exact Finset.mem_univ _) (amount_bar m ρ (peer c k.val) (invF k)) () O rfl

/-- The wait for 7 on the own barrier cell, owing the seven receive credits: it brings the seven partners' receive slots. -/
theorem wp_barwait (κ : ℕ) (c : Dev nD)
    {α : Type} {Q : α → sProp 𝕄} {kont : PUnit → Prog (TpuEff nD τ sig (Elt F) Λ₀ .tc) α} (W : Waits sig Unit) :
    iprop(cellInv ER (Rd m ρ) κ (barCell c) ∗ cred (tallyAt (barCell c) () 7) ∗ owes (c : Thread nD τ) (OSr c 7) W
        ∗ MayWait (c : Thread nD τ) (.reg barS) () (OSr c 7) ∗ atPos ER (barCell c) 0 ∅ 0)
      ⊢ iprop(((owes (c : Thread nD τ) (OSr c 7) (insert (SemLoc.reg barS, ()) W) ∗ atPos ER (barCell c) 1 ∅ 0 ∗ reached ER (barCell c) 1
              ∗ bigSep Finset.univ (fun e : Fin 7 => barPay (F := F) c e))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 7) kont) Q) := by
  rw [← rest_bar m ρ c]
  exact Rounds.wp_wait_rest_token 𝒱₀ ER (Rd m ρ) (c : Thread nD τ) none (κ := κ)
      (wpE_semWait_eq 𝒱₀ (c : Thread nD τ) none Set.univ) (Set.mem_univ _) () (O := OSr c 7) (W := W) (R := 0) (m := 0) (T := ∅)
      (by rw [expect_bar])

/-- The transfer of slot `s`, addressed to `n = peer c s`: the accumulator of the slot's round, read at the slot's share,
    into that device's receive slot `s`. -/
theorem wp_snd (κ₁ κ₂ : ℕ) (c : Dev nD) (s : Fin 7) (n : Dev nD) (hn : n = peer c s.val)
    {hsc : (rS s : Memref sig (Dev.tc n : Thread nD τ).2.kind .vmem S2x1024 .f32).view.ref.isScScratch = false}
    {hsrc : (aM : Memref sig .tc .vmem S2x1024 .f32).view.WordExact} {hdst : (rS s : Memref sig .tc .vmem S2x1024 .f32).view.WordExact}
    {hsem : DmaTarget.Typed .vmem (.dma (recvSem s)) (.remote (Dev.tc n : Thread nD τ) (rS s : Memref sig .tc .vmem S2x1024 .f32) (.dma (sendSem s)) hsc)}
    {α : Type} {Q : α → sProp 𝕄} {kont : PUnit → Prog (TpuEff nD τ sig (Elt F) Λ₀ .tc) α}
    (fn : Buf (Elt F) ((rS s : Memref sig .tc .vmem S2x1024 .f32).view.loc (peer c s.val : Thread nD τ)))
    (O : CellTallies nD τ sig Unit) (W : Waits sig Unit) :
    iprop(cellInv ER (Rd m ρ) κ₁ (sendCell c s) ∗ cellInv ER (Rd m ρ) κ₂ (recvCell (peer c s.val) s)
        ∗ accPts c (sh s) (Asrc m ρ c s) ∗ slotPts (peer c s.val) s fn
        ∗ owes (c : Thread nD τ) (O + Tr c s) W
        ∗ dutyTok ER (sendCell c s) 0 (0 : Fin 7) ∗ reached ER (sendCell c s) 0
        ∗ dutyTok ER (recvCell (peer c s.val) s) 0 (0 : Fin 7) ∗ reached ER (recvCell (peer c s.val) s) 0)
      ⊢ iprop(((cred (tallyAt (sendCell c s) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) (rS s) (.dma (sendSem s)) hsc) (.dma (recvSem s)) hsrc hdst hsem) kont) Q) := by
  subst hn
  unfold accPts slotPts
  exact Rounds.wp_send_pointsTo 𝒱₀ ER (Rd m ρ) (c : Thread nD τ) none (κ₁ := κ₁) (κ₂ := κ₂)
    (sS := .dma (sendSem s)) (sem := .dma (recvSem s))
    (r₁ := 0) (r₂ := 0) (d₁ := (0 : Fin 7)) (d₂ := (0 : Fin 7)) (fd := fn)
    (by rw [duties_send]; exact Finset.mem_singleton_self _) (by rw [duties_recv]; exact Finset.mem_singleton_self _)
    () () N (slot_credit s) (amount_send m ρ c s 0) (amount_recv m ρ (peer c s.val) s 0) O rfl (W := W)
    (by rw [payload_send]; exact BI.Entails.refl _)
    (by
      rw [payload_recv]; unfold recvPay Land
      rw [peer_peer c s]
      exact Entails.of_eq (land_congr m ρ (peer c s.val) s fn (Asrc m ρ c s)))

/-- The wait on the send cell of slot `s`: the share of the accumulator the transfer read comes back. -/
theorem wp_sendwait (κ : ℕ) (c : Dev nD) (s : Fin 7)
    {sp' : Space} {s' : Shape} {e' : EltTy} {src : Memref sig .tc sp' s' e'} {hsrc : src.view.WordExact}
    {hdst : (aM : Memref sig .tc .vmem S2x1024 .f32).view.WordExact}
    {α : Type} {Q : α → sProp 𝕄} {kont : PUnit → Prog (TpuEff nD τ sig (Elt F) Λ₀ .tc) α}
    (O : CellTallies nD τ sig Unit) (W : Waits sig Unit) :
    iprop(cellInv ER (Rd m ρ) κ (sendCell c s) ∗ cred (tallyAt (sendCell c s) () N) ∗ owes (c : Thread nD τ) O W
        ∗ MayWait (c : Thread nD τ) (.dma (sendSem s)) () O ∗ atPos ER (sendCell c s) 0 ∅ 0)
      ⊢ iprop(((owes (c : Thread nD τ) O (insert (SemLoc.dma (sendSem s), ()) W) ∗ atPos ER (sendCell c s) 1 ∅ 0 ∗ reached ER (sendCell c s) 1
              ∗ sendPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendSem s) src aM hsrc hdst) kont) Q) := by
  rw [← rest_send m ρ c s]
  exact Rounds.wp_wait_rest_token 𝒱₀ ER (Rd m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_send])

/-- The wait on the receive cell of slot `s`: the slot comes back holding the sender's accumulator. -/
theorem wp_recvwait (κ : ℕ) (c : Dev nD) (s : Fin 7)
    {sp' : Space} {s' : Shape} {e' : EltTy} {src : Memref sig .tc sp' s' e'} {hsrc : src.view.WordExact}
    {hdst : (rS s : Memref sig .tc .vmem S2x1024 .f32).view.WordExact}
    {α : Type} {Q : α → sProp 𝕄} {kont : PUnit → Prog (TpuEff nD τ sig (Elt F) Λ₀ .tc) α}
    (O : CellTallies nD τ sig Unit) (W : Waits sig Unit) :
    iprop(cellInv ER (Rd m ρ) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ recvPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvSem s) src (rS s) hsrc hdst) kont) Q) := by
  rw [← rest_recv m ρ c s]
  exact Rounds.wp_wait_rest_token 𝒱₀ ER (Rd m ρ) (c : Thread nD τ) none (κ := κ) (k' := N)
      (fun K' => (wpE_waitDma2_eq 𝒱₀ (c : Thread nD τ) none Set.univ K').trans (by rw [slot_credit s]))
      (Set.mem_univ _) () (O := O) (W := W) (R := 0) (m := 0) (T := ∅) (by rw [Nat.zero_add, expect_recv])

/-- A cell whose one round is over closes: its counter, at zero, is the core's again. -/
theorem close_send (κ : ℕ) (c : Dev nD) (s : Fin 7) :
    iprop(cellInv ER (Rd m ρ) κ (sendCell c s) ∗ atPos ER (sendCell c s) 1 ∅ 0) ⊢ (|={Set.univ}=> semVal (sendCell c s) 0 : sProp 𝕄) :=
  Rounds.cell_close ER (Rd m ρ) (Set.mem_univ κ) (not_unitless m ρ _) (R := 0 + 1) (duties_later m ρ (sendCell c s))
theorem close_recv (κ : ℕ) (c : Dev nD) (s : Fin 7) :
    iprop(cellInv ER (Rd m ρ) κ (recvCell c s) ∗ atPos ER (recvCell c s) 1 ∅ 0) ⊢ (|={Set.univ}=> semVal (recvCell c s) 0 : sProp 𝕄) :=
  Rounds.cell_close ER (Rd m ρ) (Set.mem_univ κ) (not_unitless m ρ _) (R := 0 + 1) (duties_later m ρ (recvCell c s))

end Cert.KernelPf

end
-- ==== Proof.Bits.OutEq.lean ====
import proofs.«901058_g7700000000001059_dist_softmax_colshard_i_m1024_n512_v7x_i32_f32_1_alg».proof.Proof.Bits.Steps

/-! What a load reads after stores that cover it.

The accumulator (2 x 1024) is rewritten by two stores, one through each of its rows; the two rows cover it, so a load
of the whole accumulator afterwards reads what the two stores left and nothing of what the buffer held before. The
result's staging buffer (1024 x 512) is written whole by one store, and a load of the whole of it reads that store's
payload. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The constant-zero offsets of a whole-buffer access at rank two, as a vector literal. -/
theorem zero_off2 : (![0, 0] : Fin 2 → Nat) = fun _ => 0 := by
  funext a; fin_cases a <;> rfl

/-- Every index of the accumulator lies in one of its two rows: in row 0 if its first coordinate is 0, in row 1 otherwise. -/
theorem rows_cover (w1 w0 : FVec F S1x1024 .f32) (j : rA.toLoadRect.shape.Idx) :
    ∃ p ∈ ([⟨rRow1, w1⟩, ⟨rRow0, w0⟩] : List (View.Piece (Elt F) S2x1024 .f32)), rA.toLoadRect.idx j ∈ p.1.set := by
  have h0 : (j (0 : Fin 2)).val < 2 := (j (0 : Fin 2)).isLt
  have h1 : (j (1 : Fin 2)).val < 1024 := (j (1 : Fin 2)).isLt
  have e0 : ((rA.toLoadRect.idx j (0 : Fin 2) : Fin _) : ℕ) = 0 + 1 * (j (0 : Fin 2)).val := rfl
  have e1 : ((rA.toLoadRect.idx j (1 : Fin 2) : Fin _) : ℕ) = 0 + 1 * (j (1 : Fin 2)).val := rfl
  by_cases hj : (j (0 : Fin 2)).val = 0
  · suffices hm : rA.toLoadRect.idx j ∈ rRow0.set from ⟨⟨rRow0, w0⟩, List.mem_cons_of_mem _ List.mem_cons_self, hm⟩
    refine Rect.mem_set_unit.mpr ?_
    refine Fin.forall_fin_two.mpr ⟨?_, ?_⟩
    · show 0 ≤ ((rA.toLoadRect.idx j (0 : Fin 2) : Fin _) : ℕ) ∧ ((rA.toLoadRect.idx j (0 : Fin 2) : Fin _) : ℕ) < 0 + 1
      omega
    · show 0 ≤ ((rA.toLoadRect.idx j (1 : Fin 2) : Fin _) : ℕ) ∧ ((rA.toLoadRect.idx j (1 : Fin 2) : Fin _) : ℕ) < 0 + 1024
      omega
  · suffices hm : rA.toLoadRect.idx j ∈ rRow1.set from ⟨⟨rRow1, w1⟩, List.mem_cons_self, hm⟩
    refine Rect.mem_set_unit.mpr ?_
    refine Fin.forall_fin_two.mpr ⟨?_, ?_⟩
    · show 1 ≤ ((rA.toLoadRect.idx j (0 : Fin 2) : Fin _) : ℕ) ∧ ((rA.toLoadRect.idx j (0 : Fin 2) : Fin _) : ℕ) < 1 + 1
      omega
    · show 0 ≤ ((rA.toLoadRect.idx j (1 : Fin 2) : Fin _) : ℕ) ∧ ((rA.toLoadRect.idx j (1 : Fin 2) : Fin _) : ℕ) < 0 + 1024
      omega

/-- A load of the whole accumulator after the two row stores reads what they left, whatever it held before. -/
theorem rows_readCov (f : (cc0_scratch0 : Ref sig .tc).ty.Contents (Elt F)) (w1 w0 : FVec F S1x1024 .f32) :
    (aM : Memref sig .tc .vmem S2x1024 .f32).view.readCov [⟨rRow1, w1⟩, ⟨rRow0, w0⟩] rA.toLoadRect
      = (aM : Memref sig .tc .vmem S2x1024 .f32).view.writes (Elt F) f [⟨rRow1, w1⟩, ⟨rRow0, w0⟩] :=
  (View.readAt_writes_of_cover (aM : Memref sig .tc .vmem S2x1024 .f32).view f [⟨rRow1, w1⟩, ⟨rRow0, w0⟩] rA.toLoadRect
      (rows_cover w1 w0)).symm.trans
    (Memref.readAt_unit_zero (Elt F) cc0_scratch0 zero_off2 inb_S2x1024_S2x1024_0_0 _)

/-- A load of the whole result buffer after one store of the whole of it reads the store's payload. -/
theorem whole_readCov (w : FVec F S1024x512 .f32) :
    (oM : Memref sig .tc .vmem S1024x512 .f32).view.readCov (Val := Elt F) [⟨rX, w⟩] rX.toLoadRect = w := by
  show (oM : Memref sig .tc .vmem S1024x512 .f32).view.readAt (Elt F) rX.toLoadRect
      (((oM : Memref sig .tc .vmem S1024x512 .f32).access rX : View sig .tc _ _ _).write (Elt F)
        (oM : Memref sig .tc .vmem S1024x512 .f32).view.junk w Finset.univ) = w
  have e := Memref.write_access_unit_zero_univ (Elt F) cc0_stg1_0 zero_off2 inb_S1024x512_S1024x512_0_0
    (oM : Memref sig .tc .vmem S1024x512 .f32).view.junk w
  exact (congrArg (fun g => (oM : Memref sig .tc .vmem S1024x512 .f32).view.readAt (Elt F) rX.toLoadRect g) e).trans
    (Memref.readAt_unit_zero (Elt F) cc0_stg1_0 zero_off2 inb_S1024x512_S1024x512_0_0 w)

end Cert.KernelPf

end
-- ==== Proof.Bits.Body.lean ====
import proofs.«901058_g7700000000001059_dist_softmax_colshard_i_m1024_n512_v7x_i32_f32_1_alg».proof.Proof.Bits.Steps
import proofs.«901058_g7700000000001059_dist_softmax_colshard_i_m1024_n512_v7x_i32_f32_1_alg».proof.Proof.Bits.Levels
import proofs.«901058_g7700000000001059_dist_softmax_colshard_i_m1024_n512_v7x_i32_f32_1_alg».proof.Proof.Bits.Glob
import proofs.«901058_g7700000000001059_dist_softmax_colshard_i_m1024_n512_v7x_i32_f32_1_alg».proof.Proof.Bits.OutEq

/-! The body of the kernel on one device, stepped in program order from the ghost state the launch deals it:
the seven barrier signals (each hands one own receive slot to the partner that will write it), the local pass, the
barrier wait (the partners' slots arrive), then per round the transfers, their waits, and the merge. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem inv_at (K : Dev nD × Fin 15 → ℕ) (ck : Dev nD × Fin 15) :
    (bigSep Finset.univ fun ck : Dev nD × Fin 15 => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-! Whole-buffer loads and stores read and write the contents themselves. -/

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz2 _ f
omit [FloatOps F] in
theorem read_o (f : (cc0_stg1_0 : Ref sig .tc).ty.Contents (Elt F)) : (oM : Memref sig .tc .vmem S1024x512 .f32).view.readAt (Elt F) rX.toLoadRect f = f :=
  Memref.readAt_unit_zero (Elt F) cc0_stg1_0 hz2 _ f
omit [FloatOps F] in
theorem read_a (f : (cc0_scratch0 : Ref sig .tc).ty.Contents (Elt F)) : (aM : Memref sig .tc .vmem S2x1024 .f32).view.readAt (Elt F) rA.toLoadRect f = f :=
  Memref.readAt_unit_zero (Elt F) cc0_scratch0 hz2 _ f
omit [FloatOps F] in
theorem write_o (f w : (cc0_stg1_0 : Ref sig .tc).ty.Contents (Elt F)) :
    ((oM : Memref sig .tc .vmem S1024x512 .f32).access rX : View sig .tc _ _ _).write (Elt F) f w Finset.univ = w :=
  Memref.write_access_unit_zero_univ (Elt F) cc0_stg1_0 hz2 _ f w
omit [FloatOps F] in
theorem write_a (f w : (cc0_scratch0 : Ref sig .tc).ty.Contents (Elt F)) :
    ((aM : Memref sig .tc .vmem S2x1024 .f32).access rA : View sig .tc _ _ _).write (Elt F) f w Finset.univ = w :=
  Memref.write_access_unit_zero_univ (Elt F) cc0_scratch0 hz2 _ f w

omit [FloatOps F] in
/-- A whole buffer held through its whole-buffer memref. -/
theorem pts_whole (c : Dev nD) (b : Ref sig .tc) (f : Buf (Elt F) ((c : Thread nD τ).loc b)) :
    (((Memref.whole b : Memref sig .tc b.space b.ty.shape b.ty.elt).view.loc (c : Thread nD τ)
        ↦[(Memref.whole b : Memref sig .tc b.space b.ty.shape b.ty.elt).view.set]{fullShare} f : sProp 𝕄))
      = (((c : Thread nD τ).loc b) ↦{fullShare} f) := by
  rw [View.set_whole]

omit [FloatOps F] in
/-- Equal contents, the same holding. -/
theorem pts_congr {ℓ : Loc nD τ sig} {S : Finset (Idx ℓ)} {q : PosShare TreeShare} {f g : Buf (Elt F) ℓ} (h : f = g) :
    (ℓ ↦[S]{q} f : sProp 𝕄) ⊢ (ℓ ↦[S]{q} g) := by subst h; exact BI.Entails.refl _

omit [FloatOps F] in
/-- The accumulator held whole through its memref, at contents equal to `g`. -/
theorem acc_of (c : Dev nD) {f g : Buf (Elt F) ((aM : Memref sig .tc .vmem S2x1024 .f32).view.loc (c : Thread nD τ))} (h : f = g) :
    ((aM : Memref sig .tc .vmem S2x1024 .f32).view.loc (c : Thread nD τ) ↦[(aM : Memref sig .tc .vmem S2x1024 .f32).view.set]{fullShare} f : sProp 𝕄)
      ⊢ accPts c fullShare g := by subst h; unfold accPts; exact BI.Entails.refl _
omit [FloatOps F] in
theorem acc_to (c : Dev nD) (f : Buf (Elt F) ((aM : Memref sig .tc .vmem S2x1024 .f32).view.loc (c : Thread nD τ))) :
    accPts c fullShare f
      ⊢ ((aM : Memref sig .tc .vmem S2x1024 .f32).view.loc (c : Thread nD τ) ↦[(aM : Memref sig .tc .vmem S2x1024 .f32).view.set]{fullShare} f : sProp 𝕄) := by
  unfold accPts; exact BI.Entails.refl _

/-! The accumulator after the two row stores of a round, over the pair it held and the partners' pairs read from the
receive slots, is the round's merge: the `A1`, `A2`, `A3` of the protocol. -/

theorem ld_land0 (c : Dev nD) : ((rM : Memref sig .tc .vmem S7x2x1024 .f32).view.readAt (Elt F) (Rect.unit (s := S7x2x1024) ![0, 0, 0] S1x2x1024.size inb_S7x2x1024_S1x2x1024_0_0_0).toLoadRect (Land m ρ c 0)) = ldS 0 (landIn m ρ c 0 (A0 m ρ (peer c 2))) := rfl
theorem ld_land1 (c : Dev nD) : ((rM : Memref sig .tc .vmem S7x2x1024 .f32).view.readAt (Elt F) (Rect.unit (s := S7x2x1024) ![1, 0, 0] S1x2x1024.size inb_S7x2x1024_S1x2x1024_1_0_0).toLoadRect (Land m ρ c 1)) = ldS 1 (landIn m ρ c 1 (A0 m ρ (peer c 1))) := rfl
theorem ld_land2 (c : Dev nD) : ((rM : Memref sig .tc .vmem S7x2x1024 .f32).view.readAt (Elt F) (Rect.unit (s := S7x2x1024) ![2, 0, 0] S1x2x1024.size inb_S7x2x1024_S1x2x1024_2_0_0).toLoadRect (Land m ρ c 2)) = ldS 2 (landIn m ρ c 2 (A0 m ρ (peer c 0))) := rfl
theorem ld_land3 (c : Dev nD) : ((rM : Memref sig .tc .vmem S7x2x1024 .f32).view.readAt (Elt F) (Rect.unit (s := S7x2x1024) ![3, 0, 0] S1x2x1024.size inb_S7x2x1024_S1x2x1024_3_0_0).toLoadRect (Land m ρ c 3)) = ldS 3 (landIn m ρ c 3 (A1 m ρ (peer c 5))) := rfl
theorem ld_land4 (c : Dev nD) : ((rM : Memref sig .tc .vmem S7x2x1024 .f32).view.readAt (Elt F) (Rect.unit (s := S7x2x1024) ![4, 0, 0] S1x2x1024.size inb_S7x2x1024_S1x2x1024_4_0_0).toLoadRect (Land m ρ c 4)) = ldS 4 (landIn m ρ c 4 (A1 m ρ (peer c 4))) := rfl
theorem ld_land5 (c : Dev nD) : ((rM : Memref sig .tc .vmem S7x2x1024 .f32).view.readAt (Elt F) (Rect.unit (s := S7x2x1024) ![5, 0, 0] S1x2x1024.size inb_S7x2x1024_S1x2x1024_5_0_0).toLoadRect (Land m ρ c 5)) = ldS 5 (landIn m ρ c 5 (A1 m ρ (peer c 3))) := rfl
theorem ld_land6 (c : Dev nD) : ((rM : Memref sig .tc .vmem S7x2x1024 .f32).view.readAt (Elt F) (Rect.unit (s := S7x2x1024) ![6, 0, 0] S1x2x1024.size inb_S7x2x1024_S1x2x1024_6_0_0).toLoadRect (Land m ρ c 6)) = ldS 6 (landIn m ρ c 6 (A2 m ρ (peer c 6))) := rfl

theorem A1_eq (c : Dev nD) :
    (aM : Memref sig .tc .vmem S2x1024 .f32).view.writes (Elt F) (A0 m ρ c)
      [⟨Rect.unit (s := S2x1024) ![1, 0] S1x1024.size inb_S2x1024_S1x1024_1_0,
          k0_pay19 (k0_pay11 ((rM : Memref sig .tc .vmem S7x2x1024 .f32).view.readAt (Elt F) (Rect.unit (s := S7x2x1024) ![1, 0, 0] S1x2x1024.size inb_S7x2x1024_S1x2x1024_1_0_0).toLoadRect (Land m ρ c 1))) (k0_pay13 ((rM : Memref sig .tc .vmem S7x2x1024 .f32).view.readAt (Elt F) (Rect.unit (s := S7x2x1024) ![2, 0, 0] S1x2x1024.size inb_S7x2x1024_S1x2x1024_2_0_0).toLoadRect (Land m ρ c 2))) (k0_pay14 ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay15 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay16 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay17 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩,
        ⟨Rect.unit (s := S2x1024) ![0, 0] S1x1024.size inb_S2x1024_S1x1024_0_0,
          k0_pay18 (k0_pay15 (A0 m ρ c) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩]
      = A1 m ρ c := by
  rw [ld_land0, ld_land1, ld_land2]
  rfl

theorem A2_eq (c : Dev nD) :
    (aM : Memref sig .tc .vmem S2x1024 .f32).view.writes (Elt F) (A1 m ρ c)
      [⟨Rect.unit (s := S2x1024) ![1, 0] S1x1024.size inb_S2x1024_S1x1024_1_0,
          k0_pay31 (k0_pay20 (A1 m ρ c)) (k0_pay21 (A1 m ρ c)) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) (k0_pay24 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩,
        ⟨Rect.unit (s := S2x1024) ![0, 0] S1x1024.size inb_S2x1024_S1x1024_0_0,
          k0_pay30 (k0_pay20 (A1 m ρ c)) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩]
      = A2 m ρ c := by
  rw [ld_land3, ld_land4, ld_land5]
  rfl

theorem A3_eq (c : Dev nD) :
    (aM : Memref sig .tc .vmem S2x1024 .f32).view.writes (Elt F) (A2 m ρ c)
      [⟨Rect.unit (s := S2x1024) ![1, 0] S1x1024.size inb_S2x1024_S1x1024_1_0, k0_pay37 (A2 m ρ c) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
        ⟨Rect.unit (s := S2x1024) ![0, 0] S1x1024.size inb_S2x1024_S1x1024_0_0, k0_pay36 (A2 m ρ c) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
      = A3 m ρ c := by
  rw [ld_land6]
  rfl

theorem A1_eq_sl (c : Dev nD) :
    (aM : Memref sig .tc .vmem S2x1024 .f32).view.writes (Elt F) (A0 m ρ c)
      [⟨Rect.unit (s := S2x1024) ![1, 0] S1x1024.size inb_S2x1024_S1x1024_1_0,
          k0_pay19 (k0_pay11 ((rM : Memref sig .tc .vmem S7x2x1024 .f32).view.readAt (Elt F) (Rect.unit (s := S7x2x1024) ![1, 0, 0] S1x2x1024.size inb_S7x2x1024_S1x2x1024_1_0_0).toLoadRect (Land m ρ c 1))) (k0_pay13 ((rM : Memref sig .tc .vmem S7x2x1024 .f32).view.readAt (Elt F) (Rect.unit (s := S7x2x1024) ![2, 0, 0] S1x2x1024.size inb_S7x2x1024_S1x2x1024_2_0_0).toLoadRect (Land m ρ c 2))) (k0_pay14 ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay15 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay16 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))
            (k0_pay17 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩,
        ⟨Rect.unit (s := S2x1024) ![0, 0] S1x1024.size inb_S2x1024_S1x1024_0_0,
          k0_pay18 (k0_pay15 ((aM : Memref sig .tc .vmem S2x1024 .f32).view.readAt (Elt F) (Rect.unit (s := S2x1024) ![0, 0] S2x1024.size inb_S2x1024_S2x1024_0_0).toLoadRect (A0 m ρ c)) ((rM : Memref sig .tc .vmem S7x2x1024 .f32).view.readAt (Elt F) (Rect.unit (s := S7x2x1024) ![0, 0, 0] S1x2x1024.size inb_S7x2x1024_S1x2x1024_0_0_0).toLoadRect (Land m ρ c 0)) ((rM : Memref sig .tc .vmem S7x2x1024 .f32).view.readAt (Elt F) (Rect.unit (s := S7x2x1024) ![1, 0, 0] S1x2x1024.size inb_S7x2x1024_S1x2x1024_1_0_0).toLoadRect (Land m ρ c 1)) ((rM : Memref sig .tc .vmem S7x2x1024 .f32).view.readAt (Elt F) (Rect.unit (s := S7x2x1024) ![2, 0, 0] S1x2x1024.size inb_S7x2x1024_S1x2x1024_2_0_0).toLoadRect (Land m ρ c 2)))⟩]
      = A1 m ρ c := by
  rw [read_a]
  exact A1_eq m ρ c

theorem A2_eq_sl (c : Dev nD) :
    (aM : Memref sig .tc .vmem S2x1024 .f32).view.writes (Elt F) (A1 m ρ c)
      [⟨Rect.unit (s := S2x1024) ![1, 0] S1x1024.size inb_S2x1024_S1x1024_1_0,
          k0_pay31 (k0_pay20 ((aM : Memref sig .tc .vmem S2x1024 .f32).view.readAt (Elt F) (Rect.unit (s := S2x1024) ![0, 0] S2x1024.size inb_S2x1024_S2x1024_0_0).toLoadRect (A1 m ρ c))) (k0_pay21 ((aM : Memref sig .tc .vmem S2x1024 .f32).view.readAt (Elt F) (Rect.unit (s := S2x1024) ![0, 0] S2x1024.size inb_S2x1024_S2x1024_0_0).toLoadRect (A1 m ρ c))) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) (k0_pay24 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩,
        ⟨Rect.unit (s := S2x1024) ![0, 0] S1x1024.size inb_S2x1024_S1x1024_0_0,
          k0_pay30 (k0_pay20 ((aM : Memref sig .tc .vmem S2x1024 .f32).view.readAt (Elt F) (Rect.unit (s := S2x1024) ![0, 0] S2x1024.size inb_S2x1024_S2x1024_0_0).toLoadRect (A1 m ρ c))) (k0_pay23 ((rM : Memref sig .tc .vmem S7x2x1024 .f32).view.readAt (Elt F) (Rect.unit (s := S7x2x1024) ![3, 0, 0] S1x2x1024.size inb_S7x2x1024_S1x2x1024_3_0_0).toLoadRect (Land m ρ c 3))) ((rM : Memref sig .tc .vmem S7x2x1024 .f32).view.readAt (Elt F) (Rect.unit (s := S7x2x1024) ![4, 0, 0] S1x2x1024.size inb_S7x2x1024_S1x2x1024_4_0_0).toLoadRect (Land m ρ c 4)) ((rM : Memref sig .tc .vmem S7x2x1024 .f32).view.readAt (Elt F) (Rect.unit (s := S7x2x1024) ![5, 0, 0] S1x2x1024.size inb_S7x2x1024_S1x2x1024_5_0_0).toLoadRect (Land m ρ c 5))⟩]
      = A2 m ρ c := by
  rw [read_a]
  exact A2_eq m ρ c

theorem A3_eq_sl (c : Dev nD) :
    (aM : Memref sig .tc .vmem S2x1024 .f32).view.writes (Elt F) (A2 m ρ c)
      [⟨Rect.unit (s := S2x1024) ![1, 0] S1x1024.size inb_S2x1024_S1x1024_1_0, k0_pay37 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
        ⟨Rect.unit (s := S2x1024) ![0, 0] S1x1024.size inb_S2x1024_S1x1024_0_0, k0_pay36 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
      = A3 m ρ c := by
  rw [read_a]
  exact A3_eq m ρ c

omit [FloatOps F] in
/-- A receive slot's payload, held through the slot's memref. -/
theorem slot_to (c : Dev nD) (k : Fin 7) (f : Buf (Elt F) ((rS k : Memref sig .tc .vmem S2x1024 .f32).view.loc (c : Thread nD τ))) :
    slotPts c k f ⊢ ((rS k : Memref sig .tc .vmem S2x1024 .f32).view.loc (c : Thread nD τ) ↦[(rS k : Memref sig .tc .vmem S2x1024 .f32).view.set]{fullShare} f : sProp 𝕄) := by
  unfold slotPts; exact BI.Entails.refl _
omit [FloatOps F] in
theorem slot_of (c : Dev nD) (k : Fin 7) (f : Buf (Elt F) ((rS k : Memref sig .tc .vmem S2x1024 .f32).view.loc (c : Thread nD τ))) :
    ((rS k : Memref sig .tc .vmem S2x1024 .f32).view.loc (c : Thread nD τ) ↦[(rS k : Memref sig .tc .vmem S2x1024 .f32).view.set]{fullShare} f : sProp 𝕄) ⊢ slotPts c k f := by
  unfold slotPts; exact BI.Entails.refl _

theorem pay_send (c : Dev nD) (s : Fin 7) :
    bigSep ((Rd m ρ).duties (sendCell c s) 0) (fun d => (Rd m ρ).payload (sendCell c s) 0 d) = sendPay m ρ c s := by
  have h := rest_send m ρ c s; rwa [Finset.sdiff_empty] at h
theorem pay_recv (c : Dev nD) (s : Fin 7) :
    bigSep ((Rd m ρ).duties (recvCell c s) 0) (fun d => (Rd m ρ).payload (recvCell c s) 0 d) = recvPay m ρ c s := by
  have h := rest_recv m ρ c s; rwa [Finset.sdiff_empty] at h

omit [FloatOps F] in
/-- The invariant after the point from its pieces. -/
theorem Φ₁_intro (c : Dev nD) :
    iprop(scratch c ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) ⊢ (Φ₁ c : sProp 𝕄) := by
  unfold Φ₁; rw [bigSep_fin14]

/-- The body's postcondition from its pieces. -/
theorem bodyPost_intro (c : Dev nD) (W : Waits sig Unit) :
    iprop(Φ₁ c ∗ owes (c : Thread nD τ) 0 W
        ∗ (((c : Thread nD τ).loc cc0_stg0_0) ↦{fullShare} xstg m ρ c)
        ∗ (((c : Thread nD τ).loc cc0_stg1_0) ↦{fullShare} outAt m ρ c))
      ⊢ bodyPost m ρ c := by
  unfold bodyPost Dat.owesAt Pipeline.owesWithin
  rw [show (dats m ρ 0 c).owed t₀.succ = 0 from rfl]
  iintro ⟨HΦ, HO, Hx, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- What the output staging buffer holds at the end is the kernel's result `outAt`. -/
theorem out_eq_sl (c : Dev nD) (g1 : (cc0_stg1_0 : Ref sig .tc).ty.Contents (Elt F)) :
    (oM : Memref sig .tc .vmem S1024x512 .f32).view.writes (Elt F) g1
      [⟨Rect.unit (s := S1024x512) ![0, 0] S1024x512.size inb_S1024x512_S1024x512_0_0,
          k0_pay1 (k0_pay3 ((xM : Memref sig .tc .vmem S1024x512 .f32).view.readAt (Elt F) (Rect.unit (s := S1024x512) ![0, 0] S1024x512.size inb_S1024x512_S1024x512_0_0).toLoadRect (xstg m ρ c)))
            ((aM : Memref sig .tc .vmem S2x1024 .f32).view.readCov (Val := Elt F)
              [⟨Rect.unit (s := S2x1024) ![1, 0] S1x1024.size inb_S2x1024_S1x1024_1_0, k0_pay37 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩,
                ⟨Rect.unit (s := S2x1024) ![0, 0] S1x1024.size inb_S2x1024_S1x1024_0_0, k0_pay36 ((aM : Memref sig .tc .vmem S2x1024 .f32).view.readAt (Elt F) (Rect.unit (s := S2x1024) ![0, 0] S2x1024.size inb_S2x1024_S2x1024_0_0).toLoadRect (A2 m ρ c)) ((rM : Memref sig .tc .vmem S7x2x1024 .f32).view.readAt (Elt F) (Rect.unit (s := S7x2x1024) ![6, 0, 0] S1x2x1024.size inb_S7x2x1024_S1x2x1024_6_0_0).toLoadRect (Land m ρ c 6))⟩]
              (Rect.unit (s := S2x1024) ![0, 0] S2x1024.size inb_S2x1024_S2x1024_0_0).toLoadRect)
            ((oM : Memref sig .tc .vmem S1024x512 .f32).view.readCov (Val := Elt F) [⟨Rect.unit (s := S1024x512) ![0, 0] S1024x512.size inb_S1024x512_S1024x512_0_0, k0_pay4 ((xM : Memref sig .tc .vmem S1024x512 .f32).view.readAt (Elt F) (Rect.unit (s := S1024x512) ![0, 0] S1024x512.size inb_S1024x512_S1024x512_0_0).toLoadRect (xstg m ρ c))⟩] (Rect.unit (s := S1024x512) ![0, 0] S1024x512.size inb_S1024x512_S1024x512_0_0).toLoadRect)⟩,
        ⟨Rect.unit (s := S1024x512) ![0, 0] S1024x512.size inb_S1024x512_S1024x512_0_0, k0_pay4 ((xM : Memref sig .tc .vmem S1024x512 .f32).view.readAt (Elt F) (Rect.unit (s := S1024x512) ![0, 0] S1024x512.size inb_S1024x512_S1024x512_0_0).toLoadRect (xstg m ρ c))⟩]
      = outAt m ρ c := by
  rw [View.writes_cons, write_o, rows_readCov (A2 m ρ c), whole_readCov, A3_eq_sl, read_x]
  rfl

section Body

variable (K : Dev nD × Fin 15 → ℕ)

set_option maxHeartbeats 4000000 in
set_option maxRecDepth 65536 in
/-- The body, from `bodyPre`, in program order, to `bodyPost`: seven signals (each hands one own receive slot to the partner
    that will write it), the local pass, the barrier wait (the partners' slots arrive), then per round the transfers of
    the accumulator's shares, their waits, and the merge; at the end the fourteen own cells close. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost linear payToks startCred scratch
  iintro ⟨⟨⟨⟨#Hrec, Hat, HtB, HtR, HtS⟩, ⟨HcB, HcR⟩, #Hlev, ⟨%fa, Hacc⟩, ⟨%fr, Hrcv⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  -- the positions, the tokens, the credits and the receive slots, one by one
  ihave Hat' := (Entails.of_eq (bigSep_fin15 _)) $$ Hat
  icases Hat' with ⟨HatB, HaS0, HaS1, HaS2, HaS3, HaS4, HaS5, HaS6, HaR0, HaR1, HaR2, HaR3, HaR4, HaR5, HaR6⟩
  ihave HtB' := (Entails.of_eq (bigSep_fin7 _)) $$ HtB
  icases HtB' with ⟨HtB0, HtB1, HtB2, HtB3, HtB4, HtB5, HtB6⟩
  ihave HtR' := (Entails.of_eq (bigSep_fin7 _)) $$ HtR
  icases HtR' with ⟨HtR0, HtR1, HtR2, HtR3, HtR4, HtR5, HtR6⟩
  ihave HtS' := (Entails.of_eq (bigSep_fin7 _)) $$ HtS
  icases HtS' with ⟨HtS0, HtS1, HtS2, HtS3, HtS4, HtS5, HtS6⟩
  ihave HcR' := (Entails.of_eq (bigSep_fin7 _)) $$ HcR
  icases HcR' with ⟨HcR0, HcR1, HcR2, HcR3, HcR4, HcR5, HcR6⟩
  ihave Hx' := (Entails.of_eq (pts_whole c cc0_stg0_0 _).symm) $$ Hx
  ihave Hout' := (Entails.of_eq (pts_whole c cc0_stg1_0 _).symm) $$ Hout
  ihave Hacc' := (Entails.of_eq (pts_whole c cc0_scratch0 _).symm) $$ Hacc
  ihave Hsl := (slots_split c fr) $$ Hrcv
  icases Hsl with ⟨Hs0, Hs1, Hs2, Hs3, Hs4, Hs5, Hs6⟩
  ihave #HIb0 := (records_inv_bar m ρ K (peer c 0)) $$ Hrec
  ihave #HRb0 := (records_reached_bar m ρ K (peer c 0)) $$ Hrec
  ihave #HIs0 := (records_inv_send m ρ K c 0) $$ Hrec
  ihave #HRs0 := (records_reached_send m ρ K c 0) $$ Hrec
  ihave #HIr0 := (records_inv_recv m ρ K c 0) $$ Hrec
  ihave #HIp0 := (records_inv_recv m ρ K (peer c 0) 0) $$ Hrec
  ihave #HRp0 := (records_reached_recv m ρ K (peer c 0) 0) $$ Hrec
  ihave #HIb1 := (records_inv_bar m ρ K (peer c 1)) $$ Hrec
  ihave #HRb1 := (records_reached_bar m ρ K (peer c 1)) $$ Hrec
  ihave #HIs1 := (records_inv_send m ρ K c 1) $$ Hrec
  ihave #HRs1 := (records_reached_send m ρ K c 1) $$ Hrec
  ihave #HIr1 := (records_inv_recv m ρ K c 1) $$ Hrec
  ihave #HIp1 := (records_inv_recv m ρ K (peer c 1) 1) $$ Hrec
  ihave #HRp1 := (records_reached_recv m ρ K (peer c 1) 1) $$ Hrec
  ihave #HIb2 := (records_inv_bar m ρ K (peer c 2)) $$ Hrec
  ihave #HRb2 := (records_reached_bar m ρ K (peer c 2)) $$ Hrec
  ihave #HIs2 := (records_inv_send m ρ K c 2) $$ Hrec
  ihave #HRs2 := (records_reached_send m ρ K c 2) $$ Hrec
  ihave #HIr2 := (records_inv_recv m ρ K c 2) $$ Hrec
  ihave #HIp2 := (records_inv_recv m ρ K (peer c 2) 2) $$ Hrec
  ihave #HRp2 := (records_reached_recv m ρ K (peer c 2) 2) $$ Hrec
  ihave #HIb3 := (records_inv_bar m ρ K (peer c 3)) $$ Hrec
  ihave #HRb3 := (records_reached_bar m ρ K (peer c 3)) $$ Hrec
  ihave #HIs3 := (records_inv_send m ρ K c 3) $$ Hrec
  ihave #HRs3 := (records_reached_send m ρ K c 3) $$ Hrec
  ihave #HIr3 := (records_inv_recv m ρ K c 3) $$ Hrec
  ihave #HIp3 := (records_inv_recv m ρ K (peer c 3) 3) $$ Hrec
  ihave #HRp3 := (records_reached_recv m ρ K (peer c 3) 3) $$ Hrec
  ihave #HIb4 := (records_inv_bar m ρ K (peer c 4)) $$ Hrec
  ihave #HRb4 := (records_reached_bar m ρ K (peer c 4)) $$ Hrec
  ihave #HIs4 := (records_inv_send m ρ K c 4) $$ Hrec
  ihave #HRs4 := (records_reached_send m ρ K c 4) $$ Hrec
  ihave #HIr4 := (records_inv_recv m ρ K c 4) $$ Hrec
  ihave #HIp4 := (records_inv_recv m ρ K (peer c 4) 4) $$ Hrec
  ihave #HRp4 := (records_reached_recv m ρ K (peer c 4) 4) $$ Hrec
  ihave #HIb5 := (records_inv_bar m ρ K (peer c 5)) $$ Hrec
  ihave #HRb5 := (records_reached_bar m ρ K (peer c 5)) $$ Hrec
  ihave #HIs5 := (records_inv_send m ρ K c 5) $$ Hrec
  ihave #HRs5 := (records_reached_send m ρ K c 5) $$ Hrec
  ihave #HIr5 := (records_inv_recv m ρ K c 5) $$ Hrec
  ihave #HIp5 := (records_inv_recv m ρ K (peer c 5) 5) $$ Hrec
  ihave #HRp5 := (records_reached_recv m ρ K (peer c 5) 5) $$ Hrec
  ihave #HIb6 := (records_inv_bar m ρ K (peer c 6)) $$ Hrec
  ihave #HRb6 := (records_reached_bar m ρ K (peer c 6)) $$ Hrec
  ihave #HIs6 := (records_inv_send m ρ K c 6) $$ Hrec
  ihave #HRs6 := (records_reached_send m ρ K c 6) $$ Hrec
  ihave #HIr6 := (records_inv_recv m ρ K c 6) $$ Hrec
  ihave #HIp6 := (records_inv_recv m ρ K (peer c 6) 6) $$ Hrec
  ihave #HRp6 := (records_reached_recv m ρ K (peer c 6) 6) $$ Hrec
  ihave #HIbar := (records_inv_bar m ρ K c) $$ Hrec
  sl_exec_parts
  -- barrier signal 0, to `peer c 0`: own receive slot 2 goes with it
  iapply (wp_sig m ρ (K (peer c 0, 0)) c 0 _ (dev1_eq c) (OBr c 6) W) $$ [HO HtB0 Hs2]
  · isplitr; · iexact HIb0
    isplitl [HO]; · iexact HO
    isplitl [HtB0]; · iexact HtB0
    isplitl [Hs2]; · iexists _; iexact Hs2
    iexact HRb0
  iintro HO
  sl_exec_parts
  -- barrier signal 1, to `peer c 1`: own receive slot 1 goes with it
  iapply (wp_sig m ρ (K (peer c 1, 0)) c 1 _ (dev2_eq c) (OBr c 5) W) $$ [HO HtB1 Hs1]
  · isplitr; · iexact HIb1
    isplitl [HO]; · iexact HO
    isplitl [HtB1]; · iexact HtB1
    isplitl [Hs1]; · iexists _; iexact Hs1
    iexact HRb1
  iintro HO
  sl_exec_parts
  -- barrier signal 2, to `peer c 2`: own receive slot 0 goes with it
  iapply (wp_sig m ρ (K (peer c 2, 0)) c 2 _ (dev3_eq c) (OBr c 4) W) $$ [HO HtB2 Hs0]
  · isplitr; · iexact HIb2
    isplitl [HO]; · iexact HO
    isplitl [HtB2]; · iexact HtB2
    isplitl [Hs0]; · iexists _; iexact Hs0
    iexact HRb2
  iintro HO
  sl_exec_parts
  -- barrier signal 3, to `peer c 3`: own receive slot 5 goes with it
  iapply (wp_sig m ρ (K (peer c 3, 0)) c 3 _ (dev4_eq c) (OBr c 3) W) $$ [HO HtB3 Hs5]
  · isplitr; · iexact HIb3
    isplitl [HO]; · iexact HO
    isplitl [HtB3]; · iexact HtB3
    isplitl [Hs5]; · iexists _; iexact Hs5
    iexact HRb3
  iintro HO
  sl_exec_parts
  -- barrier signal 4, to `peer c 4`: own receive slot 4 goes with it
  iapply (wp_sig m ρ (K (peer c 4, 0)) c 4 _ (dev5_eq c) (OBr c 2) W) $$ [HO HtB4 Hs4]
  · isplitr; · iexact HIb4
    isplitl [HO]; · iexact HO
    isplitl [HtB4]; · iexact HtB4
    isplitl [Hs4]; · iexists _; iexact Hs4
    iexact HRb4
  iintro HO
  sl_exec_parts
  -- barrier signal 5, to `peer c 5`: own receive slot 3 goes with it
  iapply (wp_sig m ρ (K (peer c 5, 0)) c 5 _ (dev6_eq c) (OBr c 1) W) $$ [HO HtB5 Hs3]
  · isplitr; · iexact HIb5
    isplitl [HO]; · iexact HO
    isplitl [HtB5]; · iexact HtB5
    isplitl [Hs3]; · iexists _; iexact Hs3
    iexact HRb5
  iintro HO
  sl_exec_parts
  -- barrier signal 6, to `peer c 6`: own receive slot 6 goes with it
  iapply (wp_sig m ρ (K (peer c 6, 0)) c 6 _ (dev7_eq c) (OBr c 0) W) $$ [HO HtB6 Hs6]
  · isplitr; · iexact HIb6
    isplitl [HO]; · iexact HO
    isplitl [HtB6]; · iexact HtB6
    isplitl [Hs6]; · iexists _; iexact Hs6
    iexact HRb6
  iintro HO
  sl_exec_parts
  -- the barrier wait: the seven partners' receive slots
  iapply (wp_barwait m ρ (K (c, 0)) c W) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hpay' := (Entails.of_eq (bigSep_fin7 _)) $$ Hpay
  unfold barPay
  icases Hpay' with ⟨⟨%fn0, Hp0⟩, ⟨%fn1, Hp1⟩, ⟨%fn2, Hp2⟩, ⟨%fn3, Hp3⟩, ⟨%fn4, Hp4⟩, ⟨%fn5, Hp5⟩, ⟨%fn6, Hp6⟩⟩
  sl_exec_parts
  -- the accumulator holds (row maxima, row sums); three shares of it, one per transfer of the round
  ihave Hacc0 := (acc_of c (g := A0 m ρ c) (by rw [View.writes_singleton, read_x]; exact write_a _ _)) $$ Hacc'
  ihave Hsh := (acc_split3 c (A0 m ρ c)).1 $$ Hacc0
  icases Hsh with ⟨Ha0, Ha1, Ha2⟩
  -- the transfer of slot 0
  iapply (wp_snd m ρ (K (c, sIdx 0)) (K (peer c 0, rIdx 0)) c 0 _ (dev8_eq c) fn0 (OSr c 6) (insert (SemLoc.reg barS, ()) W)) $$ [Ha0 Hp0 HO HtS0 HtR0]
  · isplitr; · iexact HIs0
    isplitr; · iexact HIp0
    isplitl [Ha0]; · iexact Ha0
    isplitl [Hp0]; · iexact Hp0
    isplitl [HO]; · iexact HO
    isplitl [HtS0]; · iexact HtS0
    isplitr; · iexact HRs0
    isplitl [HtR0]; · iexact HtR0
    iexact HRp0
  iintro ⟨HcS0, HO⟩
  sl_exec_parts
  -- the transfer of slot 1
  iapply (wp_snd m ρ (K (c, sIdx 1)) (K (peer c 1, rIdx 1)) c 1 _ (dev9_eq c) fn1 (OSr c 5) (insert (SemLoc.reg barS, ()) W)) $$ [Ha1 Hp1 HO HtS1 HtR1]
  · isplitr; · iexact HIs1
    isplitr; · iexact HIp1
    isplitl [Ha1]; · iexact Ha1
    isplitl [Hp1]; · iexact Hp1
    isplitl [HO]; · iexact HO
    isplitl [HtS1]; · iexact HtS1
    isplitr; · iexact HRs1
    isplitl [HtR1]; · iexact HtR1
    iexact HRp1
  iintro ⟨HcS1, HO⟩
  sl_exec_parts
  -- the transfer of slot 2
  iapply (wp_snd m ρ (K (c, sIdx 2)) (K (peer c 2, rIdx 2)) c 2 _ (dev10_eq c) fn2 (OSr c 4) (insert (SemLoc.reg barS, ()) W)) $$ [Ha2 Hp2 HO HtS2 HtR2]
  · isplitr; · iexact HIs2
    isplitr; · iexact HIp2
    isplitl [Ha2]; · iexact Ha2
    isplitl [Hp2]; · iexact Hp2
    isplitl [HO]; · iexact HO
    isplitl [HtS2]; · iexact HtS2
    isplitr; · iexact HRs2
    isplitl [HtR2]; · iexact HtR2
    iexact HRp2
  iintro ⟨HcS2, HO⟩
  sl_exec_parts
  -- the waits of slot 0: the accumulator's share back, then the slot with the partner's pair
  iapply (wp_sendwait m ρ (K (c, sIdx 0)) c 0 (OSr c 4) (insert (SemLoc.reg barS, ()) W)) $$ [HcS0 HO HaS0]
  · isplitr; · iexact HIs0
    isplitl [HcS0]; · iexact HcS0
    isplitl [HO]; · iexact HO
    isplitr; · iapply (mayWait_send c 0 4); iexact Hlev
    iexact HaS0
  iintro ⟨HO, HaS0, -, Hb0⟩
  sl_exec_parts
  iapply (wp_recvwait m ρ (K (c, rIdx 0)) c 0 (OSr c 4) (insert (SemLoc.dma (sendSem 0), ()) (insert (SemLoc.reg barS, ()) W))) $$ [HcR0 HO HaR0]
  · isplitr; · iexact HIr0
    isplitl [HcR0]; · iexact HcR0
    isplitl [HO]; · iexact HO
    isplitr; · iapply (mayWait_recv0 c); iexact Hlev
    iexact HaR0
  iintro ⟨HO, HaR0, -, Hr0⟩
  ihave Hr0' := (Entails.of_eq (show recvPay m ρ c 0 = slotPts c 0 (Land m ρ c 0) from rfl)) $$ Hr0
  ihave Hl0 := (slot_to c 0 _) $$ Hr0'
  sl_exec_parts
  -- the waits of slot 1: the accumulator's share back, then the slot with the partner's pair
  iapply (wp_sendwait m ρ (K (c, sIdx 1)) c 1 (OSr c 4) (insert (SemLoc.dma (recvSem 0), ()) (insert (SemLoc.dma (sendSem 0), ()) (insert (SemLoc.reg barS, ()) W)))) $$ [HcS1 HO HaS1]
  · isplitr; · iexact HIs1
    isplitl [HcS1]; · iexact HcS1
    isplitl [HO]; · iexact HO
    isplitr; · iapply (mayWait_send c 1 4); iexact Hlev
    iexact HaS1
  iintro ⟨HO, HaS1, -, Hb1⟩
  sl_exec_parts
  iapply (wp_recvwait m ρ (K (c, rIdx 1)) c 1 (OSr c 4) (insert (SemLoc.dma (sendSem 1), ()) (insert (SemLoc.dma (recvSem 0), ()) (insert (SemLoc.dma (sendSem 0), ()) (insert (SemLoc.reg barS, ()) W))))) $$ [HcR1 HO HaR1]
  · isplitr; · iexact HIr1
    isplitl [HcR1]; · iexact HcR1
    isplitl [HO]; · iexact HO
    isplitr; · iapply (mayWait_recv1 c); iexact Hlev
    iexact HaR1
  iintro ⟨HO, HaR1, -, Hr1⟩
  ihave Hr1' := (Entails.of_eq (show recvPay m ρ c 1 = slotPts c 1 (Land m ρ c 1) from rfl)) $$ Hr1
  ihave Hl1 := (slot_to c 1 _) $$ Hr1'
  sl_exec_parts
  -- the waits of slot 2: the accumulator's share back, then the slot with the partner's pair
  iapply (wp_sendwait m ρ (K (c, sIdx 2)) c 2 (OSr c 4) (insert (SemLoc.dma (recvSem 1), ()) (insert (SemLoc.dma (sendSem 1), ()) (insert (SemLoc.dma (recvSem 0), ()) (insert (SemLoc.dma (sendSem 0), ()) (insert (SemLoc.reg barS, ()) W)))))) $$ [HcS2 HO HaS2]
  · isplitr; · iexact HIs2
    isplitl [HcS2]; · iexact HcS2
    isplitl [HO]; · iexact HO
    isplitr; · iapply (mayWait_send c 2 4); iexact Hlev
    iexact HaS2
  iintro ⟨HO, HaS2, -, Hb2⟩
  sl_exec_parts
  iapply (wp_recvwait m ρ (K (c, rIdx 2)) c 2 (OSr c 4) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))) $$ [HcR2 HO HaR2]
  · isplitr; · iexact HIr2
    isplitl [HcR2]; · iexact HcR2
    isplitl [HO]; · iexact HO
    isplitr; · iapply (mayWait_recv2 c); iexact Hlev
    iexact HaR2
  iintro ⟨HO, HaR2, -, Hr2⟩
  ihave Hr2' := (Entails.of_eq (show recvPay m ρ c 2 = slotPts c 2 (Land m ρ c 2) from rfl)) $$ Hr2
  ihave Hl2 := (slot_to c 2 _) $$ Hr2'
  -- the three shares of the accumulator rejoined
  ihave Hb0' := (Entails.of_eq (show sendPay m ρ c 0 = accPts c (sh 0) (A0 m ρ c) from rfl)) $$ Hb0
  ihave Hb1' := (Entails.of_eq (show sendPay m ρ c 1 = accPts c (sh 1) (A0 m ρ c) from rfl)) $$ Hb1
  ihave Hb2' := (Entails.of_eq (show sendPay m ρ c 2 = accPts c (sh 2) (A0 m ρ c) from rfl)) $$ Hb2
  ihave Hjn := (acc_split3 c (A0 m ρ c)).2 $$ [Hb0' Hb1' Hb2']
  · isplitl [Hb0']; · iexact Hb0'
    isplitl [Hb1']; · iexact Hb1'
    iexact Hb2'
  ihave Hacc' := (acc_to c _) $$ Hjn
  sl_exec_parts
  -- the accumulator holds the merge of round 1
  ihave Hacc1 := (acc_of c (g := A1 m ρ c) (by exact A1_eq_sl m ρ c)) $$ Hacc'
  ihave Hsh1 := (acc_split3' c (A1 m ρ c)).1 $$ Hacc1
  icases Hsh1 with ⟨Ha3, Ha4, Ha5⟩
  -- the transfer of slot 3
  iapply (wp_snd m ρ (K (c, sIdx 3)) (K (peer c 3, rIdx 3)) c 3 _ (dev11_eq c) fn3 (OSr c 3) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha3 Hp3 HO HtS3 HtR3]
  · isplitr; · iexact HIs3
    isplitr; · iexact HIp3
    isplitl [Ha3]; · iexact Ha3
    isplitl [Hp3]; · iexact Hp3
    isplitl [HO]; · iexact HO
    isplitl [HtS3]; · iexact HtS3
    isplitr; · iexact HRs3
    isplitl [HtR3]; · iexact HtR3
    iexact HRp3
  iintro ⟨HcS3, HO⟩
  sl_exec_parts
  -- the transfer of slot 4
  iapply (wp_snd m ρ (K (c, sIdx 4)) (K (peer c 4, rIdx 4)) c 4 _ (dev12_eq c) fn4 (OSr c 2) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha4 Hp4 HO HtS4 HtR4]
  · isplitr; · iexact HIs4
    isplitr; · iexact HIp4
    isplitl [Ha4]; · iexact Ha4
    isplitl [Hp4]; · iexact Hp4
    isplitl [HO]; · iexact HO
    isplitl [HtS4]; · iexact HtS4
    isplitr; · iexact HRs4
    isplitl [HtR4]; · iexact HtR4
    iexact HRp4
  iintro ⟨HcS4, HO⟩
  sl_exec_parts
  -- the transfer of slot 5
  iapply (wp_snd m ρ (K (c, sIdx 5)) (K (peer c 5, rIdx 5)) c 5 _ (dev13_eq c) fn5 (OSr c 1) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [Ha5 Hp5 HO HtS5 HtR5]
  · isplitr; · iexact HIs5
    isplitr; · iexact HIp5
    isplitl [Ha5]; · iexact Ha5
    isplitl [Hp5]; · iexact Hp5
    isplitl [HO]; · iexact HO
    isplitl [HtS5]; · iexact HtS5
    isplitr; · iexact HRs5
    isplitl [HtR5]; · iexact HtR5
    iexact HRp5
  iintro ⟨HcS5, HO⟩
  sl_exec_parts
  -- the waits of slot 3: the accumulator's share back, then the slot with the partner's pair
  iapply (wp_sendwait m ρ (K (c, sIdx 3)) c 3 (OSr c 1) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))) $$ [HcS3 HO HaS3]
  · isplitr; · iexact HIs3
    isplitl [HcS3]; · iexact HcS3
    isplitl [HO]; · iexact HO
    isplitr; · iapply (mayWait_send c 3 1); iexact Hlev
    iexact HaS3
  iintro ⟨HO, HaS3, -, Hb3⟩
  sl_exec_parts
  iapply (wp_recvwait m ρ (K (c, rIdx 3)) c 3 (OSr c 1) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))) $$ [HcR3 HO HaR3]
  · isplitr; · iexact HIr3
    isplitl [HcR3]; · iexact HcR3
    isplitl [HO]; · iexact HO
    isplitr; · iapply (mayWait_recv3 c); iexact Hlev
    iexact HaR3
  iintro ⟨HO, HaR3, -, Hr3⟩
  ihave Hr3' := (Entails.of_eq (show recvPay m ρ c 3 = slotPts c 3 (Land m ρ c 3) from rfl)) $$ Hr3
  ihave Hl3 := (slot_to c 3 _) $$ Hr3'
  sl_exec_parts
  -- the waits of slot 4: the accumulator's share back, then the slot with the partner's pair
  iapply (wp_sendwait m ρ (K (c, sIdx 4)) c 4 (OSr c 1) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))) $$ [HcS4 HO HaS4]
  · isplitr; · iexact HIs4
    isplitl [HcS4]; · iexact HcS4
    isplitl [HO]; · iexact HO
    isplitr; · iapply (mayWait_send c 4 1); iexact Hlev
    iexact HaS4
  iintro ⟨HO, HaS4, -, Hb4⟩
  sl_exec_parts
  iapply (wp_recvwait m ρ (K (c, rIdx 4)) c 4 (OSr c 1) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))))) $$ [HcR4 HO HaR4]
  · isplitr; · iexact HIr4
    isplitl [HcR4]; · iexact HcR4
    isplitl [HO]; · iexact HO
    isplitr; · iapply (mayWait_recv4 c); iexact Hlev
    iexact HaR4
  iintro ⟨HO, HaR4, -, Hr4⟩
  ihave Hr4' := (Entails.of_eq (show recvPay m ρ c 4 = slotPts c 4 (Land m ρ c 4) from rfl)) $$ Hr4
  ihave Hl4 := (slot_to c 4 _) $$ Hr4'
  sl_exec_parts
  -- the waits of slot 5: the accumulator's share back, then the slot with the partner's pair
  iapply (wp_sendwait m ρ (K (c, sIdx 5)) c 5 (OSr c 1) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))))) $$ [HcS5 HO HaS5]
  · isplitr; · iexact HIs5
    isplitl [HcS5]; · iexact HcS5
    isplitl [HO]; · iexact HO
    isplitr; · iapply (mayWait_send c 5 1); iexact Hlev
    iexact HaS5
  iintro ⟨HO, HaS5, -, Hb5⟩
  sl_exec_parts
  iapply (wp_recvwait m ρ (K (c, rIdx 5)) c 5 (OSr c 1) (insert (SemLoc.dma (sendSem 5), ()) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W))))))))))))) $$ [HcR5 HO HaR5]
  · isplitr; · iexact HIr5
    isplitl [HcR5]; · iexact HcR5
    isplitl [HO]; · iexact HO
    isplitr; · iapply (mayWait_recv5 c); iexact Hlev
    iexact HaR5
  iintro ⟨HO, HaR5, -, Hr5⟩
  ihave Hr5' := (Entails.of_eq (show recvPay m ρ c 5 = slotPts c 5 (Land m ρ c 5) from rfl)) $$ Hr5
  ihave Hl5 := (slot_to c 5 _) $$ Hr5'
  -- the three shares of the accumulator rejoined
  ihave Hb3' := (Entails.of_eq (show sendPay m ρ c 3 = accPts c (sh 3) (A1 m ρ c) from rfl)) $$ Hb3
  ihave Hb4' := (Entails.of_eq (show sendPay m ρ c 4 = accPts c (sh 4) (A1 m ρ c) from rfl)) $$ Hb4
  ihave Hb5' := (Entails.of_eq (show sendPay m ρ c 5 = accPts c (sh 5) (A1 m ρ c) from rfl)) $$ Hb5
  ihave Hjn := (acc_split3' c (A1 m ρ c)).2 $$ [Hb3' Hb4' Hb5']
  · isplitl [Hb3']; · iexact Hb3'
    isplitl [Hb4']; · iexact Hb4'
    iexact Hb5'
  ihave Hacc' := (acc_to c _) $$ Hjn
  sl_exec_parts
  -- the accumulator holds the merge of round 2
  ihave Hacc2 := (acc_of c (g := A2 m ρ c) (by exact A2_eq_sl m ρ c)) $$ Hacc'
  ihave Ha6 := (Entails.of_eq (show accPts c fullShare (A2 m ρ c) = accPts c (sh 6) (A2 m ρ c) from rfl)) $$ Hacc2
  -- the transfer of slot 6
  iapply (wp_snd m ρ (K (c, sIdx 6)) (K (peer c 6, rIdx 6)) c 6 _ (dev14_eq c) fn6 (OSr c 0) (insert (SemLoc.dma (recvSem 5), ()) (insert (SemLoc.dma (sendSem 5), ()) (insert (SemLoc.dma (recvSem 4), ()) (insert (SemLoc.dma (sendSem 4), ()) (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.reg barS, ()) W)))))))))))))) $$ [Ha6 Hp6 HO HtS6 HtR6]
  · isplitr; · iexact HIs6
    isplitr; · iexact HIp6
    isplitl [Ha6]; · iexact Ha6
    isplitl [Hp6]; · iexact Hp6
    isplitl [HO]; · iexact HO
    isplitl [HtS6]; · iexact HtS6
    isplitr; · iexact HRs6
    isplitl [HtR6]; · iexact HtR6
    iexact HRp6
  iintro ⟨HcS6, HO⟩
  sl_exec_parts
  -- owing nothing more, the two waits of slot 6 need no level evidence; their payloads
  ihave Hb6 := (Entails.of_eq (pay_send m ρ c 6)) $$ HaS6_pay1
  ihave Hr6 := (Entails.of_eq (pay_recv m ρ c 6)) $$ HaR6_pay1
  ihave Hr6' := (Entails.of_eq (show recvPay m ρ c 6 = slotPts c 6 (Land m ρ c 6) from rfl)) $$ Hr6
  ihave Hl6 := (slot_to c 6 _) $$ Hr6'
  ihave HaS6' := (Entails.of_eq (show (atPos ER (kcell (c, 7)) 1 ∅ 0 : sProp 𝕄) = atPos ER (sendCell c 6) 1 ∅ 0 from rfl)) $$ HaS6
  ihave HaR6' := (Entails.of_eq (show (atPos ER (kcell (c, 14)) 1 ∅ 0 : sProp 𝕄) = atPos ER (recvCell c 6) 1 ∅ 0 from rfl)) $$ HaR6
  -- the fourteen own cells close: their counters at zero are the core's again
  imod (close_send m ρ (K (c, sIdx 0)) c 0) $$ [HaS0] with HzS0
  · isplitr; · iexact HIs0
    iexact HaS0
  imod (close_recv m ρ (K (c, rIdx 0)) c 0) $$ [HaR0] with HzR0
  · isplitr; · iexact HIr0
    iexact HaR0
  imod (close_send m ρ (K (c, sIdx 1)) c 1) $$ [HaS1] with HzS1
  · isplitr; · iexact HIs1
    iexact HaS1
  imod (close_recv m ρ (K (c, rIdx 1)) c 1) $$ [HaR1] with HzR1
  · isplitr; · iexact HIr1
    iexact HaR1
  imod (close_send m ρ (K (c, sIdx 2)) c 2) $$ [HaS2] with HzS2
  · isplitr; · iexact HIs2
    iexact HaS2
  imod (close_recv m ρ (K (c, rIdx 2)) c 2) $$ [HaR2] with HzR2
  · isplitr; · iexact HIr2
    iexact HaR2
  imod (close_send m ρ (K (c, sIdx 3)) c 3) $$ [HaS3] with HzS3
  · isplitr; · iexact HIs3
    iexact HaS3
  imod (close_recv m ρ (K (c, rIdx 3)) c 3) $$ [HaR3] with HzR3
  · isplitr; · iexact HIr3
    iexact HaR3
  imod (close_send m ρ (K (c, sIdx 4)) c 4) $$ [HaS4] with HzS4
  · isplitr; · iexact HIs4
    iexact HaS4
  imod (close_recv m ρ (K (c, rIdx 4)) c 4) $$ [HaR4] with HzR4
  · isplitr; · iexact HIr4
    iexact HaR4
  imod (close_send m ρ (K (c, sIdx 5)) c 5) $$ [HaS5] with HzS5
  · isplitr; · iexact HIs5
    iexact HaS5
  imod (close_recv m ρ (K (c, rIdx 5)) c 5) $$ [HaR5] with HzR5
  · isplitr; · iexact HIr5
    iexact HaR5
  imod (close_send m ρ (K (c, sIdx 6)) c 6) $$ [HaS6'] with HzS6
  · isplitr; · iexact HIs6
    iexact HaS6'
  imod (close_recv m ρ (K (c, rIdx 6)) c 6) $$ [HaR6'] with HzR6
  · isplitr; · iexact HIr6
    iexact HaR6'
  ihave Hb6' := (Entails.of_eq (show sendPay m ρ c 6 = accPts c fullShare (A2 m ρ c) from rfl)) $$ Hb6
  ihave Hacc' := (acc_to c _) $$ Hb6'
  sl_exec_parts
  sl_step
  -- the postcondition: the scratch buffers whole again, the fourteen counters, nothing owed, the two staging buffers
  ihave HO' := (Entails.of_eq (show owes (c : Thread nD τ) (OSr c 0) _ = owes (c : Thread nD τ) 0 _ from rfl)) $$ HO
  ihave Hout2 := (pts_congr (g := outAt m ρ c) (by exact out_eq_sl m ρ c _)) $$ Hout'
  iapply Hk
  iapply (bodyPost_intro m ρ c _)
  isplitl [Hacc' Hl0 Hl1 Hl2 Hl3 Hl4 Hl5 Hl6 HzS0 HzS1 HzS2 HzS3 HzS4 HzS5 HzS6 HzR0 HzR1 HzR2 HzR3 HzR4 HzR5 HzR6]
  · iapply (Φ₁_intro c)
    isplitl [Hacc' Hl0 Hl1 Hl2 Hl3 Hl4 Hl5 Hl6]
    · unfold scratch
      isplitl [Hacc']
      · iexists _; iapply (Entails.of_eq (pts_whole c cc0_scratch0 _)); iexact Hacc'
      ihave Hj0 := (slot_of c 0 _) $$ Hl0
      ihave Hj1 := (slot_of c 1 _) $$ Hl1
      ihave Hj2 := (slot_of c 2 _) $$ Hl2
      ihave Hj3 := (slot_of c 3 _) $$ Hl3
      ihave Hj4 := (slot_of c 4 _) $$ Hl4
      ihave Hj5 := (slot_of c 5 _) $$ Hl5
      ihave Hj6 := (slot_of c 6 _) $$ Hl6
      iapply (slots_join c _ _ _ _ _ _ _)
      isplitl [Hj0]; · iexact Hj0
      isplitl [Hj1]; · iexact Hj1
      isplitl [Hj2]; · iexact Hj2
      isplitl [Hj3]; · iexact Hj3
      isplitl [Hj4]; · iexact Hj4
      isplitl [Hj5]; · iexact Hj5
      iexact Hj6
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO']; · iexact HO'
  isplitl [Hx']
  · iapply (Entails.of_eq (pts_whole c cc0_stg0_0 _)); iexact Hx'
  iapply (Entails.of_eq (pts_whole c cc0_stg1_0 _)); iexact Hout2

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Body

end Cert.KernelPf

end
-- ==== Proof.Bits.Launch.lean ====
import proofs.«901058_g7700000000001059_dist_softmax_colshard_i_m1024_n512_v7x_i32_f32_1_alg».proof.Proof.Bits.Ghost
import proofs.«901058_g7700000000001059_dist_softmax_colshard_i_m1024_n512_v7x_i32_f32_1_alg».proof.Proof.Bits.Levels
import proofs.«901058_g7700000000001059_dist_softmax_colshard_i_m1024_n512_v7x_i32_f32_1_alg».proof.Proof.Bits.Glob
import proofs.«901058_g7700000000001059_dist_softmax_colshard_i_m1024_n512_v7x_i32_f32_1_alg».proof.Proof.Bits.Body

/-! The launch: from every device's body obligation to the run of the whole program on the 32 devices. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main — the kernels handshaking on the barrier semaphore, then exchanging their accumulators in three
    rounds — terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelPf.run_main' depends on axioms: [propext, Classical.choice, Quot.sound] -/
#guard_msgs in #print axioms run_main

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelPf

end
-- ==== Proof.Bits.ArrOut.lean ====
import proofs.«901058_g7700000000001059_dist_softmax_colshard_i_m1024_n512_v7x_i32_f32_1_alg».proof.Proof.Bits.Ghost
import proofs.«901058_g7700000000001059_dist_softmax_colshard_i_m1024_n512_v7x_i32_f32_1_alg».proof.Proof.Gen.Kernel.Points

/-! What the two arrays hold after the pipeline's one grid point.

The kernel has no grid: the pipeline runs its body once. The input `x` is an input window, never written back, so
its array holds at the end what it held at launch. The result is an output window whose block is the whole array at
block index 0 and which is written back at the one point: the array then holds what the body left in the result's
staging buffer, the rescaled block `outAt`. -/

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input array after the run: as at launch. -/
theorem arrAt_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run. One point, so one step of the array's history: the write-back at that point writes
    all of the staging buffer's contents (the window is not cut) through the block's view, and the block is the array
    itself, its offsets `0 * size`: an unmasked write of the whole array, which leaves what was written. -/
theorem arrAt_out (c : Dev nD) : (dats m ρ 0 c).arrAt (1 : Fin 2) cfg0.N = outAt m ρ c := by
  rw [cfg0_N]
  refine ((dats (F := F) m ρ 0 c).arrAt_succ (1 : Fin 2) t₀).trans ?_
  rw [if_pos (flush0_1 t₀)]
  exact Memref.write_access_unit_zero_univ (Elt F) main_v1 (by funext a; exact Nat.zero_mul _) _ _ _

/-- info: 'Cert.KernelPf.arrAt_x' depends on axioms: [propext, Classical.choice, Quot.sound] -/
#guard_msgs in #print axioms arrAt_x

/-- info: 'Cert.KernelPf.arrAt_out' depends on axioms: [propext, Classical.choice, Quot.sound] -/
#guard_msgs in #print axioms arrAt_out

end Cert.KernelPf

end
-- ==== Proof.Bits.Final.lean ====
import proofs.«901058_g7700000000001059_dist_softmax_colshard_i_m1024_n512_v7x_i32_f32_1_alg».proof.Proof.Bits.Launch
import proofs.«901058_g7700000000001059_dist_softmax_colshard_i_m1024_n512_v7x_i32_f32_1_alg».proof.Proof.Bits.ArrOut

/-! The run of the kernel on the 32 devices with its result named, and the frame it gives. -/

noncomputable section

namespace Cert.KernelPf

open Cert.Kernel Cert.Kernel.Gen
open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run: the one grid point's write-back of the output staging buffer, the whole array. -/
theorem finalA_out (c : Dev nD) : finalA m ρ c (1 : Fin 2) = outAt m ρ c := arrAt_out m ρ c

/-- Every weakly fair execution of the kernel on the 32 devices terminates without a fault; each device's result array
    ends holding `outAt`, its argument array what it held. -/
theorem kernel_run :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

end Cert.KernelPf

end
-- ==== Proof.Spec.lean ====
import proofs.«901058_g7700000000001059_dist_softmax_colshard_i_m1024_n512_v7x_i32_f32_1_alg».proof.Proof.Peers
import Idealize.ShloMosaic.PureOps.Ideal

/-! The mathematics of the distributed softmax, over the extended reals.

`x c r j` is entry (row r, column j) of device c's block. Every device first forms, per row, the pair
(maximum, sum of exponentials relative to that maximum) of its own block; a merge of pairs takes the maximum of the
maxima and adds the sums rescaled to it. Three rounds of merges (with the three partners of the first radix-4 round,
the three of the second, the one of the radix-2 round) leave on every device the pair of the WHOLE row, and the result
is the block's exponentials rescaled to it: the row's softmax. -/

noncomputable section

namespace Cert.SoftmaxSpec

open Cert.KernelIdeal Cert.KernelIdealPf
open Idealize.ShloMosaic

variable (x : Dev nD → Fin 1024 → Fin 512 → EReal)

/-- The maximum of row `r` of device `c`'s block, and the sum of its exponentials relative to it. -/
def mloc (c : Dev nD) (r : Fin 1024) : EReal := Finset.univ.sup fun j : Fin 512 => x c r j
def sloc (c : Dev nD) (r : Fin 1024) : EReal := ∑ j : Fin 512, Ideal.exp (x c r j - mloc x c r)

/-- The merge of the own pair `a` with three received pairs, as the kernel associates it; -/
def mrg4 (a b0 b1 b2 : EReal × EReal) : EReal × EReal :=
  (max (max (max a.1 b0.1) b1.1) b2.1,
   a.2 * Ideal.exp (a.1 - max (max (max a.1 b0.1) b1.1) b2.1) + b0.2 * Ideal.exp (b0.1 - max (max (max a.1 b0.1) b1.1) b2.1)
     + b1.2 * Ideal.exp (b1.1 - max (max (max a.1 b0.1) b1.1) b2.1) + b2.2 * Ideal.exp (b2.1 - max (max (max a.1 b0.1) b1.1) b2.1))
/-- with one. -/
def mrg2 (a b : EReal × EReal) : EReal × EReal :=
  (max a.1 b.1, a.2 * Ideal.exp (a.1 - max a.1 b.1) + b.2 * Ideal.exp (b.1 - max a.1 b.1))

/-- The pair device `c` holds for row `r` after the local pass and after each round. The pair received in slot `s` is the
    one of `peer c (inv s)`: slots 0, 1, 2 bring the pairs of `peer c 2`, `peer c 1`, `peer c 0`. -/
def P0 (c : Dev nD) (r : Fin 1024) : EReal × EReal := (mloc x c r, sloc x c r)
def P1 (c : Dev nD) (r : Fin 1024) : EReal × EReal := mrg4 (P0 x c r) (P0 x (peer c 2) r) (P0 x (peer c 1) r) (P0 x (peer c 0) r)
def P2 (c : Dev nD) (r : Fin 1024) : EReal × EReal := mrg4 (P1 x c r) (P1 x (peer c 5) r) (P1 x (peer c 4) r) (P1 x (peer c 3) r)
def P3 (c : Dev nD) (r : Fin 1024) : EReal × EReal := mrg2 (P2 x c r) (P2 x (peer c 6) r)

/-- The kernel's result at (row r, column j) of device c's block. -/
def outSpec (c : Dev nD) (r : Fin 1024) (j : Fin 512) : EReal :=
  Ideal.exp (x c r j - mloc x c r) * Ideal.div (Ideal.exp (mloc x c r - (P3 x c r).1)) (P3 x c r).2

/-- The reference's result at (row r, column k) of the whole array `X`. -/
def refSpec (X : Fin 1024 → Fin 16384 → EReal) (r : Fin 1024) (k : Fin 16384) : EReal :=
  Ideal.div (Ideal.exp (X r k - Finset.univ.sup fun k' : Fin 16384 => X r k'))
    (0 + ∑ k' : Fin 16384, Ideal.exp (X r k' - Finset.univ.sup fun k'' : Fin 16384 => X r k''))

/-- Column `j` of device `c`'s block is column `c · 512 + j` of the whole array. -/
def col (c : Dev nD) (j : Fin 512) : Fin 16384 := ⟨c.val * 512 + j.val, by have : c.val < 32 := c.isLt; have := j.isLt; show _ < 16384; omega⟩

end Cert.SoftmaxSpec

end
-- ==== Proof.Math.lean ====
import proofs.«901058_g7700000000001059_dist_softmax_colshard_i_m1024_n512_v7x_i32_f32_1_alg».proof.Proof.Spec
import Mathlib.Data.EReal.Inv
import Mathlib.Data.Fintype.BigOperators
import Mathlib.Algebra.BigOperators.Field
import Mathlib.Algebra.BigOperators.Group.Multiset.Basic
import Mathlib.Tactic.FieldSimp
import Mathlib.Tactic.Ring

noncomputable section

namespace Cert.SoftmaxSpec

open Cert.KernelIdeal Cert.KernelIdealPf
open Idealize.ShloMosaic

/-! The distributed softmax equals the reference's, over the extended reals.

The inputs are finite, so everything is the coercion of a real computation. A softmax does not change when the
subtracted maximum is replaced by any other real: so the maxima are only shown to be finite, never compared. What a
merge preserves is the TOTAL of a pair (m, s), the real s · exp m: the pair of a device's block has total the sum of the
block row's plain exponentials, and a merge's total is the sum of the merged totals. After the three rounds device c's
pair carries the total of a multiset of 32 devices, which is every device once; the reference's denominator, rescaled the
same way, is the same sum over the 32 · 512 columns of the row. -/

/-! ## Coercions of reals -/

theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

theorem coe_max (a b : ℝ) : max (a : EReal) (b : EReal) = ((max a b : ℝ) : EReal) :=
  (EReal.coe_strictMono.monotone.map_max).symm

/-- The supremum of finitely many reals, at least one, is a real. -/
theorem sup_coe_real {ι : Type*} (s : Finset ι) (hs : s.Nonempty) (f : ι → ℝ) :
    ∃ M : ℝ, s.sup (fun i => (f i : EReal)) = (M : EReal) := by
  obtain ⟨i, _, hi⟩ := Finset.exists_mem_eq_sup s hs (fun i => (f i : EReal))
  exact ⟨f i, hi⟩

theorem div_coe_coe (a : ℝ) {b : ℝ} (hb : b ≠ 0) :
    Ideal.div (a : EReal) (b : EReal) = ((a / b : ℝ) : EReal) := by
  rw [Ideal.div_coe hb, ← EReal.coe_mul, mul_one_div]

/-! ## Pairs of reals, their merges and their totals -/

/-- A pair of reals as a pair of extended reals. -/
def R (p : ℝ × ℝ) : EReal × EReal := ((p.1 : EReal), (p.2 : EReal))

/-- The two merges over the reals. -/
def mrg4R (a b0 b1 b2 : ℝ × ℝ) : ℝ × ℝ :=
  (max (max (max a.1 b0.1) b1.1) b2.1,
   a.2 * Real.exp (a.1 - max (max (max a.1 b0.1) b1.1) b2.1) + b0.2 * Real.exp (b0.1 - max (max (max a.1 b0.1) b1.1) b2.1)
     + b1.2 * Real.exp (b1.1 - max (max (max a.1 b0.1) b1.1) b2.1) + b2.2 * Real.exp (b2.1 - max (max (max a.1 b0.1) b1.1) b2.1))
def mrg2R (a b : ℝ × ℝ) : ℝ × ℝ :=
  (max a.1 b.1, a.2 * Real.exp (a.1 - max a.1 b.1) + b.2 * Real.exp (b.1 - max a.1 b.1))

theorem mrg4_R (a b0 b1 b2 : ℝ × ℝ) : mrg4 (R a) (R b0) (R b1) (R b2) = R (mrg4R a b0 b1 b2) := by
  simp only [mrg4, mrg4R, R, coe_max, ← EReal.coe_sub, Ideal.exp_coe, ← EReal.coe_mul, ← EReal.coe_add]

theorem mrg2_R (a b : ℝ × ℝ) : mrg2 (R a) (R b) = R (mrg2R a b) := by
  simp only [mrg2, mrg2R, R, coe_max, ← EReal.coe_sub, Ideal.exp_coe, ← EReal.coe_mul, ← EReal.coe_add]

/-- The total of a pair (m, s): s · exp m. For the pair of a set of entries it is the sum of their exponentials. -/
def tot (p : ℝ × ℝ) : ℝ := p.2 * Real.exp p.1

theorem scale_back (s m M : ℝ) : s * Real.exp (m - M) * Real.exp M = s * Real.exp m := by
  rw [mul_assoc, ← Real.exp_add, sub_add_cancel]

theorem tot_mrg4R (a b0 b1 b2 : ℝ × ℝ) : tot (mrg4R a b0 b1 b2) = tot a + tot b0 + tot b1 + tot b2 := by
  simp only [tot, mrg4R, add_mul, scale_back]

theorem tot_mrg2R (a b : ℝ × ℝ) : tot (mrg2R a b) = tot a + tot b := by
  simp only [tot, mrg2R, add_mul, scale_back]

/-! ## The local pass and the three rounds over real inputs -/

variable (xr : Dev nD → Fin 1024 → Fin 512 → ℝ)

/-- Real inputs as extended reals. -/
def cx : Dev nD → Fin 1024 → Fin 512 → EReal := fun c r j => (xr c r j : EReal)

theorem mloc_real (c : Dev nD) (r : Fin 1024) : ∃ M : ℝ, mloc (cx xr) c r = (M : EReal) :=
  sup_coe_real Finset.univ ⟨(⟨0, by norm_num⟩ : Fin 512), Finset.mem_univ _⟩ (fun j => xr c r j)

/-- The block row's maximum and its sum of exponentials relative to it, as reals. -/
def mlR (c : Dev nD) (r : Fin 1024) : ℝ := (mloc (cx xr) c r).toReal
def slR (c : Dev nD) (r : Fin 1024) : ℝ := ∑ j : Fin 512, Real.exp (xr c r j - mlR xr c r)

theorem mloc_coe (c : Dev nD) (r : Fin 1024) : mloc (cx xr) c r = (mlR xr c r : EReal) := by
  obtain ⟨M, h⟩ := mloc_real xr c r
  unfold mlR; rw [h, EReal.toReal_coe]

theorem sloc_coe (c : Dev nD) (r : Fin 1024) : sloc (cx xr) c r = (slR xr c r : EReal) := by
  unfold sloc slR
  rw [mloc_coe]
  simp only [cx, ← EReal.coe_sub, Ideal.exp_coe]
  exact coe_sum _ _

/-- The pairs after the local pass and after each round, as pairs of reals. -/
def Q0 (c : Dev nD) (r : Fin 1024) : ℝ × ℝ := (mlR xr c r, slR xr c r)
def Q1 (c : Dev nD) (r : Fin 1024) : ℝ × ℝ := mrg4R (Q0 xr c r) (Q0 xr (peer c 2) r) (Q0 xr (peer c 1) r) (Q0 xr (peer c 0) r)
def Q2 (c : Dev nD) (r : Fin 1024) : ℝ × ℝ := mrg4R (Q1 xr c r) (Q1 xr (peer c 5) r) (Q1 xr (peer c 4) r) (Q1 xr (peer c 3) r)
def Q3 (c : Dev nD) (r : Fin 1024) : ℝ × ℝ := mrg2R (Q2 xr c r) (Q2 xr (peer c 6) r)

theorem P0_R (c : Dev nD) (r : Fin 1024) : P0 (cx xr) c r = R (Q0 xr c r) := by
  unfold P0 Q0 R; rw [mloc_coe, sloc_coe]
theorem P1_R (c : Dev nD) (r : Fin 1024) : P1 (cx xr) c r = R (Q1 xr c r) := by
  simp only [P1, Q1, P0_R, mrg4_R]
theorem P2_R (c : Dev nD) (r : Fin 1024) : P2 (cx xr) c r = R (Q2 xr c r) := by
  simp only [P2, Q2, P1_R, mrg4_R]
theorem P3_R (c : Dev nD) (r : Fin 1024) : P3 (cx xr) c r = R (Q3 xr c r) := by
  simp only [P3, Q3, P2_R, mrg2_R]

/-- The sum of the plain exponentials of row r of device c's block. -/
def E (c : Dev nD) (r : Fin 1024) : ℝ := ∑ j : Fin 512, Real.exp (xr c r j)

theorem tot_Q0 (c : Dev nD) (r : Fin 1024) : tot (Q0 xr c r) = E xr c r := by
  show (∑ j : Fin 512, Real.exp (xr c r j - mlR xr c r)) * Real.exp (mlR xr c r) = ∑ j : Fin 512, Real.exp (xr c r j)
  rw [Finset.sum_mul]
  exact Finset.sum_congr rfl fun j _ => by rw [← Real.exp_add, sub_add_cancel]

/-! ## The devices a pair has merged -/

/-- The devices whose blocks device c's pair has merged after round 1, 2, 3, as multisets: the own group of 4 at
    stride 1; the four such groups of the 16 devices with c's top digit; those of both halves. -/
def L1 (c : Dev nD) : Multiset (Dev nD) := Multiset.cons c (Multiset.cons (peer c 2) (Multiset.cons (peer c 1) {peer c 0}))
def L2 (c : Dev nD) : Multiset (Dev nD) := L1 c + L1 (peer c 5) + L1 (peer c 4) + L1 (peer c 3)
def L3 (c : Dev nD) : Multiset (Dev nD) := L2 c + L2 (peer c 6)

/-- After the third round that is every device, once. -/
theorem L3_univ : ∀ c : Dev nD, L3 c = Finset.univ.val := by decide

theorem tot_Q1 (c : Dev nD) (r : Fin 1024) : tot (Q1 xr c r) = ((L1 c).map fun d => E xr d r).sum := by
  simp only [Q1, tot_mrg4R, tot_Q0, L1, Multiset.map_cons, Multiset.map_singleton, Multiset.sum_cons,
    Multiset.sum_singleton]
  ring

theorem tot_Q2 (c : Dev nD) (r : Fin 1024) : tot (Q2 xr c r) = ((L2 c).map fun d => E xr d r).sum := by
  simp only [Q2, tot_mrg4R, tot_Q1, L2, Multiset.map_add, Multiset.sum_add]

/-- The sum of the exponentials of the whole row r. -/
def Z (r : Fin 1024) : ℝ := ∑ d : Dev nD, E xr d r

theorem tot_Q3 (c : Dev nD) (r : Fin 1024) : tot (Q3 xr c r) = Z xr r := by
  rw [Q3, tot_mrg2R, tot_Q2, tot_Q2, ← Multiset.sum_add, ← Multiset.map_add]
  show ((L3 c).map fun d => E xr d r).sum = Z xr r
  rw [L3_univ]; rfl

theorem Z_pos (r : Fin 1024) : 0 < Z xr r :=
  Finset.sum_pos (fun d _ => Finset.sum_pos (fun j _ => Real.exp_pos _) ⟨(⟨0, by norm_num⟩ : Fin 512), Finset.mem_univ _⟩)
    ⟨(⟨0, by decide⟩ : Dev nD), Finset.mem_univ _⟩

/-! ## The kernel's result -/

theorem outSpec_real (c : Dev nD) (r : Fin 1024) (j : Fin 512) :
    outSpec (cx xr) c r j = ((Real.exp (xr c r j) / Z xr r : ℝ) : EReal) := by
  have hpos : 0 < tot (Q3 xr c r) := by rw [tot_Q3]; exact Z_pos xr r
  have h2 : (Q3 xr c r).2 ≠ 0 := by
    intro h; unfold tot at hpos; rw [h, zero_mul] at hpos; exact lt_irrefl _ hpos
  unfold outSpec
  rw [P3_R, mloc_coe]
  simp only [R, cx, ← EReal.coe_sub, Ideal.exp_coe]
  rw [div_coe_coe _ h2, ← EReal.coe_mul]
  congr 1
  rw [← tot_Q3 xr c r]; unfold tot
  rw [Real.exp_sub, Real.exp_sub]
  field_simp

/-! ## The reference's result -/

/-- Device c's column j is column c · 512 + j of the whole array: a bijection of the 32 · 512 block columns with the
    16384 columns. -/
def colEquiv : Dev nD × Fin 512 ≃ Fin 16384 where
  toFun p := col p.1 p.2
  invFun k := (⟨k.val / 512, by have := k.isLt; show _ < 32; omega⟩, ⟨k.val % 512, Nat.mod_lt _ (by norm_num)⟩)
  left_inv p := by
    have hj := p.2.isLt
    refine Prod.ext (Fin.ext ?_) (Fin.ext ?_)
    · show (p.1.val * 512 + p.2.val) / 512 = p.1.val; omega
    · show (p.1.val * 512 + p.2.val) % 512 = p.2.val; omega
  right_inv k := by
    refine Fin.ext ?_
    show k.val / 512 * 512 + k.val % 512 = k.val; omega

/-- Row r of the whole array, as reals. -/
def Xr (r : Fin 1024) (k : Fin 16384) : ℝ := xr (colEquiv.symm k).1 r (colEquiv.symm k).2

theorem X_real (X : Fin 1024 → Fin 16384 → EReal) (hX : ∀ c r j, X r (col c j) = cx xr c r j)
    (r : Fin 1024) (k : Fin 16384) : X r k = ((Xr xr r k : ℝ) : EReal) := by
  have h := hX (colEquiv.symm k).1 r (colEquiv.symm k).2
  rwa [show col (colEquiv.symm k).1 (colEquiv.symm k).2 = k from colEquiv.apply_symm_apply k] at h

theorem sum_cols (r : Fin 1024) : ∑ k : Fin 16384, Real.exp (Xr xr r k) = Z xr r :=
  calc ∑ k : Fin 16384, Real.exp (Xr xr r k)
      = ∑ p : Dev nD × Fin 512, Real.exp (xr p.1 r p.2) :=
        (Fintype.sum_equiv colEquiv _ _ (fun p => by unfold Xr; rw [colEquiv.symm_apply_apply])).symm
    _ = ∑ d : Dev nD, ∑ j : Fin 512, Real.exp (xr d r j) := Fintype.sum_prod_type' (fun d j => Real.exp (xr d r j))

/-- A softmax over finitely many reals, with the supremum subtracted and the sum started from 0 as the reference writes
    it, is the plain quotient of exponentials: the subtracted real cancels. -/
theorem softmax_shift {ι : Type*} [Fintype ι] [Nonempty ι] (f : ι → ℝ) (k : ι) :
    Ideal.div (Ideal.exp ((f k : EReal) - Finset.univ.sup fun k' : ι => (f k' : EReal)))
      (0 + ∑ k' : ι, Ideal.exp ((f k' : EReal) - Finset.univ.sup fun k'' : ι => (f k'' : EReal)))
      = ((Real.exp (f k) / ∑ k' : ι, Real.exp (f k') : ℝ) : EReal) := by
  obtain ⟨M, hM⟩ := sup_coe_real Finset.univ Finset.univ_nonempty f
  have hden : (∑ k' : ι, Real.exp (f k' - M)) ≠ 0 :=
    ne_of_gt (Finset.sum_pos (fun k' _ => Real.exp_pos _) Finset.univ_nonempty)
  have hZ : (∑ k' : ι, Real.exp (f k')) ≠ 0 :=
    ne_of_gt (Finset.sum_pos (fun k' _ => Real.exp_pos _) Finset.univ_nonempty)
  simp only [hM, ← EReal.coe_sub, Ideal.exp_coe, coe_sum, zero_add]
  rw [div_coe_coe _ hden]
  congr 1
  simp only [Real.exp_sub]
  rw [← Finset.sum_div]
  field_simp

theorem refSpec_real (X : Fin 1024 → Fin 16384 → EReal) (hX : ∀ c r j, X r (col c j) = cx xr c r j)
    (r : Fin 1024) (k : Fin 16384) : refSpec X r k = ((Real.exp (Xr xr r k) / Z xr r : ℝ) : EReal) := by
  have hXr : X r = fun k => ((Xr xr r k : ℝ) : EReal) := funext (X_real xr X hX r)
  haveI : Nonempty (Fin 16384) := ⟨⟨0, by norm_num⟩⟩
  unfold refSpec
  rw [hXr, ← sum_cols]
  exact softmax_shift (Xr xr r) k

/-! ## The theorem -/

theorem softmax_merge (x : Dev nD → Fin 1024 → Fin 512 → EReal) (hfin : ∀ c r j, x c r j ≠ ⊤ ∧ x c r j ≠ ⊥)
    (X : Fin 1024 → Fin 16384 → EReal) (hX : ∀ c r j, X r (col c j) = x c r j) :
    ∀ c r j, outSpec x c r j = refSpec X r (col c j) := by
  intro c r j
  obtain ⟨xr, rfl⟩ : ∃ xr : Dev nD → Fin 1024 → Fin 512 → ℝ, x = cx xr :=
    ⟨fun c r j => (x c r j).toReal, by
      funext c r j; exact (EReal.coe_toReal (hfin c r j).1 (hfin c r j).2).symm⟩
  rw [outSpec_real, refSpec_real xr X hX]
  unfold Xr
  rw [show colEquiv.symm (col c j) = (c, j) from colEquiv.symm_apply_apply (c, j)]

end Cert.SoftmaxSpec

end
-- ==== Proof.KValue.lean ====
import proofs.«901058_g7700000000001059_dist_softmax_colshard_i_m1024_n512_v7x_i32_f32_1_alg».proof.Proof.Proto
import proofs.«901058_g7700000000001059_dist_softmax_colshard_i_m1024_n512_v7x_i32_f32_1_alg».proof.Proof.Spec
import Idealize.ShloMosaic.Lib.ValueIdx
import Idealize.ShloMosaic.Lib.Pipeline.Value
import Idealize.ShloMosaic.Lib.ValueLayout
import Idealize.ShloMosaic.PureOps.Ideal.Laws

/-! The kernel's contents read at an index, at the ideal values (the extended reals).

Every buffer content Proto.lean names — the staged block, the accumulator after the local pass and after each of the
three merges, a receive slot after its transfer has landed, the result block — is read here entry by entry as the
mathematics of Spec.lean: row maxima and row sums of exponentials, their merges, and the rescaled exponentials. The
layout operations (slices of a row or a column, the transposes, the column forms of a reduced vector, the concatenation
of two columns) are read at explicit coordinates; the two lane reductions are the supremum and the sum over the row;
the stores of one row of the accumulator and the transfer into a receive slot are a write through a rectangle read
back at the rectangle's own coordinates. -/

noncomputable section

namespace Cert.KernelIdealPf

open Cert.KernelIdeal Cert.KernelIdeal.Gen
open Idealize.ShloMosaic
open Idealize.ShloMosaic.TcCoe
open Idealize.ShloMosaic.ValueIdx
open scoped BigOperators

/-! ## Layout operations of this kernel read at an index -/

section Layout
variable {α : Type}

/-- Row 0 of a 2 x 1024 vector, cut out as a 1 x 1024 vector. -/
theorem row0_apply (v : S2x1024.Idx → α) (u : Fin 1) (r : Fin 1024) :
    extractStridedSlice S1x1024 ![0, 0] v slices_S2x1024_o0_0_S1x1024 (ix2 u r) = v (ix2 (0 : Fin 2) r) :=
  slice2_axis0_apply 0 v slices_S2x1024_o0_0_S1x1024 u r 0 (by have := u.isLt; show 0 = 0 + u.val; omega)

/-- Row 1 of a 2 x 1024 vector, cut out as a 1 x 1024 vector. -/
theorem row1_apply (v : S2x1024.Idx → α) (u : Fin 1) (r : Fin 1024) :
    extractStridedSlice S1x1024 ![1, 0] v slices_S2x1024_o1_0_S1x1024 (ix2 u r) = v (ix2 (1 : Fin 2) r) :=
  slice2_axis0_apply 1 v slices_S2x1024_o1_0_S1x1024 u r 1 (by have := u.isLt; show 1 = 1 + u.val; omega)

/-- A received 1 x 2 x 1024 vector viewed 2 x 1024. -/
theorem unslot_apply (b : S1x2x1024.Idx → α) (i : Fin 2) (r : Fin 1024) :
    shapeCast S2x1024 b shapeCasts_S1x2x1024_S2x1024 (ix2 i r) = b (ix3 (0 : Fin 1) i r) :=
  shapeCast_1ab_ab_apply b shapeCasts_S1x2x1024_S2x1024 i r

/-- A vector of 1024 entries as a 1024 x 1 column. -/
theorem col_apply (v : S1024.Idx → α) (r : Fin 1024) (u : Fin 1) :
    shapeCast S1024x1 v shapeCasts_S1024_S1024x1 (ix2 r u) = v (ix1 r) :=
  shapeCast_apply v shapeCasts_S1024_S1024x1 _ _ (by
    have hu : u.val = 0 := by omega
    rw [Shape.rowMajor_val_two, Shape.rowMajor_val_one]
    show r.val = r.val * 1 + u.val
    rw [hu]; omega)

/-- A 1024 x 1 column broadcast along the 512 lanes. -/
theorem bcol_apply (v : S1024x1.Idx → α) (r : Fin 1024) (j : Fin 512) :
    broadcastTo S1024x512 v broadcasts_S1024x1_S1024x512 (ix2 r j) = v (ix2 r (0 : Fin 1)) := by
  refine broadcastTo_apply v broadcasts_S1024x1_S1024x512 (ix2 r j) (ix2 r (0 : Fin 1)) fun ax => ?_
  match ax with
  | ⟨0, _⟩ => rfl
  | ⟨1, _⟩ => rfl

/-- Column 0 of a 1024 x 2 vector. -/
theorem colL_apply (v : S1024x2.Idx → α) (r : Fin 1024) (u : Fin 1) :
    extractStridedSlice S1024x1 ![0, 0] v slices_S1024x2_o0_0_S1024x1 (ix2 r u) = v (ix2 r (0 : Fin 2)) :=
  slice2_axis1_apply 0 v slices_S1024x2_o0_0_S1024x1 r u 0 (by have := u.isLt; show 0 = 0 + u.val; omega)

/-- Column 1 of a 1024 x 2 vector. -/
theorem colR_apply (v : S1024x2.Idx → α) (r : Fin 1024) (u : Fin 1) :
    extractStridedSlice S1024x1 ![0, 1] v slices_S1024x2_o0_1_S1024x1 (ix2 r u) = v (ix2 r (1 : Fin 2)) :=
  slice2_axis1_apply 1 v slices_S1024x2_o0_1_S1024x1 r u 1 (by have := u.isLt; show 1 = 1 + u.val; omega)

/-- Two columns side by side: column 0 of the result is the first, -/
theorem cat_left (x₁ x₂ : S1024x1.Idx → α) (r : Fin 1024) :
    concatenate S1024x2 1 [⟨S1024x1, x₁⟩, ⟨S1024x1, x₂⟩] concatenates_S1024x1_S1024x1_S1024x2_d1 (ix2 r (0 : Fin 2))
      = x₁ (ix2 r (0 : Fin 1)) :=
  concatenate_pair_apply_left 1 x₁ x₂ concatenates_S1024x1_S1024x1_S1024x2_d1 (ix2 r (0 : Fin 2)) rfl (ix2 r (0 : Fin 1))
    (fun b => by match b with | ⟨0, _⟩ => rfl | ⟨1, _⟩ => rfl)

/-- column 1 the second. -/
theorem cat_right (x₁ x₂ : S1024x1.Idx → α) (r : Fin 1024) :
    concatenate S1024x2 1 [⟨S1024x1, x₁⟩, ⟨S1024x1, x₂⟩] concatenates_S1024x1_S1024x1_S1024x2_d1 (ix2 r (1 : Fin 2))
      = x₂ (ix2 r (0 : Fin 1)) :=
  concatenate_pair_apply_right 1 x₁ x₂ concatenates_S1024x1_S1024x1_S1024x2_d1 (ix2 r (1 : Fin 2)) rfl rfl (ix2 r (0 : Fin 1))
    (fun b hb => by
      match b, hb with
      | ⟨0, _⟩, _ => rfl
      | ⟨1, _⟩, hb => exact absurd (Fin.ext rfl) hb)
    rfl

end Layout

/-! ## The two lane reductions at the ideal instance -/

/-- The source index of a lane reduction: row `r`, lane `k`. -/
theorem lift_row (r : Fin 1024) (k : Fin 512) :
    reduces_S1024x512_S1024.lift (ix1 r) k = ix2 r k :=
  funext fun c => by
    match c with
    | ⟨0, _⟩ => exact Fin.ext rfl
    | ⟨1, _⟩ => exact Fin.ext rfl

/-- A fold of `max` from `⊥` over a finite set is the supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word of `-inf` is `⊥`. -/
theorem ofBits_neg_inf : Ideal.ofBits .f32 0xFF800000#32 = ⊥ := by simp [Ideal.ofBits, Ideal.ieee]

/-- The lane maximum of row `r`: the supremum of the row's entries. -/
theorem rowmax_apply (v : FVec Ideal S1024x512 .f32) (r : Fin 1024) :
    multiReduction .maximumf [1] S1024 v 0xFF800000#32 reduces_S1024x512_S1024 (.inl rfl) rfl (ix1 r)
      = Finset.univ.sup fun j : Fin 512 => (v (ix2 r j) : EReal) := by
  refine (Ideal.multiReduction_maximumf_single v 0xFF800000#32 reduces_S1024x512_S1024 (.inl rfl) rfl (ix1 r)).trans ?_
  show Finset.fold max (Ideal.ofBits .f32 0xFF800000#32) (fun k : Fin 512 => v (reduces_S1024x512_S1024.lift (ix1 r) k)) Finset.univ = _
  rw [ofBits_neg_inf, fold_max_bot_eq_sup]
  exact congrArg (Finset.sup Finset.univ) (funext fun k => congrArg v (lift_row r k))

/-- The lane sum of row `r`. -/
theorem rowsum_apply (v : FVec Ideal S1024x512 .f32) (r : Fin 1024) :
    multiReduction .add [1] S1024 v 0x00000000#32 reduces_S1024x512_S1024 (.inl rfl) rfl (ix1 r)
      = ∑ j : Fin 512, (v (ix2 r j) : EReal) := by
  refine (Ideal.multiReduction_add_single v 0x00000000#32 reduces_S1024x512_S1024 (.inl rfl) rfl (ix1 r)).trans ?_
  exact Finset.sum_congr rfl fun k _ => congrArg v (lift_row r k)

/-! ## The local pass: row maxima and row sums of exponentials

`v` is a device's 1024 x 512 block. -/

section LocalPass
variable (v : Vec Ideal S1024x512 .f32)

/-- The maximum of row `r` of the block. -/
def rmax (r : Fin 1024) : EReal := Finset.univ.sup fun j : Fin 512 => (v (ix2 r j) : EReal)
/-- The sum over row `r` of the exponentials relative to the row's maximum. -/
def rsum (r : Fin 1024) : EReal := ∑ j : Fin 512, Ideal.exp ((v (ix2 r j) : EReal) - rmax v r)

theorem pay2_eq : k0_pay2 v = v := shapeCast_self v shapeCasts_S1024x512_S1024x512

/-- The column of row maxima. -/
theorem pay3_apply (r : Fin 1024) (u : Fin 1) : k0_pay3 v (ix2 r u) = rmax v r := by
  unfold k0_pay3
  refine (col_apply _ r u).trans ?_
  rw [pay2_eq]
  exact rowmax_apply v r

/-- The exponentials relative to the row's maximum. -/
theorem pay4_apply (r : Fin 1024) (j : Fin 512) :
    k0_pay4 v (ix2 r j) = Ideal.exp ((v (ix2 r j) : EReal) - rmax v r) := by
  show Ideal.exp (k0_pay2 v (ix2 r j) - broadcastTo S1024x512 (k0_pay3 v) broadcasts_S1024x1_S1024x512 (ix2 r j)) = _
  rw [bcol_apply, pay3_apply, pay2_eq]

/-- The accumulator after the local pass: row 0 holds the row maxima, -/
theorem pay5_row0 (r : Fin 1024) : k0_pay5 v (ix2 (0 : Fin 2) r) = rmax v r := by
  unfold k0_pay5
  refine (congrFun (shapeCast_self _ shapeCasts_S2x1024_S2x1024) _).trans ?_
  refine (transpose_ix2_apply _ transposes_S1024x2_p1_0_S2x1024 (0 : Fin 2) r).trans ?_
  refine (cat_left _ _ r).trans ?_
  exact pay3_apply v r 0

/-- row 1 the row sums. -/
theorem pay5_row1 (r : Fin 1024) : k0_pay5 v (ix2 (1 : Fin 2) r) = rsum v r := by
  unfold k0_pay5
  refine (congrFun (shapeCast_self _ shapeCasts_S2x1024_S2x1024) _).trans ?_
  refine (transpose_ix2_apply _ transposes_S1024x2_p1_0_S2x1024 (1 : Fin 2) r).trans ?_
  refine (cat_right _ _ r).trans ?_
  refine (col_apply _ r 0).trans ?_
  refine (rowsum_apply _ r).trans ?_
  exact Finset.sum_congr rfl fun j _ => pay4_apply v r j

end LocalPass

/-! ## The merges, pointwise

`a` is an accumulator (row 0 the maxima, row 1 the sums), `b…` received accumulators as loaded from their slots. -/

section Merges

/-- The pair (maximum, sum) an accumulator holds for row `r`, -/
def pairA (a : Vec Ideal S2x1024 .f32) (r : Fin 1024) : EReal × EReal := (a (ix2 (0 : Fin 2) r), a (ix2 (1 : Fin 2) r))
/-- and a loaded slot. -/
def pairB (b : Vec Ideal S1x2x1024 .f32) (r : Fin 1024) : EReal × EReal :=
  (b (ix3 (0 : Fin 1) (0 : Fin 2) r), b (ix3 (0 : Fin 1) (1 : Fin 2) r))

variable {α : Type}

/-- Row 0, row 1 of a loaded slot. -/
theorem slotrow0 (b : S1x2x1024.Idx → α) (u : Fin 1) (r : Fin 1024) :
    extractStridedSlice S1x1024 ![0, 0] (shapeCast S2x1024 b shapeCasts_S1x2x1024_S2x1024) slices_S2x1024_o0_0_S1x1024 (ix2 u r)
      = b (ix3 (0 : Fin 1) (0 : Fin 2) r) :=
  (row0_apply _ u r).trans (unslot_apply b 0 r)
theorem slotrow1 (b : S1x2x1024.Idx → α) (u : Fin 1) (r : Fin 1024) :
    extractStridedSlice S1x1024 ![1, 0] (shapeCast S2x1024 b shapeCasts_S1x2x1024_S2x1024) slices_S2x1024_o1_0_S1x1024 (ix2 u r)
      = b (ix3 (0 : Fin 1) (1 : Fin 2) r) :=
  (row1_apply _ u r).trans (unslot_apply b 1 r)

variable (a : Vec Ideal S2x1024 .f32) (b0 b1 b2 : Vec Ideal S1x2x1024 .f32) (u : Fin 1) (r : Fin 1024)

/-- Round 1: the maximum of the four maxima, -/
theorem pay15_apply :
    k0_pay15 a b0 b1 b2 (ix2 u r) = (Cert.SoftmaxSpec.mrg4 (pairA a r) (pairB b0 r) (pairB b1 r) (pairB b2 r)).1 := by
  show max (max (max (k0_pay6 a (ix2 u r)) (k0_pay8 b0 (ix2 u r))) (k0_pay10 b1 (ix2 u r))) (k0_pay13 b2 (ix2 u r)) = _
  rw [show k0_pay6 a (ix2 u r) = a (ix2 (0 : Fin 2) r) from row0_apply a u r,
    show k0_pay8 b0 (ix2 u r) = b0 (ix3 (0 : Fin 1) (0 : Fin 2) r) from slotrow0 b0 u r,
    show k0_pay10 b1 (ix2 u r) = b1 (ix3 (0 : Fin 1) (0 : Fin 2) r) from slotrow0 b1 u r,
    show k0_pay13 b2 (ix2 u r) = b2 (ix3 (0 : Fin 1) (0 : Fin 2) r) from slotrow0 b2 u r]
  rfl

/-- and the four sums rescaled to it. -/
theorem pay19_apply :
    k0_pay19 (k0_pay11 b1) (k0_pay13 b2) (k0_pay14 b2) (k0_pay15 a b0 b1 b2) (k0_pay16 a b0 b1 b2) (k0_pay17 a b0 b1 b2) (ix2 u r)
      = (Cert.SoftmaxSpec.mrg4 (pairA a r) (pairB b0 r) (pairB b1 r) (pairB b2 r)).2 := by
  unfold k0_pay19
  refine (congrFun (shapeCast_self _ shapeCasts_S1x1024_S1x1024) _).trans ?_
  show (k0_pay16 a b0 b1 b2 (ix2 u r) + k0_pay11 b1 (ix2 u r) * k0_pay17 a b0 b1 b2 (ix2 u r))
      + k0_pay14 b2 (ix2 u r) * Ideal.exp (k0_pay13 b2 (ix2 u r) - k0_pay15 a b0 b1 b2 (ix2 u r)) = _
  have h16 : k0_pay16 a b0 b1 b2 (ix2 u r)
      = a (ix2 (1 : Fin 2) r) * Ideal.exp (a (ix2 (0 : Fin 2) r) - k0_pay15 a b0 b1 b2 (ix2 u r))
        + b0 (ix3 (0 : Fin 1) (1 : Fin 2) r) * Ideal.exp (b0 (ix3 (0 : Fin 1) (0 : Fin 2) r) - k0_pay15 a b0 b1 b2 (ix2 u r)) := by
    show extractStridedSlice S1x1024 ![1, 0] a slices_S2x1024_o1_0_S1x1024 (ix2 u r)
          * Ideal.exp (k0_pay6 a (ix2 u r) - k0_pay15 a b0 b1 b2 (ix2 u r))
        + extractStridedSlice S1x1024 ![1, 0] (k0_pay7 b0) slices_S2x1024_o1_0_S1x1024 (ix2 u r)
          * Ideal.exp (k0_pay8 b0 (ix2 u r) - k0_pay15 a b0 b1 b2 (ix2 u r)) = _
    rw [row1_apply a u r, show k0_pay6 a (ix2 u r) = a (ix2 (0 : Fin 2) r) from row0_apply a u r,
      show extractStridedSlice S1x1024 ![1, 0] (k0_pay7 b0) slices_S2x1024_o1_0_S1x1024 (ix2 u r)
        = b0 (ix3 (0 : Fin 1) (1 : Fin 2) r) from slotrow1 b0 u r,
      show k0_pay8 b0 (ix2 u r) = b0 (ix3 (0 : Fin 1) (0 : Fin 2) r) from slotrow0 b0 u r]
  have h17 : k0_pay17 a b0 b1 b2 (ix2 u r)
      = Ideal.exp (b1 (ix3 (0 : Fin 1) (0 : Fin 2) r) - k0_pay15 a b0 b1 b2 (ix2 u r)) := by
    show Ideal.exp (k0_pay10 b1 (ix2 u r) - k0_pay15 a b0 b1 b2 (ix2 u r)) = _
    rw [show k0_pay10 b1 (ix2 u r) = b1 (ix3 (0 : Fin 1) (0 : Fin 2) r) from slotrow0 b1 u r]
  rw [h16, h17, show k0_pay11 b1 (ix2 u r) = b1 (ix3 (0 : Fin 1) (1 : Fin 2) r) from slotrow1 b1 u r,
    show k0_pay14 b2 (ix2 u r) = b2 (ix3 (0 : Fin 1) (1 : Fin 2) r) from slotrow1 b2 u r,
    show k0_pay13 b2 (ix2 u r) = b2 (ix3 (0 : Fin 1) (0 : Fin 2) r) from slotrow0 b2 u r,
    pay15_apply a b0 b1 b2 u r]
  rfl

/-- Round 2: the same merge, the operands named differently in the program. -/
theorem pay29_apply :
    k0_pay29 (k0_pay20 a) (k0_pay23 b0) b1 b2 (ix2 u r)
      = (Cert.SoftmaxSpec.mrg4 (pairA a r) (pairB b0 r) (pairB b1 r) (pairB b2 r)).1 := by
  show max (max (max (k0_pay20 a (ix2 u r)) (k0_pay23 b0 (ix2 u r))) (k0_pay26 b1 (ix2 u r))) (k0_pay28 b2 (ix2 u r)) = _
  rw [show k0_pay20 a (ix2 u r) = a (ix2 (0 : Fin 2) r) from row0_apply a u r,
    show k0_pay23 b0 (ix2 u r) = b0 (ix3 (0 : Fin 1) (0 : Fin 2) r) from slotrow0 b0 u r,
    show k0_pay26 b1 (ix2 u r) = b1 (ix3 (0 : Fin 1) (0 : Fin 2) r) from slotrow0 b1 u r,
    show k0_pay28 b2 (ix2 u r) = b2 (ix3 (0 : Fin 1) (0 : Fin 2) r) from slotrow0 b2 u r]
  rfl

theorem pay30_apply :
    k0_pay30 (k0_pay20 a) (k0_pay23 b0) b1 b2 (ix2 u r)
      = (Cert.SoftmaxSpec.mrg4 (pairA a r) (pairB b0 r) (pairB b1 r) (pairB b2 r)).1 := by
  unfold k0_pay30
  refine (congrFun (shapeCast_self _ shapeCasts_S1x1024_S1x1024) _).trans ?_
  exact pay29_apply a b0 b1 b2 u r

theorem pay31_apply :
    k0_pay31 (k0_pay20 a) (k0_pay21 a) (k0_pay23 b0) (k0_pay24 b0) b1 b2 (ix2 u r)
      = (Cert.SoftmaxSpec.mrg4 (pairA a r) (pairB b0 r) (pairB b1 r) (pairB b2 r)).2 := by
  unfold k0_pay31
  refine (congrFun (shapeCast_self _ shapeCasts_S1x1024_S1x1024) _).trans ?_
  show ((k0_pay21 a (ix2 u r) * Ideal.exp (k0_pay20 a (ix2 u r) - k0_pay29 (k0_pay20 a) (k0_pay23 b0) b1 b2 (ix2 u r))
        + k0_pay24 b0 (ix2 u r) * Ideal.exp (k0_pay23 b0 (ix2 u r) - k0_pay29 (k0_pay20 a) (k0_pay23 b0) b1 b2 (ix2 u r)))
        + extractStridedSlice S1x1024 ![1, 0] (k0_pay25 b1) slices_S2x1024_o1_0_S1x1024 (ix2 u r)
          * Ideal.exp (k0_pay26 b1 (ix2 u r) - k0_pay29 (k0_pay20 a) (k0_pay23 b0) b1 b2 (ix2 u r)))
      + extractStridedSlice S1x1024 ![1, 0] (k0_pay27 b2) slices_S2x1024_o1_0_S1x1024 (ix2 u r)
          * Ideal.exp (k0_pay28 b2 (ix2 u r) - k0_pay29 (k0_pay20 a) (k0_pay23 b0) b1 b2 (ix2 u r)) = _
  rw [show k0_pay21 a (ix2 u r) = a (ix2 (1 : Fin 2) r) from row1_apply a u r,
    show k0_pay20 a (ix2 u r) = a (ix2 (0 : Fin 2) r) from row0_apply a u r,
    show k0_pay24 b0 (ix2 u r) = b0 (ix3 (0 : Fin 1) (1 : Fin 2) r) from slotrow1 b0 u r,
    show k0_pay23 b0 (ix2 u r) = b0 (ix3 (0 : Fin 1) (0 : Fin 2) r) from slotrow0 b0 u r,
    show extractStridedSlice S1x1024 ![1, 0] (k0_pay25 b1) slices_S2x1024_o1_0_S1x1024 (ix2 u r)
      = b1 (ix3 (0 : Fin 1) (1 : Fin 2) r) from slotrow1 b1 u r,
    show k0_pay26 b1 (ix2 u r) = b1 (ix3 (0 : Fin 1) (0 : Fin 2) r) from slotrow0 b1 u r,
    show extractStridedSlice S1x1024 ![1, 0] (k0_pay27 b2) slices_S2x1024_o1_0_S1x1024 (ix2 u r)
      = b2 (ix3 (0 : Fin 1) (1 : Fin 2) r) from slotrow1 b2 u r,
    show k0_pay28 b2 (ix2 u r) = b2 (ix3 (0 : Fin 1) (0 : Fin 2) r) from slotrow0 b2 u r,
    pay29_apply a b0 b1 b2 u r]
  rfl

/-- Round 3: the merge with one received pair. -/
theorem pay35_apply : k0_pay35 a b0 (ix2 u r) = (Cert.SoftmaxSpec.mrg2 (pairA a r) (pairB b0 r)).1 := by
  show max (k0_pay32 a (ix2 u r)) (k0_pay34 b0 (ix2 u r)) = _
  rw [show k0_pay32 a (ix2 u r) = a (ix2 (0 : Fin 2) r) from row0_apply a u r,
    show k0_pay34 b0 (ix2 u r) = b0 (ix3 (0 : Fin 1) (0 : Fin 2) r) from slotrow0 b0 u r]
  rfl

theorem pay36_apply : k0_pay36 a b0 (ix2 u r) = (Cert.SoftmaxSpec.mrg2 (pairA a r) (pairB b0 r)).1 := by
  unfold k0_pay36
  refine (congrFun (shapeCast_self _ shapeCasts_S1x1024_S1x1024) _).trans ?_
  exact pay35_apply a b0 u r

theorem pay37_apply : k0_pay37 a b0 (ix2 u r) = (Cert.SoftmaxSpec.mrg2 (pairA a r) (pairB b0 r)).2 := by
  unfold k0_pay37
  refine (congrFun (shapeCast_self _ shapeCasts_S1x1024_S1x1024) _).trans ?_
  show extractStridedSlice S1x1024 ![1, 0] a slices_S2x1024_o1_0_S1x1024 (ix2 u r)
        * Ideal.exp (k0_pay32 a (ix2 u r) - k0_pay35 a b0 (ix2 u r))
      + extractStridedSlice S1x1024 ![1, 0] (k0_pay33 b0) slices_S2x1024_o1_0_S1x1024 (ix2 u r)
        * Ideal.exp (k0_pay34 b0 (ix2 u r) - k0_pay35 a b0 (ix2 u r)) = _
  rw [row1_apply a u r, show k0_pay32 a (ix2 u r) = a (ix2 (0 : Fin 2) r) from row0_apply a u r,
    show extractStridedSlice S1x1024 ![1, 0] (k0_pay33 b0) slices_S2x1024_o1_0_S1x1024 (ix2 u r)
      = b0 (ix3 (0 : Fin 1) (1 : Fin 2) r) from slotrow1 b0 u r,
    show k0_pay34 b0 (ix2 u r) = b0 (ix3 (0 : Fin 1) (0 : Fin 2) r) from slotrow0 b0 u r,
    pay35_apply a b0 u r]
  rfl

end Merges

/-! ## The final rescaling -/

/-- The result at (row r, column j): the block's exponential there times the quotient that rescales the row to the
    merged pair `a` (row 0 the maximum, row 1 the sum) — `m` is the column of the block's own row maxima, `e` the block's
    exponentials relative to them. -/
theorem pay1_apply (mcol : FVec Ideal S1024x1 .f32) (a : Vec Ideal S2x1024 .f32) (e : Vec Ideal S1024x512 .f32)
    (r : Fin 1024) (j : Fin 512) :
    k0_pay1 mcol a e (ix2 r j)
      = (e (ix2 r j) : EReal)
        * Ideal.div (Ideal.exp ((mcol (ix2 r (0 : Fin 1)) : EReal) - a (ix2 (0 : Fin 2) r))) (a (ix2 (1 : Fin 2) r)) := by
  unfold k0_pay1
  show shapeCast S1024x512 e shapeCasts_S1024x512_S1024x512 (ix2 r j)
      * broadcastTo S1024x512 (divf (exp (subf mcol
          (extractStridedSlice S1024x1 ![0, 0] (transpose S1024x2 [1, 0] a transposes_S2x1024_p1_0_S1024x2) slices_S1024x2_o0_0_S1024x1)))
          (extractStridedSlice S1024x1 ![0, 1] (transpose S1024x2 [1, 0] a transposes_S2x1024_p1_0_S1024x2) slices_S1024x2_o0_1_S1024x1))
        broadcasts_S1024x1_S1024x512 (ix2 r j) = _
  rw [shapeCast_self, bcol_apply]
  show _ * Ideal.div (Ideal.exp (mcol (ix2 r (0 : Fin 1))
        - extractStridedSlice S1024x1 ![0, 0] (transpose S1024x2 [1, 0] a transposes_S2x1024_p1_0_S1024x2) slices_S1024x2_o0_0_S1024x1 (ix2 r (0 : Fin 1))))
      (extractStridedSlice S1024x1 ![0, 1] (transpose S1024x2 [1, 0] a transposes_S2x1024_p1_0_S1024x2) slices_S1024x2_o0_1_S1024x1 (ix2 r (0 : Fin 1))) = _
  rw [colL_apply, colR_apply, transpose_ix2_apply, transpose_ix2_apply]

/-! ## The buffers' contents at an index -/

section Contents
variable (m : (ℓ : Loc nD τ sig) → Buf (Elt Ideal) ℓ) (ρ : Dev nD → PrngReg)

/-- Entry (row r, column j) of device `c`'s block of the input. -/
def xE (c : Dev nD) (r : Fin 1024) (j : Fin 512) : EReal := m ((c.tc : Thread nD τ).loc main_arg0) (ix2 r j)

/-- The window of the input is the whole array (one grid point): the staged block is the device's block. -/
theorem xstg_eq (c : Dev nD) : xstg (F := Ideal) m ρ c = m ((c.tc : Thread nD τ).loc main_arg0) := by
  unfold xstg
  exact Memref.read_access_unit_zero (Elt Ideal) main_arg0 (funext fun a => Nat.zero_mul _) _ _

/-! ### A store of one row of the accumulator -/

/-- Entry (0, r) of the rectangle of row 0 is entry (0, r) of the accumulator, -/
theorem rRow0_emb (r : Fin 1024) : rRow0.emb (ix2 (0 : Fin 1) r) = ix2 (0 : Fin 2) r :=
  funext fun a => Fin.ext (by
    match a with
    | ⟨0, _⟩ => rfl
    | ⟨1, _⟩ => show 0 + 1 * r.val = r.val; omega)
/-- of the rectangle of row 1 entry (1, r). -/
theorem rRow1_emb (r : Fin 1024) : rRow1.emb (ix2 (0 : Fin 1) r) = ix2 (1 : Fin 2) r :=
  funext fun a => Fin.ext (by
    match a with
    | ⟨0, _⟩ => rfl
    | ⟨1, _⟩ => show 0 + 1 * r.val = r.val; omega)

section Row
variable (f : (cc0_scratch0 : Ref sig .tc).ty.Contents (Elt Ideal)) (w : FVec Ideal S1x1024 .f32) (r : Fin 1024)

/-- The store of row 0 writes row 0 -/
theorem stRow0_row0 : stRow0 f w (ix2 (0 : Fin 2) r) = w (ix2 (0 : Fin 1) r) := by
  rw [← rRow0_emb r]
  exact View.read_slice_write_emb (v := (aM : Memref sig .tc .vmem S2x1024 .f32).view) rRow0 f w (Finset.mem_univ _)

/-- and keeps row 1; -/
theorem stRow0_row1 : stRow0 f w (ix2 (1 : Fin 2) r) = f (ix2 (1 : Fin 2) r) := by
  refine View.read_slice_write_of_not_mem (v := (aM : Memref sig .tc .vmem S2x1024 .f32).view) (y := ix2 (1 : Fin 2) r) rRow0 f w Finset.univ ?_
  intro hmem
  rw [Rect.map_emb_univ] at hmem
  have h := (Rect.mem_set_unit.mp hmem 0).2
  have h1 : (1 : ℕ) < 0 + 1 := h
  omega

/-- the store of row 1 writes row 1 -/
theorem stRow1_row1 : stRow1 f w (ix2 (1 : Fin 2) r) = w (ix2 (0 : Fin 1) r) := by
  rw [← rRow1_emb r]
  exact View.read_slice_write_emb (v := (aM : Memref sig .tc .vmem S2x1024 .f32).view) rRow1 f w (Finset.mem_univ _)

/-- and keeps row 0. -/
theorem stRow1_row0 : stRow1 f w (ix2 (0 : Fin 2) r) = f (ix2 (0 : Fin 2) r) := by
  refine View.read_slice_write_of_not_mem (v := (aM : Memref sig .tc .vmem S2x1024 .f32).view) (y := ix2 (0 : Fin 2) r) rRow1 f w Finset.univ ?_
  intro hmem
  rw [Rect.map_emb_univ] at hmem
  have h := (Rect.mem_set_unit.mp hmem 0).1
  have h1 : (1 : ℕ) ≤ 0 := h
  omega

end Row

/-! ### A receive slot after its transfer has landed -/

/-- Entry (i, r) of the 2 x 1024 memref of slot `k` is entry (0, i, r) of the slot's rectangle of the receive buffer. -/
theorem rS_emb (k : Fin 7) (i : Fin 2) (r : Fin 1024) :
    (rS k : Memref sig .tc .vmem S2x1024 .f32).view.emb (ix2 i r) = (rSlot k).emb (ix3 (0 : Fin 1) i r) :=
  congrArg (rSlot k).emb (reshapeEquiv_ix2_1ab _ i r)

/-- A load of slot `k` after the accumulator `a` has landed in it reads `a`: entry (0, i, r) is `a` at (i, r). -/
theorem ldS_landIn (c : Dev nD) (k : Fin 7) (a : (cc0_scratch0 : Ref sig .tc).ty.Contents (Elt Ideal)) (i : Fin 2) (r : Fin 1024) :
    ldS k (landIn m ρ c k a) (ix3 (0 : Fin 1) i r) = a (ix2 i r) := by
  have hw := View.write_emb_of_mem (v := (rS k : Memref sig .tc .vmem S2x1024 .f32).view) (Val := Elt Ideal)
    ((s₀ m ρ).mem ((c : Thread nD τ).loc cc0_scratch1))
    ((aM : Memref sig .tc .vmem S2x1024 .f32).view.read (Elt Ideal) a) (M := Finset.univ) (x := ix2 i r) (Finset.mem_univ _)
  exact (congrArg (landIn m ρ c k a) (rS_emb k i r).symm).trans hw

/-- So the pair a loaded slot holds for row `r` is the landed accumulator's. -/
theorem pairB_ldS (c : Dev nD) (k : Fin 7) (a : (cc0_scratch0 : Ref sig .tc).ty.Contents (Elt Ideal)) (r : Fin 1024) :
    pairB (ldS k (landIn m ρ c k a)) r = pairA a r :=
  Prod.ext (ldS_landIn m ρ c k a 0 r) (ldS_landIn m ρ c k a 1 r)

/-! ### The three merges -/

section Merge
variable (a : (cc0_scratch0 : Ref sig .tc).ty.Contents (Elt Ideal)) (b0 b1 b2 : Vec Ideal S1x2x1024 .f32) (r : Fin 1024)

/-- The merge of round 1 leaves, for row `r`, the merge of the own pair with the three received ones. -/
theorem merge1_pair :
    pairA (merge1 a b0 b1 b2) r = Cert.SoftmaxSpec.mrg4 (pairA a r) (pairB b0 r) (pairB b1 r) (pairB b2 r) := by
  refine Prod.ext ?_ ?_
  · show merge1 a b0 b1 b2 (ix2 (0 : Fin 2) r) = _
    unfold merge1
    rw [stRow1_row0, stRow0_row0]
    unfold k0_pay18
    refine (congrFun (shapeCast_self _ shapeCasts_S1x1024_S1x1024) _).trans ?_
    exact pay15_apply a b0 b1 b2 0 r
  · show merge1 a b0 b1 b2 (ix2 (1 : Fin 2) r) = _
    unfold merge1
    rw [stRow1_row1]
    exact pay19_apply a b0 b1 b2 0 r

/-- The merge of round 2 likewise. -/
theorem merge2_pair :
    pairA (merge2 a b0 b1 b2) r = Cert.SoftmaxSpec.mrg4 (pairA a r) (pairB b0 r) (pairB b1 r) (pairB b2 r) := by
  refine Prod.ext ?_ ?_
  · show merge2 a b0 b1 b2 (ix2 (0 : Fin 2) r) = _
    unfold merge2
    rw [stRow1_row0, stRow0_row0]
    exact pay30_apply a b0 b1 b2 0 r
  · show merge2 a b0 b1 b2 (ix2 (1 : Fin 2) r) = _
    unfold merge2
    rw [stRow1_row1]
    exact pay31_apply a b0 b1 b2 0 r

/-- The merge of round 3 leaves the merge of the own pair with the one received. -/
theorem merge3_pair : pairA (merge3 a b0) r = Cert.SoftmaxSpec.mrg2 (pairA a r) (pairB b0 r) := by
  refine Prod.ext ?_ ?_
  · show merge3 a b0 (ix2 (0 : Fin 2) r) = _
    unfold merge3
    rw [stRow1_row0, stRow0_row0]
    exact pay36_apply a b0 0 r
  · show merge3 a b0 (ix2 (1 : Fin 2) r) = _
    unfold merge3
    rw [stRow1_row1]
    exact pay37_apply a b0 0 r

/-- The same entry by entry: row 0 of the merged accumulator holds the merged maximum, row 1 the merged sum. -/
theorem merge1_row0 : merge1 a b0 b1 b2 (ix2 (0 : Fin 2) r)
    = (Cert.SoftmaxSpec.mrg4 (pairA a r) (pairB b0 r) (pairB b1 r) (pairB b2 r)).1 := congrArg Prod.fst (merge1_pair a b0 b1 b2 r)
theorem merge1_row1 : merge1 a b0 b1 b2 (ix2 (1 : Fin 2) r)
    = (Cert.SoftmaxSpec.mrg4 (pairA a r) (pairB b0 r) (pairB b1 r) (pairB b2 r)).2 := congrArg Prod.snd (merge1_pair a b0 b1 b2 r)
theorem merge2_row0 : merge2 a b0 b1 b2 (ix2 (0 : Fin 2) r)
    = (Cert.SoftmaxSpec.mrg4 (pairA a r) (pairB b0 r) (pairB b1 r) (pairB b2 r)).1 := congrArg Prod.fst (merge2_pair a b0 b1 b2 r)
theorem merge2_row1 : merge2 a b0 b1 b2 (ix2 (1 : Fin 2) r)
    = (Cert.SoftmaxSpec.mrg4 (pairA a r) (pairB b0 r) (pairB b1 r) (pairB b2 r)).2 := congrArg Prod.snd (merge2_pair a b0 b1 b2 r)
theorem merge3_row0 : merge3 a b0 (ix2 (0 : Fin 2) r)
    = (Cert.SoftmaxSpec.mrg2 (pairA a r) (pairB b0 r)).1 := congrArg Prod.fst (merge3_pair a b0 r)
theorem merge3_row1 : merge3 a b0 (ix2 (1 : Fin 2) r)
    = (Cert.SoftmaxSpec.mrg2 (pairA a r) (pairB b0 r)).2 := congrArg Prod.snd (merge3_pair a b0 r)

end Merge

/-! ### The accumulator after the local pass and after each round

The pair received in slot `s` is the sender's, `peer c (inv s)`: slots 0, 1, 2 bring the pairs of `peer c 2`, `peer c 1`,
`peer c 0`; slots 3, 4, 5 those of `peer c 5`, `peer c 4`, `peer c 3`; slot 6 that of `peer c 6`. -/

open Cert.SoftmaxSpec

theorem A0_pair (c : Dev nD) (r : Fin 1024) : pairA (A0 m ρ c) r = P0 (xE m) c r := by
  unfold A0
  rw [xstg_eq]
  exact Prod.ext (pay5_row0 _ r) (pay5_row1 _ r)

theorem A1_pair (c : Dev nD) (r : Fin 1024) : pairA (A1 m ρ c) r = P1 (xE m) c r := by
  unfold A1
  rw [merge1_pair, pairB_ldS, pairB_ldS, pairB_ldS, A0_pair, A0_pair, A0_pair, A0_pair]
  rfl

theorem A2_pair (c : Dev nD) (r : Fin 1024) : pairA (A2 m ρ c) r = P2 (xE m) c r := by
  unfold A2
  rw [merge2_pair, pairB_ldS, pairB_ldS, pairB_ldS, A1_pair, A1_pair, A1_pair, A1_pair]
  rfl

theorem A3_pair (c : Dev nD) (r : Fin 1024) : pairA (A3 m ρ c) r = P3 (xE m) c r := by
  unfold A3
  rw [merge3_pair, pairB_ldS, A2_pair, A2_pair]
  rfl

/-! ### Entry by entry -/

theorem A0_row0 (c : Dev nD) (r : Fin 1024) : A0 m ρ c (ix2 (0 : Fin 2) r) = mloc (xE m) c r := congrArg Prod.fst (A0_pair m ρ c r)
theorem A0_row1 (c : Dev nD) (r : Fin 1024) : A0 m ρ c (ix2 (1 : Fin 2) r) = sloc (xE m) c r := congrArg Prod.snd (A0_pair m ρ c r)
theorem A1_row0 (c : Dev nD) (r : Fin 1024) : A1 m ρ c (ix2 (0 : Fin 2) r) = (P1 (xE m) c r).1 := congrArg Prod.fst (A1_pair m ρ c r)
theorem A1_row1 (c : Dev nD) (r : Fin 1024) : A1 m ρ c (ix2 (1 : Fin 2) r) = (P1 (xE m) c r).2 := congrArg Prod.snd (A1_pair m ρ c r)
theorem A2_row0 (c : Dev nD) (r : Fin 1024) : A2 m ρ c (ix2 (0 : Fin 2) r) = (P2 (xE m) c r).1 := congrArg Prod.fst (A2_pair m ρ c r)
theorem A2_row1 (c : Dev nD) (r : Fin 1024) : A2 m ρ c (ix2 (1 : Fin 2) r) = (P2 (xE m) c r).2 := congrArg Prod.snd (A2_pair m ρ c r)
theorem A3_row0 (c : Dev nD) (r : Fin 1024) : A3 m ρ c (ix2 (0 : Fin 2) r) = (P3 (xE m) c r).1 := congrArg Prod.fst (A3_pair m ρ c r)
theorem A3_row1 (c : Dev nD) (r : Fin 1024) : A3 m ρ c (ix2 (1 : Fin 2) r) = (P3 (xE m) c r).2 := congrArg Prod.snd (A3_pair m ρ c r)

/-- The kernel's result on device `c` at (row r, column j). -/
theorem outAt_apply (c : Dev nD) (r : Fin 1024) (j : Fin 512) :
    outAt (F := Ideal) m ρ c (ix2 r j) = outSpec (xE m) c r j := by
  unfold outAt
  rw [pay1_apply, pay3_apply, pay4_apply, xstg_eq, A3_row0, A3_row1]
  rfl

end Contents

end Cert.KernelIdealPf

end
-- ==== Proof.RefValue.lean ====
import proofs.«901058_g7700000000001059_dist_softmax_colshard_i_m1024_n512_v7x_i32_f32_1_alg».proof.Proof.Gen.ReferenceIdeal.Run
import proofs.«901058_g7700000000001059_dist_softmax_colshard_i_m1024_n512_v7x_i32_f32_1_alg».proof.Proof.Gen.ReferenceIdeal.Read
import proofs.«901058_g7700000000001059_dist_softmax_colshard_i_m1024_n512_v7x_i32_f32_1_alg».proof.Proof.Gen.Pre_finite_inputs_Kernel
import proofs.«901058_g7700000000001059_dist_softmax_colshard_i_m1024_n512_v7x_i32_f32_1_alg».proof.Proof.Gen.Pre_finite_inputs_ReferenceIdeal
import proofs.«901058_g7700000000001059_dist_softmax_colshard_i_m1024_n512_v7x_i32_f32_1_alg».proof.Proof.Spec
import proofs.«901058_g7700000000001059_dist_softmax_colshard_i_m1024_n512_v7x_i32_f32_1_alg».proof.Defs
import Idealize.ShloMosaic.Lib.ReduceAll
import Idealize.ShloMosaic.Lib.ValueIdx
import Idealize.ShloMosaic.Lib.Layout
import Idealize.ShloMosaic.PureOps.Ideal.Laws

/-! The reference's side of the value claim, and the glue between the claim's terms and the mathematics.

The reference computes, on one device over the whole 1024 x 16384 array, the softmax of every row: the row's maximum
(a fold of `max` from −∞, which is the row's supremum), the exponentials relative to it, their sum from zero, and the
quotient. Read at (row r, column k) this is `SoftmaxSpec.refSpec`. The precondition says that every entry of every
device's block has absolute value below +∞, so every entry is a real. Device `c`'s block of an array cut along the
columns holds, at (r, j), the array's entry at (r, c · 512 + j). -/

noncomputable section

namespace Cert.KernelIdealPf

open Cert.KernelIdeal Cert.KernelIdeal.Gen
open Idealize.ShloMosaic
open Idealize.ShloMosaic.TcCoe
open Idealize.SL.Sem

/-! ## Extended reals: the two infinities' patterns, a comparison read back, a fold of `max` -/

/-- The f32 pattern of +∞ -/
theorem ofBits_inf_f32 : Ideal.ofBits .f32 0x7F800000#32 = ⊤ := by simp [Ideal.ofBits, Ideal.ieee]
/-- and of −∞. -/
theorem ofBits_neg_inf_f32 : Ideal.ofBits .f32 0xFF800000#32 = ⊥ := by simp [Ideal.ofBits, Ideal.ieee]

/-- An ordered less-than that answers 1 holds. -/
theorem lt_of_cmp_olt {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- An extended real whose absolute value is below +∞ is a real. -/
theorem finite_of_abs_lt_top {a : EReal} (h : max a (-a) < ⊤) : a ≠ ⊤ ∧ a ≠ ⊥ := by
  induction a using EReal.rec with
  | bot => exact absurd h (by simp)
  | top => exact absurd h (by simp)
  | coe x => exact ⟨EReal.coe_ne_top x, EReal.coe_ne_bot x⟩

/-- The fold of `max` from −∞ over a finite set is the supremum over it. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-! ## The reference, read at an index -/

/-- The whole argument array. -/
abbrev RefArr : Type := (⟨Cert.ReferenceIdeal.S1024x16384, .f32⟩ : BufTy).Contents (Elt Ideal)

/-- Its entries by row and column, as extended reals. -/
abbrev rx (X : RefArr) : Fin 1024 → Fin 16384 → EReal := fun r k => X (ValueIdx.ix2 r k)

/-- The reference's row maximum is the row's supremum: the host's reduce over the columns is the fold of `max` over
    them from the initial value, the pattern of −∞. -/
theorem ref_v0 (X : RefArr) (r : Fin 1024) :
    Cert.ReferenceIdeal.Read.val_main_v0 (F := Ideal) X (ValueIdx.ix1 r) = Finset.univ.sup (rx X r) := by
  have hR : Cert.ReferenceIdeal.S1024x16384.Reduces [1] Cert.ReferenceIdeal.S1024 := by decide
  refine Eq.trans (Host.reduce_eq_fold_single (FloatOps.maximumf (F := Ideal) (φ := .f32)) X _
    Cert.ReferenceIdeal.Gen.reducesTo_S1024x16384_S1024_d1 hR Cert.ReferenceIdeal.Gen.h_S_ (ValueIdx.ix1 r)) ?_
  have hf : (X ∘ hR.lift (ValueIdx.ix1 r)) = rx X r :=
    funext fun k' => congrArg X (funext fun a => Fin.ext (by match a with | ⟨0, _⟩ => rfl | ⟨1, _⟩ => rfl))
  show (Finset.univ : Finset (Fin 16384)).fold (max : EReal → EReal → EReal) (Ideal.ofBits .f32 0xFF800000#32)
    (X ∘ hR.lift (ValueIdx.ix1 r)) = _
  rw [ofBits_neg_inf_f32, hf]
  exact fold_max_bot_eq_sup _ _

/-- Broadcast back over the columns, -/
theorem ref_v2 (X : RefArr) (r : Fin 1024) (k : Fin 16384) :
    Cert.ReferenceIdeal.Read.val_main_v2 (F := Ideal) X (ValueIdx.ix2 r k) = Finset.univ.sup (rx X r) := by
  rw [Cert.ReferenceIdeal.Read.val_main_v2_apply, Cert.ReferenceIdeal.Read.val_main_v1_apply]
  exact (congrArg (Cert.ReferenceIdeal.Read.val_main_v0 (F := Ideal) X)
    (funext fun a => Fin.ext (by match a with | ⟨0, _⟩ => rfl))).trans (ref_v0 X r)

/-- the exponential relative to it, -/
theorem ref_v4 (X : RefArr) (r : Fin 1024) (k : Fin 16384) :
    Cert.ReferenceIdeal.Read.val_main_v4 (F := Ideal) X (ValueIdx.ix2 r k)
      = Ideal.exp (rx X r k - Finset.univ.sup (rx X r)) := by
  have h2 := ref_v2 X r k
  show Ideal.exp (rx X r k - Cert.ReferenceIdeal.Read.val_main_v2 (F := Ideal) X (ValueIdx.ix2 r k)) = _
  rw [h2]

/-- the row's sum of those from zero, broadcast back over the columns, -/
theorem ref_v7 (X : RefArr) (r : Fin 1024) (k : Fin 16384) :
    Cert.ReferenceIdeal.Read.val_main_v7 (F := Ideal) X (ValueIdx.ix2 r k)
      = 0 + ∑ k' : Fin 16384, Ideal.exp (rx X r k' - Finset.univ.sup (rx X r)) := by
  rw [Cert.ReferenceIdeal.Read.val_main_v7_apply, Cert.ReferenceIdeal.Read.val_main_v6_apply,
    Cert.ReferenceIdeal.Read.val_main_v5_apply]
  have h0 : Cert.ReferenceIdeal.Read.val_main_cst_0 (F := Ideal) (Shape.Idx.first Cert.ReferenceIdeal.Gen.h_S_) = (0 : EReal) :=
    Ideal.ofBits_zero_f32
  rw [h0]
  refine congrArg (fun s : EReal => 0 + s) (Finset.sum_congr rfl fun k' _ => ?_)
  exact (congrArg (Cert.ReferenceIdeal.Read.val_main_v4 (F := Ideal) X)
    (funext fun a => Fin.ext (by match a with | ⟨0, _⟩ => rfl | ⟨1, _⟩ => rfl))).trans (ref_v4 X r k')

/-- and the quotient: the reference's result at (row r, column k) is the row's softmax there. -/
theorem val_main_v8_apply' (X : (⟨Cert.ReferenceIdeal.S1024x16384, .f32⟩ : BufTy).Contents (Elt Ideal)) (r : Fin 1024)
    (k : Fin 16384) :
    Cert.ReferenceIdeal.Read.val_main_v8 (F := Ideal) X (ValueIdx.ix2 r k)
      = Cert.SoftmaxSpec.refSpec (fun r k => X (ValueIdx.ix2 r k)) r k := by
  rw [Cert.ReferenceIdeal.Read.val_main_v8_apply, ref_v4 X r k, ref_v7 X r k, Ideal.hostDivf_def]
  rfl

/-! ## The precondition: every entry of every block is a real -/

instance : Subsingleton Cert.Pre_finite_inputs_Kernel.S_.Idx := ⟨fun a b => funext fun d => d.elim0⟩

/-- The precondition's function answers 1 only on a block all of whose entries are reals: its conjunction over the block,
    read at an index, says the entry's absolute value is below the pattern of +∞. -/
theorem finite_of_fn (x : FVec Ideal Cert.Pre_finite_inputs_Kernel.S1024x512 .f32)
    (h : Cert.Pre_finite_inputs_Kernel.fn (F := Ideal) x = fun _ => 1#1) (i : Cert.Pre_finite_inputs_Kernel.S1024x512.Idx) :
    x i ≠ ⊤ ∧ x i ≠ ⊥ := by
  have h0 := congrFun h ValueIdx.ix0
  dsimp only [Cert.Pre_finite_inputs_Kernel.fn] at h0
  have h1 := Host.reduce_andi_all _ _ _ _ _ h0 i
  have h2 : Ideal.cmp .olt (max (x i) (-(x i))) (Ideal.ofBits .f32 0x7F800000#32) = 1#1 := h1
  rw [ofBits_inf_f32] at h2
  exact finite_of_abs_lt_top (lt_of_cmp_olt h2)

/-- Every entry of every device's block of the argument is neither infinity. -/
theorem finite_of_pre (m : (ℓ : Loc nD τ sig) → Buf (Elt Ideal) ℓ) (h : Cert.Pre_KernelIdeal m) (c : Dev nD)
    (i : Cert.Pre_finite_inputs_Kernel.S1024x512.Idx) :
    @Ne EReal (m ((c.tc : Thread nD τ).loc main_arg0) i) ⊤ ∧ @Ne EReal (m ((c.tc : Thread nD τ).loc main_arg0) i) ⊥ :=
  finite_of_fn (m ((c.tc : Thread nD τ).loc main_arg0)) (h c) i

/-- Entry (row r, column j) of device `c`'s block of the argument at launch, as an extended real. -/
def argAt (m : (ℓ : Loc nD τ sig) → Buf (Elt Ideal) ℓ) (c : Dev nD) (r : Fin 1024) (j : Fin 512) : EReal :=
  m ((c.tc : Thread nD τ).loc main_arg0) (ValueIdx.ix2 r j)

theorem argAt_finite (m : (ℓ : Loc nD τ sig) → Buf (Elt Ideal) ℓ) (h : Cert.Pre_KernelIdeal m) (c : Dev nD)
    (r : Fin 1024) (j : Fin 512) : argAt m c r j ≠ ⊤ ∧ argAt m c r j ≠ ⊥ :=
  finite_of_pre m h c (ValueIdx.ix2 r j)

/-! ## A block of an array cut along the columns -/

/-- Entry (r, j) of block `c` of an array of 1024 x 16384 cut along its columns into 32 blocks is the array's entry at
    (r, c · 512 + j). -/
theorem block_apply_ix2 {α : Type} (c : Dev nD) (v : (⟨2, ![1024, 16384]⟩ : Shape).Idx → α) (r : Fin 1024) (j : Fin 512) :
    (Layout.block ⟨2, ![1024, 512]⟩ ⟨2, ![1024, 16384]⟩ 1 32 c v) (ValueIdx.ix2 r j)
      = v (ValueIdx.ix2 r (Cert.SoftmaxSpec.col c j)) := by
  show v (Layout.Tiles.idx _ c (ValueIdx.ix2 r j)) = _
  refine congrArg v (funext fun b => Fin.ext ?_)
  match b with
  | ⟨0, _⟩ => rfl
  | ⟨1, _⟩ => rfl

/-! ## The reference's run -/

/-- The reference's frame conjunct: its run, the argument's part of the post. -/
theorem ref_frame : Cert.frame_ReferenceIdeal :=
  fun m ρ _ => (θ_run Cert.ReferenceIdeal.defs _ _).mono (fun _ h c => (h c).2)
    (Cert.ReferenceIdeal.Value.run (F := Ideal) m ρ)

/-- The reference's result, as a function of its argument at launch. -/
def refOut (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v8) :=
  Cert.ReferenceIdeal.Read.val_main_v8 (F := Ideal)
    (m' (((0 : Dev Cert.ReferenceIdeal.nD).tc : Thread Cert.ReferenceIdeal.nD Cert.ReferenceIdeal.τ).loc Cert.ReferenceIdeal.main_arg0))

/-- The reference's run with its result named: the second half of the value claim at `v0 := refOut m'`. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v8) = refOut m'
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v8_eq _), (h 0).2⟩)
    (Cert.ReferenceIdeal.Value.run (F := Ideal) m' ρ')

/-- Device `c`'s block of the reference's result, at (r, j), when the devices' blocks of the argument are the blocks of
    the reference's argument: the softmax of row `r` of the whole array at column `c · 512 + j`. -/
theorem refOut_block (m' : (ℓ : Loc Cert.ReferenceIdeal.nD Cert.ReferenceIdeal.τ Cert.ReferenceIdeal.sig) → Buf (Elt Ideal) ℓ)
    (c : Dev nD) (r : Fin 1024) (j : Fin 512) :
    (Layout.block ⟨2, ![1024, 512]⟩ ⟨2, ![1024, 16384]⟩ 1 32 c (refOut m')) (ValueIdx.ix2 r j)
      = Cert.SoftmaxSpec.refSpec (rx (m' (((0 : Dev Cert.ReferenceIdeal.nD).tc : Thread Cert.ReferenceIdeal.nD Cert.ReferenceIdeal.τ).loc Cert.ReferenceIdeal.main_arg0)))
          r (Cert.SoftmaxSpec.col c j) :=
  (block_apply_ix2 c (refOut m') r j).trans (val_main_v8_apply' _ r (Cert.SoftmaxSpec.col c j))

/-- The whole array's entry at (r, c · 512 + j) is device `c`'s entry at (r, j), under the claim's hypothesis on the
    blocks. -/
theorem rx_col (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.block ⟨2, ![1024, 512]⟩ ⟨2, ![1024, 16384]⟩ 1 32 c
          (m' (((0 : Dev Cert.ReferenceIdeal.nD).tc : Thread Cert.ReferenceIdeal.nD Cert.ReferenceIdeal.τ).loc Cert.ReferenceIdeal.main_arg0)))
    (c : Dev nD) (r : Fin 1024) (j : Fin 512) :
    rx (m' (((0 : Dev Cert.ReferenceIdeal.nD).tc : Thread Cert.ReferenceIdeal.nD Cert.ReferenceIdeal.τ).loc Cert.ReferenceIdeal.main_arg0))
        r (Cert.SoftmaxSpec.col c j) = argAt m c r j := by
  unfold argAt
  rw [hagree c]
  exact (block_apply_ix2 c _ r j).symm

end Cert.KernelIdealPf

end
-- ==== Proof.ValueGlue.lean ====
import proofs.«901058_g7700000000001059_dist_softmax_colshard_i_m1024_n512_v7x_i32_f32_1_alg».proof.Proof.Math
import proofs.«901058_g7700000000001059_dist_softmax_colshard_i_m1024_n512_v7x_i32_f32_1_alg».proof.Proof.KValue
import proofs.«901058_g7700000000001059_dist_softmax_colshard_i_m1024_n512_v7x_i32_f32_1_alg».proof.Proof.RefValue
import proofs.«901058_g7700000000001059_dist_softmax_colshard_i_m1024_n512_v7x_i32_f32_1_alg».proof.Defs

/-! The bridge from the two value computations to the claim's statement, at the ideal instance.

Device `c`'s result buffer and block `c` of the reference's result are compared entry by entry. At (row r, column j)
the kernel's result is `SoftmaxSpec.outSpec` of the devices' blocks of the argument; block `c` of the reference's
result is the reference's result at (r, c · 512 + j), which is `SoftmaxSpec.refSpec` of the whole argument array there.
The precondition makes every entry a real, and the hypothesis that each device's block of the argument is block `c` of
the whole array says the whole array's entry at (r, c · 512 + j) is device `c`'s entry at (r, j): the two are then
equal by the mathematics of the merges. -/

noncomputable section

namespace Cert.KernelIdealPf

open Cert.KernelIdeal Cert.KernelIdeal.Gen
open Idealize.ShloMosaic
open Idealize.ShloMosaic.TcCoe
open Idealize.SL.Sem

theorem value_eq (m : (ℓ : Loc Cert.KernelIdeal.nD Cert.KernelIdeal.τ Cert.KernelIdeal.sig) → Buf (Elt Ideal) ℓ)
    (ρ : Dev Cert.KernelIdeal.nD → PrngReg)
    (X : (⟨Cert.ReferenceIdeal.S1024x16384, .f32⟩ : BufTy).Contents (Elt Ideal))
    (hpre : Cert.Pre_KernelIdeal m)
    (hagree : ∀ c : Dev Cert.KernelIdeal.nD, m ((c.tc : Thread _ _).loc Cert.KernelIdeal.main_arg0)
      = Layout.block ⟨2, ![1024, 512]⟩ ⟨2, ![1024, 16384]⟩ 1 32 c X) :
    ∀ c, Cert.KernelIdealPf.outAt (F := Ideal) m ρ c
      = Layout.block ⟨2, ![1024, 512]⟩ ⟨2, ![1024, 16384]⟩ 1 32 c (Cert.ReferenceIdeal.Read.val_main_v8 (F := Ideal) X) := by
  intro c
  refine funext fun (i : (⟨2, ![1024, 512]⟩ : Shape).Idx) => ?_
  obtain ⟨r, j, rfl⟩ : ∃ (r : Fin 1024) (j : Fin 512), i = ValueIdx.ix2 r j := ⟨i 0, i 1, ValueIdx.eq_ix2 i⟩
  -- the whole array's entry at (r, c · 512 + j) is device c's entry at (r, j)
  have hX : ∀ (c : Dev nD) (r : Fin 1024) (j : Fin 512),
      @Eq EReal (X (ValueIdx.ix2 r (Cert.SoftmaxSpec.col c j))) (m ((c.tc : Thread nD τ).loc main_arg0) (ValueIdx.ix2 r j)) := by
    intro c r j
    rw [hagree c]
    exact (block_apply_ix2 c X r j).symm
  -- the kernel's result there, the mathematics, and the reference's result read at the block's entry
  refine (outAt_apply m ρ c r j).trans ?_
  refine (Cert.SoftmaxSpec.softmax_merge (fun c r j => m ((c.tc : Thread nD τ).loc main_arg0) (ValueIdx.ix2 r j))
    (fun c r j => finite_of_pre m hpre c (ValueIdx.ix2 r j)) (fun r k => X (ValueIdx.ix2 r k)) hX c r j).trans ?_
  exact ((block_apply_ix2 c _ r j).trans (val_main_v8_apply' X r (Cert.SoftmaxSpec.col c j))).symm

end Cert.KernelIdealPf

end
-- ==== Proof.lean ====
/- The certificate of the distributed softmax on 32 devices: every device computes, per row of its 1024 x 512 block, the
   pair (maximum, sum of exponentials relative to it); three rounds of exchanges with 3, 3 and 1 partners merge the pairs
   into the pair of the whole row of 16384 columns; the block's exponentials rescaled to it are the row's softmax.

   * the three frames: the kernel's run (at the word-level instance and at the ideal one, the same text) and the
     reference's;
   * nothing was idealized: `preserves` is trivial;
   * `algebraic`: the kernel's result on device `c` is block `c` of the reference's result. -/
import proofs.«901058_g7700000000001059_dist_softmax_colshard_i_m1024_n512_v7x_i32_f32_1_alg».proof.Defs
import proofs.«901058_g7700000000001059_dist_softmax_colshard_i_m1024_n512_v7x_i32_f32_1_alg».proof.Proof.Gen.Kernel
import proofs.«901058_g7700000000001059_dist_softmax_colshard_i_m1024_n512_v7x_i32_f32_1_alg».proof.Proof.Gen.Kernel.Skeleton
import proofs.«901058_g7700000000001059_dist_softmax_colshard_i_m1024_n512_v7x_i32_f32_1_alg».proof.Proof.Gen.Kernel.Launch
import proofs.«901058_g7700000000001059_dist_softmax_colshard_i_m1024_n512_v7x_i32_f32_1_alg».proof.Proof.Gen.Kernel.Points
import proofs.«901058_g7700000000001059_dist_softmax_colshard_i_m1024_n512_v7x_i32_f32_1_alg».proof.Proof.Gen.Kernel.Frame
import proofs.«901058_g7700000000001059_dist_softmax_colshard_i_m1024_n512_v7x_i32_f32_1_alg».proof.Proof.Gen.KernelIdeal
import proofs.«901058_g7700000000001059_dist_softmax_colshard_i_m1024_n512_v7x_i32_f32_1_alg».proof.Proof.Gen.KernelIdeal.Skeleton
import proofs.«901058_g7700000000001059_dist_softmax_colshard_i_m1024_n512_v7x_i32_f32_1_alg».proof.Proof.Gen.KernelIdeal.Launch
import proofs.«901058_g7700000000001059_dist_softmax_colshard_i_m1024_n512_v7x_i32_f32_1_alg».proof.Proof.Gen.KernelIdeal.Points
import proofs.«901058_g7700000000001059_dist_softmax_colshard_i_m1024_n512_v7x_i32_f32_1_alg».proof.Proof.Gen.KernelIdeal.Frame
import proofs.«901058_g7700000000001059_dist_softmax_colshard_i_m1024_n512_v7x_i32_f32_1_alg».proof.Proof.Gen.ReferenceIdeal
import proofs.«901058_g7700000000001059_dist_softmax_colshard_i_m1024_n512_v7x_i32_f32_1_alg».proof.Proof.Gen.Pre_finite_inputs_Kernel
import proofs.«901058_g7700000000001059_dist_softmax_colshard_i_m1024_n512_v7x_i32_f32_1_alg».proof.Proof.Gen.Pre_finite_inputs_ReferenceIdeal
import proofs.«901058_g7700000000001059_dist_softmax_colshard_i_m1024_n512_v7x_i32_f32_1_alg».proof.Proof.Final
import proofs.«901058_g7700000000001059_dist_softmax_colshard_i_m1024_n512_v7x_i32_f32_1_alg».proof.Proof.Bits.Final
import proofs.«901058_g7700000000001059_dist_softmax_colshard_i_m1024_n512_v7x_i32_f32_1_alg».proof.Proof.ValueGlue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel's frame: its run with the values dropped
  fun m ρ _ => (θ_run (Cert.Kernel.defs (F := Bits)) _ _).mono (fun _ h c => (h c).2) (Cert.KernelPf.kernel_run (F := Bits) m ρ),
  -- the idealized kernel's frame
  fun m ρ _ => (θ_run (Cert.KernelIdeal.defs (F := Ideal)) _ _).mono (fun _ h c => (h c).2) (Cert.KernelIdealPf.kernel_run (F := Ideal) m ρ),
  -- the reference's frame
  Cert.KernelIdealPf.ref_frame,
  trivial,
  -- the values: the reference's result is `refOut m'`, and device `c` ends holding its block `c`
  fun m ρ m' ρ' hpre hagree => ⟨Cert.KernelIdealPf.refOut m',
    (θ_run (Cert.KernelIdeal.defs (F := Ideal)) _ _).mono
      (fun _ h c => ⟨(h c).1.trans (Cert.KernelIdealPf.value_eq m ρ _ hpre hagree c), (h c).2⟩)
      (Cert.KernelIdealPf.kernel_run (F := Ideal) m ρ),
    Cert.KernelIdealPf.ref_run m' ρ'⟩⟩

end Cert.Proof

end
